-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x768 : Shape := ⟨3, ![2, 2048, 768]⟩
abbrev S50257x768 : Shape := ⟨2, ![50257, 768]⟩
abbrev S2x2048 : Shape := ⟨2, ![2, 2048]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S50257x768 : S_.BroadcastsInDim S50257x768 (![] : Fin 0 → Fin S50257x768.rank)
  reducesTo_S50257x768_S_d0_1 : S50257x768.ReducesTo [0, 1] S_
  bcast_S_S2x2048 : S_.BroadcastsInDim S2x2048 (![] : Fin 0 → Fin S2x2048.rank)
  reducesTo_S2x2048_S_d0_1 : S2x2048.ReducesTo [0, 1] S_

variable [Facts]

def fn_part1 {F : FTy → Type} [FloatOps F] (main_arg3 : IVec S2x2048 32) (main_v13 : IVec S_ 1) (main_v15 : IVec S2x2048 1) (main_c_5 : IVec S_ 1) : IVec S_ 1 :=
  let main_v16 : IVec S_ 1 := (fun x v => Host.reduce IntOp.andi x v reducesTo_S2x2048_S_d0_1 h_S_) main_v15 main_c_5
  let main_v17 : IVec S_ 1 := andi main_v13 main_v16
  let main_c_6 : IVec S_ 32 := constantI S_ 32 50257#32
  let main_v18 : IVec S2x2048 32 := broadcastInDim S2x2048 ![] bcast_S_S2x2048 main_c_6
  let main_v19 : IVec S2x2048 1 := cmpi .slt main_arg3 main_v18
  let main_c_7 : IVec S_ 1 := constantI S_ 1 1#1
  let main_v20 : IVec S_ 1 := (fun x v => Host.reduce IntOp.andi x v reducesTo_S2x2048_S_d0_1 h_S_) main_v19 main_c_7
  let main_v21 : IVec S_ 1 := andi main_v17 main_v20
  main_v21

def fn {F : FTy → Type} [FloatOps F] (main_arg0 : FVec F S2x2048x768 .f32) (main_arg1 : FVec F S2x2048x768 .f32) (main_arg2 : FVec F S50257x768 .f32) (main_arg3 : IVec S2x2048 32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S2x2048x768 .f32 := Host.absf main_arg1
  let main_cst_0 : FVec F S_ .f32 := constant S_ .f32 0x7F800000#32
  let main_v5 : FVec F S2x2048x768 .f32 := broadcastInDim S2x2048x768 ![] bcast_S_S2x2048x768 main_cst_0
  let main_v6 : IVec S2x2048x768 1 := cmpf .olt main_v4 main_v5
  let main_c_1 : IVec S_ 1 := constantI S_ 1 1#1
  let main_v7 : IVec S_ 1 := (fun x v => Host.reduce IntOp.andi x v reducesTo_S2x2048x768_S_d0_1_2 h_S_) main_v6 main_c_1
  let main_v8 : IVec S_ 1 := andi main_v3 main_v7
  let main_v9 : FVec F S50257x768 .f32 := Host.absf main_arg2
  let main_cst_2 : FVec F S_ .f32 := constant S_ .f32 0x7F800000#32
  let main_v10 : FVec F S50257x768 .f32 := broadcastInDim S50257x768 ![] bcast_S_S50257x768 main_cst_2
  let main_v11 : IVec S50257x768 1 := cmpf .olt main_v9 main_v10
  let main_c_3 : IVec S_ 1 := constantI S_ 1 1#1
  let main_v12 : IVec S_ 1 := (fun x v => Host.reduce IntOp.andi x v reducesTo_S50257x768_S_d0_1 h_S_) main_v11 main_c_3
  let main_v13 : IVec S_ 1 := andi main_v8 main_v12
  let main_c_4 : IVec S_ 32 := constantI S_ 32 4294967295#32
  let main_v14 : IVec S2x2048 32 := broadcastInDim S2x2048 ![] bcast_S_S2x2048 main_c_4
  let main_v15 : IVec S2x2048 1 := cmpi .sge main_arg3 main_v14
  let main_c_5 : IVec S_ 1 := constantI S_ 1 1#1
  fn_part1 (F := F) main_arg3 main_v13 main_v15 main_c_5
-- ==== Kernel.lean ====
abbrev S2x2048x768 : Shape := ⟨3, ![2, 2048, 768]⟩
abbrev S50257x768 : Shape := ⟨2, ![50257, 768]⟩
abbrev S2x2048 : Shape := ⟨2, ![2, 2048]⟩
abbrev S4096x768 : Shape := ⟨2, ![4096, 768]⟩
abbrev S4096 : Shape := ⟨1, ![4096]⟩
abbrev S4096x1 : Shape := ⟨2, ![4096, 1]⟩
abbrev S2048x768 : Shape := ⟨2, ![2048, 768]⟩
abbrev S512x768 : Shape := ⟨2, ![512, 768]⟩
abbrev S2048x1 : Shape := ⟨2, ![2048, 1]⟩
abbrev S2048 : Shape := ⟨1, ![2048]⟩
abbrev S2048x512 : Shape := ⟨2, ![2048, 512]⟩
abbrev S768x512 : Shape := ⟨2, ![768, 512]⟩
abbrev S_ : Shape := ⟨0, ![]⟩

abbrev nBuf : Space → Nat
  | .hbm => 45
  | .vmem => 20
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S50257x768, .f32⟩
  | .hbm, ⟨3, _⟩ => ⟨S2x2048, .i32⟩
  | .hbm, ⟨4, _⟩ => ⟨S4096x768, .f32⟩
  | .hbm, ⟨5, _⟩ => ⟨S4096x768, .f32⟩
  | .hbm, ⟨6, _⟩ => ⟨S4096, .i32⟩
  | .hbm, ⟨7, _⟩ => ⟨S4096x1, .i32⟩
  | .hbm, ⟨8, _⟩ => ⟨S4096x1, .f32⟩
  | .hbm, ⟨9, _⟩ => ⟨S4096x1, .f32⟩
  | .hbm, ⟨10, _⟩ => ⟨S4096x1, .f32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S2048x768, .f32⟩
  | .local _ .vmem, ⟨1, _⟩ => ⟨S2048x768, .f32⟩
  | .local _ .vmem, ⟨2, _⟩ => ⟨S2048x768, .f32⟩
  | .local _ .vmem, ⟨3, _⟩ => ⟨S2048x768, .f32⟩
  | .local _ .vmem, ⟨4, _⟩ => ⟨S512x768, .f32⟩
  | .local _ .vmem, ⟨5, _⟩ => ⟨S512x768, .f32⟩
  | .local _ .vmem, ⟨6, _⟩ => ⟨S2048x1, .i32⟩
  | .local _ .vmem, ⟨7, _⟩ => ⟨S2048x1, .i32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | .local _ .vmem, ⟨14, _⟩ => ⟨S2048x1, .f32⟩
  | .local _ .vmem, ⟨15, _⟩ => ⟨S2048x1, .f32⟩
  | .local _ .vmem, ⟨16, _⟩ => ⟨S2048x1, .f32⟩
  | .local _ .vmem, ⟨17, _⟩ => ⟨S2048x1, .f32⟩
  | .local _ .vmem, ⟨18, _⟩ => ⟨S2048x1, .f32⟩
  | .local _ .vmem, ⟨19, _⟩ => ⟨S2048x1, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_cst_6 : Ref sig .tc := ⟨.hbm, 38, rfl⟩
abbrev main_v20 : Ref sig .tc := ⟨.hbm, 39, rfl⟩
abbrev main_cst_7 : Ref sig .tc := ⟨.hbm, 40, rfl⟩
abbrev main_v21 : Ref sig .tc := ⟨.hbm, 41, rfl⟩
abbrev main_cst_8 : Ref sig .tc := ⟨.hbm, 42, rfl⟩
abbrev main_v22 : Ref sig .tc := ⟨.hbm, 43, rfl⟩
abbrev main_v23 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 99], ![false, false]⟩

def k0_cond2 (i : grid0.Coords) : BitVec 1 :=
  let arg1 : BitVec 32 := BitVec.ofNat 32 (i 1).val
  let c98_i32 : BitVec 32 := 98#32
  let v89 : BitVec 1 := Scalar.cmpi .eq arg1 c98_i32
  let v90 : BitVec 32 := Scalar.extui v89
  let c0_i32_47 : BitVec 32 := 0#32
  let v91 : BitVec 1 := Scalar.cmpi .ne v90 c0_i32_47
  v91

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S2x2048x768_S4096x768 : S2x2048x768.ShapeCasts S4096x768
  shapeCasts_S2x2048_S4096 : S2x2048.ShapeCasts S4096
  shapeCasts_S4096_S4096x1 : S4096.ShapeCasts S4096x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  reduces_S2048x768_S2048 : S2048x768.Reduces [1] S2048
  shapeCasts_S2048_S2048x1 : S2048.ShapeCasts S2048x1
  inb_S512x768_S512x768_0_0 : ∀ a, (![0, 0] : Fin 2 → Nat) a + S512x768.size a ≤ S512x768.size a
  h_S512x768 : 0 < S512x768.numel
  bitsLt_bf16_f32 : FTy.bits .bf16 < FTy.bits .f32
  iota_S2048x512_d1_w32 : S2048x512.Iotas .tc 32 [1]
  broadcasts_S2048x1_S2048x512 : S2048x1.Broadcasts S2048x512
  transposes_S512x768_p1_0_S768x512 : S512x768.Transposes [1, 0] S768x512
  reduces_S2048x512_S2048 : S2048x512.Reduces [1] S2048
  bcast_S_S4096 : S_.BroadcastsInDim S4096 (![] : Fin 0 → Fin S4096.rank)
  reducesTo_S4096_S_d0 : S4096.ReducesTo [0] S_
  h_S_ : 0 < S_.numel
  shapeCasts_S4096x1_S4096 : S4096x1.ShapeCasts S4096
  reducesTo_S4096x1_S_d0_1 : S4096x1.ReducesTo [0, 1] S_
  dot_S2048x768_S768x512_S2048x512_1_0_0_1_n_n_wf : DotDims.WF S2048x768 S768x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S4096x768.size a
  hwx0_0 : ∀ i : grid0.Coords, EltTy.bits .f32 = 32 ∨ (Rect.block (s := S4096x768) S2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S4096x768.size a
  hwx0_1 : ∀ i : grid0.Coords, EltTy.bits .f32 = 32 ∨ (Rect.block (s := S4096x768) S2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x768.size a < S50257x768.size a
  hwx0_2 : ∀ i : grid0.Coords, EltTy.bits .f32 = 32 ∨ (Rect.unit (s := S50257x768) (fun a => cc0_transform_2 i a * S512x768.size a) (fun a => (Pipeline.Clip.of (cc0_transform_2 i a) (S512x768.size a) (S50257x768.size a)).extent (S512x768.size a)) fun a => Pipeline.Clip.inb (Pipeline.Clip.ok_of (hstart0_2 i a))).WholeWords (EltTy.packing .f32)
  hwxs0_2 : ∀ i : grid0.Coords, EltTy.bits .f32 = 32 ∨ (Rect.unit (s := S512x768) (fun _ => 0) (fun a => (Pipeline.Clip.of (cc0_transform_2 i a) (S512x768.size a) (S50257x768.size a)).extent (S512x768.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .i32 = 32 ∨ (Rect.block (s := S4096x1) S2048x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S4096x1.size a
  hwx0_4 : ∀ i : grid0.Coords, EltTy.bits .f32 = 32 ∨ (Rect.block (s := S4096x1) S2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S4096x1.size a
  hwx0_5 : ∀ i : grid0.Coords, EltTy.bits .f32 = 32 ∨ (Rect.block (s := S4096x1) S2048x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S4096x1.size a
  hwx0_6 : ∀ i : grid0.Coords, EltTy.bits .f32 = 32 ∨ (Rect.block (s := S4096x1) S2048x1.size (cc0_transform_6 i) (hinb0_6 i)).WholeWords (EltTy.packing .f32)

variable [Facts₀]

def dot_S2048x768_S768x512_S2048x512_1_0_0_1_n_n : DotDims S2048x768 S768x512 S2048x512 where
  lhsContracting := [1]
  rhsContracting := [0]
  lhsNonContracting := [0]
  rhsNonContracting := [1]
  lhsBatch := []
  rhsBatch := []
  wf := dot_S2048x768_S768x512_S2048x512_1_0_0_1_n_n_wf

abbrev win0_0 : Pipeline.Window sig grid0 :=
  Pipeline.Window.ofSpec (Memref.whole main_v0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_arg2) S512x768.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v3) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S2048x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S2048x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S2048x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond1 i == 1#1) | ⟨_ + 7, h⟩ => absurd h (Nat.not_lt.2 (Nat.le_add_left _ _))

class Facts : Prop extends Facts₀ where

variable [Facts]
-- ==== ReferenceIdeal.lean ====
abbrev S2x2048x768 : Shape := ⟨3, ![2, 2048, 768]⟩
abbrev S50257x768 : Shape := ⟨2, ![50257, 768]⟩
abbrev S2x2048 : Shape := ⟨2, ![2, 2048]⟩
abbrev S2x2048x50257 : Shape := ⟨3, ![2, 2048, 50257]⟩
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S4096x768 : Shape := ⟨2, ![4096, 768]⟩

abbrev nBuf : Space → Nat
  | .hbm => 161
  | .vmem => 0
  | .smem => 0
  | _ => 0

abbrev hbmTy0_0 (i : Nat) : BufTy := match i % 128 with
  | 0 => ⟨S2x2048x768, .f32⟩
  | 1 => ⟨S2x2048x768, .f32⟩
  | 2 => ⟨S50257x768, .f32⟩
  | 3 => ⟨S2x2048, .i32⟩
  | 4 => ⟨S2x2048x50257, .f32⟩
  | 5 => ⟨S4096x50257, .f32⟩
  | 6 => ⟨S4096, .i32⟩
  | 7 => ⟨S_, .i32⟩
  | 8 => ⟨S4096, .i32⟩
  | 9 => ⟨S4096, .i1⟩
  | 10 => ⟨S_, .i32⟩
  | 11 => ⟨S_, .i32⟩
  | 12 => ⟨S4096, .i32⟩
  | 13 => ⟨S4096, .i32⟩
  | 14 => ⟨S_, .f32⟩
  | 15 => ⟨S4096, .f32⟩
  | 16 => ⟨S_, .f32⟩
  | 17 => ⟨S4096, .f32⟩
  | 18 => ⟨S4096, .f32⟩
  | 19 => ⟨S4096x1, .f32⟩
  | 20 => ⟨S4096x50257, .f32⟩
  | 21 => ⟨S4096x50257, .f32⟩
  | 22 => ⟨S4096x50257, .f32⟩
  | 23 => ⟨S_, .f32⟩
  | 24 => ⟨S4096, .f32⟩
  | 25 => ⟨S4096x1, .f32⟩
  | 26 => ⟨S4096x1, .f32⟩
  | 27 => ⟨S4096x50257, .f32⟩
  | 28 => ⟨S4096x50257, .f32⟩
  | 29 => ⟨S4096x1, .i32⟩
  | 30 => ⟨S_, .i32⟩
  | 31 => ⟨S4096x1, .i32⟩
  | 32 => ⟨S4096x1, .i1⟩
  | 33 => ⟨S_, .i32⟩
  | 34 => ⟨S4096x1, .i32⟩
  | 35 => ⟨S4096x1, .i32⟩
  | 36 => ⟨S4096x1, .i32⟩
  | 37 => ⟨S4096x1x1, .i32⟩
  | 38 => ⟨S1, .i32⟩
  | 39 => ⟨S_, .i32⟩
  | 40 => ⟨S4096x1x1, .i32⟩
  | 41 => ⟨S4096x1x1, .i1⟩
  | 42 => ⟨S1x1x1, .i32⟩
  | 43 => ⟨S4096x1x1, .i32⟩
  | 44 => ⟨S4096x1x1, .i1⟩
  | 45 => ⟨S4096x1x1, .i1⟩
  | 46 => ⟨S_, .i1⟩
  | 47 => ⟨S4096x1, .i1⟩
  | 48 => ⟨S4096x1, .f32⟩
  | 49 => ⟨S_, .f32⟩
  | 50 => ⟨S4096x1, .f32⟩
  | 51 => ⟨S4096x1, .f32⟩
  | 52 => ⟨S4096, .f32⟩
  | 53 => ⟨S4096, .f32⟩
  | 54 => ⟨S_, .f32⟩
  | 55 => ⟨S_, .f32⟩
  | 56 => ⟨S4096, .f32⟩
  | 57 => ⟨S4096, .f32⟩
  | 58 => ⟨S_, .f32⟩
  | 59 => ⟨S_, .f32⟩
  | 60 => ⟨S4096, .i32⟩
  | 61 => ⟨S_, .i32⟩
  | 62 => ⟨S_, .i32⟩
  | 63 => ⟨S_, .i32⟩
  | 64 => ⟨S_, .i32⟩
  | 65 => ⟨S_, .f32⟩
  | 66 => ⟨S_, .f32⟩
  | 67 => ⟨S2x2048x50257, .f32⟩
  | 68 => ⟨S4096x50257, .f32⟩
  | 69 => ⟨S4096, .i32⟩
  | 70 => ⟨S_, .i32⟩
  | 71 => ⟨S4096, .i32⟩
  | 72 => ⟨S4096, .i1⟩
  | 73 => ⟨S_, .i32⟩
  | 74 => ⟨S_, .i32⟩
  | 75 => ⟨S4096, .i32⟩
  | 76 => ⟨S4096, .i32⟩
  | 77 => ⟨S_, .f32⟩
  | 78 => ⟨S4096, .f32⟩
  | 79 => ⟨S_, .f32⟩
  | 80 => ⟨S4096, .f32⟩
  | 81 => ⟨S4096, .f32⟩
  | 82 => ⟨S4096x1, .f32⟩
  | 83 => ⟨S4096x50257, .f32⟩
  | 84 => ⟨S4096x50257, .f32⟩
  | 85 => ⟨S4096x50257, .f32⟩
  | 86 => ⟨S_, .f32⟩
  | 87 => ⟨S4096, .f32⟩
  | 88 => ⟨S4096x1, .f32⟩
  | 89 => ⟨S4096x1, .f32⟩
  | 90 => ⟨S4096x50257, .f32⟩
  | 91 => ⟨S4096x50257, .f32⟩
  | 92 => ⟨S4096x1, .i32⟩
  | 93 => ⟨S_, .i32⟩
  | 94 => ⟨S4096x1, .i32⟩
  | 95 => ⟨S4096x1, .i1⟩
  | 96 => ⟨S_, .i32⟩
  | 97 => ⟨S4096x1, .i32⟩
  | 98 => ⟨S4096x1, .i32⟩
  | 99 => ⟨S4096x1, .i32⟩
  | 100 => ⟨S4096x1x1, .i32⟩
  | 101 => ⟨S1, .i32⟩
  | 102 => ⟨S_, .i32⟩
  | 103 => ⟨S4096x1x1, .i32⟩
  | 104 => ⟨S4096x1x1, .i1⟩
  | 105 => ⟨S1x1x1, .i32⟩
  | 106 => ⟨S4096x1x1, .i32⟩
  | 107 => ⟨S4096x1x1, .i1⟩
  | 108 => ⟨S4096x1x1, .i1⟩
  | 109 => ⟨S_, .i1⟩
  | 110 => ⟨S4096x1, .i1⟩
  | 111 => ⟨S4096x1, .f32⟩
  | 112 => ⟨S_, .f32⟩
  | 113 => ⟨S4096x1, .f32⟩
  | 114 => ⟨S4096x1, .f32⟩
  | 115 => ⟨S4096, .f32⟩
  | 116 => ⟨S4096, .f32⟩
  | 117 => ⟨S_, .f32⟩
  | 118 => ⟨S_, .f32⟩
  | 119 => ⟨S4096, .f32⟩
  | 120 => ⟨S4096, .f32⟩
  | 121 => ⟨S_, .f32⟩
  | 122 => ⟨S_, .f32⟩
  | 123 => ⟨S4096, .i32⟩
  | 124 => ⟨S_, .i32⟩
  | 125 => ⟨S_, .i32⟩
  | 126 => ⟨S_, .i32⟩
  | 127 => ⟨S_, .i32⟩
  | _ => ⟨S2x2048x768, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S4096x768, .f32⟩
  | 6 => ⟨S4096x768, .f32⟩
  | 7 => ⟨S4096x768, .f32⟩
  | 8 => ⟨S_, .f32⟩
  | 9 => ⟨S4096, .f32⟩
  | 10 => ⟨S4096, .f32⟩
  | 11 => ⟨S_, .f32⟩
  | 12 => ⟨S4096, .f32⟩
  | 13 => ⟨S4096, .f32⟩
  | 14 => ⟨S4096x768, .f32⟩
  | 15 => ⟨S_, .f32⟩
  | 16 => ⟨S4096, .f32⟩
  | 17 => ⟨S4096, .f32⟩
  | 18 => ⟨S_, .f32⟩
  | 19 => ⟨S4096, .f32⟩
  | 20 => ⟨S4096, .f32⟩
  | 21 => ⟨S4096x768, .f32⟩
  | 22 => ⟨S_, .f32⟩
  | 23 => ⟨S4096, .f32⟩
  | 24 => ⟨S4096, .f32⟩
  | 25 => ⟨S4096, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | _ => ⟨S2x2048x768, .f32⟩

abbrev hbmTy (i : Nat) : BufTy := match i / 128 with
  | 0 => hbmTy0_0 i
  | 1 => hbmTy0_1 i
  | _ => ⟨S2x2048x768, .f32⟩

abbrev bufTy : (tb : Table) → Fin (tcTables nBuf tb) → BufTy
  | .hbm, ⟨i, _⟩ => hbmTy i
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_call1_cst : Ref sig .tc := ⟨.hbm, 14, rfl⟩
abbrev main_call1_v0 : Ref sig .tc := ⟨.hbm, 15, rfl⟩
abbrev main_call1_cst_0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_cst_1 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_v6 : Ref sig .tc := ⟨.hbm, 28, rfl⟩
abbrev main_v7 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_cst : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_cst_1 : Ref sig .tc := ⟨.hbm, 58, rfl⟩
abbrev main_v12 : Ref sig .tc := ⟨.hbm, 59, rfl⟩
abbrev main_v13 : Ref sig .tc := ⟨.hbm, 60, rfl⟩
abbrev main_c_2 : Ref sig .tc := ⟨.hbm, 61, rfl⟩
abbrev main_v14 : Ref sig .tc := ⟨.hbm, 62, rfl⟩
abbrev main_c_3 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_c_4 : Ref sig .tc := ⟨.hbm, 70, rfl⟩
abbrev main_v21 : Ref sig .tc := ⟨.hbm, 71, rfl⟩
abbrev main_v22 : Ref sig .tc := ⟨.hbm, 72, rfl⟩
abbrev main_c_5 : Ref sig .tc := ⟨.hbm, 73, rfl⟩
abbrev main_call4_v0 : Ref sig .tc := ⟨.hbm, 74, rfl⟩
abbrev main_call4_v1 : Ref sig .tc := ⟨.hbm, 75, rfl⟩
abbrev main_v23 : Ref sig .tc := ⟨.hbm, 76, rfl⟩
abbrev main_call5_cst : Ref sig .tc := ⟨.hbm, 77, rfl⟩
abbrev main_call5_v0 : Ref sig .tc := ⟨.hbm, 78, rfl⟩
abbrev main_call5_cst_0 : Ref sig .tc := ⟨.hbm, 79, rfl⟩
abbrev main_call5_v1 : Ref sig .tc := ⟨.hbm, 80, rfl⟩
abbrev main_call5_v2 : Ref sig .tc := ⟨.hbm, 81, rfl⟩
abbrev main_call5_v3 : Ref sig .tc := ⟨.hbm, 82, rfl⟩
abbrev main_call5_v4 : Ref sig .tc := ⟨.hbm, 83, rfl⟩
abbrev main_call5_v5 : Ref sig .tc := ⟨.hbm, 84, rfl⟩
abbrev main_call5_v6 : Ref sig .tc := ⟨.hbm, 85, rfl⟩
abbrev main_call5_cst_1 : Ref sig .tc := ⟨.hbm, 86, rfl⟩
abbrev main_call5_v7 : Ref sig .tc := ⟨.hbm, 87, rfl⟩
abbrev main_call5_v8 : Ref sig .tc := ⟨.hbm, 88, rfl⟩
abbrev main_call5_v9 : Ref sig .tc := ⟨.hbm, 89, rfl⟩
abbrev main_call5_v10 : Ref sig .tc := ⟨.hbm, 90, rfl⟩
abbrev main_v24 : Ref sig .tc := ⟨.hbm, 91, rfl⟩
abbrev main_v25 : Ref sig .tc := ⟨.hbm, 92, rfl⟩
abbrev main_call6_c : Ref sig .tc := ⟨.hbm, 93, rfl⟩
abbrev main_call6_v0 : Ref sig .tc := ⟨.hbm, 94, rfl⟩
abbrev main_call6_v1 : Ref sig .tc := ⟨.hbm, 95, rfl⟩
abbrev main_call6_c_0 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_call6_v5 : Ref sig .tc := ⟨.hbm, 100, rfl⟩
abbrev main_call6_c_1 : Ref sig .tc := ⟨.hbm, 101, rfl⟩
abbrev main_call6_c_2 : Ref sig .tc := ⟨.hbm, 102, rfl⟩
abbrev main_call6_v6 : Ref sig .tc := ⟨.hbm, 103, rfl⟩
abbrev main_call6_v7 : Ref sig .tc := ⟨.hbm, 104, rfl⟩
abbrev main_call6_v8 : Ref sig .tc := ⟨.hbm, 105, rfl⟩
abbrev main_call6_v9 : Ref sig .tc := ⟨.hbm, 106, rfl⟩
abbrev main_call6_v10 : Ref sig .tc := ⟨.hbm, 107, rfl⟩
abbrev main_call6_v11 : Ref sig .tc := ⟨.hbm, 108, rfl⟩
abbrev main_call6_c_3 : Ref sig .tc := ⟨.hbm, 109, rfl⟩
abbrev main_call6_v12 : Ref sig .tc := ⟨.hbm, 110, rfl⟩
abbrev main_call6_v13 : Ref sig .tc := ⟨.hbm, 111, rfl⟩
abbrev main_call6_cst : Ref sig .tc := ⟨.hbm, 112, rfl⟩
abbrev main_call6_v14 : Ref sig .tc := ⟨.hbm, 113, rfl⟩
abbrev main_v26 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_call7_v0 : Ref sig .tc := ⟨.hbm, 118, rfl⟩
abbrev main_call7_v1 : Ref sig .tc := ⟨.hbm, 119, rfl⟩
abbrev main_v29 : Ref sig .tc := ⟨.hbm, 120, rfl⟩
abbrev main_cst_7 : Ref sig .tc := ⟨.hbm, 121, rfl⟩
abbrev main_v30 : Ref sig .tc := ⟨.hbm, 122, rfl⟩
abbrev main_v31 : Ref sig .tc := ⟨.hbm, 123, rfl⟩
abbrev main_c_8 : Ref sig .tc := ⟨.hbm, 124, rfl⟩
abbrev main_v32 : Ref sig .tc := ⟨.hbm, 125, rfl⟩
abbrev main_c_9 : Ref sig .tc := ⟨.hbm, 126, rfl⟩
abbrev main_v33 : Ref sig .tc := ⟨.hbm, 127, rfl⟩
abbrev main_v34 : Ref sig .tc := ⟨.hbm, 128, rfl⟩
abbrev main_v35 : Ref sig .tc := ⟨.hbm, 129, rfl⟩
abbrev main_v36 : Ref sig .tc := ⟨.hbm, 130, rfl⟩
abbrev main_cst_10 : Ref sig .tc := ⟨.hbm, 131, rfl⟩
abbrev main_v37 : Ref sig .tc := ⟨.hbm, 132, rfl⟩
abbrev main_v38 : Ref sig .tc := ⟨.hbm, 133, rfl⟩
abbrev main_v39 : Ref sig .tc := ⟨.hbm, 134, rfl⟩
abbrev main_call8_v0 : Ref sig .tc := ⟨.hbm, 135, rfl⟩
abbrev main_call8_cst : Ref sig .tc := ⟨.hbm, 136, rfl⟩
abbrev main_call8_v1 : Ref sig .tc := ⟨.hbm, 137, rfl⟩
abbrev main_v40 : Ref sig .tc := ⟨.hbm, 138, rfl⟩
abbrev main_cst_11 : Ref sig .tc := ⟨.hbm, 139, rfl⟩
abbrev main_v41 : Ref sig .tc := ⟨.hbm, 140, rfl⟩
abbrev main_v42 : Ref sig .tc := ⟨.hbm, 141, rfl⟩
abbrev main_call9_v0 : Ref sig .tc := ⟨.hbm, 142, rfl⟩
abbrev main_call9_cst : Ref sig .tc := ⟨.hbm, 143, rfl⟩
abbrev main_call9_v1 : Ref sig .tc := ⟨.hbm, 144, rfl⟩
abbrev main_v43 : Ref sig .tc := ⟨.hbm, 145, rfl⟩
abbrev main_cst_12 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_cst_13 : Ref sig .tc := ⟨.hbm, 150, rfl⟩
abbrev main_v47 : Ref sig .tc := ⟨.hbm, 151, rfl⟩
abbrev main_v48 : Ref sig .tc := ⟨.hbm, 152, rfl⟩
abbrev main_v49 : Ref sig .tc := ⟨.hbm, 153, rfl⟩
abbrev main_cst_14 : Ref sig .tc := ⟨.hbm, 154, rfl⟩
abbrev main_v50 : Ref sig .tc := ⟨.hbm, 155, rfl⟩
abbrev main_cst_15 : Ref sig .tc := ⟨.hbm, 156, rfl⟩
abbrev main_v51 : Ref sig .tc := ⟨.hbm, 157, rfl⟩
abbrev main_cst_16 : Ref sig .tc := ⟨.hbm, 158, rfl⟩
abbrev main_v52 : Ref sig .tc := ⟨.hbm, 159, rfl⟩
abbrev main_v53 : Ref sig .tc := ⟨.hbm, 160, rfl⟩

abbrev nD : Nat := 1
abbrev τ : Topo := Topo.v7x

variable {F : FTy → Type} [FloatOps F]

class Facts₀ : Prop where
  shapeCasts_S2x2048x50257_S4096x50257 : S2x2048x50257.ShapeCasts S4096x50257
  shapeCasts_S2x2048_S4096 : S2x2048.ShapeCasts S4096
  bcast_S_S4096 : S_.BroadcastsInDim S4096 (![] : Fin 0 → Fin S4096.rank)
  reducesTo_S4096x50257_S4096_d1 : S4096x50257.ReducesTo [1] S4096
  h_S_ : 0 < S_.numel
  bcast_S4096_S4096x1_0 : S4096.BroadcastsInDim S4096x1 (![0] : Fin 1 → Fin S4096x1.rank)
  bcast_S4096x1_S4096x50257_0_1 : S4096x1.BroadcastsInDim S4096x50257 (![0, 1] : Fin 2 → Fin S4096x50257.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  natLt_1_32 : 1 < 32
  shapeCasts_S2x2048x768_S4096x768 : S2x2048x768.ShapeCasts S4096x768
  reducesTo_S4096x768_S4096_d1 : S4096x768.ReducesTo [1] S4096
  dot_S2x2048x768_S50257x768_S2x2048x50257_2_1_01_0_n_n_wf : DotDims.WF S2x2048x768 S50257x768 S2x2048x50257 [2] [1] [0, 1] [0] [] []
  gather_S4096x50257_S4096x1x1_S4096x1_n_1_0_0_1_2_11_wf : GatherDims.WF S4096x50257 S4096x1x1 S4096x1 [] [1] [0] [1] [0] 2 ![1, 1]

variable [Facts₀]

def dot_S2x2048x768_S50257x768_S2x2048x50257_2_1_01_0_n_n : DotDims S2x2048x768 S50257x768 S2x2048x50257 where
  lhsContracting := [2]
  rhsContracting := [1]
  lhsNonContracting := [0, 1]
  rhsNonContracting := [0]
  lhsBatch := []
  rhsBatch := []
  wf := dot_S2x2048x768_S50257x768_S2x2048x50257_2_1_01_0_n_n_wf
def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

class Facts : Prop extends Facts₀ where

variable [Facts]
-- ==== Proof.KStepB.lean ====
/- One grid point of the fused kernel as a pure function.

   A row tile of 2048 rows sweeps the vocabulary in 99 tiles of 512 columns. Across the sweep it carries, for each of the
   two passes, three columns: the running maximum of the masked logits, the running sum of exponentials taken against that
   maximum, and the accumulated logit at the row's target. At the first tile the columns start afresh (maximum -inf, sums 0)
   and the cosine column of the two hidden tiles is stored; at the last tile each pass stores maximum + log(sum) - target logit.
   Everything is written over the body's named values, so it reads the same at the word-level and at the exact instance. -/
import proofs.«419146_j12747462935019_2_alg».proof.Proof.Gen.Kernel.Skeleton

noncomputable section

namespace Cert.Kernel.KStep

open Idealize.ShloMosaic Cert.Kernel Cert.Kernel.Gen

variable {F : FTy → Type} [FloatOps F]

/-- The six carried columns: running maximum, running sum of exponentials, accumulated target logit; pass 2, then pass 3. -/
structure St (F : FTy → Type) where
  m2 : Vec F S2048x1 .f32
  l2 : Vec F S2048x1 .f32
  tl2 : Vec F S2048x1 .f32
  m3 : Vec F S2048x1 .f32
  l3 : Vec F S2048x1 .f32
  tl3 : Vec F S2048x1 .f32

/-- The columns as the first vocabulary tile sets them: maxima at -inf, sums and target logits at 0. -/
def reset : St F := ⟨k0_pay6, k0_pay7, k0_pay8, k0_pay9, k0_pay10, k0_pay11⟩

/-- One vocabulary tile folded into the columns. `h2`, `h3` are the row tile's hidden blocks, `w` the 512 vocabulary rows
    as the staging buffer holds them (at the last tile its rows past the array's end are whatever was there), `tg` the
    targets column. Both passes read the OLD maximum twice (for the new maximum and for the rescaling factor) before it is
    overwritten. -/
def step (i : grid0.Coords) (h2 h3 : Vec F S2048x768 .f32) (w : Vec F S512x768 .f32) (tg : Vec F S2048x1 .i32) (s : St F) : St F where
  m2 := k0_pay26 (k0_pay22 i w h2 s.m2)
  l2 := k0_pay25 (k0_pay23 i w h2 s.m2 s.m2) (k0_pay24 i w h2 s.m2) s.l2
  tl2 := k0_pay27 (k0_pay21 i w tg h2) s.tl2
  m3 := k0_pay2 (k0_pay30 (k0_pay16 w) (k0_pay18 i) h3 s.m3)
  l3 := k0_pay1 (k0_pay31 (k0_pay16 w) (k0_pay18 i) h3 s.m3 s.m3) (k0_pay32 (k0_pay16 w) (k0_pay18 i) h3 s.m3) s.l3
  tl3 := k0_pay3 (k0_pay29 (k0_pay16 w) (k0_pay18 i) (k0_pay19 (F := F) i tg) h3) s.tl3

/-- A whole grid point: at the first vocabulary tile the columns are reset before the tile is folded in. -/
def point (i : grid0.Coords) (h2 h3 : Vec F S2048x768 .f32) (w : Vec F S512x768 .f32) (tg : Vec F S2048x1 .i32) (s : St F) : St F :=
  step i h2 h3 w tg (if k0_cond1 i = 1#1 then reset else s)

/-- The cosine column stored at the first vocabulary tile: row-wise  h2.h3 / (max |h2| eps * max |h3| eps). -/
def cosBlk (h2 h3 : Vec F S2048x768 .f32) : Vec F S2048x1 .f32 := k0_pay15 (k0_pay12 h2) (k0_pay13 h3) (k0_pay14 h2)

/-- What the last vocabulary tile stores for pass 2 and for pass 3: maximum + log(sum) - target logit. -/
def nll2Blk (s : St F) : Vec F S2048x1 .f32 := k0_pay4 s.m2 s.l2 s.tl2
def nll3Blk (s : St F) : Vec F S2048x1 .f32 := k0_pay5 s.m3 s.l3 s.tl3

/-- The carried columns after the first `n` vocabulary tiles of a sweep: tile `k` is at grid coordinates `i k` and finds the
    vocabulary rows `wt k` in its staging buffer; the hidden tiles and the targets column stay the same across the sweep.
    (Whatever `S0` is, it is forgotten at the first tile, where `point` resets.) -/
def sweep (i : ℕ → grid0.Coords) (h2 h3 : Vec F S2048x768 .f32) (wt : ℕ → Vec F S512x768 .f32) (tg : Vec F S2048x1 .i32) (S0 : St F) : ℕ → St F
  | 0 => S0
  | n + 1 => point (i n) h2 h3 (wt n) tg (sweep i h2 h3 wt tg S0 n)

end Cert.Kernel.KStep

end
-- ==== Proof.BodyB.lean ====
/- The kernel body's triple: from the seven staging blocks and the six carried columns at any contents, one call of the
   fused kernel at grid coordinates `i` leaves the four input blocks as they were, rewrites each result block only at the
   vocabulary tile that stores it, and moves the carried columns by `KStep.point`. It holds at every float instance: the
   body's values are the named ones, whatever they denote.

   How it is proved. Every access of the body goes through the unit-stride rectangle of a buffer's own sizes at zero offsets,
   which places each index on itself: a load reads exactly the contents owned and an unmasked store replaces them by its payload
   (`sound_load`, `sound_store`, for any shape and element type). The three printed parts are run once over any thirteen memrefs
   and any continuation (`sound_part1`, `sound_part2`, `sound_part3`: the second splits on the first-tile condition and states
   what it leaves through `start`, the columns reset or as found); the body runs the parts, pass 3's three stores and, under the
   last-tile condition, the two result stores, and what the columns then hold is `KStep.point` field by field. -/
import proofs.«419146_j12747462935019_2_alg».proof.Proof.Gen.Kernel.Frame
import proofs.«419146_j12747462935019_2_alg».proof.Proof.KStepB
import Idealize.ShloMosaic.Lib.Pipeline.Kit
import Idealize.ShloMosaic.Lib.Tactic

noncomputable section

namespace Cert.Kernel.Body

open Cert.Kernel Cert.Kernel.Gen Cert.Kernel.KStep

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

section Steps

variable {s : Shape} {e : EltTy}

/-- The unit-stride rectangle of a shape's own sizes at zero offsets places every index on itself. -/
theorem emb_unit_zero {off : Fin s.rank → Nat} (h0 : off = fun _ => 0) (inb : ∀ a, off a + s.size a ≤ s.size a) (x : s.Idx) :
    (Rect.unit off s.size inb).emb x = x := by
  subst h0; exact Rect.emb_whole_apply s x

/-- A load through that rectangle reads what the memref holds; -/
theorem read_unit_zero (c : Dev nD) (M : Memref sig .tc .vmem s e) {off : Fin s.rank → Nat} (h0 : off = fun _ => 0)
    (inb : ∀ a, off a + s.size a ≤ s.size a) (f : Buf (Elt F) (M.view.loc (c : Thread nD τ))) :
    (M.access (Rect.unit off s.size inb)).read (Elt F) f = M.view.read (Elt F) f := by
  funext x
  show _root_.cast _ (f (M.view.emb ((Rect.unit off s.size inb).emb x))) = _root_.cast _ (f (M.view.emb x))
  rw [emb_unit_zero h0]

/-- an unmasked store through it leaves the memref holding the payload. -/
theorem read_write_unit_zero (c : Dev nD) (M : Memref sig .tc .vmem s e) {off : Fin s.rank → Nat} (h0 : off = fun _ => 0)
    (inb : ∀ a, off a + s.size a ≤ s.size a) (f : Buf (Elt F) (M.view.loc (c : Thread nD τ))) (w : s.Idx → Elt F e) :
    M.view.read (Elt F) ((M.access (Rect.unit off s.size inb)).write (Elt F) f w Finset.univ) = w := by
  funext y
  conv_lhs => rw [← emb_unit_zero h0 inb y]
  rw [View.read_slice_write_emb _ _ _ (Finset.mem_univ _)]

/-- A load of a whole memref owned at `X`: the program goes on at `X`, the memref as it was. -/
theorem sound_load (c : Dev nD) (E : Set ℕ) (M : Memref sig .tc .vmem s e) (q : PosShare TreeShare) (X : s.Idx → Elt F e)
    {off : Fin s.rank → Nat} (h0 : off = fun _ => 0) (inb : ∀ a, off a + s.size a ≤ s.size a) (hl)
    {β : Type} {kk : (s.Idx → Elt F e) → Prog (TpuEff nD τ sig (Elt F) Λ₀ .tc) β} {K : β → sProp 𝕄} :
    owns (c : Thread nD τ) M q X
      ⊢ iprop((owns (c : Thread nD τ) M q X -∗ wp frame (wpE (defs₀ (F := F)) 𝒱₀ c none) E (kk X) K)
          -∗ wp frame (wpE (defs₀ (F := F)) 𝒱₀ c none) E (.op (.load M (Rect.unit off s.size inb).toLoadRect hl) kk) K) := by
  unfold owns
  iintro ⟨%f, %hf, H⟩ Hk
  iapply (wp_load_rect 𝒱₀ (c : Thread nD τ) none E (m := M) (r := Rect.unit off s.size inb) (View.set_slice_subset _ _)) $$ H
  iintro H
  rw [read_unit_zero c M h0 inb f, hf]
  iapply Hk
  iexists f; isplitr; · ipureintro; exact hf
  iexact H

/-- An unmasked store of `w` through a whole memref owned at anything: the program goes on with the memref at `w`. -/
theorem sound_store (c : Dev nD) (E : Set ℕ) (M : Memref sig .tc .vmem s e) (X w : s.Idx → Elt F e)
    {off : Fin s.rank → Nat} (h0 : off = fun _ => 0) (inb : ∀ a, off a + s.size a ≤ s.size a) (hx) (hm)
    {β : Type} {kk : PUnit.{1} → Prog (TpuEff nD τ sig (Elt F) Λ₀ .tc) β} {K : β → sProp 𝕄} :
    owns (c : Thread nD τ) M fullShare X
      ⊢ iprop((owns (c : Thread nD τ) M fullShare w -∗ wp frame (wpE (defs₀ (F := F)) 𝒱₀ c none) E (kk ⟨⟩) K)
          -∗ wp frame (wpE (defs₀ (F := F)) 𝒱₀ c none) E (.op (.store M (Rect.unit off s.size inb) w Finset.univ hx hm) kk) K) := by
  unfold owns
  iintro ⟨%f, -, H⟩ Hk
  iapply (wp_store 𝒱₀ (c : Thread nD τ) none E (m := M) (r := Rect.unit off s.size inb) (Mk := Finset.univ) (View.set_slice_subset _ _)) $$ H
  iintro H
  iapply Hk
  iexists _; isplitr
  swap; · iexact H
  ipureintro; rw [read_write_unit_zero c M h0 inb]

end Steps

section Parts

variable (c : Dev nD) (E : Set ℕ) (i : grid0.Coords)
  {A2 A3 : Memref sig .tc .vmem S2048x768 .f32} {A4 : Memref sig .tc .vmem S512x768 .f32} {A5 : Memref sig .tc .vmem S2048x1 .i32}
  {A6 A7 A8 A9 A10 A11 A12 A13 A14 : Memref sig .tc .vmem S2048x1 .f32}
  {w2 : A2.IsWhole} {w3 : A3.IsWhole} {w4 : A4.IsWhole} {w5 : A5.IsWhole} {w6 : A6.IsWhole} {w7 : A7.IsWhole} {w8 : A8.IsWhole}
  {w9 : A9.IsWhole} {w10 : A10.IsWhole} {w11 : A11.IsWhole} {w12 : A12.IsWhole} {w13 : A13.IsWhole} {w14 : A14.IsWhole}

/-- The seven block memrefs the body is passed, each owned whole at given contents; -/
def heldB (A2 A3 : Memref sig .tc .vmem S2048x768 .f32) (A4 : Memref sig .tc .vmem S512x768 .f32) (A5 : Memref sig .tc .vmem S2048x1 .i32)
    (A6 A7 A8 : Memref sig .tc .vmem S2048x1 .f32) (X0 X1 : Vec F S2048x768 .f32) (X2 : Vec F S512x768 .f32) (X3 : Vec F S2048x1 .i32) (X4 X5 X6 : Vec F S2048x1 .f32) : sProp 𝕄 :=
  iprop(owns (c : Thread nD τ) A2 fullShare X0 ∗ owns (c : Thread nD τ) A3 fullShare X1
    ∗ owns (c : Thread nD τ) A4 fullShare X2 ∗ owns (c : Thread nD τ) A5 fullShare X3
    ∗ owns (c : Thread nD τ) A6 fullShare X4 ∗ owns (c : Thread nD τ) A7 fullShare X5
    ∗ owns (c : Thread nD τ) A8 fullShare X6)

/-- and the six column memrefs. -/
def heldC (A9 A10 A11 A12 A13 A14 : Memref sig .tc .vmem S2048x1 .f32) (m2 l2 tl2 m3 l3 tl3 : Vec F S2048x1 .f32) : sProp 𝕄 :=
  iprop(owns (c : Thread nD τ) A9 fullShare m2 ∗ owns (c : Thread nD τ) A10 fullShare l2
    ∗ owns (c : Thread nD τ) A11 fullShare tl2 ∗ owns (c : Thread nD τ) A12 fullShare m3
    ∗ owns (c : Thread nD τ) A13 fullShare l3 ∗ owns (c : Thread nD τ) A14 fullShare tl3)

theorem hz2 : (![0, 0] : Fin 2 → Nat) = fun _ => 0 := funext fun a => by fin_cases a <;> rfl

/-- The columns a tile is folded into: reset at the first vocabulary tile, else as they were found. -/
abbrev start (i : grid0.Coords) (S : St F) : St F := if k0_cond1 i = 1#1 then reset else S

/-- The first tile's opening: each of the six columns is loaded (the value unused) and overwritten with its starting value,
    then the two hidden blocks are loaded. -/
theorem sound_part1 (X0 X1 : Vec F S2048x768 .f32) (X2 : Vec F S512x768 .f32) (X3 : Vec F S2048x1 .i32) (X4 X5 X6 : Vec F S2048x1 .f32)
    (m2 l2 tl2 m3 l3 tl3 : Vec F S2048x1 .f32) {β : Type}
    {kk : (Σ' (_ : FVec F S2048x768 .f32) (_ : FVec F S2048x768 .f32), FVec F S2048x1 .f32) → Prog (TpuEff nD τ sig (Elt F) Λ₀ .tc) β} {K : β → sProp 𝕄} :
    iprop(heldB c A2 A3 A4 A5 A6 A7 A8 X0 X1 X2 X3 X4 X5 X6 ∗ heldC c A9 A10 A11 A12 A13 A14 m2 l2 tl2 m3 l3 tl3)
      ⊢ iprop((iprop(heldB c A2 A3 A4 A5 A6 A7 A8 X0 X1 X2 X3 X4 X5 X6
                  ∗ heldC c A9 A10 A11 A12 A13 A14 (k0_pay6 (F := F)) (k0_pay7 (F := F)) (k0_pay8 (F := F)) (k0_pay9 (F := F)) (k0_pay10 (F := F)) (k0_pay11 (F := F)))
              -∗ wp frame (wpE (defs₀ (F := F)) 𝒱₀ c none) E (kk ⟨k0_pay12 X0, k0_pay13 X1, k0_pay14 X0⟩) K)
          -∗ wp frame (wpE (defs₀ (F := F)) 𝒱₀ c none) E
              (k0_part1 i A2 w2 A3 w3 A4 w4 A5 w5 A6 w6 A7 w7 A8 w8 A9 w9 A10 w10 A11 w11 A12 w12 A13 w13 A14 w14 >>= kk) K) := by
  simp only [k0_part1_eq_skeleton]; unfold k0_part1_skel heldB heldC
  simp only [Prog.lift, Prog.bind_op, Prog.bind_ret, Prog.bind_assoc, Prog.pure_eq_ret]
  iintro ⟨⟨H2, H3, H4, H5, H6, H7, H8⟩, ⟨H9, H10, H11, H12, H13, H14⟩⟩ Hk
  iapply (sound_load _ _ _ _ _ hz2 _ _) $$ H9; iintro H9
  iapply (sound_store _ _ _ _ _ hz2 _ _ _) $$ H9; iintro H9
  iapply (sound_load _ _ _ _ _ hz2 _ _) $$ H10; iintro H10
  iapply (sound_store _ _ _ _ _ hz2 _ _ _) $$ H10; iintro H10
  iapply (sound_load _ _ _ _ _ hz2 _ _) $$ H11; iintro H11
  iapply (sound_store _ _ _ _ _ hz2 _ _ _) $$ H11; iintro H11
  iapply (sound_load _ _ _ _ _ hz2 _ _) $$ H12; iintro H12
  iapply (sound_store _ _ _ _ _ hz2 _ _ _) $$ H12; iintro H12
  iapply (sound_load _ _ _ _ _ hz2 _ _) $$ H13; iintro H13
  iapply (sound_store _ _ _ _ _ hz2 _ _ _) $$ H13; iintro H13
  iapply (sound_load _ _ _ _ _ hz2 _ _) $$ H14; iintro H14
  iapply (sound_store _ _ _ _ _ hz2 _ _ _) $$ H14; iintro H14
  iapply (sound_load _ _ _ _ _ hz2 _ _) $$ H2; iintro H2
  iapply (sound_load _ _ _ _ _ hz2 _ _) $$ H3; iintro H3
  iapply Hk
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  · isplitl [H9]; · iexact H9
    isplitl [H10]; · iexact H10
    isplitl [H11]; · iexact H11
    isplitl [H12]; · iexact H12
    isplitl [H13]; · iexact H13
    iexact H14

/-- The first half of a tile. At the first vocabulary tile the columns are reset and the cosine block is stored (what the block
    held is loaded and dropped); then, at every tile, the vocabulary rows, the targets and the first hidden block are loaded,
    and pass 2's running maximum twice. -/
theorem sound_part2 (X0 X1 : Vec F S2048x768 .f32) (X2 : Vec F S512x768 .f32) (X3 : Vec F S2048x1 .i32) (X4 X5 X6 : Vec F S2048x1 .f32) (S : St F) {β : Type}
    {kk : (Σ' (_ : BitVec 32) (_ : FVec F S512x768 .bf16) (_ : IVec S2048x512 1) (_ : IVec S2048x512 1) (_ : FVec F S2048x1 .f32) (_ : FVec F S2048x1 .f32) (_ : FVec F S2048x1 .f32), FVec F S2048x512 .f32) → Prog (TpuEff nD τ sig (Elt F) Λ₀ .tc) β} {K : β → sProp 𝕄} :
    iprop(heldB c A2 A3 A4 A5 A6 A7 A8 X0 X1 X2 X3 X4 X5 X6 ∗ heldC c A9 A10 A11 A12 A13 A14 S.m2 S.l2 S.tl2 S.m3 S.l3 S.tl3)
      ⊢ iprop((iprop(heldB c A2 A3 A4 A5 A6 A7 A8 X0 X1 X2 X3 X4 X5 (if k0_cond1 i = 1#1 then cosBlk X0 X1 else X6)
                  ∗ heldC c A9 A10 A11 A12 A13 A14 (start i S).m2 (start i S).l2 (start i S).tl2 (start i S).m3 (start i S).l3 (start i S).tl3)
              -∗ wp frame (wpE (defs₀ (F := F)) 𝒱₀ c none) E (kk ⟨BitVec.ofNat 32 (i 1).val, k0_pay16 X2, k0_pay18 i, k0_pay19 i X3, k0_pay21 i X2 X3 X0,
                    k0_pay22 i X2 X0 (start i S).m2, k0_pay23 i X2 X0 (start i S).m2 (start i S).m2, k0_pay24 i X2 X0 (start i S).m2⟩) K)
          -∗ wp frame (wpE (defs₀ (F := F)) 𝒱₀ c none) E
              (k0_part2 i A2 w2 A3 w3 A4 w4 A5 w5 A6 w6 A7 w7 A8 w8 A9 w9 A10 w10 A11 w11 A12 w12 A13 w13 A14 w14 >>= kk) K) := by
  simp only [k0_part2_eq_skeleton]; unfold k0_part2_skel
  by_cases h1 : k0_cond1 i = 1#1
  · simp only [start, dif_pos h1, if_pos h1, reset, cosBlk, Prog.bind_assoc]
    iintro H Hk
    iapply (sound_part1 c E i X0 X1 X2 X3 X4 X5 X6 S.m2 S.l2 S.tl2 S.m3 S.l3 S.tl3) $$ H
    unfold heldB heldC
    iintro ⟨⟨H2, H3, H4, H5, H6, H7, H8⟩, ⟨H9, H10, H11, H12, H13, H14⟩⟩
    dsimp only
    simp only [Prog.lift, Prog.bind_op, Prog.bind_ret, Prog.bind_assoc, Prog.pure_eq_ret]
    iapply (sound_load _ _ _ _ _ hz2 _ _) $$ H8; iintro H8
    iapply (sound_store _ _ _ _ _ hz2 _ _ _) $$ H8; iintro H8
    iapply (sound_load _ _ _ _ _ hz2 _ _) $$ H4; iintro H4
    iapply (sound_load _ _ _ _ _ hz2 _ _) $$ H5; iintro H5
    iapply (sound_load _ _ _ _ _ hz2 _ _) $$ H2; iintro H2
    iapply (sound_load _ _ _ _ _ hz2 _ _) $$ H9; iintro H9
    iapply (sound_load _ _ _ _ _ hz2 _ _) $$ H9; iintro H9
    iapply Hk
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    · isplitl [H9]; · iexact H9
      isplitl [H10]; · iexact H10
      isplitl [H11]; · iexact H11
      isplitl [H12]; · iexact H12
      isplitl [H13]; · iexact H13
      iexact H14
  · simp only [start, dif_neg h1, if_neg h1, Prog.lift, Prog.bind_op, Prog.bind_ret, Prog.bind_assoc, Prog.pure_eq_ret]
    unfold heldB heldC
    iintro ⟨⟨H2, H3, H4, H5, H6, H7, H8⟩, ⟨H9, H10, H11, H12, H13, H14⟩⟩ Hk
    iapply (sound_load _ _ _ _ _ hz2 _ _) $$ H4; iintro H4
    iapply (sound_load _ _ _ _ _ hz2 _ _) $$ H5; iintro H5
    iapply (sound_load _ _ _ _ _ hz2 _ _) $$ H2; iintro H2
    iapply (sound_load _ _ _ _ _ hz2 _ _) $$ H9; iintro H9
    iapply (sound_load _ _ _ _ _ hz2 _ _) $$ H9; iintro H9
    iapply Hk
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    · isplitl [H9]; · iexact H9
      isplitl [H10]; · iexact H10
      isplitl [H11]; · iexact H11
      isplitl [H12]; · iexact H12
      isplitl [H13]; · iexact H13
      iexact H14

/-- The second half of pass 2 and the loads of pass 3: the running sum, the running maximum and the target logit of pass 2 are
    each loaded and overwritten (the sum and the target logit loaded twice, the second value unused; the maximum's load unused),
    then the second hidden block is loaded and pass 3's running maximum twice. -/
theorem sound_part3 (X0 X1 : Vec F S2048x768 .f32) (X2 : Vec F S512x768 .f32) (X3 : Vec F S2048x1 .i32) (X4 X5 X6 : Vec F S2048x1 .f32)
    (m2 l2 tl2 m3 l3 tl3 : Vec F S2048x1 .f32) (v4 : FVec F S512x768 .bf16) (v10 v14 : IVec S2048x512 1)
    (v25 v29 v32 : FVec F S2048x1 .f32) (v35 : FVec F S2048x512 .f32) {β : Type}
    {kk : (Σ' (_ : FVec F S2048x1 .f32) (_ : FVec F S2048x1 .f32) (_ : FVec F S2048x1 .f32), FVec F S2048x512 .f32) → Prog (TpuEff nD τ sig (Elt F) Λ₀ .tc) β} {K : β → sProp 𝕄} :
    iprop(heldB c A2 A3 A4 A5 A6 A7 A8 X0 X1 X2 X3 X4 X5 X6 ∗ heldC c A9 A10 A11 A12 A13 A14 m2 l2 tl2 m3 l3 tl3)
      ⊢ iprop((iprop(heldB c A2 A3 A4 A5 A6 A7 A8 X0 X1 X2 X3 X4 X5 X6
                  ∗ heldC c A9 A10 A11 A12 A13 A14 (k0_pay26 v29) (k0_pay25 v32 v35 l2) (k0_pay27 v25 tl2) m3 l3 tl3)
              -∗ wp frame (wpE (defs₀ (F := F)) 𝒱₀ c none) E (kk ⟨k0_pay29 v4 v10 v14 X1, k0_pay30 v4 v10 X1 m3, k0_pay31 v4 v10 X1 m3 m3, k0_pay32 v4 v10 X1 m3⟩) K)
          -∗ wp frame (wpE (defs₀ (F := F)) 𝒱₀ c none) E
              (k0_part3 i A2 w2 A3 w3 A4 w4 A5 w5 A6 w6 A7 w7 A8 w8 A9 w9 A10 w10 A11 w11 A12 w12 A13 w13 A14 w14 v4 v10 v14 v25 v29 v32 v35 >>= kk) K) := by
  simp only [k0_part3_eq_skeleton]; unfold k0_part3_skel heldB heldC
  simp only [Prog.lift, Prog.bind_op, Prog.bind_ret, Prog.bind_assoc, Prog.pure_eq_ret]
  iintro ⟨⟨H2, H3, H4, H5, H6, H7, H8⟩, ⟨H9, H10, H11, H12, H13, H14⟩⟩ Hk
  iapply (sound_load _ _ _ _ _ hz2 _ _) $$ H10; iintro H10
  iapply (sound_load _ _ _ _ _ hz2 _ _) $$ H10; iintro H10
  iapply (sound_store _ _ _ _ _ hz2 _ _ _) $$ H10; iintro H10
  iapply (sound_load _ _ _ _ _ hz2 _ _) $$ H9; iintro H9
  iapply (sound_store _ _ _ _ _ hz2 _ _ _) $$ H9; iintro H9
  iapply (sound_load _ _ _ _ _ hz2 _ _) $$ H11; iintro H11
  iapply (sound_load _ _ _ _ _ hz2 _ _) $$ H11; iintro H11
  iapply (sound_store _ _ _ _ _ hz2 _ _ _) $$ H11; iintro H11
  iapply (sound_load _ _ _ _ _ hz2 _ _) $$ H3; iintro H3
  iapply (sound_load _ _ _ _ _ hz2 _ _) $$ H12; iintro H12
  iapply (sound_load _ _ _ _ _ hz2 _ _) $$ H12; iintro H12
  iapply Hk
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  · isplitl [H9]; · iexact H9
    isplitl [H10]; · iexact H10
    isplitl [H11]; · iexact H11
    isplitl [H12]; · iexact H12
    isplitl [H13]; · iexact H13
    iexact H14

end Parts

/-- The six carried columns, each its whole scratch buffer, at the contents `S`. -/
def cols (c : Dev nD) (S : St F) : sProp 𝕄 :=
  iprop(owns (c : Thread nD τ) (Memref.whole cc0_scratch0) fullShare S.m2 ∗ owns (c : Thread nD τ) (Memref.whole cc0_scratch1) fullShare S.l2
    ∗ owns (c : Thread nD τ) (Memref.whole cc0_scratch2) fullShare S.tl2 ∗ owns (c : Thread nD τ) (Memref.whole cc0_scratch3) fullShare S.m3
    ∗ owns (c : Thread nD τ) (Memref.whole cc0_scratch4) fullShare S.l3 ∗ owns (c : Thread nD τ) (Memref.whole cc0_scratch5) fullShare S.tl3)

/-- The seven staging blocks (two hidden tiles, the vocabulary tile, the targets column, the three result columns), each on
    the buffer its window is on. -/
def blocks (c : Dev nD) (s0 s1 s2 s3 s4 s5 s6 : Fin 2) (X0 X1 : Vec F S2048x768 .f32) (X2 : Vec F S512x768 .f32) (X3 : Vec F S2048x1 .i32)
    (X4 X5 X6 : Vec F S2048x1 .f32) : sProp 𝕄 :=
  iprop(owns (c : Thread nD τ) (stage0_0 s0) fullShare X0 ∗ owns (c : Thread nD τ) (stage0_1 s1) fullShare X1
    ∗ owns (c : Thread nD τ) (stage0_2 s2) fullShare X2 ∗ owns (c : Thread nD τ) (stage0_3 s3) fullShare X3
    ∗ owns (c : Thread nD τ) (stage0_4 s4) fullShare X4 ∗ owns (c : Thread nD τ) (stage0_5 s5) fullShare X5
    ∗ owns (c : Thread nD τ) (stage0_6 s6) fullShare X6)

/-- The body at coordinates `i`. -/
theorem sound_body (c : Dev nD) (E : Set ℕ) (i : grid0.Coords) (s0 s1 s2 s3 s4 s5 s6 : Fin 2)
    (X0 X1 : Vec F S2048x768 .f32) (X2 : Vec F S512x768 .f32) (X3 : Vec F S2048x1 .i32) (X4 X5 X6 : Vec F S2048x1 .f32)
    (S : St F) (K : PUnit → sProp 𝕄) :
    iprop(blocks c s0 s1 s2 s3 s4 s5 s6 X0 X1 X2 X3 X4 X5 X6 ∗ cols c S
          ∗ (iprop(blocks c s0 s1 s2 s3 s4 s5 s6 X0 X1 X2 X3
                    (if k0_cond2 i = 1#1 then nll2Blk (point i X0 X1 X2 X3 S) else X4)
                    (if k0_cond2 i = 1#1 then nll3Blk (point i X0 X1 X2 X3 S) else X5)
                    (if k0_cond1 i = 1#1 then cosBlk X0 X1 else X6)
                  ∗ cols c (point i X0 X1 X2 X3 S)) -∗ K ⟨⟩))
      ⊢ wp frame (wpE (defs₀ (F := F)) 𝒱₀ c none) E
          (cc0__fused_kernel i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5) (stage0_6 s6) (hstage0_6 s6)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)) K := by
  -- the blocks and the columns as the parts hold them: the same conjunctions, over the memrefs the body is called on
  have hb : ∀ (Y0 Y1 : Vec F S2048x768 .f32) (Y2 : Vec F S512x768 .f32) (Y3 : Vec F S2048x1 .i32) (Y4 Y5 Y6 : Vec F S2048x1 .f32),
      (blocks c s0 s1 s2 s3 s4 s5 s6 Y0 Y1 Y2 Y3 Y4 Y5 Y6 : sProp 𝕄) = heldB c (stage0_0 s0) (stage0_1 s1) (stage0_2 s2) (stage0_3 s3) (stage0_4 s4) (stage0_5 s5) (stage0_6 s6) Y0 Y1 Y2 Y3 Y4 Y5 Y6 :=
    fun _ _ _ _ _ _ _ => rfl
  have hc : ∀ T : St F, (cols c T : sProp 𝕄) = heldC c (Memref.whole cc0_scratch0) (Memref.whole cc0_scratch1) (Memref.whole cc0_scratch2) (Memref.whole cc0_scratch3) (Memref.whole cc0_scratch4) (Memref.whole cc0_scratch5) T.m2 T.l2 T.tl2 T.m3 T.l3 T.tl3 := fun _ => rfl
  simp only [hb, hc, cc0__fused_kernel_eq_skeleton]; unfold cc0__fused_kernel_skel
  iintro ⟨Hb, Hc, Hk⟩
  -- the first half of the tile, under the first condition
  iapply (sound_part2 c E i X0 X1 X2 X3 X4 X5 X6 S) $$ [Hb Hc]
  · isplitl [Hb]; · iexact Hb
    iexact Hc
  iintro H
  dsimp only
  -- pass 2's stores and pass 3's loads
  iapply (sound_part3 c E i X0 X1 X2 X3 X4 X5 (if k0_cond1 i = 1#1 then cosBlk X0 X1 else X6)
    (start i S).m2 (start i S).l2 (start i S).tl2 (start i S).m3 (start i S).l3 (start i S).tl3
    (k0_pay16 X2) (k0_pay18 i) (k0_pay19 i X3) (k0_pay21 i X2 X3 X0) (k0_pay22 i X2 X0 (start i S).m2)
    (k0_pay23 i X2 X0 (start i S).m2 (start i S).m2) (k0_pay24 i X2 X0 (start i S).m2)) $$ H
  unfold heldB heldC
  iintro ⟨⟨H2, H3, H4, H5, H6, H7, H8⟩, ⟨H9, H10, H11, H12, H13, H14⟩⟩
  dsimp only
  simp only [Prog.lift, Prog.bind_op, Prog.bind_ret, Prog.bind_assoc, Prog.pure_eq_ret]
  -- pass 3's stores
  iapply (sound_load _ _ _ _ _ hz2 _ _) $$ H13; iintro H13
  iapply (sound_load _ _ _ _ _ hz2 _ _) $$ H13; iintro H13
  iapply (sound_store _ _ _ _ _ hz2 _ _ _) $$ H13; iintro H13
  iapply (sound_load _ _ _ _ _ hz2 _ _) $$ H12; iintro H12
  iapply (sound_store _ _ _ _ _ hz2 _ _ _) $$ H12; iintro H12
  iapply (sound_load _ _ _ _ _ hz2 _ _) $$ H14; iintro H14
  iapply (sound_load _ _ _ _ _ hz2 _ _) $$ H14; iintro H14
  iapply (sound_store _ _ _ _ _ hz2 _ _ _) $$ H14; iintro H14
  by_cases h2 : k0_cond2 i = 1#1
  · -- the last tile: both results stored from the columns just written
    simp only [dif_pos h2, if_pos h2, Prog.lift, Prog.bind_op, Prog.bind_ret, Prog.bind_assoc, Prog.pure_eq_ret]
    iapply (sound_load _ _ _ _ _ hz2 _ _) $$ H9; iintro H9
    iapply (sound_load _ _ _ _ _ hz2 _ _) $$ H10; iintro H10
    iapply (sound_load _ _ _ _ _ hz2 _ _) $$ H11; iintro H11
    iapply (sound_load _ _ _ _ _ hz2 _ _) $$ H6; iintro H6
    iapply (sound_store _ _ _ _ _ hz2 _ _ _) $$ H6; iintro H6
    iapply (sound_load _ _ _ _ _ hz2 _ _) $$ H12; iintro H12
    iapply (sound_load _ _ _ _ _ hz2 _ _) $$ H13; iintro H13
    iapply (sound_load _ _ _ _ _ hz2 _ _) $$ H14; iintro H14
    iapply (sound_load _ _ _ _ _ hz2 _ _) $$ H7; iintro H7
    iapply (sound_store _ _ _ _ _ hz2 _ _ _) $$ H7; iintro H7
    sl_step
    iapply Hk
    simp only [point, step, nll2Blk, nll3Blk]
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    · isplitl [H9]; · iexact H9
      isplitl [H10]; · iexact H10
      isplitl [H11]; · iexact H11
      isplitl [H12]; · iexact H12
      isplitl [H13]; · iexact H13
      iexact H14
  · simp only [dif_neg h2, if_neg h2, Prog.lift, Prog.bind_op, Prog.bind_ret, Prog.bind_assoc, Prog.pure_eq_ret]
    sl_step
    iapply Hk
    simp only [point, step]
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    · isplitl [H9]; · iexact H9
      isplitl [H10]; · iexact H10
      isplitl [H11]; · iexact H11
      isplitl [H12]; · iexact H12
      isplitl [H13]; · iexact H13
      iexact H14

end Cert.Kernel.Body

end
-- ==== Proof.FrameB.lean ====
/- The frame claim of the word-level program: under the precondition every weakly fair execution of @main terminates,
   nothing faults, and the four argument arrays end as they were launched. Nothing is said of any value.

   The vocabulary window's last block runs past the end of the weight array, so after that fetch the tail of its staging
   buffer holds words nothing names; the matrix product reads its whole operand, so neither the six carried columns nor
   the three result columns have contents that could be written down before the run. A frame needs none of them. The
   proof data are therefore relational: of what the body leaves in a staging buffer they say only how it relates to what
   the body was handed there — unchanged for the two hidden tiles and the targets column, which later points of the same
   row tile read again without fetching them; nothing for the vocabulary tile (fetched afresh at every point) and for the
   three results. The carried columns live in the region invariant at SOME contents. The body's triple holds at any
   contents of its thirteen operands, and no branch, address or wait of the body depends on data, so the obligation is
   met whatever the buffers hold.

   After the region, @main only reads the results and writes buffers of its own; the arguments %arg0, %arg1, %arg3 are
   staged by no window (the region reads their reshaped copies) and %arg2 is an input window's own array, never written. -/
import proofs.«419146_j12747462935019_2_alg».proof.Defs
import proofs.«419146_j12747462935019_2_alg».proof.Proof.BodyB
import proofs.«419146_j12747462935019_2_alg».proof.Proof.Gen.Kernel.Frame
import proofs.«419146_j12747462935019_2_alg».proof.Proof.Gen.Pre_finite_inputs
import Idealize.ShloMosaic.Lib.Pipeline.FrameSuffix
import Idealize.ShloMosaic.Lib.Pipeline.Kit
import Idealize.ShloMosaic.Lib.Tactic

noncomputable section

namespace Cert.Kernel.FrameB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

local notation "𝕄" => MT nD τ sig Unit (Elt Bits) ℕ (UR sig nD τ) ℕ

variable (m : (ℓ : Loc nD τ sig) → Buf (Elt Bits) ℓ) (ρ : Dev nD → PrngReg)

/-! ## The proof data -/

/-- The relational proof data of the one pipeline on device `c`: each window's array as the region finds it; a staging
    buffer of the hidden tiles (windows 0, 1) and of the targets column (window 3) is handed back as it was found, of the
    other four nothing is said; the invariant is the class's (the six scratch columns at some contents, the generator
    register at some state); full shares; nothing owed. -/
def rdat (c : Dev nD) : RDat τ (Elt Bits) Unit ℕ (UR sig nD τ) ℕ cfg0 c where
  A w := Gen.V (F := Bits) m c (Pipeline.arrRef spec0 w)
  after w _ Y X := (w.val = 0 ∨ w.val = 1 ∨ w.val = 3) → X = Y
  Φ _ := Pipeline.ΦA spec0 c
  q _ := fullShare
  owed _ := 0

theorem share_full (c : Dev nD) (w : Fin cfg0.W) : (rdat m c).share w = fullShare := by
  unfold RDat.share; split <;> rfl

/-! ## The body obligation -/

/-- At every point, whatever the seven current staging buffers hold: the six scratch columns come out of the invariant at
    some contents, the body runs on all thirteen operands by its triple, the columns go back at the contents it left, the
    four input blocks are as they were and the three result blocks are whatever the triple says (of which nothing is asked). -/
theorem body_obligation (c : Dev nD) : (rdat m c).BodyObligation (defs₀ (F := Bits)) Body.𝒱₀ () Set.univ := fun t Y _ => by
  rw [Gen.bigSep_W0, Gen.bigSep_W0]
  rw [show (rdat m c).Φ t.castSucc = (Pipeline.ΦA spec0 c : sProp 𝕄) from rfl,
    show (rdat m c).Φ t.succ = (Pipeline.ΦA spec0 c : sProp 𝕄) from rfl,
    show (rdat m c).owesAt () t.succ = (rdat m c).owesAt () t.castSucc from rfl]
  unfold Pipeline.ΦA
  rw [Gen.scopedRest0_eq]
  iintro ⟨⟨⟨⟨%f0, H0⟩, ⟨%f1, H1⟩, ⟨%f2, H2⟩, ⟨%f3, H3⟩, ⟨%f4, H4⟩, ⟨%f5, H5⟩⟩, Hr⟩, Ho, Y0, Y1, Y2, Y3, Y4, Y5, Y6⟩
  iapply (Body.sound_body (F := Bits) c Set.univ (grid0.coords t) (cfg0.slots t 0) (cfg0.slots t 1) (cfg0.slots t 2)
    (cfg0.slots t 3) (cfg0.slots t 4) (cfg0.slots t 5) (cfg0.slots t 6) (Y 0) (Y 1) (Y 2) (Y 3) (Y 4) (Y 5) (Y 6)
    ⟨f0, f1, f2, f3, f4, f5⟩ _)
  unfold Body.blocks Body.cols
  simp only [owns_whole]
  isplitl [Y0 Y1 Y2 Y3 Y4 Y5 Y6]
  · isplitl [Y0]; · iexact Y0
    isplitl [Y1]; · iexact Y1
    isplitl [Y2]; · iexact Y2
    isplitl [Y3]; · iexact Y3
    isplitl [Y4]; · iexact Y4
    isplitl [Y5]; · iexact Y5
    iexact Y6
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨⟨Y0, Y1, Y2, Y3, Y4, Y5, Y6⟩, H0, H1, H2, H3, H4, H5⟩
  isplitl [H0 H1 H2 H3 H4 H5 Hr]
  · isplitr [Hr]
    · isplitl [H0]; · iexists _; iexact H0
      isplitl [H1]; · iexists _; iexact H1
      isplitl [H2]; · iexists _; iexact H2
      isplitl [H3]; · iexists _; iexact H3
      isplitl [H4]; · iexists _; iexact H4
      iexists _; iexact H5
    · iexact Hr
  isplitl [Ho]; · iexact Ho
  isplitl [Y0]
  · iexists Y 0; isplitr; · ipureintro; exact fun _ => rfl
    iexact Y0
  isplitl [Y1]
  · iexists Y 1; isplitr; · ipureintro; exact fun _ => rfl
    iexact Y1
  isplitl [Y2]
  · iexists Y 2; isplitr; · ipureintro; exact fun _ => rfl
    iexact Y2
  isplitl [Y3]
  · iexists Y 3; isplitr; · ipureintro; exact fun _ => rfl
    iexact Y3
  isplitl [Y4]
  · iexists _; isplitr
    on_goal 2 => iexact Y4
    ipureintro; exact fun h => absurd h (by decide)
  isplitl [Y5]
  · iexists _; isplitr
    on_goal 2 => iexact Y5
    ipureintro; exact fun h => absurd h (by decide)
  · iexists _; isplitr
    on_goal 2 => iexact Y6
    ipureintro; exact fun h => absurd h (by decide)

/-! ## The lines after the region -/

/-- The lines of @main after the region, as the generated launch module lists them. -/
abbrev tailOps : List (List (HloOp τ sig (Elt Bits))) := [hostOps1, hostOps1_1, hostOps1_2, hostOps1_3, hostOps1_4]

/-- The buffers those lines write: of these the run's post says nothing. -/
def T : Finset (Ref sig .tc) := by
  classical exact Finset.univ.filter fun b => ∃ op ∈ tailOps.flatten, Proc.devRef (τ := τ) .tc b ∈ op.writes

theorem writes_mem_T : ∀ ops ∈ tailOps, ∀ op ∈ ops, ∀ b : Ref sig .tc, Proc.devRef .tc b ∈ op.writes → b ∈ T := by
  classical
  intro ops hops op hop b hb
  exact Finset.mem_filter.mpr ⟨Finset.mem_univ _, op, List.mem_flatten.mpr ⟨ops, hops, hop⟩, hb⟩

/-- Each line after the region writes its own result buffer, which is none of %arg0, %arg1, %arg3. -/
theorem tail_keeps (a : Ref sig .tc) (ha : a = main_arg0 ∨ a = main_arg1 ∨ a = main_arg3) :
    ∀ op ∈ tailOps.flatten, Proc.devRef (τ := τ) .tc a ∉ op.writes := by
  rcases ha with rfl | rfl | rfl
  all_goals
    refine List.forall_iff_forall_mem.mp ?_
    simp only [tailOps, hostOps1, hostOps1_1, hostOps1_2, hostOps1_3, hostOps1_4, List.flatten_cons, List.flatten_nil, List.append_nil,
      List.cons_append, List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

theorem not_mem_T (a : Ref sig .tc) (ha : a = main_arg0 ∨ a = main_arg1 ∨ a = main_arg3) : a ∉ T := by
  classical
  intro h
  obtain ⟨-, op, hop, hw⟩ := Finset.mem_filter.mp h
  exact tail_keeps a ha op hop hw

/-! ## The run -/

/-- The launch, by the library's frame run for relational proof data around a region that @main continues after: every
    weakly fair execution terminates; each window's array ends at some contents the relations allow (an input array at its
    entry contents); every buffer that bypasses the region and that no later line writes ends as the region found it. -/
theorem run_main : θ_run defs (onTc (τ := τ) (main (F := Bits))) (s₀ m ρ)
    (Pipeline.RDat.FramePostR cfg0 (rdat m) T (fun c b => Gen.V0 (F := Bits) m c (Proc.devRef .tc b))) :=
  Pipeline.RDat.θ_run_frame_around_T cfgs 0 Gen.launch0 defs₀ Body.𝒱₀ (rdat m) T m ρ main
    (hbody := body_obligation m) (hshare := share_full m) (howed := fun _ _ => rfl)
    (V₀ := Gen.V0 m) (opss := tailOps)
    (hsub := Gen.sfx_sub) (hfresh := Gen.sfx_fresh) (hkeep := Gen.sfx_keeps) (hT := writes_mem_T)
    (hmain := Gen.hmain m Body.𝒱₀) (hA := fun _ _ => rfl) (hΦ := fun _ _ => rfl)

/-! ## The frame claim -/

/-- `Cert.frame_Kernel`: %arg2 is input window 2's own array, which the pipeline never writes; %arg0, %arg1 and %arg3 bypass
    the region, no line after it writes them, and no line before it did. -/
theorem frame_p : Cert.frame_Kernel := by
  intro m ρ _
  refine (θ_run defs _ _).mono (fun r h c => ⟨?_, ?_, ?_, ?_⟩) (run_main m ρ)
  · exact ((h c).2 main_arg0 (Finset.mem_sdiff.mpr ⟨Pipeline.mem_restRefs_of main_arg0 (by decide) (by decide),
      not_mem_T main_arg0 (.inl rfl)⟩)).trans (Gen.V_main_arg0 m c)
  · exact ((h c).2 main_arg1 (Finset.mem_sdiff.mpr ⟨Pipeline.mem_restRefs_of main_arg1 (by decide) (by decide),
      not_mem_T main_arg1 (.inr (.inl rfl))⟩)).trans (Gen.V_main_arg1 m c)
  · exact (Pipeline.RDat.FramePostR.arr_in h c 2 rfl).trans (Gen.V_main_arg2 m c)
  · exact ((h c).2 main_arg3 (Finset.mem_sdiff.mpr ⟨Pipeline.mem_restRefs_of main_arg3 (by decide) (by decide),
      not_mem_T main_arg3 (.inr (.inr rfl))⟩)).trans (Gen.V_main_arg3 m c)

end Cert.Kernel.FrameB

end
-- ==== Proof.KStep.lean ====
/- One grid point of the fused kernel as a pure function.

   A row tile of 2048 rows sweeps the vocabulary in 99 tiles of 512 columns. Across the sweep it carries, for each of the
   two passes, three columns: the running maximum of the masked logits, the running sum of exponentials taken against that
   maximum, and the accumulated logit at the row's target. At the first tile the columns start afresh (maximum -inf, sums 0)
   and the cosine column of the two hidden tiles is stored; at the last tile each pass stores maximum + log(sum) - target logit.
   Everything is written over the body's named values, so it reads the same at the word-level and at the exact instance. -/
import proofs.«419146_j12747462935019_2_alg».proof.Proof.Gen.KernelIdeal.Skeleton

noncomputable section

namespace Cert.KernelIdeal.KStep

open Idealize.ShloMosaic Cert.KernelIdeal Cert.KernelIdeal.Gen

variable {F : FTy → Type} [FloatOps F] [Named F]

/-- The six carried columns: running maximum, running sum of exponentials, accumulated target logit; pass 2, then pass 3. -/
structure St (F : FTy → Type) where
  m2 : Vec F S2048x1 .f32
  l2 : Vec F S2048x1 .f32
  tl2 : Vec F S2048x1 .f32
  m3 : Vec F S2048x1 .f32
  l3 : Vec F S2048x1 .f32
  tl3 : Vec F S2048x1 .f32

/-- The columns as the first vocabulary tile sets them: maxima at -inf, sums and target logits at 0. -/
def reset : St F := ⟨k0_pay6, k0_pay7, k0_pay8, k0_pay9, k0_pay10, k0_pay11⟩

/-- One vocabulary tile folded into the columns. `h2`, `h3` are the row tile's hidden blocks, `w` the 512 vocabulary rows
    as the staging buffer holds them (at the last tile its rows past the array's end are whatever was there), `tg` the
    targets column. Both passes read the OLD maximum twice (for the new maximum and for the rescaling factor) before it is
    overwritten. -/
def step (i : grid0.Coords) (h2 h3 : Vec F S2048x768 .f32) (w : Vec F S512x768 .f32) (tg : Vec F S2048x1 .i32) (s : St F) : St F where
  m2 := k0_pay26 (k0_pay22 i w h2 s.m2)
  l2 := k0_pay25 (k0_pay23 i w h2 s.m2 s.m2) (k0_pay24 i w h2 s.m2) s.l2
  tl2 := k0_pay27 (k0_pay21 i w tg h2) s.tl2
  m3 := k0_pay2 (k0_pay30 (k0_pay16 w) (k0_pay18 i) h3 s.m3)
  l3 := k0_pay1 (k0_pay31 (k0_pay16 w) (k0_pay18 i) h3 s.m3 s.m3) (k0_pay32 (k0_pay16 w) (k0_pay18 i) h3 s.m3) s.l3
  tl3 := k0_pay3 (k0_pay29 (k0_pay16 w) (k0_pay18 i) (k0_pay19 (F := F) i tg) h3) s.tl3

/-- A whole grid point: at the first vocabulary tile the columns are reset before the tile is folded in. -/
def point (i : grid0.Coords) (h2 h3 : Vec F S2048x768 .f32) (w : Vec F S512x768 .f32) (tg : Vec F S2048x1 .i32) (s : St F) : St F :=
  step i h2 h3 w tg (if k0_cond1 i = 1#1 then reset else s)

/-- The cosine column stored at the first vocabulary tile: row-wise  h2.h3 / (max |h2| eps * max |h3| eps). -/
def cosBlk (h2 h3 : Vec F S2048x768 .f32) : Vec F S2048x1 .f32 := k0_pay15 (k0_pay12 h2) (k0_pay13 h3) (k0_pay14 h2)

/-- What the last vocabulary tile stores for pass 2 and for pass 3: maximum + log(sum) - target logit. -/
def nll2Blk (s : St F) : Vec F S2048x1 .f32 := k0_pay4 s.m2 s.l2 s.tl2
def nll3Blk (s : St F) : Vec F S2048x1 .f32 := k0_pay5 s.m3 s.l3 s.tl3

/-- The carried columns after the first `n` vocabulary tiles of a sweep: tile `k` is at grid coordinates `i k` and finds the
    vocabulary rows `wt k` in its staging buffer; the hidden tiles and the targets column stay the same across the sweep.
    (Whatever `S0` is, it is forgotten at the first tile, where `point` resets.) -/
def sweep (i : ℕ → grid0.Coords) (h2 h3 : Vec F S2048x768 .f32) (wt : ℕ → Vec F S512x768 .f32) (tg : Vec F S2048x1 .i32) (S0 : St F) : ℕ → St F
  | 0 => S0
  | n + 1 => point (i n) h2 h3 (wt n) tg (sweep i h2 h3 wt tg S0 n)

end Cert.KernelIdeal.KStep

end
-- ==== Proof.Body.lean ====
/- The kernel body's triple: from the seven staging blocks and the six carried columns at any contents, one call of the
   fused kernel at grid coordinates `i` leaves the four input blocks as they were, rewrites each result block only at the
   vocabulary tile that stores it, and moves the carried columns by `KStep.point`. It holds at every float instance: the
   body's values are the named ones, whatever they denote.

   How it is proved. Every access of the body goes through the unit-stride rectangle of a buffer's own sizes at zero offsets,
   which places each index on itself: a load reads exactly the contents owned and an unmasked store replaces them by its payload
   (`sound_load`, `sound_store`, for any shape and element type). The three printed parts are run once over any thirteen memrefs
   and any continuation (`sound_part1`, `sound_part2`, `sound_part3`: the second splits on the first-tile condition and states
   what it leaves through `start`, the columns reset or as found); the body runs the parts, pass 3's three stores and, under the
   last-tile condition, the two result stores, and what the columns then hold is `KStep.point` field by field. -/
import proofs.«419146_j12747462935019_2_alg».proof.Proof.Gen.KernelIdeal.Frame
import proofs.«419146_j12747462935019_2_alg».proof.Proof.KStep
import Idealize.ShloMosaic.Lib.Pipeline.Kit
import Idealize.ShloMosaic.Lib.Tactic

noncomputable section

namespace Cert.KernelIdeal.Body

open Cert.KernelIdeal Cert.KernelIdeal.Gen Cert.KernelIdeal.KStep

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F] [Named F]

local notation "𝕄" => MT nD τ sig Unit (Elt F) ℕ (UR sig nD τ) ℕ

/-- The kernel's variants: none. -/
abbrev 𝒱₀ : Variants := Variants.none

section Steps

variable {s : Shape} {e : EltTy}

/-- The unit-stride rectangle of a shape's own sizes at zero offsets places every index on itself. -/
theorem emb_unit_zero {off : Fin s.rank → Nat} (h0 : off = fun _ => 0) (inb : ∀ a, off a + s.size a ≤ s.size a) (x : s.Idx) :
    (Rect.unit off s.size inb).emb x = x := by
  subst h0; exact Rect.emb_whole_apply s x

/-- A load through that rectangle reads what the memref holds; -/
theorem read_unit_zero (c : Dev nD) (M : Memref sig .tc .vmem s e) {off : Fin s.rank → Nat} (h0 : off = fun _ => 0)
    (inb : ∀ a, off a + s.size a ≤ s.size a) (f : Buf (Elt F) (M.view.loc (c : Thread nD τ))) :
    (M.access (Rect.unit off s.size inb)).read (Elt F) f = M.view.read (Elt F) f := by
  funext x
  show _root_.cast _ (f (M.view.emb ((Rect.unit off s.size inb).emb x))) = _root_.cast _ (f (M.view.emb x))
  rw [emb_unit_zero h0]

/-- an unmasked store through it leaves the memref holding the payload. -/
theorem read_write_unit_zero (c : Dev nD) (M : Memref sig .tc .vmem s e) {off : Fin s.rank → Nat} (h0 : off = fun _ => 0)
    (inb : ∀ a, off a + s.size a ≤ s.size a) (f : Buf (Elt F) (M.view.loc (c : Thread nD τ))) (w : s.Idx → Elt F e) :
    M.view.read (Elt F) ((M.access (Rect.unit off s.size inb)).write (Elt F) f w Finset.univ) = w := by
  funext y
  conv_lhs => rw [← emb_unit_zero h0 inb y]
  rw [View.read_slice_write_emb _ _ _ (Finset.mem_univ _)]

/-- A load of a whole memref owned at `X`: the program goes on at `X`, the memref as it was. -/
theorem sound_load (c : Dev nD) (E : Set ℕ) (M : Memref sig .tc .vmem s e) (q : PosShare TreeShare) (X : s.Idx → Elt F e)
    {off : Fin s.rank → Nat} (h0 : off = fun _ => 0) (inb : ∀ a, off a + s.size a ≤ s.size a) (hl)
    {β : Type} {kk : (s.Idx → Elt F e) → Prog (TpuEff nD τ sig (Elt F) Λ₀ .tc) β} {K : β → sProp 𝕄} :
    owns (c : Thread nD τ) M q X
      ⊢ iprop((owns (c : Thread nD τ) M q X -∗ wp frame (wpE (defs₀ (F := F)) 𝒱₀ c none) E (kk X) K)
          -∗ wp frame (wpE (defs₀ (F := F)) 𝒱₀ c none) E (.op (.load M (Rect.unit off s.size inb).toLoadRect hl) kk) K) := by
  unfold owns
  iintro ⟨%f, %hf, H⟩ Hk
  iapply (wp_load_rect 𝒱₀ (c : Thread nD τ) none E (m := M) (r := Rect.unit off s.size inb) (View.set_slice_subset _ _)) $$ H
  iintro H
  rw [read_unit_zero c M h0 inb f, hf]
  iapply Hk
  iexists f; isplitr; · ipureintro; exact hf
  iexact H

/-- An unmasked store of `w` through a whole memref owned at anything: the program goes on with the memref at `w`. -/
theorem sound_store (c : Dev nD) (E : Set ℕ) (M : Memref sig .tc .vmem s e) (X w : s.Idx → Elt F e)
    {off : Fin s.rank → Nat} (h0 : off = fun _ => 0) (inb : ∀ a, off a + s.size a ≤ s.size a) (hx) (hm)
    {β : Type} {kk : PUnit.{1} → Prog (TpuEff nD τ sig (Elt F) Λ₀ .tc) β} {K : β → sProp 𝕄} :
    owns (c : Thread nD τ) M fullShare X
      ⊢ iprop((owns (c : Thread nD τ) M fullShare w -∗ wp frame (wpE (defs₀ (F := F)) 𝒱₀ c none) E (kk ⟨⟩) K)
          -∗ wp frame (wpE (defs₀ (F := F)) 𝒱₀ c none) E (.op (.store M (Rect.unit off s.size inb) w Finset.univ hx hm) kk) K) := by
  unfold owns
  iintro ⟨%f, -, H⟩ Hk
  iapply (wp_store 𝒱₀ (c : Thread nD τ) none E (m := M) (r := Rect.unit off s.size inb) (Mk := Finset.univ) (View.set_slice_subset _ _)) $$ H
  iintro H
  iapply Hk
  iexists _; isplitr
  swap; · iexact H
  ipureintro; rw [read_write_unit_zero c M h0 inb]

end Steps

section Parts

variable (c : Dev nD) (E : Set ℕ) (i : grid0.Coords)
  {A2 A3 : Memref sig .tc .vmem S2048x768 .f32} {A4 : Memref sig .tc .vmem S512x768 .f32} {A5 : Memref sig .tc .vmem S2048x1 .i32}
  {A6 A7 A8 A9 A10 A11 A12 A13 A14 : Memref sig .tc .vmem S2048x1 .f32}
  {w2 : A2.IsWhole} {w3 : A3.IsWhole} {w4 : A4.IsWhole} {w5 : A5.IsWhole} {w6 : A6.IsWhole} {w7 : A7.IsWhole} {w8 : A8.IsWhole}
  {w9 : A9.IsWhole} {w10 : A10.IsWhole} {w11 : A11.IsWhole} {w12 : A12.IsWhole} {w13 : A13.IsWhole} {w14 : A14.IsWhole}

/-- The seven block memrefs the body is passed, each owned whole at given contents; -/
def heldB (A2 A3 : Memref sig .tc .vmem S2048x768 .f32) (A4 : Memref sig .tc .vmem S512x768 .f32) (A5 : Memref sig .tc .vmem S2048x1 .i32)
    (A6 A7 A8 : Memref sig .tc .vmem S2048x1 .f32) (X0 X1 : Vec F S2048x768 .f32) (X2 : Vec F S512x768 .f32) (X3 : Vec F S2048x1 .i32) (X4 X5 X6 : Vec F S2048x1 .f32) : sProp 𝕄 :=
  iprop(owns (c : Thread nD τ) A2 fullShare X0 ∗ owns (c : Thread nD τ) A3 fullShare X1
    ∗ owns (c : Thread nD τ) A4 fullShare X2 ∗ owns (c : Thread nD τ) A5 fullShare X3
    ∗ owns (c : Thread nD τ) A6 fullShare X4 ∗ owns (c : Thread nD τ) A7 fullShare X5
    ∗ owns (c : Thread nD τ) A8 fullShare X6)

/-- and the six column memrefs. -/
def heldC (A9 A10 A11 A12 A13 A14 : Memref sig .tc .vmem S2048x1 .f32) (m2 l2 tl2 m3 l3 tl3 : Vec F S2048x1 .f32) : sProp 𝕄 :=
  iprop(owns (c : Thread nD τ) A9 fullShare m2 ∗ owns (c : Thread nD τ) A10 fullShare l2
    ∗ owns (c : Thread nD τ) A11 fullShare tl2 ∗ owns (c : Thread nD τ) A12 fullShare m3
    ∗ owns (c : Thread nD τ) A13 fullShare l3 ∗ owns (c : Thread nD τ) A14 fullShare tl3)

theorem hz2 : (![0, 0] : Fin 2 → Nat) = fun _ => 0 := funext fun a => by fin_cases a <;> rfl

/-- The columns a tile is folded into: reset at the first vocabulary tile, else as they were found. -/
abbrev start (i : grid0.Coords) (S : St F) : St F := if k0_cond1 i = 1#1 then reset else S

/-- The first tile's opening: each of the six columns is loaded (the value unused) and overwritten with its starting value,
    then the two hidden blocks are loaded. -/
theorem sound_part1 (X0 X1 : Vec F S2048x768 .f32) (X2 : Vec F S512x768 .f32) (X3 : Vec F S2048x1 .i32) (X4 X5 X6 : Vec F S2048x1 .f32)
    (m2 l2 tl2 m3 l3 tl3 : Vec F S2048x1 .f32) {β : Type}
    {kk : (Σ' (_ : FVec F S2048x768 .f32) (_ : FVec F S2048x768 .f32), FVec F S2048x1 .f32) → Prog (TpuEff nD τ sig (Elt F) Λ₀ .tc) β} {K : β → sProp 𝕄} :
    iprop(heldB c A2 A3 A4 A5 A6 A7 A8 X0 X1 X2 X3 X4 X5 X6 ∗ heldC c A9 A10 A11 A12 A13 A14 m2 l2 tl2 m3 l3 tl3)
      ⊢ iprop((iprop(heldB c A2 A3 A4 A5 A6 A7 A8 X0 X1 X2 X3 X4 X5 X6
                  ∗ heldC c A9 A10 A11 A12 A13 A14 (k0_pay6 (F := F)) (k0_pay7 (F := F)) (k0_pay8 (F := F)) (k0_pay9 (F := F)) (k0_pay10 (F := F)) (k0_pay11 (F := F)))
              -∗ wp frame (wpE (defs₀ (F := F)) 𝒱₀ c none) E (kk ⟨k0_pay12 X0, k0_pay13 X1, k0_pay14 X0⟩) K)
          -∗ wp frame (wpE (defs₀ (F := F)) 𝒱₀ c none) E
              (k0_part1 i A2 w2 A3 w3 A4 w4 A5 w5 A6 w6 A7 w7 A8 w8 A9 w9 A10 w10 A11 w11 A12 w12 A13 w13 A14 w14 >>= kk) K) := by
  simp only [k0_part1_eq_skeleton]; unfold k0_part1_skel heldB heldC
  simp only [Prog.lift, Prog.bind_op, Prog.bind_ret, Prog.bind_assoc, Prog.pure_eq_ret]
  iintro ⟨⟨H2, H3, H4, H5, H6, H7, H8⟩, ⟨H9, H10, H11, H12, H13, H14⟩⟩ Hk
  iapply (sound_load _ _ _ _ _ hz2 _ _) $$ H9; iintro H9
  iapply (sound_store _ _ _ _ _ hz2 _ _ _) $$ H9; iintro H9
  iapply (sound_load _ _ _ _ _ hz2 _ _) $$ H10; iintro H10
  iapply (sound_store _ _ _ _ _ hz2 _ _ _) $$ H10; iintro H10
  iapply (sound_load _ _ _ _ _ hz2 _ _) $$ H11; iintro H11
  iapply (sound_store _ _ _ _ _ hz2 _ _ _) $$ H11; iintro H11
  iapply (sound_load _ _ _ _ _ hz2 _ _) $$ H12; iintro H12
  iapply (sound_store _ _ _ _ _ hz2 _ _ _) $$ H12; iintro H12
  iapply (sound_load _ _ _ _ _ hz2 _ _) $$ H13; iintro H13
  iapply (sound_store _ _ _ _ _ hz2 _ _ _) $$ H13; iintro H13
  iapply (sound_load _ _ _ _ _ hz2 _ _) $$ H14; iintro H14
  iapply (sound_store _ _ _ _ _ hz2 _ _ _) $$ H14; iintro H14
  iapply (sound_load _ _ _ _ _ hz2 _ _) $$ H2; iintro H2
  iapply (sound_load _ _ _ _ _ hz2 _ _) $$ H3; iintro H3
  iapply Hk
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  · isplitl [H9]; · iexact H9
    isplitl [H10]; · iexact H10
    isplitl [H11]; · iexact H11
    isplitl [H12]; · iexact H12
    isplitl [H13]; · iexact H13
    iexact H14

/-- The first half of a tile. At the first vocabulary tile the columns are reset and the cosine block is stored (what the block
    held is loaded and dropped); then, at every tile, the vocabulary rows, the targets and the first hidden block are loaded,
    and pass 2's running maximum twice. -/
theorem sound_part2 (X0 X1 : Vec F S2048x768 .f32) (X2 : Vec F S512x768 .f32) (X3 : Vec F S2048x1 .i32) (X4 X5 X6 : Vec F S2048x1 .f32) (S : St F) {β : Type}
    {kk : (Σ' (_ : BitVec 32) (_ : FVec F S512x768 .bf16) (_ : IVec S2048x512 1) (_ : IVec S2048x512 1) (_ : FVec F S2048x1 .f32) (_ : FVec F S2048x1 .f32) (_ : FVec F S2048x1 .f32), FVec F S2048x512 .f32) → Prog (TpuEff nD τ sig (Elt F) Λ₀ .tc) β} {K : β → sProp 𝕄} :
    iprop(heldB c A2 A3 A4 A5 A6 A7 A8 X0 X1 X2 X3 X4 X5 X6 ∗ heldC c A9 A10 A11 A12 A13 A14 S.m2 S.l2 S.tl2 S.m3 S.l3 S.tl3)
      ⊢ iprop((iprop(heldB c A2 A3 A4 A5 A6 A7 A8 X0 X1 X2 X3 X4 X5 (if k0_cond1 i = 1#1 then cosBlk X0 X1 else X6)
                  ∗ heldC c A9 A10 A11 A12 A13 A14 (start i S).m2 (start i S).l2 (start i S).tl2 (start i S).m3 (start i S).l3 (start i S).tl3)
              -∗ wp frame (wpE (defs₀ (F := F)) 𝒱₀ c none) E (kk ⟨BitVec.ofNat 32 (i 1).val, k0_pay16 X2, k0_pay18 i, k0_pay19 i X3, k0_pay21 i X2 X3 X0,
                    k0_pay22 i X2 X0 (start i S).m2, k0_pay23 i X2 X0 (start i S).m2 (start i S).m2, k0_pay24 i X2 X0 (start i S).m2⟩) K)
          -∗ wp frame (wpE (defs₀ (F := F)) 𝒱₀ c none) E
              (k0_part2 i A2 w2 A3 w3 A4 w4 A5 w5 A6 w6 A7 w7 A8 w8 A9 w9 A10 w10 A11 w11 A12 w12 A13 w13 A14 w14 >>= kk) K) := by
  simp only [k0_part2_eq_skeleton]; unfold k0_part2_skel
  by_cases h1 : k0_cond1 i = 1#1
  · simp only [start, dif_pos h1, if_pos h1, reset, cosBlk, Prog.bind_assoc]
    iintro H Hk
    iapply (sound_part1 c E i X0 X1 X2 X3 X4 X5 X6 S.m2 S.l2 S.tl2 S.m3 S.l3 S.tl3) $$ H
    unfold heldB heldC
    iintro ⟨⟨H2, H3, H4, H5, H6, H7, H8⟩, ⟨H9, H10, H11, H12, H13, H14⟩⟩
    dsimp only
    simp only [Prog.lift, Prog.bind_op, Prog.bind_ret, Prog.bind_assoc, Prog.pure_eq_ret]
    iapply (sound_load _ _ _ _ _ hz2 _ _) $$ H8; iintro H8
    iapply (sound_store _ _ _ _ _ hz2 _ _ _) $$ H8; iintro H8
    iapply (sound_load _ _ _ _ _ hz2 _ _) $$ H4; iintro H4
    iapply (sound_load _ _ _ _ _ hz2 _ _) $$ H5; iintro H5
    iapply (sound_load _ _ _ _ _ hz2 _ _) $$ H2; iintro H2
    iapply (sound_load _ _ _ _ _ hz2 _ _) $$ H9; iintro H9
    iapply (sound_load _ _ _ _ _ hz2 _ _) $$ H9; iintro H9
    iapply Hk
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    · isplitl [H9]; · iexact H9
      isplitl [H10]; · iexact H10
      isplitl [H11]; · iexact H11
      isplitl [H12]; · iexact H12
      isplitl [H13]; · iexact H13
      iexact H14
  · simp only [start, dif_neg h1, if_neg h1, Prog.lift, Prog.bind_op, Prog.bind_ret, Prog.bind_assoc, Prog.pure_eq_ret]
    unfold heldB heldC
    iintro ⟨⟨H2, H3, H4, H5, H6, H7, H8⟩, ⟨H9, H10, H11, H12, H13, H14⟩⟩ Hk
    iapply (sound_load _ _ _ _ _ hz2 _ _) $$ H4; iintro H4
    iapply (sound_load _ _ _ _ _ hz2 _ _) $$ H5; iintro H5
    iapply (sound_load _ _ _ _ _ hz2 _ _) $$ H2; iintro H2
    iapply (sound_load _ _ _ _ _ hz2 _ _) $$ H9; iintro H9
    iapply (sound_load _ _ _ _ _ hz2 _ _) $$ H9; iintro H9
    iapply Hk
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    · isplitl [H9]; · iexact H9
      isplitl [H10]; · iexact H10
      isplitl [H11]; · iexact H11
      isplitl [H12]; · iexact H12
      isplitl [H13]; · iexact H13
      iexact H14

/-- The second half of pass 2 and the loads of pass 3: the running sum, the running maximum and the target logit of pass 2 are
    each loaded and overwritten (the sum and the target logit loaded twice, the second value unused; the maximum's load unused),
    then the second hidden block is loaded and pass 3's running maximum twice. -/
theorem sound_part3 (X0 X1 : Vec F S2048x768 .f32) (X2 : Vec F S512x768 .f32) (X3 : Vec F S2048x1 .i32) (X4 X5 X6 : Vec F S2048x1 .f32)
    (m2 l2 tl2 m3 l3 tl3 : Vec F S2048x1 .f32) (v4 : FVec F S512x768 .bf16) (v10 v14 : IVec S2048x512 1)
    (v25 v29 v32 : FVec F S2048x1 .f32) (v35 : FVec F S2048x512 .f32) {β : Type}
    {kk : (Σ' (_ : FVec F S2048x1 .f32) (_ : FVec F S2048x1 .f32) (_ : FVec F S2048x1 .f32), FVec F S2048x512 .f32) → Prog (TpuEff nD τ sig (Elt F) Λ₀ .tc) β} {K : β → sProp 𝕄} :
    iprop(heldB c A2 A3 A4 A5 A6 A7 A8 X0 X1 X2 X3 X4 X5 X6 ∗ heldC c A9 A10 A11 A12 A13 A14 m2 l2 tl2 m3 l3 tl3)
      ⊢ iprop((iprop(heldB c A2 A3 A4 A5 A6 A7 A8 X0 X1 X2 X3 X4 X5 X6
                  ∗ heldC c A9 A10 A11 A12 A13 A14 (k0_pay26 v29) (k0_pay25 v32 v35 l2) (k0_pay27 v25 tl2) m3 l3 tl3)
              -∗ wp frame (wpE (defs₀ (F := F)) 𝒱₀ c none) E (kk ⟨k0_pay29 v4 v10 v14 X1, k0_pay30 v4 v10 X1 m3, k0_pay31 v4 v10 X1 m3 m3, k0_pay32 v4 v10 X1 m3⟩) K)
          -∗ wp frame (wpE (defs₀ (F := F)) 𝒱₀ c none) E
              (k0_part3 i A2 w2 A3 w3 A4 w4 A5 w5 A6 w6 A7 w7 A8 w8 A9 w9 A10 w10 A11 w11 A12 w12 A13 w13 A14 w14 v4 v10 v14 v25 v29 v32 v35 >>= kk) K) := by
  simp only [k0_part3_eq_skeleton]; unfold k0_part3_skel heldB heldC
  simp only [Prog.lift, Prog.bind_op, Prog.bind_ret, Prog.bind_assoc, Prog.pure_eq_ret]
  iintro ⟨⟨H2, H3, H4, H5, H6, H7, H8⟩, ⟨H9, H10, H11, H12, H13, H14⟩⟩ Hk
  iapply (sound_load _ _ _ _ _ hz2 _ _) $$ H10; iintro H10
  iapply (sound_load _ _ _ _ _ hz2 _ _) $$ H10; iintro H10
  iapply (sound_store _ _ _ _ _ hz2 _ _ _) $$ H10; iintro H10
  iapply (sound_load _ _ _ _ _ hz2 _ _) $$ H9; iintro H9
  iapply (sound_store _ _ _ _ _ hz2 _ _ _) $$ H9; iintro H9
  iapply (sound_load _ _ _ _ _ hz2 _ _) $$ H11; iintro H11
  iapply (sound_load _ _ _ _ _ hz2 _ _) $$ H11; iintro H11
  iapply (sound_store _ _ _ _ _ hz2 _ _ _) $$ H11; iintro H11
  iapply (sound_load _ _ _ _ _ hz2 _ _) $$ H3; iintro H3
  iapply (sound_load _ _ _ _ _ hz2 _ _) $$ H12; iintro H12
  iapply (sound_load _ _ _ _ _ hz2 _ _) $$ H12; iintro H12
  iapply Hk
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  · isplitl [H9]; · iexact H9
    isplitl [H10]; · iexact H10
    isplitl [H11]; · iexact H11
    isplitl [H12]; · iexact H12
    isplitl [H13]; · iexact H13
    iexact H14

end Parts

/-- The six carried columns, each its whole scratch buffer, at the contents `S`. -/
def cols (c : Dev nD) (S : St F) : sProp 𝕄 :=
  iprop(owns (c : Thread nD τ) (Memref.whole cc0_scratch0) fullShare S.m2 ∗ owns (c : Thread nD τ) (Memref.whole cc0_scratch1) fullShare S.l2
    ∗ owns (c : Thread nD τ) (Memref.whole cc0_scratch2) fullShare S.tl2 ∗ owns (c : Thread nD τ) (Memref.whole cc0_scratch3) fullShare S.m3
    ∗ owns (c : Thread nD τ) (Memref.whole cc0_scratch4) fullShare S.l3 ∗ owns (c : Thread nD τ) (Memref.whole cc0_scratch5) fullShare S.tl3)

/-- The seven staging blocks (two hidden tiles, the vocabulary tile, the targets column, the three result columns), each on
    the buffer its window is on. -/
def blocks (c : Dev nD) (s0 s1 s2 s3 s4 s5 s6 : Fin 2) (X0 X1 : Vec F S2048x768 .f32) (X2 : Vec F S512x768 .f32) (X3 : Vec F S2048x1 .i32)
    (X4 X5 X6 : Vec F S2048x1 .f32) : sProp 𝕄 :=
  iprop(owns (c : Thread nD τ) (stage0_0 s0) fullShare X0 ∗ owns (c : Thread nD τ) (stage0_1 s1) fullShare X1
    ∗ owns (c : Thread nD τ) (stage0_2 s2) fullShare X2 ∗ owns (c : Thread nD τ) (stage0_3 s3) fullShare X3
    ∗ owns (c : Thread nD τ) (stage0_4 s4) fullShare X4 ∗ owns (c : Thread nD τ) (stage0_5 s5) fullShare X5
    ∗ owns (c : Thread nD τ) (stage0_6 s6) fullShare X6)

/-- The body at coordinates `i`. -/
theorem sound_body (c : Dev nD) (E : Set ℕ) (i : grid0.Coords) (s0 s1 s2 s3 s4 s5 s6 : Fin 2)
    (X0 X1 : Vec F S2048x768 .f32) (X2 : Vec F S512x768 .f32) (X3 : Vec F S2048x1 .i32) (X4 X5 X6 : Vec F S2048x1 .f32)
    (S : St F) (K : PUnit → sProp 𝕄) :
    iprop(blocks c s0 s1 s2 s3 s4 s5 s6 X0 X1 X2 X3 X4 X5 X6 ∗ cols c S
          ∗ (iprop(blocks c s0 s1 s2 s3 s4 s5 s6 X0 X1 X2 X3
                    (if k0_cond2 i = 1#1 then nll2Blk (point i X0 X1 X2 X3 S) else X4)
                    (if k0_cond2 i = 1#1 then nll3Blk (point i X0 X1 X2 X3 S) else X5)
                    (if k0_cond1 i = 1#1 then cosBlk X0 X1 else X6)
                  ∗ cols c (point i X0 X1 X2 X3 S)) -∗ K ⟨⟩))
      ⊢ wp frame (wpE (defs₀ (F := F)) 𝒱₀ c none) E
          (cc0__fused_kernel i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5) (stage0_6 s6) (hstage0_6 s6)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)) K := by
  -- the blocks and the columns as the parts hold them: the same conjunctions, over the memrefs the body is called on
  have hb : ∀ (Y0 Y1 : Vec F S2048x768 .f32) (Y2 : Vec F S512x768 .f32) (Y3 : Vec F S2048x1 .i32) (Y4 Y5 Y6 : Vec F S2048x1 .f32),
      (blocks c s0 s1 s2 s3 s4 s5 s6 Y0 Y1 Y2 Y3 Y4 Y5 Y6 : sProp 𝕄) = heldB c (stage0_0 s0) (stage0_1 s1) (stage0_2 s2) (stage0_3 s3) (stage0_4 s4) (stage0_5 s5) (stage0_6 s6) Y0 Y1 Y2 Y3 Y4 Y5 Y6 :=
    fun _ _ _ _ _ _ _ => rfl
  have hc : ∀ T : St F, (cols c T : sProp 𝕄) = heldC c (Memref.whole cc0_scratch0) (Memref.whole cc0_scratch1) (Memref.whole cc0_scratch2) (Memref.whole cc0_scratch3) (Memref.whole cc0_scratch4) (Memref.whole cc0_scratch5) T.m2 T.l2 T.tl2 T.m3 T.l3 T.tl3 := fun _ => rfl
  simp only [hb, hc, cc0__fused_kernel_eq_skeleton]; unfold cc0__fused_kernel_skel
  iintro ⟨Hb, Hc, Hk⟩
  -- the first half of the tile, under the first condition
  iapply (sound_part2 c E i X0 X1 X2 X3 X4 X5 X6 S) $$ [Hb Hc]
  · isplitl [Hb]; · iexact Hb
    iexact Hc
  iintro H
  dsimp only
  -- pass 2's stores and pass 3's loads
  iapply (sound_part3 c E i X0 X1 X2 X3 X4 X5 (if k0_cond1 i = 1#1 then cosBlk X0 X1 else X6)
    (start i S).m2 (start i S).l2 (start i S).tl2 (start i S).m3 (start i S).l3 (start i S).tl3
    (k0_pay16 X2) (k0_pay18 i) (k0_pay19 i X3) (k0_pay21 i X2 X3 X0) (k0_pay22 i X2 X0 (start i S).m2)
    (k0_pay23 i X2 X0 (start i S).m2 (start i S).m2) (k0_pay24 i X2 X0 (start i S).m2)) $$ H
  unfold heldB heldC
  iintro ⟨⟨H2, H3, H4, H5, H6, H7, H8⟩, ⟨H9, H10, H11, H12, H13, H14⟩⟩
  dsimp only
  simp only [Prog.lift, Prog.bind_op, Prog.bind_ret, Prog.bind_assoc, Prog.pure_eq_ret]
  -- pass 3's stores
  iapply (sound_load _ _ _ _ _ hz2 _ _) $$ H13; iintro H13
  iapply (sound_load _ _ _ _ _ hz2 _ _) $$ H13; iintro H13
  iapply (sound_store _ _ _ _ _ hz2 _ _ _) $$ H13; iintro H13
  iapply (sound_load _ _ _ _ _ hz2 _ _) $$ H12; iintro H12
  iapply (sound_store _ _ _ _ _ hz2 _ _ _) $$ H12; iintro H12
  iapply (sound_load _ _ _ _ _ hz2 _ _) $$ H14; iintro H14
  iapply (sound_load _ _ _ _ _ hz2 _ _) $$ H14; iintro H14
  iapply (sound_store _ _ _ _ _ hz2 _ _ _) $$ H14; iintro H14
  by_cases h2 : k0_cond2 i = 1#1
  · -- the last tile: both results stored from the columns just written
    simp only [dif_pos h2, if_pos h2, Prog.lift, Prog.bind_op, Prog.bind_ret, Prog.bind_assoc, Prog.pure_eq_ret]
    iapply (sound_load _ _ _ _ _ hz2 _ _) $$ H9; iintro H9
    iapply (sound_load _ _ _ _ _ hz2 _ _) $$ H10; iintro H10
    iapply (sound_load _ _ _ _ _ hz2 _ _) $$ H11; iintro H11
    iapply (sound_load _ _ _ _ _ hz2 _ _) $$ H6; iintro H6
    iapply (sound_store _ _ _ _ _ hz2 _ _ _) $$ H6; iintro H6
    iapply (sound_load _ _ _ _ _ hz2 _ _) $$ H12; iintro H12
    iapply (sound_load _ _ _ _ _ hz2 _ _) $$ H13; iintro H13
    iapply (sound_load _ _ _ _ _ hz2 _ _) $$ H14; iintro H14
    iapply (sound_load _ _ _ _ _ hz2 _ _) $$ H7; iintro H7
    iapply (sound_store _ _ _ _ _ hz2 _ _ _) $$ H7; iintro H7
    sl_step
    iapply Hk
    simp only [point, step, nll2Blk, nll3Blk]
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    · isplitl [H9]; · iexact H9
      isplitl [H10]; · iexact H10
      isplitl [H11]; · iexact H11
      isplitl [H12]; · iexact H12
      isplitl [H13]; · iexact H13
      iexact H14
  · simp only [dif_neg h2, if_neg h2, Prog.lift, Prog.bind_op, Prog.bind_ret, Prog.bind_assoc, Prog.pure_eq_ret]
    sl_step
    iapply Hk
    simp only [point, step]
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    · isplitl [H9]; · iexact H9
      isplitl [H10]; · iexact H10
      isplitl [H11]; · iexact H11
      isplitl [H12]; · iexact H12
      isplitl [H13]; · iexact H13
      iexact H14

end Cert.KernelIdeal.Body

end
-- ==== Proof.PayTile.lean ====
/- The masked logits tile of one grid point, read entry by entry at the exact instance.

   A grid point multiplies the row tile's hidden block (2048 rows of width 768) with the transposed vocabulary tile (512
   rows of width 768), and replaces every column whose index `512 k + j` is not below 50257 by the fill, which denotes the
   bottom of the extended reals. So the entry `(r, j)` of the masked tile is the sum over the width of
   `hidden (r, d) * tile (j, d)` when column `j` is inside the vocabulary and the bottom otherwise, whatever the product put
   there. Around that fact: the layout moves between a 2048-vector, a column and a tile; the lane sum and the lane maximum
   of a tile as a sum and a fold of `max` over the 512 columns; the column index word, the mask and the target one-hot. Both
   passes mask the product with the same tile in the same way, and a tile enters a grid point through these masked
   logits only. -/
import proofs.«419146_j12747462935019_2_alg».proof.Proof.KStep
import Idealize.ShloMosaic.PureOps.Ideal.Laws
import Idealize.ShloMosaic.Lib.ValueIdx
import Idealize.ShloMosaic.Lib.Pipeline.Value
import Idealize.ShloMosaic.Lib.Affine
import Idealize.ShloMosaic.Lib.WordArith

noncomputable section

namespace Cert.KernelIdeal.PayTile

open Idealize.ShloMosaic Idealize.ShloMosaic.ValueIdx Cert.KernelIdeal Cert.KernelIdeal.Gen Cert.KernelIdeal.KStep

/-! ## Layout moves between a 2048-vector, a 2048 x 1 column and a 2048 x 512 tile -/

section Layout
variable {α : Type}

/-- A vector viewed as a column reads, at row `r`, the vector's entry `r`. -/
theorem col_of_vec (v : S2048.Idx → α) (h : S2048.ShapeCasts S2048x1) (r : Fin 2048) (c : Fin 1) :
    shapeCast S2048x1 v h (ix2 r c) = v (ix1 r) :=
  shapeCast_apply v h _ _ (by
    rw [Shape.rowMajor_val_one, Shape.rowMajor_val_two]
    show r.val = r.val * 1 + c.val
    omega)

/-- A column copied along the 512 lanes reads, at `(r, j)`, the column's row `r`. -/
theorem bcast_col (v : S2048x1.Idx → α) (h : S2048x1.Broadcasts S2048x512) (r : Fin 2048) (j : Fin 512) :
    broadcastTo S2048x512 v h (ix2 r j) = v (ix2 r 0) := by
  refine broadcastTo_apply v h (ix2 r j) (ix2 r 0) fun ax => ?_
  match ax with
  | ⟨0, _⟩ => rfl
  | ⟨1, _⟩ => rfl

end Layout

/-! ## The two lane reductions of a tile, read at a row -/

/-- The pattern of f32's negative infinity denotes the bottom of the extended reals. -/
theorem ofBits_neg_inf : Ideal.ofBits .f32 0xFF800000#32 = ⊥ := by simp [Ideal.ofBits, Ideal.ieee]

/-- The lane sum of a tile at row `r` is the sum over the row's 512 columns. -/
theorem sum_row (src : FVec Ideal S2048x512 .f32) (h : S2048x512.Reduces [1] S2048) (hφ : FKind.Formats .f32)
    (hacc : (0x00000000#32 : BitVec 32) = FKind.add.neutral .f32 hφ) (r : Fin 2048) :
    multiReduction .add [1] S2048 src 0x00000000#32 h hφ hacc (ix1 r) = ∑ j : Fin 512, src (ix2 r j) := by
  refine (Ideal.multiReduction_add_single src _ h hφ hacc (ix1 r)).trans ?_
  refine Finset.sum_congr rfl fun k _ => congrArg src ?_
  funext a
  match a with
  | ⟨0, _⟩ => rfl
  | ⟨1, _⟩ => rfl

/-- The lane maximum of a tile at row `r`, started at negative infinity, is the fold of `max` from the bottom over the row's
    512 columns. -/
theorem max_row (src : FVec Ideal S2048x512 .f32) (h : S2048x512.Reduces [1] S2048) (hφ : FKind.Formats .f32)
    (hacc : (0xFF800000#32 : BitVec 32) = FKind.maximumf.neutral .f32 hφ) (r : Fin 2048) :
    multiReduction .maximumf [1] S2048 src 0xFF800000#32 h hφ hacc (ix1 r)
      = (Finset.univ : Finset (Fin 512)).fold max ⊥ fun j => src (ix2 r j) := by
  refine (Ideal.multiReduction_maximumf_single src _ h hφ hacc (ix1 r)).trans ?_
  have e : (src ∘ h.lift (ix1 r)) = fun j : Fin 512 => src (ix2 r j) :=
    funext fun k => congrArg src (funext fun a => match a with | ⟨0, _⟩ => rfl | ⟨1, _⟩ => rfl)
  rw [e, Ideal.ofBits_def, ofBits_neg_inf]
  rfl

/-! ## The product of the hidden block with the transposed vocabulary tile -/

theorem lhs_ax0 (i : S2048x512.Idx) (q : dot_S2048x768_S768x512_S2048x512_1_0_0_1_n_n.contr.Idx) :
    (dot_S2048x768_S768x512_S2048x512_1_0_0_1_n_n.lhsIdx i q 0).val = (i 0).val := by
  unfold DotDims.lhsIdx
  rw [dif_neg (show ¬(0 : Fin S2048x768.rank) ∈ dot_S2048x768_S768x512_S2048x512_1_0_0_1_n_n.lhsBatch by decide), dif_pos (show (0 : Fin S2048x768.rank) ∈ dot_S2048x768_S768x512_S2048x512_1_0_0_1_n_n.lhsNonContracting by decide)]
  rfl
theorem lhs_ax1 (i : S2048x512.Idx) (q : dot_S2048x768_S768x512_S2048x512_1_0_0_1_n_n.contr.Idx) :
    (dot_S2048x768_S768x512_S2048x512_1_0_0_1_n_n.lhsIdx i q 1).val = (q ⟨0, by decide⟩).val :=
  dot_S2048x768_S768x512_S2048x512_1_0_0_1_n_n.lhsIdx_val_of_single rfl i q
theorem rhs_ax0 (i : S2048x512.Idx) (q : dot_S2048x768_S768x512_S2048x512_1_0_0_1_n_n.contr.Idx) :
    (dot_S2048x768_S768x512_S2048x512_1_0_0_1_n_n.rhsIdx i q 0).val = (q ⟨0, by decide⟩).val :=
  dot_S2048x768_S768x512_S2048x512_1_0_0_1_n_n.rhsIdx_val_of_single rfl i q
theorem rhs_ax1 (i : S2048x512.Idx) (q : dot_S2048x768_S768x512_S2048x512_1_0_0_1_n_n.contr.Idx) :
    (dot_S2048x768_S768x512_S2048x512_1_0_0_1_n_n.rhsIdx i q 1).val = (i 1).val := by
  unfold DotDims.rhsIdx
  rw [dif_neg (show ¬(1 : Fin S768x512.rank) ∈ dot_S2048x768_S768x512_S2048x512_1_0_0_1_n_n.rhsBatch by decide), dif_pos (show (1 : Fin S768x512.rank) ∈ dot_S2048x768_S768x512_S2048x512_1_0_0_1_n_n.rhsNonContracting by decide)]
  rfl

/-- The product of a block `a` of 2048 rows with a block `b` of 768 rows and 512 columns, into zero, read at `(r, j)`:
    the sum over the width of `a (r, d) * b (d, j)`. -/
theorem prod_apply (a : FVec Ideal S2048x768 .bf16) (b : FVec Ideal S768x512 .bf16) (r : Fin 2048) (j : Fin 512) :
    matmul dot_S2048x768_S768x512_S2048x512_1_0_0_1_n_n none a b (constant (F := Ideal) S2048x512 .f32 0x00000000#32) (ix2 r j)
      = ∑ d : Fin 768, a (ix2 r d) * b (ix2 d j) := by
  refine (Ideal.matmul_constant_zero_apply dot_S2048x768_S768x512_S2048x512_1_0_0_1_n_n none a b (ix2 r j)).trans ?_
  rw [← Equiv.sum_comp (contrEquiv1 dot_S2048x768_S768x512_S2048x512_1_0_0_1_n_n 768 rfl rfl).symm]
  refine Finset.sum_congr rfl fun k _ => ?_
  have hk := contrEquiv1_symm_val dot_S2048x768_S768x512_S2048x512_1_0_0_1_n_n 768 rfl rfl k
  have el : dot_S2048x768_S768x512_S2048x512_1_0_0_1_n_n.lhsIdx (ix2 r j) ((contrEquiv1 dot_S2048x768_S768x512_S2048x512_1_0_0_1_n_n 768 rfl rfl).symm k) = ix2 r k := funext fun c => Fin.ext (by
    match c with
    | ⟨0, _⟩ => exact lhs_ax0 _ _
    | ⟨1, _⟩ => exact (lhs_ax1 _ _).trans hk)
  have er : dot_S2048x768_S768x512_S2048x512_1_0_0_1_n_n.rhsIdx (ix2 r j) ((contrEquiv1 dot_S2048x768_S768x512_S2048x512_1_0_0_1_n_n 768 rfl rfl).symm k) = ix2 k j := funext fun c => Fin.ext (by
    match c with
    | ⟨0, _⟩ => exact (rhs_ax0 _ _).trans hk
    | ⟨1, _⟩ => exact rhs_ax1 _ _)
  rw [el, er]

/-- The transposed tile reads, at `(d, j)`, the tile's row `j` at width `d`. -/
theorem tr_apply (w : FVec Ideal S512x768 .bf16) (h : S512x768.Transposes [1, 0] S768x512) (d : Fin 768) (j : Fin 512) :
    transpose S768x512 [1, 0] w h (ix2 d j) = w (ix2 j d) :=
  transpose_apply _ w h _ _ fun c => match c with | ⟨0, _⟩ => rfl | ⟨1, _⟩ => rfl

/-! ## The column index word, the in-vocabulary mask and the target one-hot -/

/-- Column `j` of the tile at vocabulary coordinate `k` carries the word of `512 k + j`. -/
theorem colWord_apply (i : grid0.Coords) (r : Fin 2048) (j : Fin 512) :
    k0_pay17 i (ix2 r j) = BitVec.ofNat 32 (512 * (i 1).val + j.val) := by
  unfold k0_pay17
  show BitVec.ofNat 32 (i 1).val * 512#32 + iota .tc S2048x512 32 [1] iota_S2048x512_d1_w32 (ix2 r j) = _
  rw [iota_single_apply, BitVec.ofNat_add, BitVec.ofNat_mul, BitVec.mul_comm]

/-- The mask is set exactly on the columns inside the vocabulary. -/
theorem mask_apply (i : grid0.Coords) (r : Fin 2048) (j : Fin 512) :
    k0_pay18 i (ix2 r j) = 1#1 ↔ 512 * (i 1).val + j.val < 50257 := by
  have hi : (i 1).val < 99 := (i 1).isLt
  have hj : j.val < 512 := j.isLt
  unfold k0_pay18
  show IntOp.cmpi .slt (k0_pay17 i (ix2 r j)) (BitVec.ofNat 32 50257) = 1#1 ↔ _
  rw [IntOp.cmpi_slt, colWord_apply, WordArith.toInt_ofNat_small _ (by omega), WordArith.toInt_ofNat_small _ (by omega)]
  omega

/-- The one-hot is set exactly where the column's word is the row's target word. -/
theorem onehot_apply (i : grid0.Coords) (tg : Vec Ideal S2048x1 .i32) (r : Fin 2048) (j : Fin 512) :
    k0_pay19 (F := Ideal) i tg (ix2 r j) = 1#1 ↔ BitVec.ofNat 32 (512 * (i 1).val + j.val) = tg (ix2 r 0) := by
  unfold k0_pay19
  show IntOp.cmpi .eq (k0_pay17 i (ix2 r j))
    (broadcastTo S2048x512 (shapeCast S2048x1 tg shapeCasts_S2048x1_S2048x1) broadcasts_S2048x1_S2048x512 (ix2 r j)) = 1#1 ↔ _
  rw [IntOp.cmpi_eq, colWord_apply, bcast_col, shapeCast_self]

/-- The named fill denotes the bottom of the extended reals. -/
theorem fill_eq : Named.named (F := Ideal) κ "neg_big" (φ := .f32) 0xFF333332#32 = (⊥ : EReal) :=
  IdealRules.named_const.ideal_named_scalar _ _ _ _ rfl

/-! ## The masked logits tile -/

/-- The masked logits at `(r, j)`: inside the vocabulary the row of the hidden block against row `j` of the tile, past its end
    the bottom, whatever the product put there. -/
theorem tile_apply (i : grid0.Coords) (w : Vec Ideal S512x768 .f32) (h : Vec Ideal S2048x768 .f32) (r : Fin 2048) (j : Fin 512) :
    k0_pay20 i w h (ix2 r j)
      = if 512 * (i 1).val + j.val < 50257 then ∑ d : Fin 768, h (ix2 r d) * w (ix2 j d) else ⊥ := by
  have e : k0_pay20 i w h (ix2 r j)
      = Scalar.select (k0_pay18 i (ix2 r j))
          (∑ d : Fin 768, h (ix2 r d) * w (ix2 j d)) (⊥ : EReal) := by
    unfold k0_pay20
    refine (select_apply _ _ _ (ix2 r j)).trans ?_
    refine congrArg₂ (Scalar.select (k0_pay18 i (ix2 r j))) ?_ fill_eq
    refine (prod_apply _ _ r j).trans (Finset.sum_congr rfl fun d _ => ?_)
    refine congrArg₂ (· * ·) ?_ (tr_apply _ _ d j)
    exact congrFun (shapeCast_self h _) (ix2 r d)
  rw [e]
  by_cases hlt : 512 * (i 1).val + j.val < 50257
  · rw [(mask_apply i r j).2 hlt, select_one, if_pos hlt]
  · rw [eq_zero_of_ne_one (fun hc => hlt ((mask_apply i r j).1 hc)), select_zero, if_neg hlt]

/-! ## Pass 3 reads the same masked tile, and rows past the vocabulary's end do not matter -/

/-- Pass 3 masks the product of ITS hidden block with the same transposed tile in the same way. -/
theorem tile3_eq (i : grid0.Coords) (w : Vec Ideal S512x768 .f32) (h : Vec Ideal S2048x768 .f32) :
    k0_pay28 (k0_pay16 w) (k0_pay18 i) h = k0_pay20 i w h := rfl

/-- Two tiles that agree on the rows inside the vocabulary give the same masked logits. -/
theorem tile_indep (i : grid0.Coords) (h : Vec Ideal S2048x768 .f32) (w w' : Vec Ideal S512x768 .f32)
    (hw : ∀ (j : Fin 512) (d : Fin 768), 512 * (i 1).val + j.val < 50257 → w (ix2 j d) = w' (ix2 j d)) :
    k0_pay20 i w h = k0_pay20 i w' h := by
  funext idx
  obtain ⟨r, j, rfl⟩ : ∃ (r : Fin 2048) (j : Fin 512), idx = ix2 r j := ⟨idx 0, idx 1, eq_ix2 idx⟩
  rw [tile_apply, tile_apply]
  by_cases hlt : 512 * (i 1).val + j.val < 50257
  · rw [if_pos hlt, if_pos hlt]
    exact Finset.sum_congr rfl fun d _ => by rw [hw j d hlt]
  · rw [if_neg hlt, if_neg hlt]

end Cert.KernelIdeal.PayTile

end
-- ==== Proof.Indep.lean ====
/- At the exact instance a grid point does not see the vocabulary tile's rows past the end of the array.

   The tile's rows become columns of the logits (the product contracts the width 768, not the vocabulary), every column
   past the vocabulary's end is replaced by the fill before anything else reads it, and the fill is the same whatever the
   product put there. So two tiles that agree on the rows inside the array give the same point. -/
import proofs.«419146_j12747462935019_2_alg».proof.Proof.KStep
import proofs.«419146_j12747462935019_2_alg».proof.Proof.PayTile
import Idealize.ShloMosaic.PureOps.Ideal
import Idealize.ShloMosaic.Lib.ValueIdx

noncomputable section

namespace Cert.KernelIdeal.Indep

open Idealize.ShloMosaic Cert.KernelIdeal Cert.KernelIdeal.Gen Cert.KernelIdeal.KStep

/-- Rows `j` of the tile at vocabulary tile `(i 1)` with `512 (i 1) + j < 50257` are the ones inside the array. -/
theorem point_tail_indep (i : grid0.Coords) (h2 h3 : Vec Ideal S2048x768 .f32) (w w' : Vec Ideal S512x768 .f32)
    (tg : Vec Ideal S2048x1 .i32) (S : St Ideal)
    (hw : ∀ (j : Fin 512) (d : Fin 768), 512 * (i 1).val + j.val < 50257 → w (ValueIdx.ix2 j d) = w' (ValueIdx.ix2 j d)) :
    point i h2 h3 w tg S = point i h2 h3 w' tg S := by
  have e2 : k0_pay20 i w h2 = k0_pay20 i w' h2 := PayTile.tile_indep i h2 w w' hw
  have e3 : k0_pay28 (k0_pay16 w) (k0_pay18 i) h3 = k0_pay28 (k0_pay16 w') (k0_pay18 i) h3 :=
    PayTile.tile_indep i h3 w w' hw
  have a21 : k0_pay21 i w tg h2 = k0_pay21 i w' tg h2 := by unfold k0_pay21; rw [e2]
  have a22 : ∀ m, k0_pay22 i w h2 m = k0_pay22 i w' h2 m := fun m => by unfold k0_pay22; rw [e2]
  have a23 : ∀ m m', k0_pay23 i w h2 m m' = k0_pay23 i w' h2 m m' := fun m m' => by unfold k0_pay23; rw [a22]
  have a24 : ∀ m, k0_pay24 i w h2 m = k0_pay24 i w' h2 m := fun m => by unfold k0_pay24; rw [e2, a22]
  have a29 : k0_pay29 (k0_pay16 w) (k0_pay18 i) (k0_pay19 (F := Ideal) i tg) h3
      = k0_pay29 (k0_pay16 w') (k0_pay18 i) (k0_pay19 (F := Ideal) i tg) h3 := by unfold k0_pay29; rw [e3]
  have a30 : ∀ m, k0_pay30 (k0_pay16 w) (k0_pay18 i) h3 m = k0_pay30 (k0_pay16 w') (k0_pay18 i) h3 m :=
    fun m => by unfold k0_pay30; rw [e3]
  have a31 : ∀ m m', k0_pay31 (k0_pay16 w) (k0_pay18 i) h3 m m' = k0_pay31 (k0_pay16 w') (k0_pay18 i) h3 m m' :=
    fun m m' => by unfold k0_pay31; rw [a30]
  have a32 : ∀ m, k0_pay32 (k0_pay16 w) (k0_pay18 i) h3 m = k0_pay32 (k0_pay16 w') (k0_pay18 i) h3 m :=
    fun m => by unfold k0_pay32; rw [e3, a30]
  unfold point step
  rw [a21, a22, a23, a24, a29, a30, a31, a32]

end Cert.KernelIdeal.Indep

end
-- ==== Proof.RunI.lean ====
/- The idealized kernel's run at the exact instance.

   The grid has 2 x 99 points: point t works on row tile t / 99 and vocabulary tile t % 99. The proof data below says what
   every staging buffer and every carried column holds after each point: the hidden tiles, the targets column, the vocabulary
   tile (its rows inside the array; the last tile of a sweep overhangs the array and its other rows are filled with a fixed
   value that no point's result depends on), the six carried columns as the fold of `KStep.point` over the points so far,
   the two loss columns as the last tile of a sweep stores them and the cosine column as the first tile stores it. From this
   follow the body obligation, the launch and the frame claim. -/
import proofs.«419146_j12747462935019_2_alg».proof.Proof.Body
import proofs.«419146_j12747462935019_2_alg».proof.Proof.Indep
import proofs.«419146_j12747462935019_2_alg».proof.Defs
import proofs.«419146_j12747462935019_2_alg».proof.Proof.Gen.Pre_finite_inputs

set_option maxRecDepth 16384

noncomputable section

namespace Cert.KernelIdeal.RunI

open Cert.KernelIdeal Cert.KernelIdeal.Gen Cert.KernelIdeal.KStep Cert.KernelIdeal.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

local notation "𝕄" => MT nD τ sig Unit (Elt Ideal) ℕ (UR sig nD τ) ℕ

variable (m : (ℓ : Loc nD τ sig) → Buf (Elt Ideal) ℓ) (ρ : Dev nD → PrngReg)

/-! ## Where the two conditions hold, and where the result windows are written back -/

/-- The first vocabulary tile of a sweep: the points that are multiples of 99. -/
theorem hcond1 : ∀ t : Fin cfg0.N, k0_cond1 (grid0.coords t) = 1#1 ↔ t.val % 99 = 0 :=
  (by decide +kernel : ∀ t : Fin grid0.N, k0_cond1 (grid0.coords t) = 1#1 ↔ t.val % 99 = 0)
/-- The last vocabulary tile of a sweep. -/
theorem hcond2 : ∀ t : Fin cfg0.N, k0_cond2 (grid0.coords t) = 1#1 ↔ t.val % 99 = 98 :=
  (by decide +kernel : ∀ t : Fin grid0.N, k0_cond2 (grid0.coords t) = 1#1 ↔ t.val % 99 = 98)

/-! ## The blocks at a point -/

/-- The two hidden tiles and the targets column of point `t`'s row tile. -/
abbrev h2blk (c : Dev nD) (t : Fin cfg0.N) : Vec Ideal S2048x768 .f32 := Gen.iblk m c 0 t
abbrev h3blk (c : Dev nD) (t : Fin cfg0.N) : Vec Ideal S2048x768 .f32 := Gen.iblk m c 1 t
abbrev tgblk (c : Dev nD) (t : Fin cfg0.N) : Vec Ideal S2048x1 .i32 := Gen.iblk m c 3 t
/-- The vocabulary tile of point `t`: its rows inside the array, the others at zero. -/
def wblk (c : Dev nD) (t : Fin cfg0.N) : Vec Ideal S512x768 .f32 :=
  win0_2.fill (grid0.coords t) (fun _ => (0 : EReal)) (Gen.iblk m c 2 t)

/-! ## What the carried columns and the result columns hold after each point -/

/-- The six carried columns after the body at point `n`: `KStep.point` folded over the points so far (the first
    point resets them, so what it starts from does not matter). -/
def colsAt (c : Dev nD) : (n : ℕ) → n < cfg0.N → St Ideal
  | 0, hn => point (grid0.coords ⟨0, hn⟩) (h2blk m c ⟨0, hn⟩) (h3blk m c ⟨0, hn⟩) (wblk m c ⟨0, hn⟩) (tgblk m c ⟨0, hn⟩) reset
  | n + 1, hn => point (grid0.coords ⟨n + 1, hn⟩) (h2blk m c ⟨n + 1, hn⟩) (h3blk m c ⟨n + 1, hn⟩) (wblk m c ⟨n + 1, hn⟩) (tgblk m c ⟨n + 1, hn⟩)
      (colsAt c n (Nat.lt_of_succ_lt hn))

/-- The cosine column as the staging buffer holds it after the body at point `n`: stored at the first tile of a sweep,
    kept until the sweep's end. -/
def cosAt (c : Dev nD) : (n : ℕ) → n < cfg0.N → Vec Ideal S2048x1 .f32
  | 0, hn => cosBlk (h2blk m c ⟨0, hn⟩) (h3blk m c ⟨0, hn⟩)
  | n + 1, hn => if k0_cond1 (grid0.coords ⟨n + 1, hn⟩) = 1#1 then cosBlk (h2blk m c ⟨n + 1, hn⟩) (h3blk m c ⟨n + 1, hn⟩)
      else cosAt c n (Nat.lt_of_succ_lt hn)

/-- The region invariant before position `n`: before the first point the scratch buffers hold anything; afterwards they
    hold the carried columns as the point before left them. The generator register is at some state throughout. -/
def PhiS (c : Dev nD) : (n : ℕ) → n ≤ cfg0.N → sProp 𝕄
  | 0, _ => Pipeline.ΦA spec0 c
  | n + 1, hn => iprop(cols c (colsAt m c n hn) ∗ (∃ r, prngReg c r))

/-! ## The proof data -/

/-- The proof data of the one pipeline on core `c`. -/
def dats (_ : Fin 1) (c : Dev nD) : Dat τ (Elt Ideal) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => wblk m c t
    | ⟨3, _⟩ => Gen.iblk m c 3 t
    | ⟨4, _⟩ => nll2Blk (colsAt m c t.val t.isLt)
    | ⟨5, _⟩ => nll3Blk (colsAt m c t.val t.isLt)
    | ⟨6, _⟩ => cosAt m c t.val t.isLt
  Φ t := PhiS m c t.val (Nat.le_of_lt_succ t.isLt)
  q _ := fullShare
  owed _ := 0

/-- Each window's array starts at its contents on entering the region. -/
theorem A_eq (c : Dev nD) (w : Fin cfg0.W) : (dats m 0 c).A w = Gen.V m c (Pipeline.arrRef spec0 w) := by
  dsimp only [dats]

/-- The buffers' contents after the body, one window at a time. -/
theorem after0 (c : Dev nD) (t : Fin cfg0.N) : (dats m 0 c).after 0 t = Gen.iblk m c 0 t := by dsimp only [dats]
theorem after1 (c : Dev nD) (t : Fin cfg0.N) : (dats m 0 c).after 1 t = Gen.iblk m c 1 t := by dsimp only [dats]
theorem after2 (c : Dev nD) (t : Fin cfg0.N) : (dats m 0 c).after 2 t = wblk m c t := by dsimp only [dats]
theorem after3 (c : Dev nD) (t : Fin cfg0.N) : (dats m 0 c).after 3 t = Gen.iblk m c 3 t := by dsimp only [dats]
theorem after4 (c : Dev nD) (t : Fin cfg0.N) : (dats m 0 c).after 4 t = nll2Blk (colsAt m c t.val t.isLt) := by dsimp only [dats]
theorem after5 (c : Dev nD) (t : Fin cfg0.N) : (dats m 0 c).after 5 t = nll3Blk (colsAt m c t.val t.isLt) := by dsimp only [dats]
theorem after6 (c : Dev nD) (t : Fin cfg0.N) : (dats m 0 c).after 6 t = cosAt m c t.val t.isLt := by dsimp only [dats]

/-- The invariant at a point's start and at its end. -/
theorem Phi_castSucc (c : Dev nD) (t : Fin cfg0.N) : (dats m 0 c).Φ t.castSucc = PhiS m c t.val (Nat.le_of_lt t.isLt) := by
  dsimp only [dats]; simp only [Fin.coe_castSucc]
theorem Phi_succ (c : Dev nD) (t : Fin cfg0.N) :
    (dats m 0 c).Φ t.succ = iprop(cols c (colsAt m c t.val t.isLt) ∗ (∃ r, prngReg c r)) := rfl
theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) :
    PhiS m c n h = iprop(cols c (colsAt m c (n - 1) (by omega)) ∗ (∃ r, prngReg c r)) := by
  cases n with
  | zero => exact absurd rfl hz
  | succ n => rfl

/-- Before the first point the six scratch buffers are owned whole at some contents. -/
theorem PhiA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d))
        ∗ (∃ r, prngReg c r)) := by
  unfold Pipeline.ΦA; rw [Gen.scopedRest0_eq]; simp only [owns_whole]; try rfl

/-! ## Idle points of the result windows -/

theorem idle4_iff : ∀ t : Fin cfg0.N, cfg0.idle 4 (grid0.coords t) = true ↔ ¬t.val % 99 = 98 :=
  (by decide +kernel : ∀ t : Fin grid0.N, cfg0.idle 4 (grid0.coords t) = true ↔ ¬t.val % 99 = 98)
theorem idle5_iff : ∀ t : Fin cfg0.N, cfg0.idle 5 (grid0.coords t) = true ↔ ¬t.val % 99 = 98 :=
  (by decide +kernel : ∀ t : Fin grid0.N, cfg0.idle 5 (grid0.coords t) = true ↔ ¬t.val % 99 = 98)
theorem idle6_iff : ∀ t : Fin cfg0.N, cfg0.idle 6 (grid0.coords t) = true ↔ ¬t.val % 99 = 0 :=
  (by decide +kernel : ∀ t : Fin grid0.N, cfg0.idle 6 (grid0.coords t) = true ↔ ¬t.val % 99 = 0)

/-! ## What the body finds in each staging buffer -/

theorem before0 (c : Dev nD) (t : Fin cfg0.N) (d) : (dats m 0 c).before 0 t d = Gen.iblk m c 0 t :=
  Gen.before0_0_of m (dats m 0 c) (A_eq m c 0) (after0 m c) t d
theorem before1 (c : Dev nD) (t : Fin cfg0.N) (d) : (dats m 0 c).before 1 t d = Gen.iblk m c 1 t :=
  Gen.before0_1_of m (dats m 0 c) (A_eq m c 1) (after1 m c) t d
theorem before3 (c : Dev nD) (t : Fin cfg0.N) (d) : (dats m 0 c).before 3 t d = Gen.iblk m c 3 t :=
  Gen.before0_3_of m (dats m 0 c) (A_eq m c 3) (after3 m c) t d
/-- The vocabulary tile is fetched at every point: its rows inside the array, the others as the buffer had them. -/
theorem before2 (c : Dev nD) (t : Fin cfg0.N) (d) :
    (dats m 0 c).before 2 t d = win0_2.fill (grid0.coords t) d (Gen.iblk m c 2 t) := by
  rw [(dats m 0 c).before_fetched 2 t (Gen.fetch0_2 t)]
  unfold Dat.fetched Dat.blockOf Gen.iblk; rw [A_eq]

/-- Away from a sweep's first tile the cosine column is the one the point before held. -/
theorem cosAt_pred (c : Dev nD) (n : ℕ) (hn : n < cfg0.N) (h0 : n ≠ 0) (h : ¬n % 99 = 0) :
    cosAt m c n hn = cosAt m c (n - 1) (Nat.lt_of_le_of_lt (Nat.sub_le _ _) hn) := by
  cases n with
  | zero => exact absurd rfl h0
  | succ k => exact if_neg (fun hc => h ((hcond1 ⟨k + 1, hn⟩).mp hc))
/-- At a sweep's first tile it is the cosine column of the two hidden tiles. -/
theorem cosAt_first (c : Dev nD) (t : Fin cfg0.N) (h : t.val % 99 = 0) :
    cosAt m c t.val t.isLt = cosBlk (h2blk m c t) (h3blk m c t) := by
  obtain ⟨n, hn⟩ := t
  cases n with
  | zero => rfl
  | succ k => exact if_pos ((hcond1 ⟨k + 1, hn⟩).mpr h)

/-- The cosine column's buffer: at a sweep's first tile nothing named (the start, or just written back); afterwards the
    column the point before held. -/
theorem before6 (c : Dev nD) (d) : ∀ (n : ℕ) (t : Fin cfg0.N), t.val = n →
    (dats m 0 c).before 6 t d = if t.val % 99 = 0 then d else cosAt m c (t.val - 1) (Nat.lt_of_le_of_lt (Nat.sub_le _ _) t.isLt) := by
  intro n
  induction n with
  | zero =>
    intro t ht
    rw [if_pos (by omega)]
    exact (dats m 0 c).before_out_reset 6 rfl t (.inl ht) d
  | succ n ih =>
    intro t ht
    have ht0 : t.val ≠ 0 := by omega
    by_cases h0 : t.val % 99 = 0
    · rw [if_pos h0]
      exact (dats m 0 c).before_out_reset 6 rfl t (.inr ⟨ht0, (Gen.flush0_6 _).mpr (by dsimp only; omega)⟩) d
    · rw [if_neg h0, (dats m 0 c).before_of_pos 6 t ht0 ((cfg0.win 6).fetch_out rfl t),
        if_neg (fun hf => by have := (Gen.flush0_6 _).mp hf; dsimp only at this; omega)]
      unfold Dat.left
      by_cases h1 : (t.val - 1) % 99 = 0
      · rw [Bool.eq_false_iff.mpr (fun h => (idle6_iff ⟨t.val - 1, Nat.lt_of_le_of_lt (Nat.sub_le _ _) t.isLt⟩).mp h h1)]
        dsimp only
        unfold Dat.kept
        rw [Pipeline.fill_of_clip_none (cfg := cfg0) 6 _ (fun _ => rfl) d ((dats m 0 c).after 6 _), Window.fill_cut, after6]
      · rw [(idle6_iff ⟨t.val - 1, Nat.lt_of_le_of_lt (Nat.sub_le _ _) t.isLt⟩).mpr h1]
        dsimp only
        rw [ih _ (by dsimp only; omega), if_neg h1]
        exact (cosAt_pred m c (t.val - 1) _ (by omega) h1).symm

/-! ## The cut tile -/

/-- The part of the vocabulary tile that the fetch at point `t` moves: 81 rows at a sweep's last tile, else all 512. -/
theorem xsize2 : ∀ t : Fin cfg0.N, win0_2.xsize (grid0.coords t) 0 = (if t.val % 99 = 98 then 81 else 512)
      ∧ win0_2.xsize (grid0.coords t) 1 = 768 ∧ ((grid0.coords t) 1).val = t.val % 99 :=
  (by decide +kernel : ∀ t : Fin grid0.N, win0_2.xsize (grid0.coords t) 0 = (if t.val % 99 = 98 then 81 else 512)
      ∧ win0_2.xsize (grid0.coords t) 1 = 768 ∧ ((grid0.coords t) 1).val = t.val % 99)

/-- Two fills of the tile agree on the rows inside the array. -/
theorem fill_agree (t : Fin cfg0.N) (d d' : Vec Ideal S512x768 .f32) (g : (win0_2.xblock (grid0.coords t)).Idx → Elt Ideal .f32)
    (j : Fin 512) (dd : Fin 768) (hj : 512 * ((grid0.coords t) 1).val + j.val < 50257) :
    win0_2.fill (grid0.coords t) d g (ValueIdx.ix2 j dd) = win0_2.fill (grid0.coords t) d' g (ValueIdx.ix2 j dd) := by
  have hm : win0_2.moved (grid0.coords t) (ValueIdx.ix2 j dd) = true := (win0_2.moved_iff _ _).mpr (fun a => by
    obtain ⟨e0, e1, e2⟩ := xsize2 t
    rw [e2] at hj
    match a with
    | ⟨0, _⟩ =>
      show j.val < win0_2.xsize (grid0.coords t) 0
      rw [e0]; split <;> omega
    | ⟨1, _⟩ =>
      show dd.val < win0_2.xsize (grid0.coords t) 1
      rw [e1]; exact dd.isLt)
  unfold Window.fill; rw [dif_pos hm, dif_pos hm]

/-- So a point's columns do not depend on what the buffer held past the array's end. -/
theorem point_fill (c : Dev nD) (t : Fin cfg0.N) (d : Vec Ideal S512x768 .f32) (S : St Ideal) :
    point (grid0.coords t) (h2blk m c t) (h3blk m c t) (win0_2.fill (grid0.coords t) d (Gen.iblk m c 2 t)) (tgblk m c t) S
      = point (grid0.coords t) (h2blk m c t) (h3blk m c t) (wblk m c t) (tgblk m c t) S :=
  Indep.point_tail_indep (grid0.coords t) (h2blk m c t) (h3blk m c t) _ _ (tgblk m c t) S
    (fun j dd hj => fill_agree t d (fun _ => (0 : EReal)) (Gen.iblk m c 2 t) j dd hj)

/-- The columns after point `t`, from what the point before left, -/
theorem colsAt_pos (c : Dev nD) (t : Fin cfg0.N) (hz : t.val ≠ 0) :
    colsAt m c t.val t.isLt = point (grid0.coords t) (h2blk m c t) (h3blk m c t) (wblk m c t) (tgblk m c t)
      (colsAt m c (t.val - 1) (Nat.lt_of_le_of_lt (Nat.sub_le _ _) t.isLt)) := by
  obtain ⟨n, hn⟩ := t
  cases n with
  | zero => exact absurd rfl hz
  | succ k => rfl
/-- and after the first point, whatever the scratch buffers held. -/
theorem colsAt_zero (c : Dev nD) (t : Fin cfg0.N) (hz : t.val = 0) (S : St Ideal) :
    colsAt m c t.val t.isLt = point (grid0.coords t) (h2blk m c t) (h3blk m c t) (wblk m c t) (tgblk m c t) S := by
  obtain ⟨n, hn⟩ := t
  obtain rfl : n = 0 := hz
  have h1 : k0_cond1 (grid0.coords ⟨0, hn⟩) = 1#1 := (hcond1 ⟨0, hn⟩).mpr rfl
  show point _ _ _ _ _ reset = point _ _ _ _ _ S
  unfold point; rw [if_pos h1, if_pos h1]

/-! ## The body obligation -/

/-- What the invariant hands the body: the six carried columns at contents from which this point reaches `colsAt`. -/
theorem Phi_pre (c : Dev nD) (t : Fin cfg0.N) :
    (dats m 0 c).Φ t.castSucc ⊢ iprop(∃ S : St Ideal,
      ⌜colsAt m c t.val t.isLt = point (grid0.coords t) (h2blk m c t) (h3blk m c t) (wblk m c t) (tgblk m c t) S⌝
      ∗ cols c S ∗ (∃ r, prngReg c r)) := by
  rw [Phi_castSucc]
  by_cases hz : t.val = 0
  · rw [PhiS_zero m c _ _ hz, PhiA_eq]
    iintro ⟨⟨⟨%d0, H0⟩, ⟨%d1, H1⟩, ⟨%d2, H2⟩, ⟨%d3, H3⟩, ⟨%d4, H4⟩, ⟨%d5, H5⟩⟩, Hg⟩
    iexists (⟨d0, d1, d2, d3, d4, d5⟩ : St Ideal)
    isplitr; · ipureintro; exact colsAt_zero m c t hz _
    isplitl [H0 H1 H2 H3 H4 H5]
    · unfold cols
      isplitl [H0]; · iexact H0
      isplitl [H1]; · iexact H1
      isplitl [H2]; · iexact H2
      isplitl [H3]; · iexact H3
      isplitl [H4]; · iexact H4
      iexact H5
    · iexact Hg
  · rw [PhiS_pos m c _ _ hz]
    iintro ⟨HS, Hg⟩
    iexists colsAt m c (t.val - 1) (Nat.lt_of_le_of_lt (Nat.sub_le _ _) t.isLt)
    isplitr; · ipureintro; exact colsAt_pos m c t hz
    isplitl [HS]; · iexact HS
    iexact Hg

/-- What the obligation asks of a window's buffer after the body, at a point where the window is live and its blocks
    are uncut, -/
theorem leaves_live_tight {cfg : Pipeline.Cfg sig Λ₀} {c : Dev nD} (dat : Dat τ (Elt Ideal) Unit ℕ (UR sig nD τ) ℕ cfg c)
    (w : Fin cfg.W) (t : Fin cfg.N) (hi : cfg.idle w (cfg.grid.coords t) = false) (hl : cfg.loose w = false) :
    dat.leaves w t = owns (c : Thread nD τ) ((cfg.win w).stage (cfg.slots t w)) fullShare (dat.after w t) := by
  unfold Dat.leaves; rw [hi, hl]
/-- and at one where it is idle but written back. -/
theorem leaves_flush_tight {cfg : Pipeline.Cfg sig Λ₀} {c : Dev nD} (dat : Dat τ (Elt Ideal) Unit ℕ (UR sig nD τ) ℕ cfg c)
    (w : Fin cfg.W) (t : Fin cfg.N) (hi : cfg.idle w (cfg.grid.coords t) = true) (hf : (cfg.win w).flush t = true)
    (hl : cfg.loose w = false) :
    dat.leaves w t = owns (c : Thread nD τ) ((cfg.win w).stage (cfg.slots t w)) fullShare (dat.after w t) := by
  unfold Dat.leaves; rw [hi, hf, hl]

theorem leaves0 (c : Dev nD) (t : Fin cfg0.N) :
    (dats m 0 c).leaves 0 t = owns (c : Thread nD τ) (Gen.st0_0 t) fullShare (Gen.iblk m c 0 t) := by
  rw [leaves_live_tight (dats m 0 c) 0 t rfl rfl, after0]
theorem leaves1 (c : Dev nD) (t : Fin cfg0.N) :
    (dats m 0 c).leaves 1 t = owns (c : Thread nD τ) (Gen.st0_1 t) fullShare (Gen.iblk m c 1 t) := by
  rw [leaves_live_tight (dats m 0 c) 1 t rfl rfl, after1]
theorem leaves3 (c : Dev nD) (t : Fin cfg0.N) :
    (dats m 0 c).leaves 3 t = owns (c : Thread nD τ) (Gen.st0_3 t) fullShare (Gen.iblk m c 3 t) := by
  rw [leaves_live_tight (dats m 0 c) 3 t rfl rfl, after3]
/-- The vocabulary tile's buffer is described on the rows inside the array only. -/
theorem leaves2 (c : Dev nD) (t : Fin cfg0.N) :
    (dats m 0 c).leaves 2 t
      = iprop(∃ d, owns (c : Thread nD τ) (Gen.st0_2 t) fullShare (win0_2.fill (grid0.coords t) d (Gen.iblk m c 2 t))) := by
  show iprop(∃ d, owns (c : Thread nD τ) (Gen.st0_2 t) fullShare
    (win0_2.fill (grid0.coords t) d (win0_2.cut (grid0.coords t) ((dats m 0 c).after 2 t)))) = _
  rw [after2]; unfold wblk; rw [Window.cut_fill]

/-- A loss column's buffer after the body: the column at a sweep's last tile, else untouched. -/
theorem leaves4_intro (c : Dev nD) (t : Fin cfg0.N) (d4) :
    owns (c : Thread nD τ) (Gen.st0_4 t) fullShare
        (if k0_cond2 (grid0.coords t) = 1#1 then nll2Blk (colsAt m c t.val t.isLt) else (dats m 0 c).before 4 t d4)
      ⊢ (dats m 0 c).leaves 4 t := by
  by_cases h : t.val % 99 = 98
  · rw [if_pos ((hcond2 t).mpr h),
      leaves_live_tight (dats m 0 c) 4 t (Bool.eq_false_iff.mpr fun hi => (idle4_iff t).mp hi h) rfl, after4] <;> exact .rfl
  · rw [if_neg (fun hc => h ((hcond2 t).mp hc)),
      (dats m 0 c).leaves_idle 4 t ((idle4_iff t).mpr h) (Bool.eq_false_iff.mpr fun hf => h ((Gen.flush0_4 t).mp hf))]
    iintro H; iexists d4; iexact H
theorem leaves5_intro (c : Dev nD) (t : Fin cfg0.N) (d5) :
    owns (c : Thread nD τ) (Gen.st0_5 t) fullShare
        (if k0_cond2 (grid0.coords t) = 1#1 then nll3Blk (colsAt m c t.val t.isLt) else (dats m 0 c).before 5 t d5)
      ⊢ (dats m 0 c).leaves 5 t := by
  by_cases h : t.val % 99 = 98
  · rw [if_pos ((hcond2 t).mpr h),
      leaves_live_tight (dats m 0 c) 5 t (Bool.eq_false_iff.mpr fun hi => (idle5_iff t).mp hi h) rfl, after5] <;> exact .rfl
  · rw [if_neg (fun hc => h ((hcond2 t).mp hc)),
      (dats m 0 c).leaves_idle 5 t ((idle5_iff t).mpr h) (Bool.eq_false_iff.mpr fun hf => h ((Gen.flush0_5 t).mp hf))]
    iintro H; iexists d5; iexact H
/-- The cosine column's buffer after the body: stored at a sweep's first tile, untouched afterwards, and at the sweep's
    last tile, where it is written back, still the column stored at the first. -/
theorem leaves6_intro (c : Dev nD) (t : Fin cfg0.N) (d6) :
    owns (c : Thread nD τ) (Gen.st0_6 t) fullShare
        (if k0_cond1 (grid0.coords t) = 1#1 then cosBlk (h2blk m c t) (h3blk m c t) else (dats m 0 c).before 6 t d6)
      ⊢ (dats m 0 c).leaves 6 t := by
  by_cases h0 : t.val % 99 = 0
  · rw [if_pos ((hcond1 t).mpr h0),
      leaves_live_tight (dats m 0 c) 6 t (Bool.eq_false_iff.mpr fun hi => (idle6_iff t).mp hi h0) rfl, after6,
      cosAt_first m c t h0] <;> exact .rfl
  · rw [if_neg (fun hc => h0 ((hcond1 t).mp hc))]
    by_cases h98 : t.val % 99 = 98
    · have ht0 : t.val ≠ 0 := by omega
      rw [leaves_flush_tight (dats m 0 c) 6 t ((idle6_iff t).mpr h0) ((Gen.flush0_6 t).mpr h98) rfl, after6,
        before6 m c d6 t.val t rfl, if_neg h0, ← cosAt_pred m c t.val t.isLt ht0 h0] <;> exact .rfl
    · rw [(dats m 0 c).leaves_idle 6 t ((idle6_iff t).mpr h0) (Bool.eq_false_iff.mpr fun hf => h98 ((Gen.flush0_6 t).mp hf))]
      iintro H; iexists d6; iexact H

/-- The body's precondition at point `t`: the invariant, what the core owes, and each window's current buffer at what it
    then holds. -/
def bodyPre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d))
    ∗ (∃ d, owns (c : Thread nD τ) (Gen.st0_3 t) fullShare ((dats m 0 c).before 3 t d))
    ∗ (∃ d, owns (c : Thread nD τ) (Gen.st0_4 t) fullShare ((dats m 0 c).before 4 t d))
    ∗ (∃ d, owns (c : Thread nD τ) (Gen.st0_5 t) fullShare ((dats m 0 c).before 5 t d))
    ∗ (∃ d, owns (c : Thread nD τ) (Gen.st0_6 t) fullShare ((dats m 0 c).before 6 t d)))

/-- Its postcondition: the invariant one point on, and each buffer as the obligation describes it. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t ∗ (dats m 0 c).leaves 5 t ∗ (dats m 0 c).leaves 6 t)

set_option maxHeartbeats 1600000 in
/-- The body at any point, from its triple: the inputs' buffers hold their blocks, the vocabulary tile's its rows inside
    the array, the result buffers whatever they held; the invariant hands over the carried columns and takes them back
    one point further. -/
theorem sound_pt (c : Dev nD) (t : Fin cfg0.N) :
    bodyPre m c t ⊢ wp frame (wpE (defs₀ (F := Ideal)) 𝒱₀ c none) Set.univ (Gen.bodyAt0 t) (fun _ => bodyPost m c t) := by
  unfold bodyPre bodyPost Gen.bodyAt0
  rw [show (dats m 0 c).owesAt () t.succ = (dats m 0 c).owesAt () t.castSucc from rfl, Phi_succ, leaves0, leaves1, leaves2,
    leaves3]
  refine (sep_mono (Phi_pre m c t) .rfl).trans ?_
  iintro ⟨⟨%S, %hS, HS, Hg⟩, Ho, ⟨%d0, H0⟩, ⟨%d1, H1⟩, ⟨%d2, H2⟩, ⟨%d3, H3⟩, ⟨%d4, H4⟩, ⟨%d5, H5⟩, ⟨%d6, H6⟩⟩
  rw [before0 m c t d0, before1 m c t d1, before2 m c t d2, before3 m c t d3]
  have hpt : point (grid0.coords t) (h2blk m c t) (h3blk m c t) (win0_2.fill (grid0.coords t) d2 (Gen.iblk m c 2 t)) (tgblk m c t) S
      = colsAt m c t.val t.isLt := (point_fill m c t d2 S).trans hS.symm
  iapply (Body.sound_body (F := Ideal) c Set.univ (grid0.coords t) (cfg0.slots t 0) (cfg0.slots t 1) (cfg0.slots t 2)
    (cfg0.slots t 3) (cfg0.slots t 4) (cfg0.slots t 5) (cfg0.slots t 6) (h2blk m c t) (h3blk m c t)
    (win0_2.fill (grid0.coords t) d2 (Gen.iblk m c 2 t)) (tgblk m c t) ((dats m 0 c).before 4 t d4) ((dats m 0 c).before 5 t d5)
    ((dats m 0 c).before 6 t d6) S _)
  rw [hpt]
  unfold blocks
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [HS]; · iexact HS
  iintro ⟨⟨H0, H1, H2, H3, H4, H5, H6⟩, HS⟩
  isplitl [HS Hg]
  · isplitl [HS]; · iexact HS
    iexact Hg
  isplitl [Ho]; · iexact Ho
  isplitl [H0]; · iexact H0
  isplitl [H1]; · iexact H1
  isplitl [H2]; · iexists d2; iexact H2
  isplitl [H3]; · iexact H3
  isplitl [H4]; · iapply (leaves4_intro m c t d4); iexact H4
  isplitl [H5]; · iapply (leaves5_intro m c t d5); iexact H5
  iapply (leaves6_intro m c t d6); iexact H6

/-- The body obligation, at every point. -/
theorem body_obligation (c : Dev nD) : BodyObligationLoose (dats m 0 c) (defs₀ (F := Ideal)) 𝒱₀ () Set.univ := fun t => by
  rw [Gen.bigSep_W0, Gen.bigSep_W0]
  exact sound_pt m c t

/-! ## The launch, the run and the frame -/

/-- Entering the region: the scratch buffers at anything is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl] <;> exact .rfl

/-- Leaving the region: the carried columns' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 198 := Gen.N_0; omega), PhiA_eq]
  unfold cols
  iintro ⟨⟨H0, H1, H2, H3, H4, H5⟩, Hg⟩
  isplitl [H0 H1 H2 H3 H4 H5]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  iexact Hg

set_option backward.isDefEq.respectTransparency.types false in
/-- The whole program from any memory whose semaphore counters are zero: it terminates under every weakly fair schedule,
    each array of the pipeline ends as the proof data computes it, and every other unscoped buffer ends as the host lines
    after the region leave it. -/
theorem run_main : θ_run defs (onTc (τ := τ) (main (F := Ideal))) (s₀ m ρ)
    (Pipeline.FramePost cfgs (dats m) 0 (Pipeline.afterTail₀ cfgs (dats m) 0 (Gen.V0 m)
      [Gen.hostOps1, Gen.hostOps1_1, Gen.hostOps1_2, Gen.hostOps1_3, Gen.hostOps1_4])) :=
  Pipeline.θ_run_frame_around_track cfgs (dats m) (0 : Fin 1) Gen.launch0 defs₀ 𝒱₀ m ρ main
    (hbody := fun c => body_obligation m c) (hshare := fun c => (dats m 0 c).share_full fun _ => rfl)
    (howed := fun _ _ => rfl) (V₀ := Gen.V0 m)
    (opss := [Gen.hostOps1, Gen.hostOps1_1, Gen.hostOps1_2, Gen.hostOps1_3, Gen.hostOps1_4])
    (hsub := Gen.sfx_sub) (hfresh := Gen.sfx_fresh) (hkeep := Gen.sfx_keeps)
    (hmain := Gen.hmain m 𝒱₀) (hA := A_eq m) (hin := hin m) (hout := hout m)

/-- The frame claim: the program terminates, faults nowhere and leaves its four arguments as they were. -/
theorem frame_pi : Cert.frame_KernelIdeal := fun m ρ _ => Gen.frame_of m ρ (dats m) (A_eq m) (run_main m ρ)

end Cert.KernelIdeal.RunI

end
-- ==== Proof.Spec.lean ====
/- The loss both programs compute, over plain real tables.

   `x` a table of 4096 hidden rows of width 768, `W` the 50257 vocabulary rows, `t` the 4096 targets as 32-bit words
   (the all-ones word is the ignore value -1). Per row: the logits `x r . W v`, their log-sum-exp, the cross-entropy
   `lse - logit at the target` (0 for an ignored row); the masked mean over the rows that are not ignored; the cosine of the two
   hidden rows with each norm floored at eps. The loss is  -1/2 (ce2 - ce3) + f32(0.1) * mean cosine. -/
import Idealize.ShloMosaic.PureOps.Ideal

noncomputable section

namespace Cert.Spec

open Idealize.ShloMosaic

/-- The ignore value: -1 as a 32-bit word. -/
abbrev ignore : BitVec 32 := 4294967295#32

/-- Row `r`'s logit at vocabulary entry `v`. -/
def logit (x : Fin 4096 → Fin 768 → ℝ) (W : Fin 50257 → Fin 768 → ℝ) (r : Fin 4096) (v : Fin 50257) : ℝ := ∑ d, x r d * W v d

/-- Row `r`'s log-sum-exp over the whole vocabulary. -/
def lse (x : Fin 4096 → Fin 768 → ℝ) (W : Fin 50257 → Fin 768 → ℝ) (r : Fin 4096) : ℝ := Real.log (∑ v, Real.exp (logit x W r v))

/-- The logit at the row's target when the target names a vocabulary entry, else 0 (the ignore value names none). -/
def tlogit (x : Fin 4096 → Fin 768 → ℝ) (W : Fin 50257 → Fin 768 → ℝ) (t : Fin 4096 → BitVec 32) (r : Fin 4096) : ℝ :=
  if h : (t r).toNat < 50257 then logit x W r ⟨(t r).toNat, h⟩ else 0

/-- Row `r`'s cross-entropy, 0 for an ignored row. -/
def nll (x : Fin 4096 → Fin 768 → ℝ) (W : Fin 50257 → Fin 768 → ℝ) (t : Fin 4096 → BitVec 32) (r : Fin 4096) : ℝ :=
  if t r = ignore then 0 else lse x W r - tlogit x W t r

/-- The number of rows that are not ignored, floored at 1. -/
def cnt (t : Fin 4096 → BitVec 32) : ℝ := max (((Finset.univ.filter fun r => t r ≠ ignore).card : ℕ) : ℝ) 1

/-- The masked mean cross-entropy of one pass. -/
def ce (x : Fin 4096 → Fin 768 → ℝ) (W : Fin 50257 → Fin 768 → ℝ) (t : Fin 4096 → BitVec 32) : ℝ := (∑ r, nll x W t r) / cnt t

/-- The floor under a norm: the real the f32 word of 1e-8 denotes. -/
def eps : ℝ := (Ideal.ofBits .f32 0x322BCC77#32 : EReal).toReal

/-- The weight of the cosine term: the real the f32 word of 0.1 denotes. -/
def tenth : ℝ := (Ideal.ofBits .f32 0x3DCCCCCD#32 : EReal).toReal

/-- A hidden row's Euclidean norm, floored at eps. -/
def norm (x : Fin 4096 → Fin 768 → ℝ) (r : Fin 4096) : ℝ := max (Real.sqrt (∑ d, x r d * x r d)) eps

/-- The cosine of the two passes' hidden rows. -/
def cos (x2 x3 : Fin 4096 → Fin 768 → ℝ) (r : Fin 4096) : ℝ := (∑ d, x2 r d * x3 r d) / (norm x2 r * norm x3 r)

/-- The loss. -/
def loss (x2 x3 : Fin 4096 → Fin 768 → ℝ) (W : Fin 50257 → Fin 768 → ℝ) (t : Fin 4096 → BitVec 32) : ℝ :=
  -(1 / 2) * (ce x2 W t - ce x3 W t) + tenth * ((∑ r, cos x2 x3 r) / 4096)

end Cert.Spec

end
-- ==== Proof.PreDecode.lean ====
/-
  What the precondition says of the four argument arrays, decoded once.

  The precondition is the conjunction of five all-reductions by "and" of elementwise tests: |a| < +inf at every entry
  of each of the three float arrays, and -1 <= t and t < 50257, both signed, at every target word. An extended real
  whose absolute value is below +inf is a real, so each float array is the image of a real table; a word that is at
  least -1 and below 50257 as a signed integer is the all-ones word or reads below 50257 unsigned. The tables are
  indexed by the flattened row R = 2048 * b + s of the [2, 2048] leading axes.
-/
import proofs.«419146_j12747462935019_2_alg».proof.Defs
import proofs.«419146_j12747462935019_2_alg».proof.Pre_finite_inputs
import proofs.«419146_j12747462935019_2_alg».proof.Proof.Spec
import Idealize.ShloMosaic.Lib.ReduceAll
import Idealize.ShloMosaic.Lib.ValueIdx

set_option maxRecDepth 16384

noncomputable section

namespace Cert.PreDecode

open Idealize.ShloMosaic Idealize.ShloMosaic.ValueIdx Idealize.SL.Sem
open Cert.Pre_finite_inputs

variable [hF : Cert.Pre_finite_inputs.Facts]

/-- The scalar shape has one index. -/
instance : Subsingleton S_.Idx := ⟨fun a b => funext fun d => d.elim0⟩

/-! ## One element -/

/-- The f32 word of +inf denotes the top element. -/
theorem inf_word : (Ideal.ofBits .f32 0x7F800000#32 : EReal) = ⊤ := by
  simp [Ideal.ofBits, Ideal.ieee]

/-- An extended real whose absolute value tests below +inf is a real: at either infinity the absolute value is the top
    element, which is not below itself. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    x = ((x.toReal : ℝ) : EReal) := by
  have h' : Ideal.cmp .olt (max x (-x)) (Ideal.ofBits .f32 0x7F800000#32) = 1#1 := h
  rw [inf_word] at h'
  induction x using EReal.rec with
  | bot => simp [Ideal.cmp] at h'
  | top => simp [Ideal.cmp] at h'
  | coe r => simp

/-- A word that is at least -1 and below 50257, both read signed, is the all-ones word or reads below 50257 unsigned:
    read signed it lies in [-1, 50257), and a word whose top bit is set reads 2^32 less signed than unsigned. -/
theorem word_range (w : BitVec 32) (h1 : IntOp.cmpi .sge w 4294967295#32 = 1#1) (h2 : IntOp.cmpi .slt w 50257#32 = 1#1) :
    w = 4294967295#32 ∨ w.toNat < 50257 := by
  rw [IntOp.cmpi_sge] at h1
  rw [IntOp.cmpi_slt] at h2
  have e1 : (4294967295#32 : BitVec 32).toInt = -1 := by decide
  have e2 : (50257#32 : BitVec 32).toInt = 50257 := by decide
  rw [e1] at h1
  rw [e2] at h2
  have hc := BitVec.toInt_eq_toNat_cond w
  have hlt := w.isLt
  by_cases hw : 2 * w.toNat < 2 ^ 32
  · rw [if_pos hw] at hc
    right; omega
  · rw [if_neg hw] at hc
    left
    apply BitVec.eq_of_toNat_eq
    show w.toNat = 4294967295
    omega

/-! ## The flattened row -/

/-- The leading coordinate of flattened row `R`. -/
def hi (R : Fin 4096) : Fin 2 := ⟨R.val / 2048, by have := R.isLt; omega⟩
/-- The second coordinate of flattened row `R`. -/
def lo (R : Fin 4096) : Fin 2048 := ⟨R.val % 2048, Nat.mod_lt _ (by decide)⟩

theorem hi_flat (b : Fin 2) (s : Fin 2048) (h : 2048 * b.val + s.val < 4096) : hi ⟨2048 * b.val + s.val, h⟩ = b :=
  Fin.ext (by show (2048 * b.val + s.val) / 2048 = b.val; have := s.isLt; omega)
theorem lo_flat (b : Fin 2) (s : Fin 2048) (h : 2048 * b.val + s.val < 4096) : lo ⟨2048 * b.val + s.val, h⟩ = s :=
  Fin.ext (by show (2048 * b.val + s.val) % 2048 = s.val; have := s.isLt; omega)

/-! ## The five conjuncts, each at an index -/

theorem decode (A0 A1 : Vec Ideal S2x2048x768 .f32) (A2 : Vec Ideal S50257x768 .f32) (A3 : Vec Ideal S2x2048 .i32)
    (h : Cert.Pre_finite_inputs.fn (F := Ideal) A0 A1 A2 A3 = fun _ => 1#1) :
    ∃ (x2 x3 : Fin 4096 → Fin 768 → ℝ) (W : Fin 50257 → Fin 768 → ℝ) (t : Fin 4096 → BitVec 32),
      (∀ (b : Fin 2) (s : Fin 2048) (d : Fin 768), A0 (ValueIdx.ix3 b s d) = ((x2 ⟨2048 * b.val + s.val, by omega⟩ d : ℝ) : EReal))
      ∧ (∀ (b : Fin 2) (s : Fin 2048) (d : Fin 768), A1 (ValueIdx.ix3 b s d) = ((x3 ⟨2048 * b.val + s.val, by omega⟩ d : ℝ) : EReal))
      ∧ (∀ (v : Fin 50257) (d : Fin 768), A2 (ValueIdx.ix2 v d) = ((W v d : ℝ) : EReal))
      ∧ (∀ (b : Fin 2) (s : Fin 2048), A3 (ValueIdx.ix2 b s) = t ⟨2048 * b.val + s.val, by omega⟩)
      ∧ (∀ r, t r = Cert.Spec.ignore ∨ (t r).toNat < 50257) := by
  have e := congrFun h ValueIdx.ix0
  dsimp only [Cert.Pre_finite_inputs.fn, Cert.Pre_finite_inputs.fn_part1] at e
  obtain ⟨e1234, e5⟩ := IntOp.andi_eq_one.1 e
  obtain ⟨e123, e4⟩ := IntOp.andi_eq_one.1 e1234
  obtain ⟨e12, e3⟩ := IntOp.andi_eq_one.1 e123
  obtain ⟨e1, e2⟩ := IntOp.andi_eq_one.1 e12
  have f0 : ∀ i, A0 i = (((A0 i).toReal : ℝ) : EReal) := fun i => real_of_abs_lt (A0 i) (Host.reduce_andi_all _ _ _ _ _ e1 i)
  have f1 : ∀ i, A1 i = (((A1 i).toReal : ℝ) : EReal) := fun i => real_of_abs_lt (A1 i) (Host.reduce_andi_all _ _ _ _ _ e2 i)
  have f2 : ∀ i, A2 i = (((A2 i).toReal : ℝ) : EReal) := fun i => real_of_abs_lt (A2 i) (Host.reduce_andi_all _ _ _ _ _ e3 i)
  have f3 : ∀ i, A3 i = 4294967295#32 ∨ (A3 i).toNat < 50257 := fun i =>
    word_range (A3 i) (Host.reduce_andi_all _ _ _ _ _ e4 i) (Host.reduce_andi_all _ _ _ _ _ e5 i)
  refine ⟨fun R d => (A0 (ValueIdx.ix3 (hi R) (lo R) d)).toReal, fun R d => (A1 (ValueIdx.ix3 (hi R) (lo R) d)).toReal,
    fun v d => (A2 (ValueIdx.ix2 v d)).toReal, fun R => A3 (ValueIdx.ix2 (hi R) (lo R)), ?_, ?_, ?_, ?_, ?_⟩
  · intro b s d
    show A0 (ValueIdx.ix3 b s d) = (((A0 (ValueIdx.ix3 (hi ⟨2048 * b.val + s.val, _⟩) (lo ⟨2048 * b.val + s.val, _⟩) d)).toReal : ℝ) : EReal)
    rw [hi_flat, lo_flat]; exact f0 _
  · intro b s d
    show A1 (ValueIdx.ix3 b s d) = (((A1 (ValueIdx.ix3 (hi ⟨2048 * b.val + s.val, _⟩) (lo ⟨2048 * b.val + s.val, _⟩) d)).toReal : ℝ) : EReal)
    rw [hi_flat, lo_flat]; exact f1 _
  · intro v d; exact f2 _
  · intro b s
    show A3 (ValueIdx.ix2 b s) = A3 (ValueIdx.ix2 (hi ⟨2048 * b.val + s.val, _⟩) (lo ⟨2048 * b.val + s.val, _⟩))
    rw [hi_flat, lo_flat]
  · intro r; exact f3 _

/-! ## The kernel program's argument arrays -/

/-- The precondition of the kernel program, decoded on device `c`: the same five facts of its four argument arrays. -/
theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    ∃ (x2 x3 : Fin 4096 → Fin 768 → ℝ) (W : Fin 50257 → Fin 768 → ℝ) (t : Fin 4096 → BitVec 32),
      (∀ (b : Fin 2) (s : Fin 2048) (d : Fin 768),
        m ((c.tc : Thread Cert.KernelIdeal.nD Cert.KernelIdeal.τ).loc Cert.KernelIdeal.main_arg0) (ValueIdx.ix3 b s d)
          = ((x2 ⟨2048 * b.val + s.val, by omega⟩ d : ℝ) : EReal))
      ∧ (∀ (b : Fin 2) (s : Fin 2048) (d : Fin 768),
        m ((c.tc : Thread Cert.KernelIdeal.nD Cert.KernelIdeal.τ).loc Cert.KernelIdeal.main_arg1) (ValueIdx.ix3 b s d)
          = ((x3 ⟨2048 * b.val + s.val, by omega⟩ d : ℝ) : EReal))
      ∧ (∀ (v : Fin 50257) (d : Fin 768),
        m ((c.tc : Thread Cert.KernelIdeal.nD Cert.KernelIdeal.τ).loc Cert.KernelIdeal.main_arg2) (ValueIdx.ix2 v d) = ((W v d : ℝ) : EReal))
      ∧ (∀ (b : Fin 2) (s : Fin 2048),
        m ((c.tc : Thread Cert.KernelIdeal.nD Cert.KernelIdeal.τ).loc Cert.KernelIdeal.main_arg3) (ValueIdx.ix2 b s) = t ⟨2048 * b.val + s.val, by omega⟩)
      ∧ (∀ r, t r = Cert.Spec.ignore ∨ (t r).toNat < 50257) :=
  decode _ _ _ _ (h c)

end Cert.PreDecode

end
-- ==== Proof.Finals.lean ====
/-
  The three result arrays of the idealized kernel after its run, in closed form.

  The grid has 2 x 99 points: point t works on row tile t / 99 and vocabulary tile t % 99. Each of the three result
  arrays has 4096 rows in two blocks of 2048, block a written back once, at the last point 99 a + 98 of row tile a's sweep.
  So row R of a result array is row R % 2048 of what that point left in the staging buffer: for the two loss columns the
  value stored from the carried columns after the sweep's 99 tiles, for the cosine column the value stored at the sweep's
  first tile. The carried columns after the k-th tile of row tile a's sweep are the sweep function of that tile's blocks,
  from any start (the first tile resets them); the hidden tiles and the targets column are the same at all of a sweep's
  points.
-/
import proofs.«419146_j12747462935019_2_alg».proof.Proof.RunI
import Idealize.ShloMosaic.Lib.Pipeline.Value
import Idealize.ShloMosaic.Lib.ValueIdx

set_option maxRecDepth 16384

noncomputable section

namespace Cert.KernelIdeal.Finals

open Cert.KernelIdeal Cert.KernelIdeal.Gen Cert.KernelIdeal.KStep Cert.KernelIdeal.RunI
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-! ## The grid and the index maps -/

/-- The grid has 198 points. -/
theorem N_eq : cfg0.N = 198 := by decide

/-- The block index of every window but the vocabulary's is the row tile t / 99 (and 0 along the width); the vocabulary
    window's is the vocabulary tile t % 99. -/
theorem idx_facts : ∀ t : Fin cfg0.N,
    (win0_0.index t (0 : Fin 2) = t.val / 99 ∧ win0_0.index t (1 : Fin 2) = 0)
    ∧ (win0_1.index t (0 : Fin 2) = t.val / 99 ∧ win0_1.index t (1 : Fin 2) = 0)
    ∧ (win0_3.index t (0 : Fin 2) = t.val / 99 ∧ win0_3.index t (1 : Fin 2) = 0)
    ∧ (win0_4.index t (0 : Fin 2) = t.val / 99 ∧ win0_4.index t (1 : Fin 2) = 0)
    ∧ (win0_5.index t (0 : Fin 2) = t.val / 99 ∧ win0_5.index t (1 : Fin 2) = 0)
    ∧ (win0_6.index t (0 : Fin 2) = t.val / 99 ∧ win0_6.index t (1 : Fin 2) = 0) :=
  (by decide +kernel : ∀ t : Fin grid0.N, _)

/-! ## Rows of a result array -/

/-- The point that writes back the block holding row `i 0`: the last point of row tile `i 0 / 2048`'s sweep. -/
def lastOf (i : S4096x1.Idx) : Fin cfg0.N :=
  ⟨99 * ((i 0).val / 2048) + 98, by rw [N_eq]; have := idx2_lt0 i; omega⟩

/-- The row of that block at which row `i 0` sits. -/
def rowIn (i : S4096x1.Idx) : S2048x1.Idx := ix2 ⟨(i 0).val % 2048, Nat.mod_lt _ (by decide)⟩ (0 : Fin 1)

/-- A result array pieced together from what each sweep's last point left in the staging buffer. -/
def pieced (blkAt : Fin cfg0.N → Vec Ideal S2048x1 .f32) : S4096x1.Idx → EReal := fun i => blkAt (lastOf i) (rowIn i)

/-- Read where point `t`, the last of its sweep, writes row `j 0` of its block. -/
theorem pieced_apply (blkAt : Fin cfg0.N → Vec Ideal S2048x1 .f32) (i : S4096x1.Idx) (t : Fin cfg0.N) (j : S2048x1.Idx)
    (h0 : (i 0).val = 2048 * (t.val / 99) + (j 0).val) (ht : t.val % 99 = 98) : pieced blkAt i = blkAt t j := by
  have hj0 : (j 0).val < 2048 := idx2_lt0 j
  have hj1 : (j 1).val < 1 := idx2_lt1 j
  have e1 : lastOf i = t := Fin.ext (by show 99 * ((i 0).val / 2048) + 98 = t.val; omega)
  have e2 : rowIn i = j := by
    funext a
    match a with
    | ⟨0, _⟩ => exact Fin.ext (by show (i 0).val % 2048 = (j 0).val; omega)
    | ⟨1, _⟩ => exact Fin.ext (by show 0 = (j 1).val; omega)
  unfold pieced; rw [e1, e2]

/-- Every row is in the block its `lastOf` point writes back. -/
theorem lastOf_mod (i : S4096x1.Idx) : (lastOf i).val % 99 = 98 := by
  show (99 * ((i 0).val / 2048) + 98) % 99 = 98; omega
theorem lastOf_div (i : S4096x1.Idx) : (lastOf i).val / 99 = (i 0).val / 2048 := by
  show (99 * ((i 0).val / 2048) + 98) / 99 = (i 0).val / 2048; omega

/-! ## Result window 4: the pass-2 loss column -/

/-- An index of the array is in point `t`'s block iff each coordinate is in the block's range on its axis. -/
theorem mem_blk4 (t : Fin cfg0.N) (i : S4096x1.Idx) :
    i ∈ ((cfg0.win 4).blk t).view.set ↔ ∀ a : Fin 2, win0_4.index t a * S2048x1.size a ≤ (i a).val ∧ (i a).val < win0_4.index t a * S2048x1.size a + S2048x1.size a := by
  show i ∈ ((View.whole main_v4_0).slice (win0_4.rect t)).set ↔ _
  rw [View.set_slice_whole, Rect.mem_set_unit]
  exact Iff.rfl

/-- What the last point of a sweep writes back is its block of the pieced array. -/
theorem flushed4_eq (c : Dev nD) (t : Fin cfg0.N) (ht : t.val % 99 = 98) :
    (dats m 0 c).flushed 4 t = ((cfg0.win 4).blk t).view.read (Elt Ideal) (pieced fun t => nll2Blk (colsAt m c t.val t.isLt)) := by
  show (cfg0.win 4).cut (grid0.coords t) ((dats m 0 c).after 4 t) = _
  rw [after4]
  obtain ⟨-, -, -, ⟨e0, e1⟩, -, -⟩ := idx_facts t
  funext y
  show nll2Blk (colsAt m c t.val t.isLt) (win0_4.xinj (grid0.coords t) y)
    = pieced (fun t => nll2Blk (colsAt m c t.val t.isLt)) (((cfg0.win 4).blk t).view.emb y)
  refine (pieced_apply (fun t => nll2Blk (colsAt m c t.val t.isLt)) _ t (win0_4.xinj (grid0.coords t) y) ?_ ht).symm
  show win0_4.index t (0 : Fin 2) * 2048 + 1 * (y 0).val = 2048 * (t.val / 99) + (y 0).val
  rw [e0]; omega

/-- The two blocks written back cover the array. -/
theorem cover4 (i : S4096x1.Idx) : ∃ t : Fin cfg0.N, (cfg0.win 4).flush t = true ∧ i ∈ ((cfg0.win 4).blk t).view.set := by
  refine ⟨lastOf i, (flush0_4 _).mpr (lastOf_mod i), ?_⟩
  obtain ⟨-, -, -, ⟨e0, e1⟩, -, -⟩ := idx_facts (lastOf i)
  have hd := lastOf_div i
  have h0 : (i 0).val < 4096 := idx2_lt0 i
  have h1 : (i 1).val < 1 := idx2_lt1 i
  rw [mem_blk4]
  intro a
  match a with
  | ⟨0, _⟩ =>
    show win0_4.index (lastOf i) (0 : Fin 2) * 2048 ≤ (i 0).val ∧ (i 0).val < win0_4.index (lastOf i) (0 : Fin 2) * 2048 + 2048
    rw [e0, hd]; omega
  | ⟨1, _⟩ =>
    show win0_4.index (lastOf i) (1 : Fin 2) * 1 ≤ (i 1).val ∧ (i 1).val < win0_4.index (lastOf i) (1 : Fin 2) * 1 + 1
    rw [e1]; omega

/-- The pass-2 loss array after the run. -/
theorem final4 (c : Dev nD) :
    (dats m 0 c).arrAt 4 cfg0.N = pieced fun t => nll2Blk (colsAt m c t.val t.isLt) :=
  (dats m 0 c).arrAt_eq_of_cover 4 (pieced fun t => nll2Blk (colsAt m c t.val t.isLt))
    (fun t hf => flushed4_eq m c t ((flush0_4 t).mp hf)) cover4

/-! ## Result window 5: the pass-3 loss column -/

theorem mem_blk5 (t : Fin cfg0.N) (i : S4096x1.Idx) :
    i ∈ ((cfg0.win 5).blk t).view.set ↔ ∀ a : Fin 2, win0_5.index t a * S2048x1.size a ≤ (i a).val ∧ (i a).val < win0_5.index t a * S2048x1.size a + S2048x1.size a := by
  show i ∈ ((View.whole main_v4_1).slice (win0_5.rect t)).set ↔ _
  rw [View.set_slice_whole, Rect.mem_set_unit]
  exact Iff.rfl

theorem flushed5_eq (c : Dev nD) (t : Fin cfg0.N) (ht : t.val % 99 = 98) :
    (dats m 0 c).flushed 5 t = ((cfg0.win 5).blk t).view.read (Elt Ideal) (pieced fun t => nll3Blk (colsAt m c t.val t.isLt)) := by
  show (cfg0.win 5).cut (grid0.coords t) ((dats m 0 c).after 5 t) = _
  rw [after5]
  obtain ⟨-, -, -, -, ⟨e0, e1⟩, -⟩ := idx_facts t
  funext y
  show nll3Blk (colsAt m c t.val t.isLt) (win0_5.xinj (grid0.coords t) y)
    = pieced (fun t => nll3Blk (colsAt m c t.val t.isLt)) (((cfg0.win 5).blk t).view.emb y)
  refine (pieced_apply (fun t => nll3Blk (colsAt m c t.val t.isLt)) _ t (win0_5.xinj (grid0.coords t) y) ?_ ht).symm
  show win0_5.index t (0 : Fin 2) * 2048 + 1 * (y 0).val = 2048 * (t.val / 99) + (y 0).val
  rw [e0]; omega

theorem cover5 (i : S4096x1.Idx) : ∃ t : Fin cfg0.N, (cfg0.win 5).flush t = true ∧ i ∈ ((cfg0.win 5).blk t).view.set := by
  refine ⟨lastOf i, (flush0_5 _).mpr (lastOf_mod i), ?_⟩
  obtain ⟨-, -, -, -, ⟨e0, e1⟩, -⟩ := idx_facts (lastOf i)
  have hd := lastOf_div i
  have h0 : (i 0).val < 4096 := idx2_lt0 i
  have h1 : (i 1).val < 1 := idx2_lt1 i
  rw [mem_blk5]
  intro a
  match a with
  | ⟨0, _⟩ =>
    show win0_5.index (lastOf i) (0 : Fin 2) * 2048 ≤ (i 0).val ∧ (i 0).val < win0_5.index (lastOf i) (0 : Fin 2) * 2048 + 2048
    rw [e0, hd]; omega
  | ⟨1, _⟩ =>
    show win0_5.index (lastOf i) (1 : Fin 2) * 1 ≤ (i 1).val ∧ (i 1).val < win0_5.index (lastOf i) (1 : Fin 2) * 1 + 1
    rw [e1]; omega

/-- The pass-3 loss array after the run. -/
theorem final5 (c : Dev nD) :
    (dats m 0 c).arrAt 5 cfg0.N = pieced fun t => nll3Blk (colsAt m c t.val t.isLt) :=
  (dats m 0 c).arrAt_eq_of_cover 5 (pieced fun t => nll3Blk (colsAt m c t.val t.isLt))
    (fun t hf => flushed5_eq m c t ((flush0_5 t).mp hf)) cover5

/-! ## Result window 6: the cosine column -/

theorem mem_blk6 (t : Fin cfg0.N) (i : S4096x1.Idx) :
    i ∈ ((cfg0.win 6).blk t).view.set ↔ ∀ a : Fin 2, win0_6.index t a * S2048x1.size a ≤ (i a).val ∧ (i a).val < win0_6.index t a * S2048x1.size a + S2048x1.size a := by
  show i ∈ ((View.whole main_v4_2).slice (win0_6.rect t)).set ↔ _
  rw [View.set_slice_whole, Rect.mem_set_unit]
  exact Iff.rfl

theorem flushed6_eq (c : Dev nD) (t : Fin cfg0.N) (ht : t.val % 99 = 98) :
    (dats m 0 c).flushed 6 t = ((cfg0.win 6).blk t).view.read (Elt Ideal) (pieced fun t => cosAt m c t.val t.isLt) := by
  show (cfg0.win 6).cut (grid0.coords t) ((dats m 0 c).after 6 t) = _
  rw [after6]
  obtain ⟨-, -, -, -, -, ⟨e0, e1⟩⟩ := idx_facts t
  funext y
  show cosAt m c t.val t.isLt (win0_6.xinj (grid0.coords t) y)
    = pieced (fun t => cosAt m c t.val t.isLt) (((cfg0.win 6).blk t).view.emb y)
  refine (pieced_apply (fun t => cosAt m c t.val t.isLt) _ t (win0_6.xinj (grid0.coords t) y) ?_ ht).symm
  show win0_6.index t (0 : Fin 2) * 2048 + 1 * (y 0).val = 2048 * (t.val / 99) + (y 0).val
  rw [e0]; omega

theorem cover6 (i : S4096x1.Idx) : ∃ t : Fin cfg0.N, (cfg0.win 6).flush t = true ∧ i ∈ ((cfg0.win 6).blk t).view.set := by
  refine ⟨lastOf i, (flush0_6 _).mpr (lastOf_mod i), ?_⟩
  obtain ⟨-, -, -, -, -, ⟨e0, e1⟩⟩ := idx_facts (lastOf i)
  have hd := lastOf_div i
  have h0 : (i 0).val < 4096 := idx2_lt0 i
  have h1 : (i 1).val < 1 := idx2_lt1 i
  rw [mem_blk6]
  intro a
  match a with
  | ⟨0, _⟩ =>
    show win0_6.index (lastOf i) (0 : Fin 2) * 2048 ≤ (i 0).val ∧ (i 0).val < win0_6.index (lastOf i) (0 : Fin 2) * 2048 + 2048
    rw [e0, hd]; omega
  | ⟨1, _⟩ =>
    show win0_6.index (lastOf i) (1 : Fin 2) * 1 ≤ (i 1).val ∧ (i 1).val < win0_6.index (lastOf i) (1 : Fin 2) * 1 + 1
    rw [e1]; omega

/-- The cosine array after the run. -/
theorem final6 (c : Dev nD) :
    (dats m 0 c).arrAt 6 cfg0.N = pieced fun t => cosAt m c t.val t.isLt :=
  (dats m 0 c).arrAt_eq_of_cover 6 (pieced fun t => cosAt m c t.val t.isLt)
    (fun t hf => flushed6_eq m c t ((flush0_6 t).mp hf)) cover6

/-! ## One row tile's sweep -/

/-- Point `k` of row tile `a`'s sweep (`k` read modulo 99, so that it is a point for every `k`). -/
def pt (a : Fin 2) (k : ℕ) : Fin cfg0.N :=
  ⟨99 * a.val + k % 99, by rw [N_eq]; have := a.isLt; have := Nat.mod_lt k (show 0 < 99 by decide); omega⟩

theorem pt_val (a : Fin 2) (k : ℕ) (hk : k < 99) : (pt a k).val = 99 * a.val + k := by
  show 99 * a.val + k % 99 = _; rw [Nat.mod_eq_of_lt hk]
theorem pt_div (a : Fin 2) (k : ℕ) : (pt a k).val / 99 = a.val := by
  show (99 * a.val + k % 99) / 99 = _; have := Nat.mod_lt k (show 0 < 99 by decide); omega
theorem pt_mod (a : Fin 2) (k : ℕ) : (pt a k).val % 99 = k % 99 := by
  show (99 * a.val + k % 99) % 99 = _; have := Nat.mod_lt k (show 0 < 99 by decide); omega

/-- The carried columns do not depend on how the point's number is written. -/
theorem colsAt_congr (c : Dev nD) {n n' : ℕ} (h : n = n') (hn : n < cfg0.N) (hn' : n' < cfg0.N) :
    colsAt m c n hn = colsAt m c n' hn' := by subst h; rfl
theorem cosAt_congr (c : Dev nD) {n n' : ℕ} (h : n = n') (hn : n < cfg0.N) (hn' : n' < cfg0.N) :
    cosAt m c n hn = cosAt m c n' hn' := by subst h; rfl

/-- The hidden tiles and the targets column are the same at two points of one row tile: their windows' blocks are the
    row tile's. -/
theorem h2blk_const (c : Dev nD) (t t' : Fin cfg0.N) (h : t.val / 99 = t'.val / 99) : h2blk m c t = h2blk m c t' := by
  obtain ⟨⟨e0, e1⟩, -, -, -, -, -⟩ := idx_facts t
  obtain ⟨⟨e0', e1'⟩, -, -, -, -, -⟩ := idx_facts t'
  funext y
  show V m c (Pipeline.arrRef spec0 0) (((cfg0.win 0).blk t).view.emb y) = V m c (Pipeline.arrRef spec0 0) (((cfg0.win 0).blk t').view.emb y)
  refine congrArg _ (funext fun a => Fin.ext ?_)
  match a with
  | ⟨0, _⟩ =>
    show win0_0.index t (0 : Fin 2) * 2048 + 1 * (y 0).val = win0_0.index t' (0 : Fin 2) * 2048 + 1 * (y 0).val
    rw [e0, e0', h]
  | ⟨1, _⟩ =>
    show win0_0.index t (1 : Fin 2) * 768 + 1 * (y 1).val = win0_0.index t' (1 : Fin 2) * 768 + 1 * (y 1).val
    rw [e1, e1']

theorem h3blk_const (c : Dev nD) (t t' : Fin cfg0.N) (h : t.val / 99 = t'.val / 99) : h3blk m c t = h3blk m c t' := by
  obtain ⟨-, ⟨e0, e1⟩, -, -, -, -⟩ := idx_facts t
  obtain ⟨-, ⟨e0', e1'⟩, -, -, -, -⟩ := idx_facts t'
  funext y
  show V m c (Pipeline.arrRef spec0 1) (((cfg0.win 1).blk t).view.emb y) = V m c (Pipeline.arrRef spec0 1) (((cfg0.win 1).blk t').view.emb y)
  refine congrArg _ (funext fun a => Fin.ext ?_)
  match a with
  | ⟨0, _⟩ =>
    show win0_1.index t (0 : Fin 2) * 2048 + 1 * (y 0).val = win0_1.index t' (0 : Fin 2) * 2048 + 1 * (y 0).val
    rw [e0, e0', h]
  | ⟨1, _⟩ =>
    show win0_1.index t (1 : Fin 2) * 768 + 1 * (y 1).val = win0_1.index t' (1 : Fin 2) * 768 + 1 * (y 1).val
    rw [e1, e1']

theorem tgblk_const (c : Dev nD) (t t' : Fin cfg0.N) (h : t.val / 99 = t'.val / 99) : tgblk m c t = tgblk m c t' := by
  obtain ⟨-, -, ⟨e0, e1⟩, -, -, -⟩ := idx_facts t
  obtain ⟨-, -, ⟨e0', e1'⟩, -, -, -⟩ := idx_facts t'
  funext y
  show V m c (Pipeline.arrRef spec0 3) (((cfg0.win 3).blk t).view.emb y) = V m c (Pipeline.arrRef spec0 3) (((cfg0.win 3).blk t').view.emb y)
  refine congrArg _ (funext fun a => Fin.ext ?_)
  match a with
  | ⟨0, _⟩ =>
    show win0_3.index t (0 : Fin 2) * 2048 + 1 * (y 0).val = win0_3.index t' (0 : Fin 2) * 2048 + 1 * (y 0).val
    rw [e0, e0', h]
  | ⟨1, _⟩ =>
    show win0_3.index t (1 : Fin 2) * 1 + 1 * (y 1).val = win0_3.index t' (1 : Fin 2) * 1 + 1 * (y 1).val
    rw [e1, e1']

/-- Row tile `a`'s sweep as the sweep function takes it: the grid coordinates and the vocabulary tile of each of its points,
    and the hidden tiles and targets column of its first. -/
abbrev tileCoords (a : Fin 2) : ℕ → grid0.Coords := fun k => grid0.coords (pt a k)
abbrev tileW (c : Dev nD) (a : Fin 2) : ℕ → Vec Ideal S512x768 .f32 := fun k => wblk m c (pt a k)
abbrev tileSweep (c : Dev nD) (a : Fin 2) (S0 : St Ideal) : ℕ → St Ideal :=
  sweep (tileCoords a) (h2blk m c (pt a 0)) (h3blk m c (pt a 0)) (tileW m c a) (tgblk m c (pt a 0)) S0

/-- At the first tile of a sweep the columns the point starts from do not matter. -/
theorem point_first (i : grid0.Coords) (h2 h3 : Vec Ideal S2048x768 .f32) (w : Vec Ideal S512x768 .f32) (tg : Vec Ideal S2048x1 .i32)
    (S S' : St Ideal) (h : k0_cond1 i = 1#1) : point i h2 h3 w tg S = point i h2 h3 w tg S' := by
  unfold point; rw [if_pos h, if_pos h]

/-- The carried columns after tile `n` of row tile `a`'s sweep are the sweep function's after `n + 1` tiles, whatever it
    starts from. -/
theorem colsAt_sweep (c : Dev nD) (a : Fin 2) (S0 : St Ideal) :
    ∀ n : ℕ, n < 99 → colsAt m c (pt a n).val (pt a n).isLt = tileSweep m c a S0 (n + 1)
  | 0, _ => by
    have hm : (pt a 0).val % 99 = 0 := pt_mod a 0
    show _ = point (grid0.coords (pt a 0)) (h2blk m c (pt a 0)) (h3blk m c (pt a 0)) (wblk m c (pt a 0)) (tgblk m c (pt a 0)) S0
    by_cases hz : (pt a 0).val = 0
    · exact colsAt_zero m c (pt a 0) hz S0
    · rw [colsAt_pos m c (pt a 0) hz]
      exact point_first _ _ _ _ _ _ _ ((hcond1 _).mpr hm)
  | n + 1, hn => by
    have ih := colsAt_sweep c a S0 n (by omega)
    have hv : (pt a (n + 1)).val = 99 * a.val + (n + 1) := pt_val a (n + 1) hn
    have hv' : (pt a n).val = 99 * a.val + n := pt_val a n (by omega)
    have hz : (pt a (n + 1)).val ≠ 0 := by omega
    have hd : (pt a (n + 1)).val / 99 = (pt a 0).val / 99 := by rw [pt_div, pt_div]
    rw [colsAt_pos m c (pt a (n + 1)) hz, colsAt_congr m c (show (pt a (n + 1)).val - 1 = (pt a n).val by omega) _ (pt a n).isLt, ih,
      h2blk_const m c _ _ hd, h3blk_const m c _ _ hd, tgblk_const m c _ _ hd]
    rfl

/-- After the last tile of row tile `a`'s sweep. -/
theorem colsAt_last (c : Dev nD) (a : Fin 2) (S0 : St Ideal) (t : Fin cfg0.N) (ht : t.val = 99 * a.val + 98) :
    colsAt m c t.val t.isLt = tileSweep m c a S0 99 := by
  have e : t = pt a 98 := Fin.ext (by rw [ht, pt_val a 98 (by decide)])
  rw [e]; exact colsAt_sweep m c a S0 98 (by decide)

/-- The cosine column, stored at the first tile of a sweep, is still there at each of the sweep's points. -/
theorem cosAt_sweep (c : Dev nD) (a : Fin 2) :
    ∀ n : ℕ, n < 99 → cosAt m c (pt a n).val (pt a n).isLt = cosBlk (h2blk m c (pt a 0)) (h3blk m c (pt a 0))
  | 0, _ => cosAt_first m c (pt a 0) (pt_mod a 0)
  | n + 1, hn => by
    have ih := cosAt_sweep c a n (by omega)
    have hv : (pt a (n + 1)).val = 99 * a.val + (n + 1) := pt_val a (n + 1) hn
    have hv' : (pt a n).val = 99 * a.val + n := pt_val a n (by omega)
    rw [cosAt_pred m c (pt a (n + 1)).val (pt a (n + 1)).isLt (by omega) (by omega),
      cosAt_congr m c (show (pt a (n + 1)).val - 1 = (pt a n).val by omega) _ (pt a n).isLt, ih]

/-! ## The result arrays row by row -/

/-- Row `r` of row tile `a` as an index of a result array. -/
abbrev rowIdx (a : Fin 2) (r : Fin 2048) : S4096x1.Idx := ix2 (⟨2048 * a.val + r.val, by omega⟩ : Fin 4096) (0 : Fin 1)

theorem pieced_row (blkAt : Fin cfg0.N → Vec Ideal S2048x1 .f32) (a : Fin 2) (r : Fin 2048) :
    pieced blkAt (rowIdx a r) = blkAt (pt a 98) (ix2 r 0) := by
  have ha := a.isLt
  have hr := r.isLt
  refine pieced_apply blkAt _ (pt a 98) (ix2 r 0) ?_ ?_
  · show 2048 * a.val + r.val = 2048 * ((pt a 98).val / 99) + r.val
    rw [pt_div]
  · rw [pt_mod]

/-- Row `2048 a + r` of the pass-2 loss array: what the last tile stores from the columns after row tile `a`'s sweep. -/
theorem final4_row (c : Dev nD) (a : Fin 2) (r : Fin 2048) (S0 : St Ideal) :
    (dats m 0 c).arrAt 4 cfg0.N (rowIdx a r) = nll2Blk (tileSweep m c a S0 99) (ix2 r 0) := by
  rw [final4, pieced_row, colsAt_sweep m c a S0 98 (by decide)]

/-- The same of the pass-3 loss array. -/
theorem final5_row (c : Dev nD) (a : Fin 2) (r : Fin 2048) (S0 : St Ideal) :
    (dats m 0 c).arrAt 5 cfg0.N (rowIdx a r) = nll3Blk (tileSweep m c a S0 99) (ix2 r 0) := by
  rw [final5, pieced_row, colsAt_sweep m c a S0 98 (by decide)]

/-- Row `2048 a + r` of the cosine array: the cosine column of row tile `a`'s two hidden tiles. -/
theorem final6_row (c : Dev nD) (a : Fin 2) (r : Fin 2048) :
    (dats m 0 c).arrAt 6 cfg0.N (rowIdx a r) = cosBlk (h2blk m c (pt a 0)) (h3blk m c (pt a 0)) (ix2 r 0) := by
  rw [final6, pieced_row, cosAt_sweep m c a 98 (by decide)]

end Cert.KernelIdeal.Finals

end
-- ==== Proof.Consts.lean ====
/- The float literals of the two programs as extended reals, each unfolded once.

   Exact dyadics are stated as numerals; the two words that are not short dyadics (the f32 nearest 1e-8 and the f32 nearest
   0.1) are stated as the reals `Spec.eps` and `Spec.tenth` they denote, with the one thing used of `eps`: it is positive.
   The kernel's mask fill is a named constant whose table value is -inf. -/
import proofs.«419146_j12747462935019_2_alg».proof.Proof.Gen.KernelIdeal.Skeleton
import proofs.«419146_j12747462935019_2_alg».proof.Proof.Spec
import Idealize.ShloMosaic.PureOps.Ideal
import Idealize.ShloMosaic.PureOps.IdealRules

noncomputable section

namespace Cert.Consts

open Idealize.ShloMosaic

/-- All-ones exponent, zero fraction, sign set: -inf. -/
theorem neg_inf : Ideal.ofBits .f32 0xFF800000#32 = (⊥ : EReal) := by
  simp [Ideal.ofBits, Ideal.ieee]
/-- The all-zero word is +0. -/
theorem zero : Ideal.ofBits .f32 0x00000000#32 = (0 : EReal) := by
  simp [Ideal.ofBits, Ideal.ieee]
/-- Exponent field 127, zero fraction: 2^23 * 2^(-23) = 1. -/
theorem one : Ideal.ofBits .f32 0x3F800000#32 = ((1 : ℝ) : EReal) := by
  simp [Ideal.ofBits, Ideal.ieee, -EReal.coe_mul]; norm_num
/-- Exponent field 139, zero fraction: 2^12 = 4096, the row count the cosine mean divides by. -/
theorem c4096 : Ideal.ofBits .f32 0x45800000#32 = ((4096 : ℝ) : EReal) := by
  simp [Ideal.ofBits, Ideal.ieee, -EReal.coe_mul]; norm_num
/-- Sign set, exponent field 126, zero fraction: -(1/2), the weight of the cross-entropy difference. -/
theorem neg_half : Ideal.ofBits .f32 0xBF000000#32 = ((-(1 / 2) : ℝ) : EReal) := by
  simp [Ideal.ofBits, Ideal.ieee, -EReal.coe_mul]; norm_num

/-- The word of 1e-8 is a normal pattern: sign 0, exponent field 100, fraction 2870391, so it denotes 11258999 / 2^50. -/
theorem eps_dyadic : Ideal.ofBits .f32 0x322BCC77#32 = (((11258999 : ℝ) * (2 : ℝ) ^ (-50 : ℤ) : ℝ) : EReal) := by
  simp [Ideal.ofBits, Ideal.ieee, -EReal.coe_mul]

/-- The word of 0.1 is a normal pattern: sign 0, exponent field 123, fraction 5033165, so it denotes 13421773 / 2^27. -/
theorem tenth_dyadic : Ideal.ofBits .f32 0x3DCCCCCD#32 = (((13421773 : ℝ) * (2 : ℝ) ^ (-27 : ℤ) : ℝ) : EReal) := by
  simp [Ideal.ofBits, Ideal.ieee, -EReal.coe_mul]

/-- `Spec.eps` is by definition the real part of this word, and the word denotes a real. -/
theorem eps_coe : Ideal.ofBits .f32 0x322BCC77#32 = ((Cert.Spec.eps : ℝ) : EReal) := by
  unfold Cert.Spec.eps; rw [eps_dyadic, EReal.toReal_coe]
/-- A positive numerator over a power of two. -/
theorem eps_pos : 0 < Cert.Spec.eps := by
  unfold Cert.Spec.eps; rw [eps_dyadic, EReal.toReal_coe]; positivity
/-- `Spec.tenth` is by definition the real part of this word, and the word denotes a real. -/
theorem tenth_coe : Ideal.ofBits .f32 0x3DCCCCCD#32 = ((Cert.Spec.tenth : ℝ) : EReal) := by
  unfold Cert.Spec.tenth; rw [tenth_dyadic, EReal.toReal_coe]
/-- The mask fill: the table names the word 0xFF333332 "neg_big" and gives it the value -inf. -/
theorem neg_big : Named.named (F := Ideal) Cert.KernelIdeal.κ "neg_big" (φ := .f32) 0xFF333332#32 = (⊥ : EReal) :=
  IdealRules.named_const.ideal_named_scalar _ _ _ _ rfl

end Cert.Consts

end
-- ==== Proof.KTail.lean ====
/- The idealized kernel program's host operations after its one kernel region, as the loss of the specification.

   The region leaves three columns of 4096 rows: each pass's  lse - logit at the target  and the rows' cosines. What
   follows is plain arithmetic on them and on the targets: a row counts when its target is not the ignore word; the
   divisor is the number of rows that count, floored at 1; each pass's column is set to 0 on the rows that do not count,
   summed, and divided by the divisor; the cosine column is summed and divided by 4096; the result is
   (-1/2) * (mean of pass 2 - mean of pass 3) + f32(0.1) * mean cosine.  Read at the exact instance every one of these
   steps is the real operation on coerced reals, so the whole is `Spec.loss`. -/
import proofs.«419146_j12747462935019_2_alg».proof.Proof.Gen.KernelIdeal.Launch
import proofs.«419146_j12747462935019_2_alg».proof.Proof.Spec
import proofs.«419146_j12747462935019_2_alg».proof.Proof.Consts
import Idealize.ShloMosaic.Lib.IdealHost
import Idealize.ShloMosaic.Lib.Pipeline.Value

noncomputable section

namespace Cert.KernelIdeal.KTail

open Idealize.ShloMosaic Idealize.ShloMosaic.ValueIdx Cert.KernelIdeal Cert.KernelIdeal.Gen
open scoped BigOperators

/-! ## The operations after the region, composed -/

/-- The rows that count: a row's target is not the ignore word. One bit per row. -/
def valid (T : Vec Ideal S4096 .i32) : IVec S4096 1 :=
  cmpi .ne T (broadcastInDim S4096 ![] bcast_S_S4096 (constantI S_ 32 4294967295#32))

/-- The divisor of both means: the number of rows that count, as a float, floored at 1. -/
def denom (T : Vec Ideal S4096 .i32) : Vec Ideal S_ .f32 :=
  maximumf
    (Host.reduceAdd (F := Ideal) (uitofp (F := Ideal) .f32 (valid T)) (constant (F := Ideal) S_ .f32 0x00000000#32)
      reducesTo_S4096_S_d0 h_S_)
    (constant (F := Ideal) S_ .f32 0x3F800000#32)

/-- A pass's column of cross-entropies as a vector of 4096 rows, a row that does not count set to 0. -/
def masked (T : Vec Ideal S4096 .i32) (N : Vec Ideal S4096x1 .f32) : Vec Ideal S4096 .f32 :=
  select (valid T) (shapeCast S4096 N shapeCasts_S4096x1_S4096)
    (broadcastInDim S4096 ![] bcast_S_S4096 (id (constant (F := Ideal) S_ .f32 0x00000000#32)))

/-- A pass's masked mean: the sum of the masked column over the divisor. -/
def passMean (T : Vec Ideal S4096 .i32) (N : Vec Ideal S4096x1 .f32) : Vec Ideal S_ .f32 :=
  Host.divf (F := Ideal)
    (Host.reduceAdd (F := Ideal) (masked T N) (constant (F := Ideal) S_ .f32 0x00000000#32) reducesTo_S4096_S_d0 h_S_)
    (denom T)

/-- The mean of the cosine column: its sum over both axes over 4096. -/
def cosMean (C : Vec Ideal S4096x1 .f32) : Vec Ideal S_ .f32 :=
  Host.divf (F := Ideal)
    (Host.reduceAdd (F := Ideal) C (constant (F := Ideal) S_ .f32 0x00000000#32) reducesTo_S4096x1_S_d0_1 h_S_)
    (constant (F := Ideal) S_ .f32 0x45800000#32)

/-- Everything the program does after its kernel region, as one function of the region's three result columns and
    the targets:  (-1/2) * (mean2 - mean3) + f32(0.1) * mean cosine. -/
def tail (N2 N3 C : Vec Ideal S4096x1 .f32) (T : Vec Ideal S4096 .i32) : Vec Ideal S_ .f32 :=
  addf
    (mulf (constant (F := Ideal) S_ .f32 0xBF000000#32) (subf (passMean T N2) (passMean T N3)))
    (mulf (constant (F := Ideal) S_ .f32 0x3DCCCCCD#32) (cosMean C))

/-! ## Sums and coercions -/

/-- The coercion of reals into the extended reals carries a finite sum to the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- It carries a maximum to the maximum. -/
theorem coe_max (a b : ℝ) : ((max a b : ℝ) : EReal) = max (a : EReal) (b : EReal) :=
  (EReal.coe_strictMono.monotone.map_max (a := a) (b := b))

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A column of `a` rows cast to a vector of `a` entries reads, at `i`, the column at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## Each piece read at the exact instance -/

section

variable (t : Fin 4096 → BitVec 32) (T : Vec Ideal S4096 .i32) (hT : ∀ R : Fin 4096, T (ValueIdx.ix1 R) = t R)

/-- A row's bit: the comparison of its target with the ignore word. -/
theorem valid_apply (R : Fin 4096) : valid T (ix1 R) = IntOp.cmpi .ne (T (ix1 R)) 4294967295#32 := rfl

include hT in
/-- The bit is 1 on a row that counts. -/
theorem valid_of_ne (R : Fin 4096) (h : t R ≠ Cert.Spec.ignore) : valid T (ix1 R) = 1#1 := by
  rw [valid_apply, hT]; exact IntOp.cmpi_ne.mpr h

include hT in
/-- The bit is 0 on an ignored row. -/
theorem valid_of_eq (R : Fin 4096) (h : t R = Cert.Spec.ignore) : valid T (ix1 R) = 0#1 := by
  rw [valid_apply, hT]; exact eq_zero_of_ne_one fun e => IntOp.cmpi_ne.mp e h

include hT in
/-- The divisor is the specification's count. -/
theorem denom_eq : denom T = fun _ => ((Cert.Spec.cnt t : ℝ) : EReal) := by
  funext j
  unfold denom
  rw [maximumf_apply, hostReduceAdd_apply, Ideal.hostReduceAdd_total _ (fun b => b.elim0), constant_apply, constant_apply,
    Cert.Consts.zero, Cert.Consts.one, zero_add, sum_idx1]
  have e : ∀ R : Fin 4096, (uitofp (F := Ideal) .f32 (valid T)) (ix1 R) = (((if t R ≠ Cert.Spec.ignore then 1 else 0 : ℝ)) : EReal) := by
    intro R
    show (((valid T (ix1 R)).toNat : ℝ) : EReal) = _
    by_cases h : t R = Cert.Spec.ignore
    · rw [valid_of_eq t T hT R h, if_neg (not_not.mpr h)]; simp
    · rw [valid_of_ne t T hT R h, if_pos h]; simp
  rw [Finset.sum_congr rfl fun R _ => e R, ← coe_sum, Finset.sum_boole, Cert.Spec.cnt, coe_max]

variable (x : Fin 4096 → Fin 768 → ℝ) (W : Fin 50257 → Fin 768 → ℝ) (N : Vec Ideal S4096x1 .f32)
  (hN : ∀ R : Fin 4096, N (ValueIdx.ix2 R 0) = ((Cert.Spec.lse x W R - Cert.Spec.tlogit x W t R : ℝ) : EReal))

include hT hN in
/-- A pass's masked column is the specification's cross-entropy, row by row. -/
theorem masked_apply (R : Fin 4096) : masked T N (ix1 R) = ((Cert.Spec.nll x W t R : ℝ) : EReal) := by
  unfold masked
  rw [select_apply]
  by_cases h : t R = Cert.Spec.ignore
  · rw [valid_of_eq t T hT R h, select_zero, broadcastInDim_scalar_apply]
    show Ideal.ofBits .f32 0x00000000#32 = _
    rw [Cert.Consts.zero, Cert.Spec.nll, if_pos h, EReal.coe_zero]
  · rw [valid_of_ne t T hT R h, select_one, shapeCast_a1_a_apply, hN, Cert.Spec.nll, if_neg h]

include hT hN in
/-- A pass's masked mean is the specification's. -/
theorem passMean_eq : passMean T N = fun _ => ((Cert.Spec.ce x W t : ℝ) : EReal) := by
  funext j
  unfold passMean
  rw [hostDivf_apply, hostReduceAdd_apply, Ideal.hostReduceAdd_total _ (fun b => b.elim0), constant_apply, Cert.Consts.zero,
    zero_add, sum_idx1, Finset.sum_congr rfl fun R _ => masked_apply t T hT x W N hN R, ← coe_sum, denom_eq t T hT]
  have hc : Cert.Spec.cnt t ≠ 0 := by
    have : (1 : ℝ) ≤ Cert.Spec.cnt t := le_max_right _ _
    intro e; rw [e] at this; norm_num at this
  rw [Ideal.div_coe hc, ← EReal.coe_mul, Cert.Spec.ce, mul_one_div]

end

/-- The cosine column's mean is the specification's. -/
theorem cosMean_eq (x2 x3 : Fin 4096 → Fin 768 → ℝ) (C : Vec Ideal S4096x1 .f32)
    (hC : ∀ R : Fin 4096, C (ValueIdx.ix2 R 0) = ((Cert.Spec.cos x2 x3 R : ℝ) : EReal)) :
    cosMean C = fun _ => (((∑ r, Cert.Spec.cos x2 x3 r) / 4096 : ℝ) : EReal) := by
  funext j
  unfold cosMean
  rw [hostDivf_apply, hostReduceAdd_apply, Ideal.hostReduceAdd_total _ (fun b => b.elim0), constant_apply, constant_apply,
    Cert.Consts.zero, Cert.Consts.c4096, zero_add, sum_idx2]
  have e : ∀ R : Fin 4096, (∑ b : Fin 1, C (ix2 R b)) = ((Cert.Spec.cos x2 x3 R : ℝ) : EReal) := by
    intro R; rw [Fin.sum_univ_one, hC]
  rw [Finset.sum_congr rfl fun R _ => e R, ← coe_sum, Ideal.div_coe (by norm_num : (4096 : ℝ) ≠ 0), ← EReal.coe_mul,
    mul_one_div]

/-! ## The whole -/

/-- The operations after the region compute the specification's loss from the region's three columns. -/
theorem tail_eq_loss (x2 x3 : Fin 4096 → Fin 768 → ℝ) (W : Fin 50257 → Fin 768 → ℝ) (t : Fin 4096 → BitVec 32)
    (N2 N3 C : Vec Ideal S4096x1 .f32) (T : Vec Ideal S4096 .i32)
    (hN2 : ∀ R : Fin 4096, N2 (ValueIdx.ix2 R 0) = ((Cert.Spec.lse x2 W R - Cert.Spec.tlogit x2 W t R : ℝ) : EReal))
    (hN3 : ∀ R, N3 (ValueIdx.ix2 R 0) = ((Cert.Spec.lse x3 W R - Cert.Spec.tlogit x3 W t R : ℝ) : EReal))
    (hC : ∀ R, C (ValueIdx.ix2 R 0) = ((Cert.Spec.cos x2 x3 R : ℝ) : EReal))
    (hT : ∀ R, T (ValueIdx.ix1 R) = t R) :
    tail N2 N3 C T = fun _ => ((Cert.Spec.loss x2 x3 W t : ℝ) : EReal) := by
  funext j
  unfold tail
  rw [addf_apply, mulf_apply, mulf_apply, subf_apply, constant_apply, constant_apply, Cert.Consts.neg_half, Cert.Consts.tenth_coe,
    passMean_eq t T hT x2 W N2 hN2, passMean_eq t T hT x3 W N3 hN3, cosMean_eq x2 x3 C hC, Cert.Spec.loss]
  rw [← EReal.coe_sub, ← EReal.coe_mul, ← EReal.coe_mul, ← EReal.coe_add]

end Cert.KernelIdeal.KTail

end
-- ==== Proof.KTailRead.lean ====
/- What the idealized kernel program's result buffer holds after the operations that follow its kernel region.

   The region leaves its three result columns in the arrays of windows 4, 5 and 6; the targets vector was written before
   the region and is no array of the pipeline, so the operations after the region find it as the region did. Reading
   the thirty-four operations in order, each at its own result buffer, gives the composed function `KTail.tail` of those
   four arrays. -/
import proofs.«419146_j12747462935019_2_alg».proof.Proof.Gen.KernelIdeal.Frame
import proofs.«419146_j12747462935019_2_alg».proof.Proof.KTail

set_option maxRecDepth 16384

noncomputable section

namespace Cert.KernelIdeal.KTail

open Idealize.ShloMosaic Idealize.ShloMosaic.TcCoe Idealize.ShloMosaic.Tactic Cert.KernelIdeal Cert.KernelIdeal.Gen
open Idealize.ShloMosaic.Pipeline (Dat Cfg Window)

variable (m : (ℓ : Loc nD τ sig) → Buf (Elt Ideal) ℓ)

set_option maxHeartbeats 1600000 in
/-- The result buffer after the operations that follow the region is `tail` of the three result arrays as the region
    leaves them and of the targets as the region found them. -/
theorem afterTail_v23 (dats : (p : Fin 1) → (c : Dev nD) → Dat τ (Elt Ideal) Unit ℕ (UR sig nD τ) ℕ (cfgs p) c) (c : Dev nD) :
    Pipeline.afterTail₀ cfgs dats 0 (Gen.V0 m) [hostOps1, hostOps1_1, hostOps1_2, hostOps1_3, hostOps1_4] c main_v23
      = tail ((dats 0 c).arrAt 4 cfg0.N) ((dats 0 c).arrAt 5 cfg0.N) ((dats 0 c).arrAt 6 cfg0.N) (Gen.V m c main_v2) := by
  -- the targets vector is no array of the pipeline: it is read as at the region's entry
  have h2 : Pipeline.withArrays (cfgs 0).spec c (V0 m c) (fun w => (dats 0 c).arrAt w (cfgs 0).N) (Proc.devRef .tc main_v2)
      = Gen.V m c main_v2 :=
    Pipeline.withArrays_of_ne _ c (V0 m c) _ main_v2 (by exact (by decide : ∀ w, Pipeline.arrRef spec0 w ≠ main_v2))
  -- the three result columns are the arrays of windows 4, 5 and 6
  have h4 : Pipeline.withArrays (cfgs 0).spec c (V0 m c) (fun w => (dats 0 c).arrAt w (cfgs 0).N) (Proc.devRef .tc main_v4_0)
      = (dats 0 c).arrAt 4 cfg0.N := Pipeline.withArrays_arr spec0 launch0.win.arr_inj c _ _ 4
  have h5 : Pipeline.withArrays (cfgs 0).spec c (V0 m c) (fun w => (dats 0 c).arrAt w (cfgs 0).N) (Proc.devRef .tc main_v4_1)
      = (dats 0 c).arrAt 5 cfg0.N := Pipeline.withArrays_arr spec0 launch0.win.arr_inj c _ _ 5
  have h6 : Pipeline.withArrays (cfgs 0).spec c (V0 m c) (fun w => (dats 0 c).arrAt w (cfgs 0).N) (Proc.devRef .tc main_v4_2)
      = (dats 0 c).arrAt 6 cfg0.N := Pipeline.withArrays_arr spec0 launch0.win.arr_inj c _ _ 6
  unfold Pipeline.afterTail₀
  simp only [Gen.hostOps1, Gen.hostOps1_1, Gen.hostOps1_2, Gen.hostOps1_3, Gen.hostOps1_4, List.flatten_cons, List.flatten_nil,
    List.append_nil, List.cons_append, List.nil_append]
  after_results_simp
  rw [h2, h4, h5, h6]
  rfl

end Cert.KernelIdeal.KTail

end
-- ==== Proof.Online.lean ====
/- The online form of a row's log-sum-exp, over plain reals.

   One row has 50257 real logits `a v`. They are swept in 99 tiles of 512 columns; column `j` of tile `k` is entry
   `512 k + j` when that is below 50257 and is absent otherwise (the last tile has 81 entries and 431 absent columns). An
   absent column counts as -inf: it is the neutral element of the maximum, and its exponential is 0. The sweep carries the
   running maximum `m`, the running sum `l` of exponentials taken against the current maximum, rescaled by
   `exp (m_old - m_new)` whenever the maximum moves, and the accumulated logit `t` at the column whose index is the row's
   target. After the last tile  m + log l - t  is the row's log-sum-exp minus its target logit. -/
import Idealize.ShloMosaic.PureOps.Ideal

noncomputable section

namespace Cert.Online

open Idealize.ShloMosaic

/-- Column `j` of tile `k`: the row's entry `512 k + j`, or -inf past the end of the vocabulary. -/
def z (a : Fin 50257 → ℝ) (k j : ℕ) : EReal := if h : 512 * k + j < 50257 then ((a ⟨512 * k + j, h⟩ : ℝ) : EReal) else ⊥

/-- The three carried quantities of one row. -/
structure MLT where
  m : EReal
  l : EReal
  t : EReal

/-- One tile folded in. The target is compared as the kernel compares it: the column's index as a 32-bit word against the
    target word. -/
def ostep (a : Fin 50257 → ℝ) (tgt : BitVec 32) (k : ℕ) (s : MLT) : MLT :=
  let m' : EReal := max s.m ((Finset.univ : Finset (Fin 512)).fold max ⊥ fun j => z a k j.val)
  { m := m'
    l := Ideal.exp (s.m - m') * s.l + ∑ j : Fin 512, Ideal.exp (z a k j.val - m')
    t := s.t + ∑ j : Fin 512, (if BitVec.ofNat 32 (512 * k + j.val) = tgt then z a k j.val else 0) }

/-- The sweep from the reset state (maximum -inf, sums 0). -/
def orun (a : Fin 50257 → ℝ) (tgt : BitVec 32) : ℕ → MLT
  | 0 => ⟨⊥, 0, 0⟩
  | n + 1 => ostep a tgt n (orun a tgt n)

/-! ### Real-valued readings of the columns

The sweep is followed with sums over initial segments `i < 512 n` of the natural numbers, an index past the end of the row
contributing 0. That way one more tile is one more block of 512 consecutive indices, whatever part of it is real. -/

/-- The embedding of the reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- `exp (a i - M)` at entry `i`, and 0 past the end of the row. -/
def ea (a : Fin 50257 → ℝ) (M : ℝ) (i : ℕ) : ℝ := if h : i < 50257 then Real.exp (a ⟨i, h⟩ - M) else 0

/-- Entry `i` of the row, and 0 past its end. -/
def ar (a : Fin 50257 → ℝ) (i : ℕ) : ℝ := if h : i < 50257 then a ⟨i, h⟩ else 0

/-- Entry `i` if `i` is the target's index, else 0. -/
def ta (a : Fin 50257 → ℝ) (tgt : BitVec 32) (i : ℕ) : ℝ := if i = tgt.toNat then ar a i else 0

/-- The exponential of a column against a real maximum: an absent column gives `exp (-inf - M) = exp (-inf) = 0`. -/
theorem exp_z_sub (a : Fin 50257 → ℝ) (M : ℝ) (k j : ℕ) :
    Ideal.exp (z a k j - (M : EReal)) = ((ea a M (512 * k + j) : ℝ) : EReal) := by
  unfold z ea
  by_cases h : 512 * k + j < 50257
  · rw [dif_pos h, dif_pos h, ← EReal.coe_sub, Ideal.exp_coe]
  · rw [dif_neg h, dif_neg h, EReal.bot_sub, Ideal.exp_bot, EReal.coe_zero]

/-- A tile's sum of exponentials is the real sum over its block of indices. -/
theorem tile_sum (a : Fin 50257 → ℝ) (M : ℝ) (k : ℕ) :
    ∑ j : Fin 512, Ideal.exp (z a k j.val - (M : EReal))
      = ((∑ j ∈ Finset.range 512, ea a M (512 * k + j) : ℝ) : EReal) := by
  rw [coe_sum, Finset.sum_range]
  exact Finset.sum_congr rfl fun j _ => exp_z_sub a M k j.val

/-- Moving the reference point of the exponentials from `M` to `M'` multiplies each by `exp (M - M')`. -/
theorem ea_rescale (a : Fin 50257 → ℝ) (M M' : ℝ) (i : ℕ) : Real.exp (M - M') * ea a M i = ea a M' i := by
  unfold ea
  split
  · rw [← Real.exp_add]; congr 1; ring
  · exact mul_zero _

/-! ### The maximum of a tile -/

/-- No column is +inf, so a tile's maximum is not. -/
theorem tile_lt_top (a : Fin 50257 → ℝ) (k : ℕ) :
    (Finset.univ : Finset (Fin 512)).fold max ⊥ (fun j => z a k j.val) < ⊤ := by
  rw [Finset.fold_max_lt]
  refine ⟨bot_lt_top, fun j _ => ?_⟩
  unfold z
  split
  · exact EReal.coe_lt_top _
  · exact bot_lt_top

/-- A tile whose first column is real has a maximum above -inf. -/
theorem bot_lt_tile (a : Fin 50257 → ℝ) (k : ℕ) (hk : 512 * k < 50257) :
    ⊥ < (Finset.univ : Finset (Fin 512)).fold max ⊥ (fun j => z a k j.val) := by
  rw [Finset.lt_fold_max]
  refine Or.inr ⟨⟨0, by norm_num⟩, Finset.mem_univ _, ?_⟩
  have h : 512 * k + 0 < 50257 := by omega
  show ⊥ < z a k 0
  unfold z
  rw [dif_pos h]
  exact EReal.bot_lt_coe _

/-! ### One tile: maximum and sum

Before the first tile the maximum is -inf and the sum 0. After any tile the maximum is some real `M` and the sum is
`∑ exp (a i - M)` over the indices swept. Which real `M` is does not matter for the result, so the invariant does not
say that it is the maximum. -/

theorem ostep_ml (a : Fin 50257 → ℝ) (tgt : BitVec 32) (k : ℕ) (hk : 512 * k < 50257) (s : MLT)
    (hs : (s.m = ⊥ ∧ s.l = 0 ∧ k = 0) ∨
      ∃ M : ℝ, s.m = (M : EReal) ∧ s.l = ((∑ i ∈ Finset.range (512 * k), ea a M i : ℝ) : EReal)) :
    ∃ M' : ℝ, (ostep a tgt k s).m = (M' : EReal) ∧
      (ostep a tgt k s).l = ((∑ i ∈ Finset.range (512 * (k + 1)), ea a M' i : ℝ) : EReal) := by
  have hTtop := tile_lt_top a k
  have hTbot := bot_lt_tile a k hk
  have hsm : s.m < ⊤ := by
    rcases hs with ⟨h, _, _⟩ | ⟨M, h, _⟩
    · rw [h]; exact bot_lt_top
    · rw [h]; exact EReal.coe_lt_top _
  have hne_top : max s.m ((Finset.univ : Finset (Fin 512)).fold max ⊥ (fun j => z a k j.val)) ≠ ⊤ :=
    (max_lt hsm hTtop).ne
  have hne_bot : max s.m ((Finset.univ : Finset (Fin 512)).fold max ⊥ (fun j => z a k j.val)) ≠ ⊥ :=
    (lt_of_lt_of_le hTbot (le_max_right _ _)).ne'
  obtain ⟨M', hM'⟩ : ∃ M' : ℝ,
      max s.m ((Finset.univ : Finset (Fin 512)).fold max ⊥ (fun j => z a k j.val)) = (M' : EReal) :=
    ⟨_, (EReal.coe_toReal hne_top hne_bot).symm⟩
  refine ⟨M', hM', ?_⟩
  show Ideal.exp (s.m - max s.m ((Finset.univ : Finset (Fin 512)).fold max ⊥ (fun j => z a k j.val))) * s.l
      + ∑ j : Fin 512, Ideal.exp (z a k j.val
          - max s.m ((Finset.univ : Finset (Fin 512)).fold max ⊥ (fun j => z a k j.val))) = _
  rw [hM', tile_sum, show 512 * (k + 1) = 512 * k + 512 by ring, Finset.sum_range_add]
  rcases hs with ⟨hm, hl, hk0⟩ | ⟨M, hm, hl⟩
  · subst hk0
    rw [hl, mul_zero, zero_add, Nat.mul_zero, Finset.range_zero, Finset.sum_empty, zero_add]
  · rw [hm, hl, ← EReal.coe_sub, Ideal.exp_coe, ← EReal.coe_mul, ← EReal.coe_add, Finset.mul_sum]
    congr 2
    exact Finset.sum_congr rfl fun i _ => ea_rescale a M M' i

/-- After `n ≥ 1` tiles (`n ≤ 99`, so that each tile swept had a real first column). -/
theorem orun_ml (a : Fin 50257 → ℝ) (tgt : BitVec 32) : ∀ n : ℕ, 1 ≤ n → n ≤ 99 →
    ∃ M : ℝ, (orun a tgt n).m = (M : EReal) ∧
      (orun a tgt n).l = ((∑ i ∈ Finset.range (512 * n), ea a M i : ℝ) : EReal)
  | 0, h, _ => absurd h (by norm_num)
  | 1, _, _ => ostep_ml a tgt 0 (by norm_num) _ (Or.inl ⟨rfl, rfl, rfl⟩)
  | n + 2, _, h => ostep_ml a tgt (n + 1) (by omega) _ (Or.inr (orun_ml a tgt (n + 1) (by omega) (by omega)))

/-! ### One tile: the target logit -/

/-- A column index below `2 ^ 32` equals the target as a word exactly when it equals it as a number. -/
theorem ofNat_eq_iff (tgt : BitVec 32) (i : ℕ) (hi : i < 2 ^ 32) : BitVec.ofNat 32 i = tgt ↔ i = tgt.toNat := by
  rw [← BitVec.toNat_inj, BitVec.toNat_ofNat, Nat.mod_eq_of_lt hi]

/-- The selected value of one column. A column that matches the target is real: the all-ones word is beyond every column
    index, and a target below 50257 is matched only by an index below 50257. -/
theorem t_term (a : Fin 50257 → ℝ) (tgt : BitVec 32) (htgt : tgt = 4294967295#32 ∨ tgt.toNat < 50257)
    (k j : ℕ) (hk : k < 99) (hj : j < 512) :
    (if BitVec.ofNat 32 (512 * k + j) = tgt then z a k j else 0) = ((ta a tgt (512 * k + j) : ℝ) : EReal) := by
  have hi : 512 * k + j < 2 ^ 32 := by omega
  unfold ta
  by_cases h : 512 * k + j = tgt.toNat
  · have hlt : tgt.toNat < 50257 := by
      rcases htgt with h1 | h1
      · exfalso
        have h2 : tgt.toNat = 4294967295 := by rw [h1]; rfl
        omega
      · exact h1
    have h2 : 512 * k + j < 50257 := by omega
    rw [if_pos ((ofNat_eq_iff tgt _ hi).mpr h), if_pos h]
    unfold z ar
    rw [dif_pos h2, dif_pos h2]
  · rw [if_neg (fun e => h ((ofNat_eq_iff tgt _ hi).mp e)), if_neg h, EReal.coe_zero]

theorem t_tile (a : Fin 50257 → ℝ) (tgt : BitVec 32) (htgt : tgt = 4294967295#32 ∨ tgt.toNat < 50257)
    (k : ℕ) (hk : k < 99) :
    ∑ j : Fin 512, (if BitVec.ofNat 32 (512 * k + j.val) = tgt then z a k j.val else 0)
      = ((∑ j ∈ Finset.range 512, ta a tgt (512 * k + j) : ℝ) : EReal) := by
  rw [coe_sum, Finset.sum_range]
  exact Finset.sum_congr rfl fun j _ => t_term a tgt htgt k j.val hk j.isLt

theorem orun_t (a : Fin 50257 → ℝ) (tgt : BitVec 32) (htgt : tgt = 4294967295#32 ∨ tgt.toNat < 50257) :
    ∀ n : ℕ, n ≤ 99 → (orun a tgt n).t = ((∑ i ∈ Finset.range (512 * n), ta a tgt i : ℝ) : EReal)
  | 0, _ => by
      show (0 : EReal) = _
      rw [Nat.mul_zero, Finset.range_zero, Finset.sum_empty, EReal.coe_zero]
  | n + 1, h => by
      have ih := orun_t a tgt htgt n (by omega)
      show (orun a tgt n).t
          + ∑ j : Fin 512, (if BitVec.ofNat 32 (512 * n + j.val) = tgt then z a n j.val else 0) = _
      rw [ih, t_tile a tgt htgt n (by omega), ← EReal.coe_add,
        show 512 * (n + 1) = 512 * n + 512 by ring, Finset.sum_range_add]

/-! ### After the last tile -/

/-- Once the segment covers the row, the segment's sum is the row's. -/
theorem sum_ea_full (a : Fin 50257 → ℝ) (M : ℝ) (N : ℕ) (hN : 50257 ≤ N) :
    ∑ i ∈ Finset.range N, ea a M i = ∑ v : Fin 50257, Real.exp (a v - M) := by
  obtain ⟨d, rfl⟩ := Nat.exists_eq_add_of_le hN
  have h0 : ∑ x ∈ Finset.range d, ea a M (50257 + x) = 0 :=
    Finset.sum_eq_zero fun x _ => dif_neg (by omega)
  rw [Finset.sum_range_add, h0, add_zero, Finset.sum_range]
  exact Finset.sum_congr rfl fun v _ => dif_pos v.isLt

/-- Once the segment covers the row, the selected sum is the target's logit, or 0 when the target is no entry. -/
theorem sum_ta_full (a : Fin 50257 → ℝ) (tgt : BitVec 32) (N : ℕ) (hN : 50257 ≤ N) :
    ∑ i ∈ Finset.range N, ta a tgt i = if h : tgt.toNat < 50257 then a ⟨tgt.toNat, h⟩ else 0 := by
  unfold ta
  rw [Finset.sum_ite_eq']
  unfold ar
  by_cases h : tgt.toNat < 50257
  · rw [if_pos (Finset.mem_range.mpr (by omega)), dif_pos h]
  · rw [dif_neg h, ite_self]

/-- Taking a common factor `exp M` out of the row's exponentials. -/
theorem lse_shift (a : Fin 50257 → ℝ) (M : ℝ) :
    M + Real.log (∑ v, Real.exp (a v - M)) = Real.log (∑ v, Real.exp (a v)) := by
  have hL : 0 < ∑ v : Fin 50257, Real.exp (a v - M) :=
    Finset.sum_pos (fun v _ => Real.exp_pos _) ⟨⟨0, by norm_num⟩, Finset.mem_univ _⟩
  have hS : ∑ v, Real.exp (a v) = Real.exp M * ∑ v, Real.exp (a v - M) := by
    rw [Finset.mul_sum]
    exact Finset.sum_congr rfl fun v _ => by rw [← Real.exp_add]; congr 1; ring
  rw [hS, Real.log_mul (Real.exp_ne_zero _) hL.ne', Real.log_exp]

/-- After all 99 tiles: maximum + log(sum) - target logit is the log-sum-exp of the row minus the logit at its target, the
    target being either the ignore word (all ones: it matches no column, and the target logit is 0) or a vocabulary entry. -/
theorem orun_final (a : Fin 50257 → ℝ) (tgt : BitVec 32) (htgt : tgt = 4294967295#32 ∨ tgt.toNat < 50257) :
    (orun a tgt 99).m + Ideal.log (orun a tgt 99).l - (orun a tgt 99).t
      = ((Real.log (∑ v, Real.exp (a v)) - (if h : tgt.toNat < 50257 then a ⟨tgt.toNat, h⟩ else 0) : ℝ) : EReal) := by
  obtain ⟨M, hm, hl⟩ := orun_ml a tgt 99 (by norm_num) le_rfl
  have ht := orun_t a tgt htgt 99 le_rfl
  have hL : 0 < ∑ v : Fin 50257, Real.exp (a v - M) :=
    Finset.sum_pos (fun v _ => Real.exp_pos _) ⟨⟨0, by norm_num⟩, Finset.mem_univ _⟩
  rw [hm, hl, ht, sum_ea_full a M _ (by norm_num), sum_ta_full a tgt _ (by norm_num), Ideal.log_coe,
    if_neg (not_le.mpr hL), ← EReal.coe_add, ← EReal.coe_sub, lse_shift]

end Cert.Online

end
-- ==== Proof.PayI2.lean ====
/- Pass 2 of a grid point's sweep over the vocabulary, read row by row at the exact instance.

   Row `r` of a row tile has the real logits `a r v = ∑ d, x r d * W v d`. One vocabulary tile folds into the row's three
   carried values — the running maximum, the running sum of exponentials against it, the accumulated target logit — exactly
   as the abstract online step does with the abstract tile `z (a r) k`: the new maximum is the old one against the fold of
   `max` over the tile's 512 masked logits, the new sum is the old one rescaled by the exponential of the maxima's
   difference plus the row sum of the tile's exponentials, and the new target logit adds the tile's entries whose column
   word is the row's target word. The first tile starts from the reset values (the bottom, 0, 0). By induction the columns
   after `n` tiles read, at every row, as the abstract sweep after `n` tiles; and what the last tile stores is
   maximum + log(sum) - target logit of the row. -/
import proofs.«419146_j12747462935019_2_alg».proof.Proof.PayTile
import proofs.«419146_j12747462935019_2_alg».proof.Proof.Online

noncomputable section

namespace Cert.KernelIdeal.PayI2

open Idealize.ShloMosaic Idealize.ShloMosaic.ValueIdx Cert.KernelIdeal Cert.KernelIdeal.Gen Cert.KernelIdeal.KStep
  Cert.KernelIdeal.PayTile

/-! ## One tile folded into the three columns of pass 2, read at a row -/

/-- The tile's logit at the row's target: the sum over the columns whose word is the target word. -/
theorem tgtLogit_apply (i : grid0.Coords) (w : Vec Ideal S512x768 .f32) (tg : Vec Ideal S2048x1 .i32) (h : Vec Ideal S2048x768 .f32)
    (r : Fin 2048) :
    k0_pay21 i w tg h (ix2 r 0)
      = ∑ j : Fin 512, if BitVec.ofNat 32 (512 * (i 1).val + j.val) = tg (ix2 r 0) then k0_pay20 i w h (ix2 r j) else 0 := by
  unfold k0_pay21
  refine (col_of_vec _ _ r 0).trans ?_
  refine (sum_row _ _ _ _ r).trans (Finset.sum_congr rfl fun j _ => ?_)
  refine (select_apply _ _ _ (ix2 r j)).trans ?_
  by_cases ht : BitVec.ofNat 32 (512 * (i 1).val + j.val) = tg (ix2 r 0)
  · rw [(onehot_apply i tg r j).2 ht, select_one, if_pos ht]
  · rw [eq_zero_of_ne_one (fun hc => ht ((onehot_apply i tg r j).1 hc)), select_zero, if_neg ht]
    exact Ideal.ofBits_zero_f32

/-- The new maximum: the old one against the tile's row maximum. -/
theorem newMax_apply (i : grid0.Coords) (w : Vec Ideal S512x768 .f32) (h : Vec Ideal S2048x768 .f32) (m : Vec Ideal S2048x1 .f32)
    (r : Fin 2048) :
    k0_pay22 i w h m (ix2 r 0)
      = max (m (ix2 r 0)) ((Finset.univ : Finset (Fin 512)).fold max ⊥ fun j => k0_pay20 i w h (ix2 r j)) := by
  unfold k0_pay22
  refine (maximumf_apply _ _ (ix2 r 0)).trans ?_
  refine congrArg (max (m (ix2 r 0))) ?_
  exact (col_of_vec _ _ r 0).trans (max_row _ _ _ _ r)

/-- The rescaling factor: the exponential of the old maximum less the new one. -/
theorem rescale_apply (i : grid0.Coords) (w : Vec Ideal S512x768 .f32) (h : Vec Ideal S2048x768 .f32) (m m' : Vec Ideal S2048x1 .f32)
    (r : Fin 2048) :
    k0_pay23 i w h m m' (ix2 r 0) = Ideal.exp (m' (ix2 r 0) - k0_pay22 i w h m (ix2 r 0)) := rfl

/-- The tile's exponentials against the new maximum. -/
theorem expTile_apply (i : grid0.Coords) (w : Vec Ideal S512x768 .f32) (h : Vec Ideal S2048x768 .f32) (m : Vec Ideal S2048x1 .f32)
    (r : Fin 2048) (j : Fin 512) :
    k0_pay24 i w h m (ix2 r j) = Ideal.exp (k0_pay20 i w h (ix2 r j) - k0_pay22 i w h m (ix2 r 0)) := by
  unfold k0_pay24
  show Ideal.exp (k0_pay20 i w h (ix2 r j)
    - broadcastTo S2048x512 (k0_pay22 i w h m) broadcasts_S2048x1_S2048x512 (ix2 r j)) = _
  rw [bcast_col]

/-- The new sum: the old one rescaled plus the row sum of the tile's exponentials. -/
theorem newSum_apply (a : FVec Ideal S2048x1 .f32) (p : FVec Ideal S2048x512 .f32) (l : Vec Ideal S2048x1 .f32) (r : Fin 2048) :
    k0_pay25 a p l (ix2 r 0) = a (ix2 r 0) * l (ix2 r 0) + ∑ j : Fin 512, p (ix2 r j) := by
  unfold k0_pay25
  refine (congrFun (shapeCast_self _ _) (ix2 r 0)).trans ?_
  refine (addf_apply _ _ (ix2 r 0)).trans ?_
  refine congrArg₂ (· + ·) rfl ?_
  exact (col_of_vec _ _ r 0).trans (sum_row _ _ _ _ r)

/-- The maximum is stored as it is. -/
theorem storeMax_eq (v : FVec Ideal S2048x1 .f32) : k0_pay26 v = v := shapeCast_self v _

/-- The new target logit: the old one plus the tile's. -/
theorem newTgt_apply (x : FVec Ideal S2048x1 .f32) (t : Vec Ideal S2048x1 .f32) (r : Fin 2048) :
    k0_pay27 x t (ix2 r 0) = t (ix2 r 0) + x (ix2 r 0) := by
  unfold k0_pay27
  exact congrFun (shapeCast_self _ _) (ix2 r 0)

/-- The three pass-2 columns after one tile, at row `r`, from the columns before it at row `r` and the masked logits of the
    row. -/
theorem step_row2 (i : grid0.Coords) (h2 h3 : Vec Ideal S2048x768 .f32) (w : Vec Ideal S512x768 .f32) (tg : Vec Ideal S2048x1 .i32)
    (s : St Ideal) (r : Fin 2048) (m' : EReal)
    (hm' : m' = max (s.m2 (ix2 r 0)) ((Finset.univ : Finset (Fin 512)).fold max ⊥ fun j => k0_pay20 i w h2 (ix2 r j))) :
    (step i h2 h3 w tg s).m2 (ix2 r 0) = m'
    ∧ (step i h2 h3 w tg s).l2 (ix2 r 0)
        = Ideal.exp (s.m2 (ix2 r 0) - m') * s.l2 (ix2 r 0) + ∑ j : Fin 512, Ideal.exp (k0_pay20 i w h2 (ix2 r j) - m')
    ∧ (step i h2 h3 w tg s).tl2 (ix2 r 0)
        = s.tl2 (ix2 r 0)
          + ∑ j : Fin 512, if BitVec.ofNat 32 (512 * (i 1).val + j.val) = tg (ix2 r 0) then k0_pay20 i w h2 (ix2 r j) else 0 := by
  have hmax : k0_pay22 i w h2 s.m2 (ix2 r 0) = m' := (newMax_apply i w h2 s.m2 r).trans hm'.symm
  refine ⟨?_, ?_, ?_⟩
  · show k0_pay26 (k0_pay22 i w h2 s.m2) (ix2 r 0) = m'
    rw [storeMax_eq]; exact hmax
  · show k0_pay25 (k0_pay23 i w h2 s.m2 s.m2) (k0_pay24 i w h2 s.m2) s.l2 (ix2 r 0) = _
    rw [newSum_apply, rescale_apply, hmax]
    refine congrArg₂ (· + ·) rfl (Finset.sum_congr rfl fun j _ => ?_)
    rw [expTile_apply, hmax]
  · show k0_pay27 (k0_pay21 i w tg h2) s.tl2 (ix2 r 0) = _
    rw [newTgt_apply, tgtLogit_apply]

/-! ## The first tile's reset, and which tile is the first -/

/-- The first-tile test is true exactly at vocabulary coordinate 0. -/
theorem cond1_iff (i : grid0.Coords) : k0_cond1 i = 1#1 ↔ (i 1).val = 0 := by
  have hi : (i 1).val < 99 := (i 1).isLt
  unfold k0_cond1
  show IntOp.cmpi .ne (Scalar.extui (IntOp.cmpi .eq (BitVec.ofNat 32 (i 1).val) 0#32)) 0#32 = 1#1 ↔ _
  rw [IntOp.cmpi_ne]
  constructor
  · intro hne
    by_contra h0
    apply hne
    have hz : IntOp.cmpi .eq (BitVec.ofNat 32 (i 1).val) 0#32 = 0#1 := eq_zero_of_ne_one fun hc => h0 (by
      have h2 := congrArg BitVec.toNat (IntOp.cmpi_eq.1 hc)
      simp only [BitVec.toNat_ofNat] at h2
      omega)
    rw [hz]; rfl
  · intro h0
    rw [h0]; decide

/-- The reset columns at a row: the maximum at the bottom, the sum and the target logit at zero. -/
theorem reset_m2 (r : Fin 2048) : (reset (F := Ideal)).m2 (ix2 r 0) = ⊥ := by
  show k0_pay6 (F := Ideal) (ix2 r (0 : Fin 1)) = ⊥
  unfold k0_pay6
  exact (congrFun (shapeCast_self _ _) (ix2 r (0 : Fin 1))).trans ofBits_neg_inf
theorem reset_l2 (r : Fin 2048) : (reset (F := Ideal)).l2 (ix2 r 0) = 0 := by
  show k0_pay7 (F := Ideal) (ix2 r (0 : Fin 1)) = 0
  unfold k0_pay7
  exact (congrFun (shapeCast_self _ _) (ix2 r (0 : Fin 1))).trans Ideal.ofBits_zero_f32
theorem reset_tl2 (r : Fin 2048) : (reset (F := Ideal)).tl2 (ix2 r 0) = 0 := by
  show k0_pay8 (F := Ideal) (ix2 r (0 : Fin 1)) = 0
  unfold k0_pay8
  exact (congrFun (shapeCast_self _ _) (ix2 r (0 : Fin 1))).trans Ideal.ofBits_zero_f32

/-! ## The tile is the abstract tile, and one step is the abstract step -/

/-- The extended real of a finite sum of reals is the sum of the extended reals. -/
theorem coe_sum {ι : Type} (s : Finset ι) (f : ι → ℝ) : ((∑ c ∈ s, f c : ℝ) : EReal) = ∑ c ∈ s, (f c : EReal) := by
  classical
  induction s using Finset.induction_on with
  | empty => simp
  | insert c s hc ih => rw [Finset.sum_insert hc, Finset.sum_insert hc, EReal.coe_add, ih]

/-- With a real hidden block and a tile whose rows inside the vocabulary are rows of the real table, the masked logits of row
    `r` are the abstract tile of the row's real logits. -/
theorem tile_eq_z (i : grid0.Coords) (k : ℕ) (hk : (i 1).val = k) (h2 : Vec Ideal S2048x768 .f32) (w : Vec Ideal S512x768 .f32)
    (x : Fin 2048 → Fin 768 → ℝ) (hx : ∀ r d, h2 (ix2 r d) = ((x r d : ℝ) : EReal))
    (W : Fin 50257 → Fin 768 → ℝ)
    (hW : ∀ (j : Fin 512) (d : Fin 768) (h : 512 * k + j.val < 50257), w (ix2 j d) = ((W ⟨512 * k + j.val, h⟩ d : ℝ) : EReal))
    (r : Fin 2048) (j : Fin 512) :
    k0_pay20 i w h2 (ix2 r j) = Online.z (fun v => ∑ d, x r d * W v d) k j.val := by
  rw [tile_apply, hk]
  unfold Online.z
  by_cases hlt : 512 * k + j.val < 50257
  · rw [if_pos hlt, dif_pos hlt, coe_sum]
    refine Finset.sum_congr rfl fun d _ => ?_
    rw [hx, hW j d hlt, EReal.coe_mul]
  · rw [if_neg hlt, dif_neg hlt]

/-- One tile folded into columns that read, at row `r`, as an abstract state, gives columns that read as the abstract step
    of that state. -/
theorem step_ostep (i : grid0.Coords) (k : ℕ) (hk : (i 1).val = k) (h2 h3 : Vec Ideal S2048x768 .f32) (w : Vec Ideal S512x768 .f32)
    (tg : Vec Ideal S2048x1 .i32) (s : St Ideal) (o : Online.MLT) (r : Fin 2048) (a : Fin 50257 → ℝ) (tgt : BitVec 32)
    (hm : s.m2 (ix2 r 0) = o.m) (hl : s.l2 (ix2 r 0) = o.l) (ht : s.tl2 (ix2 r 0) = o.t) (htg : tg (ix2 r 0) = tgt)
    (hz : ∀ j : Fin 512, k0_pay20 i w h2 (ix2 r j) = Online.z a k j.val) :
    (step i h2 h3 w tg s).m2 (ix2 r 0) = (Online.ostep a tgt k o).m
    ∧ (step i h2 h3 w tg s).l2 (ix2 r 0) = (Online.ostep a tgt k o).l
    ∧ (step i h2 h3 w tg s).tl2 (ix2 r 0) = (Online.ostep a tgt k o).t := by
  have hzf : (fun j : Fin 512 => k0_pay20 i w h2 (ix2 r j)) = fun j : Fin 512 => Online.z a k j.val := funext hz
  obtain ⟨e1, e2, e3⟩ := step_row2 i h2 h3 w tg s r (Online.ostep a tgt k o).m (by
    show max o.m ((Finset.univ : Finset (Fin 512)).fold max ⊥ fun j => Online.z a k j.val) = _
    rw [hm, hzf])
  refine ⟨e1, e2.trans ?_, e3.trans ?_⟩
  · show _ = Ideal.exp (o.m - (Online.ostep a tgt k o).m) * o.l
        + ∑ j : Fin 512, Ideal.exp (Online.z a k j.val - (Online.ostep a tgt k o).m)
    rw [hm, hl]
    exact congrArg₂ (· + ·) rfl (Finset.sum_congr rfl fun j _ => by rw [hz j])
  · show _ = o.t + ∑ j : Fin 512, (if BitVec.ofNat 32 (512 * k + j.val) = tgt then Online.z a k j.val else 0)
    rw [ht, hk, htg]
    exact congrArg₂ (· + ·) rfl (Finset.sum_congr rfl fun j _ => by rw [hz j])

/-! ## The sweep of a row, and the stored block -/

section Sweep
variable (i : ℕ → grid0.Coords) (hi : ∀ k, k < 99 → ((i k) 1).val = k)
  (h2 h3 : Vec Ideal S2048x768 .f32) (wt : ℕ → Vec Ideal S512x768 .f32) (tg : Vec Ideal S2048x1 .i32) (S0 : St Ideal)
  (x : Fin 2048 → Fin 768 → ℝ) (hx : ∀ r d, h2 (ValueIdx.ix2 r d) = ((x r d : ℝ) : EReal))
  (W : Fin 50257 → Fin 768 → ℝ)
  (hW : ∀ k (j : Fin 512) (d : Fin 768) (h : 512 * k + j.val < 50257),
    wt k (ValueIdx.ix2 j d) = ((W ⟨512 * k + j.val, h⟩ d : ℝ) : EReal))
  (tgt : Fin 2048 → BitVec 32) (htg : ∀ r, tg (ValueIdx.ix2 r 0) = tgt r)

include hi hx hW htg

/-- After `n + 1` tiles the pass-2 columns of the sweep read, at row `r`, as the abstract sweep of the row's real logits
    `a r v = ∑ d, x r d * W v d` against the row's target word. -/
theorem sweep_row2_succ (r : Fin 2048) : ∀ n, n < 99 →
    (sweep i h2 h3 wt tg S0 (n + 1)).m2 (ix2 r 0) = (Online.orun (fun v => ∑ d, x r d * W v d) (tgt r) (n + 1)).m
    ∧ (sweep i h2 h3 wt tg S0 (n + 1)).l2 (ix2 r 0) = (Online.orun (fun v => ∑ d, x r d * W v d) (tgt r) (n + 1)).l
    ∧ (sweep i h2 h3 wt tg S0 (n + 1)).tl2 (ix2 r 0) = (Online.orun (fun v => ∑ d, x r d * W v d) (tgt r) (n + 1)).t
  | 0, h0 => by
    have hp : sweep i h2 h3 wt tg S0 (0 + 1) = step (i 0) h2 h3 (wt 0) tg reset := by
      show step (i 0) h2 h3 (wt 0) tg (if k0_cond1 (i 0) = 1#1 then reset else S0) = _
      rw [if_pos ((cond1_iff (i 0)).2 (hi 0 h0))]
    rw [hp]
    exact step_ostep (i 0) 0 (hi 0 h0) h2 h3 (wt 0) tg reset ⟨⊥, 0, 0⟩ r _ (tgt r) (reset_m2 r) (reset_l2 r) (reset_tl2 r) (htg r)
      fun j => tile_eq_z (i 0) 0 (hi 0 h0) h2 (wt 0) x hx W (hW 0) r j
  | n + 1, hn => by
    obtain ⟨e1, e2, e3⟩ := sweep_row2_succ r n (by omega)
    have hp : sweep i h2 h3 wt tg S0 (n + 1 + 1) = step (i (n + 1)) h2 h3 (wt (n + 1)) tg (sweep i h2 h3 wt tg S0 (n + 1)) := by
      show step (i (n + 1)) h2 h3 (wt (n + 1)) tg
        (if k0_cond1 (i (n + 1)) = 1#1 then reset else sweep i h2 h3 wt tg S0 (n + 1)) = _
      rw [if_neg fun hc => by have := (cond1_iff (i (n + 1))).1 hc; rw [hi (n + 1) hn] at this; omega]
    rw [hp]
    exact step_ostep (i (n + 1)) (n + 1) (hi (n + 1) hn) h2 h3 (wt (n + 1)) tg _ _ r _ (tgt r) e1 e2 e3 (htg r)
      fun j => tile_eq_z (i (n + 1)) (n + 1) (hi (n + 1) hn) h2 (wt (n + 1)) x hx W (hW (n + 1)) r j

/-- The same for any number of tiles from 1 to 99. -/
theorem sweep_row2 (r : Fin 2048) (n : ℕ) (h1 : 1 ≤ n) (h99 : n ≤ 99) :
    (sweep i h2 h3 wt tg S0 n).m2 (ix2 r 0) = (Online.orun (fun v => ∑ d, x r d * W v d) (tgt r) n).m
    ∧ (sweep i h2 h3 wt tg S0 n).l2 (ix2 r 0) = (Online.orun (fun v => ∑ d, x r d * W v d) (tgt r) n).l
    ∧ (sweep i h2 h3 wt tg S0 n).tl2 (ix2 r 0) = (Online.orun (fun v => ∑ d, x r d * W v d) (tgt r) n).t := by
  obtain ⟨m, rfl⟩ : ∃ m, n = m + 1 := ⟨n - 1, by omega⟩
  exact sweep_row2_succ i hi h2 h3 wt tg S0 x hx W hW tgt htg r m (by omega)

end Sweep

/-- What the last tile stores for pass 2, at row `r`: maximum + log(sum) - target logit of the row. -/
theorem nll2_row (S : St Ideal) (r : Fin 2048) :
    nll2Blk S (ix2 r 0) = S.m2 (ix2 r 0) + Ideal.log (S.l2 (ix2 r 0)) - S.tl2 (ix2 r 0) := rfl

end Cert.KernelIdeal.PayI2

end
-- ==== Proof.PayI3.lean ====
/- Pass 3 of the fused kernel at the exact instance, read row by row.

   At the exact instance every float is an extended real, a change of format is the identity, and the mask fill named
   "neg_big" is -inf. One grid point of the kernel, at vocabulary coordinate k, forms for the row tile's 2048 rows the tile of
   logits  L (r, j) = sum over d of h3 (r, d) * w (j, d)  against the 512 vocabulary rows its staging buffer holds, replaces
   by -inf every column whose index 512 k + j is not below 50257, and folds the masked tile into three carried columns: the
   running maximum, the running sum of exponentials taken against the new maximum (the old sum rescaled by
   exp (old maximum - new maximum)), and the accumulated logit at the column whose index word equals the row's target word.

   This module reads each named value of that chain at an index, and concludes:
   * row r of the masked tile is tile k of the row's 50257 real logits  a v = sum over d of x r d * W v d, an absent column
     being -inf whatever the staging buffer holds past the array's end (the select discards the product there);
   * one grid point acts on row r's three quantities as one step of the abstract online recurrence, the first vocabulary
     tile starting from maximum -inf and sums 0;
   * hence after n tiles, 1 <= n <= 99, row r carries the abstract sweep's n-th state (sweep_row3), and what the last tile
     stores is maximum + log (sum) - target logit of the row (nll3_row). -/
import proofs.«419146_j12747462935019_2_alg».proof.Proof.KStep
import proofs.«419146_j12747462935019_2_alg».proof.Proof.Online
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.PayI3

open Idealize.ShloMosaic Idealize.ShloMosaic.ValueIdx Cert.KernelIdeal Cert.KernelIdeal.Gen Cert.KernelIdeal.KStep
open scoped BigOperators

/-! ## The two constants that denote -inf -/

/-- The initial value of a maximum, the word of -inf, denotes -inf. -/
theorem negInf_bits : Ideal.ofBits .f32 0xFF800000#32 = (⊥ : EReal) := by simp [Ideal.ofBits, Ideal.ieee]

/-- The mask fill: the table of named constants gives "neg_big" the value -inf. -/
theorem fill_bot : Named.named (F := Ideal) Cert.KernelIdeal.κ "neg_big" (φ := .f32) 0xFF333332#32 = (⊥ : EReal) :=
  IdealRules.named_const.ideal_named_scalar _ _ _ _ rfl

/-! ## A vector of 2048 entries as a column, a column along the 512 lanes -/

/-- A vector [2048] viewed as a column [2048, 1] reads entry r at (r, 0). -/
theorem col_of_vec {α : Type} (v : S2048.Idx → α) (h : S2048.ShapeCasts S2048x1) (r : Fin 2048) (u : Fin 1) :
    shapeCast S2048x1 v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- A column [2048, 1] copied along 512 lanes reads, at (r, j), the column at row r. -/
theorem tile_of_col {α : Type} (x : S2048x1.Idx → α) (h : S2048x1.Broadcasts S2048x512) (r : Fin 2048) (j : Fin 512) :
    broadcastTo S2048x512 x h (ix2 r j) = x (ix2 r (0 : Fin 1)) :=
  broadcastTo_apply x h (ix2 r j) (ix2 r (0 : Fin 1)) fun ax => match ax with
    | ⟨0, _⟩ => rfl
    | ⟨1, _⟩ => rfl

/-! ## The two lane reductions of a [2048, 512] tile -/

/-- The lane sum at row r is the sum over the row's 512 columns. -/
theorem rowSum_apply (src : FVec Ideal S2048x512 .f32) (h : S2048x512.Reduces [1] S2048) (hφ : FKind.Formats .f32)
    (hacc : (0x00000000#32 : BitVec 32) = FKind.add.neutral .f32 hφ) (r : Fin 2048) :
    multiReduction .add [1] S2048 src 0x00000000#32 h hφ hacc (ix1 r) = ∑ j : Fin 512, src (ix2 r j) := by
  refine (Ideal.multiReduction_add_single src _ h hφ hacc (ix1 r)).trans ?_
  refine Finset.sum_congr rfl fun j _ => congrArg src ?_
  funext a
  match a with
  | ⟨0, _⟩ => rfl
  | ⟨1, _⟩ => rfl

/-- The lane maximum from -inf at row r is the maximum, from -inf, over the row's 512 columns. -/
theorem rowMax_apply (src : FVec Ideal S2048x512 .f32) (h : S2048x512.Reduces [1] S2048) (hφ : FKind.Formats .f32)
    (hacc : (0xFF800000#32 : BitVec 32) = FKind.maximumf.neutral .f32 hφ) (r : Fin 2048) :
    multiReduction .maximumf [1] S2048 src 0xFF800000#32 h hφ hacc (ix1 r)
      = (Finset.univ : Finset (Fin 512)).fold max ⊥ fun j => src (ix2 r j) := by
  refine (Ideal.multiReduction_maximumf_single src _ h hφ hacc (ix1 r)).trans ?_
  rw [Ideal.ofBits_def, negInf_bits]
  refine congrArg (Finset.fold max ⊥ · Finset.univ) ?_
  funext j
  refine congrArg src ?_
  funext a
  match a with
  | ⟨0, _⟩ => rfl
  | ⟨1, _⟩ => rfl

/-! ## The product of a hidden block with the transposed vocabulary tile -/

/-- The product's operand indices, axis by axis: output (r, j) at contraction position q reads the left operand at (r, q)
    and the right operand at (q, j). -/
theorem lhs_ax0 (i : S2048x512.Idx) (q : dot_S2048x768_S768x512_S2048x512_1_0_0_1_n_n.contr.Idx) :
    (dot_S2048x768_S768x512_S2048x512_1_0_0_1_n_n.lhsIdx i q 0).val = (i 0).val := by
  unfold DotDims.lhsIdx
  rw [dif_neg (show ¬(0 : Fin S2048x768.rank) ∈ dot_S2048x768_S768x512_S2048x512_1_0_0_1_n_n.lhsBatch by decide), dif_pos (show (0 : Fin S2048x768.rank) ∈ dot_S2048x768_S768x512_S2048x512_1_0_0_1_n_n.lhsNonContracting by decide)]
  rfl
theorem lhs_ax1 (i : S2048x512.Idx) (q : dot_S2048x768_S768x512_S2048x512_1_0_0_1_n_n.contr.Idx) :
    (dot_S2048x768_S768x512_S2048x512_1_0_0_1_n_n.lhsIdx i q 1).val = (q ⟨0, by decide⟩).val :=
  dot_S2048x768_S768x512_S2048x512_1_0_0_1_n_n.lhsIdx_val_of_single rfl i q
theorem rhs_ax0 (i : S2048x512.Idx) (q : dot_S2048x768_S768x512_S2048x512_1_0_0_1_n_n.contr.Idx) :
    (dot_S2048x768_S768x512_S2048x512_1_0_0_1_n_n.rhsIdx i q 0).val = (q ⟨0, by decide⟩).val :=
  dot_S2048x768_S768x512_S2048x512_1_0_0_1_n_n.rhsIdx_val_of_single rfl i q
theorem rhs_ax1 (i : S2048x512.Idx) (q : dot_S2048x768_S768x512_S2048x512_1_0_0_1_n_n.contr.Idx) :
    (dot_S2048x768_S768x512_S2048x512_1_0_0_1_n_n.rhsIdx i q 1).val = (i 1).val := by
  unfold DotDims.rhsIdx
  rw [dif_neg (show ¬(1 : Fin S768x512.rank) ∈ dot_S2048x768_S768x512_S2048x512_1_0_0_1_n_n.rhsBatch by decide), dif_pos (show (1 : Fin S768x512.rank) ∈ dot_S2048x768_S768x512_S2048x512_1_0_0_1_n_n.rhsNonContracting by decide)]
  rfl

/-- Entry (r, j) of the product into the zero splat: the sum over the 768 contracted coordinates. -/
theorem product_apply (a : FVec Ideal S2048x768 .bf16) (b : FVec Ideal S768x512 .bf16) (r : Fin 2048) (j : Fin 512) :
    matmul dot_S2048x768_S768x512_S2048x512_1_0_0_1_n_n none a b (constant (F := Ideal) S2048x512 .f32 0x00000000#32) (ix2 r j)
      = ∑ d : Fin 768, a (ix2 r d) * b (ix2 d j) := by
  simp only [matmul]
  rw [Ideal.matmul_constant_zero_apply, ← Equiv.sum_comp (contrEquiv1 dot_S2048x768_S768x512_S2048x512_1_0_0_1_n_n 768 rfl rfl).symm]
  refine Finset.sum_congr rfl fun d _ => ?_
  have hd := contrEquiv1_symm_val dot_S2048x768_S768x512_S2048x512_1_0_0_1_n_n 768 rfl rfl d
  have el : dot_S2048x768_S768x512_S2048x512_1_0_0_1_n_n.lhsIdx (ix2 r j) ((contrEquiv1 dot_S2048x768_S768x512_S2048x512_1_0_0_1_n_n 768 rfl rfl).symm d) = ix2 r d := funext fun c => Fin.ext (by
    match c with
    | ⟨0, _⟩ => exact lhs_ax0 _ _
    | ⟨1, _⟩ => exact (lhs_ax1 _ _).trans hd)
  have er : dot_S2048x768_S768x512_S2048x512_1_0_0_1_n_n.rhsIdx (ix2 r j) ((contrEquiv1 dot_S2048x768_S768x512_S2048x512_1_0_0_1_n_n 768 rfl rfl).symm d) = ix2 d j := funext fun c => Fin.ext (by
    match c with
    | ⟨0, _⟩ => exact (rhs_ax0 _ _).trans hd
    | ⟨1, _⟩ => exact rhs_ax1 _ _)
  rw [el, er]

/-- The transposed tile at (d, j) is the tile at (j, d). -/
theorem transposed_apply {α : Type} (x : S512x768.Idx → α) (h : S512x768.Transposes [1, 0] S768x512) (d : Fin 768) (j : Fin 512) :
    transpose S768x512 [1, 0] x h (ix2 d j) = x (ix2 j d) :=
  transpose_apply _ x h _ _ fun c => match c with | ⟨0, _⟩ => rfl | ⟨1, _⟩ => rfl

/-! ## The column index word and the two masks -/

/-- The index word of column j of the tile at vocabulary coordinate k. -/
theorem colWord_apply (i : grid0.Coords) (r : Fin 2048) (j : Fin 512) :
    k0_pay17 i (ix2 r j) = BitVec.ofNat 32 (512 * (i 1).val + j.val) := by
  unfold k0_pay17
  show IntOp.addi (IntOp.muli (BitVec.ofNat 32 (i 1).val) 512#32) (iota .tc S2048x512 32 [1] iota_S2048x512_d1_w32 (ix2 r j)) = _
  rw [iota_single_apply]
  show BitVec.ofNat 32 (i 1).val * 512#32 + BitVec.ofNat 32 j.val = _
  apply BitVec.eq_of_toNat_eq
  simp only [BitVec.toNat_add, BitVec.toNat_mul, BitVec.toNat_ofNat]
  omega

/-- A comparison's bit is set exactly when the comparison holds. -/
theorem ofBool_eq_one (b : Bool) : BitVec.ofBool b = 1#1 ↔ b = true := by cases b <;> decide

/-- Below 2^31 the signed comparison of an index word with the vocabulary size is the comparison of the numbers. -/
theorem inVocab_iff (n : ℕ) (hn : n < 2 ^ 31) : IntOp.cmpi .slt (BitVec.ofNat 32 n) 50257#32 = 1#1 ↔ n < 50257 := by
  unfold IntOp.cmpi
  rw [ofBool_eq_one]
  show (BitVec.ofNat 32 n).slt 50257#32 = true ↔ _
  rw [BitVec.slt_iff_toInt_lt]
  have e := BitVec.toInt_eq_toNat_cond (BitVec.ofNat 32 n)
  have e2 : (BitVec.ofNat 32 n).toNat = n := by rw [BitVec.toNat_ofNat]; omega
  have e3 : (50257#32 : BitVec 32).toInt = 50257 := by decide
  rw [e2] at e
  rw [e, e3]
  split <;> omega

/-- The equality bit of two words is set exactly when they are equal. -/
theorem eqWord_iff (x y : BitVec 32) : IntOp.cmpi .eq x y = 1#1 ↔ x = y := by
  unfold IntOp.cmpi
  rw [ofBool_eq_one]
  exact beq_iff_eq

/-! ## The payloads of pass 3 read at an index -/

/-- The masked logits tile at (r, j): inside the mask the product of the hidden row with vocabulary row j of the tile,
    outside it the fill, which is -inf. -/
theorem pay28_apply (v4 : FVec Ideal S512x768 .bf16) (v10 : IVec S2048x512 1) (v52 : FVec Ideal S2048x768 .f32)
    (r : Fin 2048) (j : Fin 512) :
    k0_pay28 v4 v10 v52 (ix2 r j) = Scalar.select (v10 (ix2 r j)) (∑ d : Fin 768, v52 (ix2 r d) * v4 (ix2 j d)) ⊥ := by
  unfold k0_pay28
  refine (select_apply _ _ _ _).trans ?_
  refine congr (congrArg (Scalar.select (v10 (ix2 r j))) ?_) fill_bot
  refine (product_apply _ _ r j).trans (Finset.sum_congr rfl fun d _ => ?_)
  refine congr (congrArg HMul.hMul ?_) (transposed_apply v4 _ d j)
  exact congrFun (shapeCast_self v52 _) (ix2 r d)

/-- The new maximum of row r: the old one against the maximum of the masked tile's row. -/
theorem pay30_apply (v4 : FVec Ideal S512x768 .bf16) (v10 : IVec S2048x512 1) (v52 : FVec Ideal S2048x768 .f32)
    (v65 : FVec Ideal S2048x1 .f32) (r : Fin 2048) :
    k0_pay30 v4 v10 v52 v65 (ix2 r (0 : Fin 1))
      = max (v65 (ix2 r 0)) ((Finset.univ : Finset (Fin 512)).fold max ⊥ fun j => k0_pay28 v4 v10 v52 (ix2 r j)) := by
  unfold k0_pay30
  refine (maximumf_apply _ _ _).trans ?_
  refine congrArg (max (v65 (ix2 r 0))) ?_
  exact (col_of_vec _ _ r 0).trans (rowMax_apply _ _ _ _ r)

/-- The rescaling factor of row r. -/
theorem pay31_apply (v4 : FVec Ideal S512x768 .bf16) (v10 : IVec S2048x512 1) (v52 : FVec Ideal S2048x768 .f32)
    (v65 v67 : FVec Ideal S2048x1 .f32) (r : Fin 2048) :
    k0_pay31 v4 v10 v52 v65 v67 (ix2 r (0 : Fin 1)) = Ideal.exp (v67 (ix2 r 0) - k0_pay30 v4 v10 v52 v65 (ix2 r 0)) := by
  unfold k0_pay31
  rfl

/-- The exponentials of the masked tile against the new maximum. -/
theorem pay32_apply (v4 : FVec Ideal S512x768 .bf16) (v10 : IVec S2048x512 1) (v52 : FVec Ideal S2048x768 .f32)
    (v65 : FVec Ideal S2048x1 .f32) (r : Fin 2048) (j : Fin 512) :
    k0_pay32 v4 v10 v52 v65 (ix2 r j)
      = Ideal.exp (k0_pay28 v4 v10 v52 (ix2 r j) - k0_pay30 v4 v10 v52 v65 (ix2 r (0 : Fin 1))) := by
  unfold k0_pay32
  show Ideal.exp (k0_pay28 v4 v10 v52 (ix2 r j) - broadcastTo S2048x512 (k0_pay30 v4 v10 v52 v65) broadcasts_S2048x1_S2048x512 (ix2 r j)) = _
  rw [tile_of_col]

/-- The new sum of row r: the rescaled old sum plus the row sum of the exponentials. -/
theorem pay1_apply (v69 : FVec Ideal S2048x1 .f32) (v72 : FVec Ideal S2048x512 .f32) (v73 : FVec Ideal S2048x1 .f32) (r : Fin 2048) :
    k0_pay1 v69 v72 v73 (ix2 r (0 : Fin 1)) = v69 (ix2 r 0) * v73 (ix2 r 0) + ∑ j : Fin 512, v72 (ix2 r j) := by
  unfold k0_pay1
  refine (congrFun (shapeCast_self _ _) _).trans ?_
  refine (addf_apply _ _ _).trans ?_
  refine congrArg (v69 (ix2 r 0) * v73 (ix2 r 0) + ·) ?_
  exact (col_of_vec _ _ r 0).trans (rowSum_apply _ _ _ _ r)

/-- The tile's target logit of row r: the row sum of the masked tile under the one-hot mask. -/
theorem pay29_apply (v4 : FVec Ideal S512x768 .bf16) (v10 v14 : IVec S2048x512 1) (v52 : FVec Ideal S2048x768 .f32) (r : Fin 2048) :
    k0_pay29 v4 v10 v14 v52 (ix2 r (0 : Fin 1))
      = ∑ j : Fin 512, Scalar.select (v14 (ix2 r j)) (k0_pay28 v4 v10 v52 (ix2 r j)) 0 := by
  unfold k0_pay29
  refine (col_of_vec _ _ r 0).trans ((rowSum_apply _ _ _ _ r).trans ?_)
  refine Finset.sum_congr rfl fun j _ => ?_
  refine (select_apply _ _ _ _).trans ?_
  exact congrArg (Scalar.select (v14 (ix2 r j)) (k0_pay28 v4 v10 v52 (ix2 r j))) Ideal.ofBits_zero_f32

/-- The new accumulated target logit: the old one plus the tile's. -/
theorem pay3_apply (v62 v84 : FVec Ideal S2048x1 .f32) (r : Fin 2048) :
    k0_pay3 v62 v84 (ix2 r (0 : Fin 1)) = v84 (ix2 r 0) + v62 (ix2 r 0) := by
  unfold k0_pay3
  exact congrFun (shapeCast_self _ _) _

/-- The stored maximum is the new maximum. -/
theorem pay2_eq (v66 : FVec Ideal S2048x1 .f32) : k0_pay2 v66 = v66 := by
  unfold k0_pay2
  exact shapeCast_self _ _

/-- What the last tile stores: maximum + log (sum) - target logit. -/
theorem pay5_apply (v99 v100 v103 : FVec Ideal S2048x1 .f32) (r : Fin 2048) :
    k0_pay5 v99 v100 v103 (ix2 r (0 : Fin 1)) = v99 (ix2 r 0) + Ideal.log (v100 (ix2 r 0)) - v103 (ix2 r 0) := by
  unfold k0_pay5
  rfl

/-- The in-vocabulary mask at (r, j). -/
theorem pay18_apply (i : grid0.Coords) (r : Fin 2048) (j : Fin 512) :
    k0_pay18 i (ix2 r j) = IntOp.cmpi .slt (BitVec.ofNat 32 (512 * (i 1).val + j.val)) 50257#32 := by
  unfold k0_pay18
  show IntOp.cmpi .slt (k0_pay17 i (ix2 r j)) 50257#32 = _
  rw [colWord_apply]

/-- The target one-hot mask at (r, j). -/
theorem pay19_apply (i : grid0.Coords) (tg : IVec S2048x1 32) (r : Fin 2048) (j : Fin 512) :
    k0_pay19 (F := Ideal) i tg (ix2 r j)
      = IntOp.cmpi .eq (BitVec.ofNat 32 (512 * (i 1).val + j.val)) (tg (ix2 r (0 : Fin 1))) := by
  unfold k0_pay19
  show IntOp.cmpi .eq (k0_pay17 i (ix2 r j))
    (broadcastTo S2048x512 (shapeCast S2048x1 tg shapeCasts_S2048x1_S2048x1) broadcasts_S2048x1_S2048x512 (ix2 r j)) = _
  rw [colWord_apply, tile_of_col, shapeCast_self]

/-! ## The masked tile is the abstract tile -/

/-- The inclusion of the reals commutes with a finite sum. -/
theorem coe_sum {ι : Type} (s : Finset ι) (f : ι → ℝ) : ((∑ i ∈ s, f i : ℝ) : EReal) = ∑ i ∈ s, ((f i : ℝ) : EReal) := by
  classical
  refine Finset.induction_on s (by simp) fun a s ha ih => ?_
  rw [Finset.sum_insert ha, Finset.sum_insert ha, EReal.coe_add, ih]

/-- A select on the equality bit of two words is the choice on their equality. -/
theorem select_eqWord {α : Type} (x y : BitVec 32) (a b : α) :
    Scalar.select (IntOp.cmpi .eq x y) a b = if x = y then a else b := by
  by_cases h : x = y
  · rw [(eqWord_iff x y).2 h, select_one, if_pos h]
  · rw [eq_zero_of_ne_one (fun e => h ((eqWord_iff x y).1 e)), select_zero, if_neg h]

/-- At vocabulary coordinate k, entry (r, j) of the masked logits tile is column j of tile k of row r's logits: for a column
    inside the vocabulary the real product of the hidden row with the weight row, and -inf past its end, whatever the staging
    buffer holds there. -/
theorem masked_eq_z (i : grid0.Coords) (k : ℕ) (hk : k < 99) (hik : (i 1).val = k)
    (h3 : FVec Ideal S2048x768 .f32) (w : FVec Ideal S512x768 .f32)
    (x : Fin 2048 → Fin 768 → ℝ) (hx : ∀ r d, h3 (ix2 r d) = ((x r d : ℝ) : EReal))
    (W : Fin 50257 → Fin 768 → ℝ)
    (hw : ∀ (j : Fin 512) (d : Fin 768) (h : 512 * k + j.val < 50257), w (ix2 j d) = ((W ⟨512 * k + j.val, h⟩ d : ℝ) : EReal))
    (r : Fin 2048) (j : Fin 512) :
    k0_pay28 (F := Ideal) (k0_pay16 w) (k0_pay18 i) h3 (ix2 r j) = Online.z (fun v => ∑ d, x r d * W v d) k j.val := by
  rw [pay28_apply, pay18_apply, hik]
  unfold Online.z
  have hj := j.isLt
  by_cases h : 512 * k + j.val < 50257
  · rw [dif_pos h, (inVocab_iff _ (by omega)).2 h, select_one, coe_sum]
    refine Finset.sum_congr rfl fun d _ => ?_
    rw [EReal.coe_mul, hx r d]
    exact congrArg (((x r d : ℝ) : EReal) * ·) (hw j d h)
  · rw [dif_neg h, eq_zero_of_ne_one (fun e => h ((inVocab_iff _ (by omega)).1 e)), select_zero]

/-! ## One tile folded into a row -/

/-- The three pass-3 quantities of row r. -/
def row3 (S : St Ideal) (r : Fin 2048) : Online.MLT := ⟨S.m3 (ix2 r 0), S.l3 (ix2 r 0), S.tl3 (ix2 r 0)⟩

/-- Folding in the tile at vocabulary coordinate k acts on row r as the abstract step on the row's logits. -/
theorem step_row3 (i : grid0.Coords) (k : ℕ) (hk : k < 99) (hik : (i 1).val = k)
    (h2 h3 : Vec Ideal S2048x768 .f32) (w : Vec Ideal S512x768 .f32) (tg : Vec Ideal S2048x1 .i32) (s : St Ideal)
    (x : Fin 2048 → Fin 768 → ℝ) (hx : ∀ r d, h3 (ix2 r d) = ((x r d : ℝ) : EReal))
    (W : Fin 50257 → Fin 768 → ℝ)
    (hw : ∀ (j : Fin 512) (d : Fin 768) (h : 512 * k + j.val < 50257), w (ix2 j d) = ((W ⟨512 * k + j.val, h⟩ d : ℝ) : EReal))
    (tgt : Fin 2048 → BitVec 32) (htg : ∀ r, tg (ix2 r 0) = tgt r) (r : Fin 2048) :
    row3 (step i h2 h3 w tg s) r = Online.ostep (fun v => ∑ d, x r d * W v d) (tgt r) k (row3 s r) := by
  have hz : ∀ j : Fin 512, k0_pay28 (F := Ideal) (k0_pay16 w) (k0_pay18 i) h3 (ix2 r j) = Online.z (fun v => ∑ d, x r d * W v d) k j.val :=
    fun j => masked_eq_z i k hk hik h3 w x hx W hw r j
  have hm : k0_pay30 (F := Ideal) (k0_pay16 w) (k0_pay18 i) h3 s.m3 (ix2 r (0 : Fin 1))
      = max (s.m3 (ix2 r 0)) ((Finset.univ : Finset (Fin 512)).fold max ⊥ fun j => Online.z (fun v => ∑ d, x r d * W v d) k j.val) := by
    rw [pay30_apply]
    exact congrArg (fun f => max (s.m3 (ix2 r 0)) ((Finset.univ : Finset (Fin 512)).fold max ⊥ f)) (funext hz)
  have e1 : (step i h2 h3 w tg s).m3 (ix2 r 0)
      = max (s.m3 (ix2 r 0)) ((Finset.univ : Finset (Fin 512)).fold max ⊥ fun j => Online.z (fun v => ∑ d, x r d * W v d) k j.val) := by
    show k0_pay2 (k0_pay30 (k0_pay16 w) (k0_pay18 i) h3 s.m3) (ix2 r 0) = _
    rw [pay2_eq, hm]
  have e2 : (step i h2 h3 w tg s).l3 (ix2 r 0)
      = Ideal.exp (s.m3 (ix2 r 0) - max (s.m3 (ix2 r 0)) ((Finset.univ : Finset (Fin 512)).fold max ⊥ fun j => Online.z (fun v => ∑ d, x r d * W v d) k j.val)) * s.l3 (ix2 r 0)
        + ∑ j : Fin 512, Ideal.exp (Online.z (fun v => ∑ d, x r d * W v d) k j.val - max (s.m3 (ix2 r 0)) ((Finset.univ : Finset (Fin 512)).fold max ⊥ fun j => Online.z (fun v => ∑ d, x r d * W v d) k j.val)) := by
    show k0_pay1 (k0_pay31 (k0_pay16 w) (k0_pay18 i) h3 s.m3 s.m3) (k0_pay32 (k0_pay16 w) (k0_pay18 i) h3 s.m3) s.l3 (ix2 r 0) = _
    rw [pay1_apply, pay31_apply, hm]
    refine congrArg (_ + ·) (Finset.sum_congr rfl fun j _ => ?_)
    rw [pay32_apply, hm, hz j]
  have e3 : (step i h2 h3 w tg s).tl3 (ix2 r 0)
      = s.tl3 (ix2 r 0) + ∑ j : Fin 512, (if BitVec.ofNat 32 (512 * k + j.val) = tgt r then Online.z (fun v => ∑ d, x r d * W v d) k j.val else 0) := by
    show k0_pay3 (k0_pay29 (k0_pay16 w) (k0_pay18 i) (k0_pay19 (F := Ideal) i tg) h3) s.tl3 (ix2 r 0) = _
    rw [pay3_apply, pay29_apply]
    refine congrArg (_ + ·) (Finset.sum_congr rfl fun j _ => ?_)
    rw [pay19_apply, hik, htg r, select_eqWord, hz j]
  unfold row3 Online.ostep
  rw [e1, e2, e3]

/-! ## The reset columns, the first-tile test, a whole grid point -/

/-- The reset columns at row r: maximum -inf, sum 0, target logit 0. -/
theorem reset_row3 (r : Fin 2048) : row3 (reset (F := Ideal)) r = ⟨⊥, 0, 0⟩ := by
  have a : (k0_pay9 (F := Ideal)) (ix2 r (0 : Fin 1)) = ⊥ := by
    unfold k0_pay9
    refine (congrFun (shapeCast_self _ _) _).trans ?_
    exact negInf_bits
  have b : (k0_pay10 (F := Ideal)) (ix2 r (0 : Fin 1)) = 0 := by
    unfold k0_pay10
    refine (congrFun (shapeCast_self _ _) _).trans ?_
    exact Ideal.ofBits_zero_f32
  have c : (k0_pay11 (F := Ideal)) (ix2 r (0 : Fin 1)) = 0 := by
    unfold k0_pay11
    refine (congrFun (shapeCast_self _ _) _).trans ?_
    exact Ideal.ofBits_zero_f32
  show Online.MLT.mk ((k0_pay9 (F := Ideal)) (ix2 r 0)) ((k0_pay10 (F := Ideal)) (ix2 r 0)) ((k0_pay11 (F := Ideal)) (ix2 r 0)) = _
  rw [a, b, c]

/-- The first-tile test holds exactly at vocabulary coordinate 0. -/
theorem cond1_iff (i : grid0.Coords) : k0_cond1 i = 1#1 ↔ (i 1).val = 0 := by
  have hlt : (i 1).val < 99 := (i 1).isLt
  unfold k0_cond1
  by_cases h : (i 1).val = 0
  · rw [h]; exact ⟨fun _ => rfl, fun _ => by decide⟩
  · have hne : BitVec.ofNat 32 (i 1).val ≠ 0#32 := fun e => h (by
      have := congrArg BitVec.toNat e
      rw [BitVec.toNat_ofNat] at this
      simp at this
      omega)
    have hb : (BitVec.ofNat 32 (i 1).val == 0#32) = false := by simpa using hne
    refine ⟨fun e => absurd ?_ h, fun e => absurd e h⟩
    exfalso
    revert e
    show Scalar.cmpi .ne (Scalar.extui (BitVec.ofBool (BitVec.ofNat 32 (i 1).val == 0#32))) 0#32 = 1#1 → False
    rw [hb]
    decide

/-- A grid point at vocabulary coordinate 0 starts the row afresh and folds in tile 0. -/
theorem point_row3_first (i : grid0.Coords) (hik : (i 1).val = 0)
    (h2 h3 : Vec Ideal S2048x768 .f32) (w : Vec Ideal S512x768 .f32) (tg : Vec Ideal S2048x1 .i32) (s : St Ideal)
    (x : Fin 2048 → Fin 768 → ℝ) (hx : ∀ r d, h3 (ix2 r d) = ((x r d : ℝ) : EReal))
    (W : Fin 50257 → Fin 768 → ℝ)
    (hw : ∀ (j : Fin 512) (d : Fin 768) (h : 512 * 0 + j.val < 50257), w (ix2 j d) = ((W ⟨512 * 0 + j.val, h⟩ d : ℝ) : EReal))
    (tgt : Fin 2048 → BitVec 32) (htg : ∀ r, tg (ix2 r 0) = tgt r) (r : Fin 2048) :
    row3 (point i h2 h3 w tg s) r = Online.ostep (fun v => ∑ d, x r d * W v d) (tgt r) 0 ⟨⊥, 0, 0⟩ := by
  unfold point
  rw [if_pos ((cond1_iff i).2 hik), step_row3 i 0 (by decide) hik h2 h3 w tg reset x hx W hw tgt htg r, reset_row3]

/-- A grid point at a later vocabulary coordinate k folds tile k into what the row carries. -/
theorem point_row3_later (i : grid0.Coords) (k : ℕ) (hk : k < 99) (hk0 : k ≠ 0) (hik : (i 1).val = k)
    (h2 h3 : Vec Ideal S2048x768 .f32) (w : Vec Ideal S512x768 .f32) (tg : Vec Ideal S2048x1 .i32) (s : St Ideal)
    (x : Fin 2048 → Fin 768 → ℝ) (hx : ∀ r d, h3 (ix2 r d) = ((x r d : ℝ) : EReal))
    (W : Fin 50257 → Fin 768 → ℝ)
    (hw : ∀ (j : Fin 512) (d : Fin 768) (h : 512 * k + j.val < 50257), w (ix2 j d) = ((W ⟨512 * k + j.val, h⟩ d : ℝ) : EReal))
    (tgt : Fin 2048 → BitVec 32) (htg : ∀ r, tg (ix2 r 0) = tgt r) (r : Fin 2048) :
    row3 (point i h2 h3 w tg s) r = Online.ostep (fun v => ∑ d, x r d * W v d) (tgt r) k (row3 s r) := by
  unfold point
  rw [if_neg (fun e => hk0 (hik.symm.trans ((cond1_iff i).1 e))), step_row3 i k hk hik h2 h3 w tg s x hx W hw tgt htg r]

/-! ## The sweep of a row tile, row by row -/

section Sweep

variable (i : ℕ → grid0.Coords) (hi : ∀ k, k < 99 → ((i k) 1).val = k)
  (h2 h3 : Vec Ideal S2048x768 .f32) (wt : ℕ → Vec Ideal S512x768 .f32) (tg : Vec Ideal S2048x1 .i32) (S0 : St Ideal)
  (x : Fin 2048 → Fin 768 → ℝ) (hx : ∀ r d, h3 (ix2 r d) = ((x r d : ℝ) : EReal))
  (W : Fin 50257 → Fin 768 → ℝ)
  (hW : ∀ k (j : Fin 512) (d : Fin 768) (h : 512 * k + j.val < 50257), wt k (ix2 j d) = ((W ⟨512 * k + j.val, h⟩ d : ℝ) : EReal))
  (tgt : Fin 2048 → BitVec 32) (htg : ∀ r, tg (ix2 r 0) = tgt r)

include hi hx hW htg in
/-- After the first n + 1 tiles of the sweep, row r carries what the abstract sweep of its logits carries: whatever the columns
    held before the sweep is forgotten at tile 0. -/
theorem sweep_row3_succ (r : Fin 2048) (n : ℕ) (hn : n < 99) :
    row3 (sweep i h2 h3 wt tg S0 (n + 1)) r = Online.orun (fun v => ∑ d, x r d * W v d) (tgt r) (n + 1) := by
  induction n with
  | zero =>
    show row3 (point (i 0) h2 h3 (wt 0) tg (sweep i h2 h3 wt tg S0 0)) r
      = Online.ostep (fun v => ∑ d, x r d * W v d) (tgt r) 0 ⟨⊥, 0, 0⟩
    exact point_row3_first (i 0) (hi 0 hn) h2 h3 (wt 0) tg _ x hx W (hW 0) tgt htg r
  | succ n ih =>
    show row3 (point (i (n + 1)) h2 h3 (wt (n + 1)) tg (sweep i h2 h3 wt tg S0 (n + 1))) r
      = Online.ostep (fun v => ∑ d, x r d * W v d) (tgt r) (n + 1) (Online.orun (fun v => ∑ d, x r d * W v d) (tgt r) (n + 1))
    rw [point_row3_later (i (n + 1)) (n + 1) hn (Nat.succ_ne_zero n) (hi (n + 1) hn) h2 h3 (wt (n + 1)) tg _ x hx W (hW (n + 1)) tgt htg r,
      ih (by omega)]

include hi hx hW htg in
/-- PASS 3 OF THE SWEEP, ROW BY ROW. After n tiles, 1 ≤ n ≤ 99, the running maximum, the running sum and the accumulated
    target logit of row r are those of the abstract online sweep over the row's 50257 real logits, the products of the hidden
    row with the weight rows. -/
theorem sweep_row3 (r : Fin 2048) (n : ℕ) (h1 : 1 ≤ n) (h99 : n ≤ 99) :
    (sweep i h2 h3 wt tg S0 n).m3 (ix2 r 0) = (Online.orun (fun v => ∑ d, x r d * W v d) (tgt r) n).m
    ∧ (sweep i h2 h3 wt tg S0 n).l3 (ix2 r 0) = (Online.orun (fun v => ∑ d, x r d * W v d) (tgt r) n).l
    ∧ (sweep i h2 h3 wt tg S0 n).tl3 (ix2 r 0) = (Online.orun (fun v => ∑ d, x r d * W v d) (tgt r) n).t := by
  obtain ⟨n, rfl⟩ : ∃ n', n = n' + 1 := ⟨n - 1, by omega⟩
  have e := sweep_row3_succ i hi h2 h3 wt tg S0 x hx W hW tgt htg r n (by omega)
  exact ⟨congrArg Online.MLT.m e, congrArg Online.MLT.l e, congrArg Online.MLT.t e⟩

end Sweep

/-- What the last tile stores for pass 3, at row r: maximum + log(sum) - target logit of that row. -/
theorem nll3_row (S : St Ideal) (r : Fin 2048) :
    nll3Blk S (ix2 r 0) = S.m3 (ix2 r 0) + Ideal.log (S.l3 (ix2 r 0)) - S.tl3 (ix2 r 0) := by
  show k0_pay5 S.m3 S.l3 S.tl3 (ix2 r 0) = _
  exact pay5_apply S.m3 S.l3 S.tl3 r

end Cert.KernelIdeal.PayI3

end
-- ==== Proof.RowSpec.lean ====
/-
  The online sweep of one row, joined with the specification.

  After its 99 vocabulary tiles a row of a row tile holds, for either pass, the three quantities of the online recurrence
  over that row's logits: a maximum m, a sum l of exponentials against it, and the accumulated logit tl at the row's target.
  The recurrence ends with  m + log l - tl  equal to the row's log-sum-exp minus its target logit. With the row's logits
  the inner products of hidden row R = 2048 * a + r with the vocabulary rows, that is the specification's
  lse - tlogit at row R.
-/
import proofs.«419146_j12747462935019_2_alg».proof.Proof.KStep
import proofs.«419146_j12747462935019_2_alg».proof.Proof.Online
import proofs.«419146_j12747462935019_2_alg».proof.Proof.Spec
import Idealize.ShloMosaic.Lib.ValueIdx

noncomputable section

namespace Cert.KernelIdeal.RowSpec

open Idealize.ShloMosaic Idealize.ShloMosaic.ValueIdx
open Cert.KernelIdeal Cert.KernelIdeal.KStep

/-- Row `r` of row tile `a` among the 4096 rows. -/
def row (a : Fin 2) (r : Fin 2048) : Fin 4096 := ⟨2048 * a.val + r.val, by omega⟩

/-- The end of the recurrence over the logits of row `R` is the specification's cross-entropy term of that row:
    the specification's log-sum-exp and target logit are the recurrence's, spelt over the same logits. -/
theorem orun_spec (x : Fin 4096 → Fin 768 → ℝ) (W : Fin 50257 → Fin 768 → ℝ) (t : Fin 4096 → BitVec 32) (R : Fin 4096)
    (htg : t R = Cert.Spec.ignore ∨ (t R).toNat < 50257) :
    (Cert.Online.orun (fun v => Cert.Spec.logit x W R v) (t R) 99).m
        + Ideal.log (Cert.Online.orun (fun v => Cert.Spec.logit x W R v) (t R) 99).l
        - (Cert.Online.orun (fun v => Cert.Spec.logit x W R v) (t R) 99).t
      = ((Cert.Spec.lse x W R - Cert.Spec.tlogit x W t R : ℝ) : EReal) :=
  Cert.Online.orun_final (fun v => Cert.Spec.logit x W R v) (t R) htg

/-- Pass 2: a state whose pass-2 columns at row `r` are the recurrence's three quantities over row `R`'s logits. -/
theorem pass2 (x : Fin 4096 → Fin 768 → ℝ) (W : Fin 50257 → Fin 768 → ℝ) (t : Fin 4096 → BitVec 32)
    (a : Fin 2) (r : Fin 2048) (S : St Ideal)
    (hm : S.m2 (ix2 r 0) = (Cert.Online.orun (fun v => Cert.Spec.logit x W (row a r) v) (t (row a r)) 99).m)
    (hl : S.l2 (ix2 r 0) = (Cert.Online.orun (fun v => Cert.Spec.logit x W (row a r) v) (t (row a r)) 99).l)
    (ht : S.tl2 (ix2 r 0) = (Cert.Online.orun (fun v => Cert.Spec.logit x W (row a r) v) (t (row a r)) 99).t)
    (htg : t (row a r) = Cert.Spec.ignore ∨ (t (row a r)).toNat < 50257) :
    S.m2 (ix2 r 0) + Ideal.log (S.l2 (ix2 r 0)) - S.tl2 (ix2 r 0)
      = ((Cert.Spec.lse x W (row a r) - Cert.Spec.tlogit x W t (row a r) : ℝ) : EReal) := by
  rw [hm, hl, ht]; exact orun_spec x W t (row a r) htg

/-- Pass 3: the same over the pass-3 columns. -/
theorem pass3 (x : Fin 4096 → Fin 768 → ℝ) (W : Fin 50257 → Fin 768 → ℝ) (t : Fin 4096 → BitVec 32)
    (a : Fin 2) (r : Fin 2048) (S : St Ideal)
    (hm : S.m3 (ix2 r 0) = (Cert.Online.orun (fun v => Cert.Spec.logit x W (row a r) v) (t (row a r)) 99).m)
    (hl : S.l3 (ix2 r 0) = (Cert.Online.orun (fun v => Cert.Spec.logit x W (row a r) v) (t (row a r)) 99).l)
    (ht : S.tl3 (ix2 r 0) = (Cert.Online.orun (fun v => Cert.Spec.logit x W (row a r) v) (t (row a r)) 99).t)
    (htg : t (row a r) = Cert.Spec.ignore ∨ (t (row a r)).toNat < 50257) :
    S.m3 (ix2 r 0) + Ideal.log (S.l3 (ix2 r 0)) - S.tl3 (ix2 r 0)
      = ((Cert.Spec.lse x W (row a r) - Cert.Spec.tlogit x W t (row a r) : ℝ) : EReal) := by
  rw [hm, hl, ht]; exact orun_spec x W t (row a r) htg

/-- The same with the three columns given as one triple, the form in which a sweep's columns are identified with the
    recurrence. -/
theorem pass2_of_triple (x : Fin 4096 → Fin 768 → ℝ) (W : Fin 50257 → Fin 768 → ℝ) (t : Fin 4096 → BitVec 32)
    (a : Fin 2) (r : Fin 2048) (S : St Ideal)
    (h : (S.m2 (ix2 r 0), S.l2 (ix2 r 0), S.tl2 (ix2 r 0))
      = ((Cert.Online.orun (fun v => Cert.Spec.logit x W (row a r) v) (t (row a r)) 99).m,
         (Cert.Online.orun (fun v => Cert.Spec.logit x W (row a r) v) (t (row a r)) 99).l,
         (Cert.Online.orun (fun v => Cert.Spec.logit x W (row a r) v) (t (row a r)) 99).t))
    (htg : t (row a r) = Cert.Spec.ignore ∨ (t (row a r)).toNat < 50257) :
    S.m2 (ix2 r 0) + Ideal.log (S.l2 (ix2 r 0)) - S.tl2 (ix2 r 0)
      = ((Cert.Spec.lse x W (row a r) - Cert.Spec.tlogit x W t (row a r) : ℝ) : EReal) :=
  pass2 x W t a r S (congrArg Prod.fst h) (congrArg (fun p => p.2.1) h) (congrArg (fun p => p.2.2) h) htg

theorem pass3_of_triple (x : Fin 4096 → Fin 768 → ℝ) (W : Fin 50257 → Fin 768 → ℝ) (t : Fin 4096 → BitVec 32)
    (a : Fin 2) (r : Fin 2048) (S : St Ideal)
    (h : (S.m3 (ix2 r 0), S.l3 (ix2 r 0), S.tl3 (ix2 r 0))
      = ((Cert.Online.orun (fun v => Cert.Spec.logit x W (row a r) v) (t (row a r)) 99).m,
         (Cert.Online.orun (fun v => Cert.Spec.logit x W (row a r) v) (t (row a r)) 99).l,
         (Cert.Online.orun (fun v => Cert.Spec.logit x W (row a r) v) (t (row a r)) 99).t))
    (htg : t (row a r) = Cert.Spec.ignore ∨ (t (row a r)).toNat < 50257) :
    S.m3 (ix2 r 0) + Ideal.log (S.l3 (ix2 r 0)) - S.tl3 (ix2 r 0)
      = ((Cert.Spec.lse x W (row a r) - Cert.Spec.tlogit x W t (row a r) : ℝ) : EReal) :=
  pass3 x W t a r S (congrArg Prod.fst h) (congrArg (fun p => p.2.1) h) (congrArg (fun p => p.2.2) h) htg

end Cert.KernelIdeal.RowSpec

end
-- ==== Proof.KRows.lean ====
/- What the last vocabulary tile of a row tile's sweep stores, row by row, at the exact instance.

   After its 99 tiles the sweep's columns read, at every row, as the abstract online sweep of the row's real logits; the
   stored block is maximum + log(sum) - target logit of the row; and the abstract sweep ends at the row's log-sum-exp less
   its logit at the target (0 for a target that names no vocabulary entry). Chained, for each pass: the stored value of row
   `r` is  log (∑ v, exp (a r v)) - (a r at the target, or 0)  with  a r v = ∑ d, x r d * W v d,  `x` the pass's real hidden
   block. The same is then spelt over whole tables of 4096 rows, row `r` of row tile `a` being row `2048 a + r`: the
   specification's  lse - tlogit  of that row. -/
import proofs.«419146_j12747462935019_2_alg».proof.Proof.PayI2
import proofs.«419146_j12747462935019_2_alg».proof.Proof.PayI3
import proofs.«419146_j12747462935019_2_alg».proof.Proof.Online
import proofs.«419146_j12747462935019_2_alg».proof.Proof.Spec
import proofs.«419146_j12747462935019_2_alg».proof.Proof.RowSpec

noncomputable section

namespace Cert.KernelIdeal.KRows

open Idealize.ShloMosaic Idealize.ShloMosaic.ValueIdx Cert.KernelIdeal Cert.KernelIdeal.Gen Cert.KernelIdeal.KStep

section Rows
variable (i : ℕ → grid0.Coords) (hi : ∀ k, k < 99 → ((i k) 1).val = k)
  (h2 h3 : Vec Ideal S2048x768 .f32) (wt : ℕ → Vec Ideal S512x768 .f32) (tg : Vec Ideal S2048x1 .i32) (S0 : St Ideal)
  (W : Fin 50257 → Fin 768 → ℝ)
  (hW : ∀ k (j : Fin 512) (d : Fin 768) (h : 512 * k + j.val < 50257),
    wt k (ValueIdx.ix2 j d) = ((W ⟨512 * k + j.val, h⟩ d : ℝ) : EReal))

include hi hW

/-- Pass 2: the block stored after the 99th tile holds, at row `r`, the row's log-sum-exp less its target logit. -/
theorem nll2_final (x : Fin 2048 → Fin 768 → ℝ) (hx : ∀ r d, h2 (ValueIdx.ix2 r d) = ((x r d : ℝ) : EReal))
    (tgt : Fin 2048 → BitVec 32) (htg : ∀ r, tg (ValueIdx.ix2 r 0) = tgt r) (r : Fin 2048)
    (ht : tgt r = Cert.Spec.ignore ∨ (tgt r).toNat < 50257) :
    nll2Blk (sweep i h2 h3 wt tg S0 99) (ix2 r 0)
      = ((Real.log (∑ v, Real.exp (∑ d, x r d * W v d))
          - (if h : (tgt r).toNat < 50257 then ∑ d, x r d * W ⟨(tgt r).toNat, h⟩ d else 0) : ℝ) : EReal) := by
  obtain ⟨e1, e2, e3⟩ := PayI2.sweep_row2 i hi h2 h3 wt tg S0 x hx W hW tgt htg r 99 (by omega) (le_refl _)
  rw [PayI2.nll2_row, e1, e2, e3]
  exact Cert.Online.orun_final (fun v => ∑ d, x r d * W v d) (tgt r) ht

/-- Pass 3: the same over pass 3's hidden block and columns. -/
theorem nll3_final (x : Fin 2048 → Fin 768 → ℝ) (hx : ∀ r d, h3 (ValueIdx.ix2 r d) = ((x r d : ℝ) : EReal))
    (tgt : Fin 2048 → BitVec 32) (htg : ∀ r, tg (ValueIdx.ix2 r 0) = tgt r) (r : Fin 2048)
    (ht : tgt r = Cert.Spec.ignore ∨ (tgt r).toNat < 50257) :
    nll3Blk (sweep i h2 h3 wt tg S0 99) (ix2 r 0)
      = ((Real.log (∑ v, Real.exp (∑ d, x r d * W v d))
          - (if h : (tgt r).toNat < 50257 then ∑ d, x r d * W ⟨(tgt r).toNat, h⟩ d else 0) : ℝ) : EReal) := by
  obtain ⟨e1, e2, e3⟩ := PayI3.sweep_row3 i hi h2 h3 wt tg S0 x hx W hW tgt htg r 99 (by omega) (le_refl _)
  rw [PayI3.nll3_row, e1, e2, e3]
  exact Cert.Online.orun_final (fun v => ∑ d, x r d * W v d) (tgt r) ht

/-- Pass 2 over whole tables: with the hidden block the rows `2048 a + r` of a table `X` of 4096 real rows and the targets
    column those rows of a table `t` of 4096 target words, the stored value of row `r` is the specification's
    log-sum-exp less target logit of row `2048 a + r`. -/
theorem nll2_spec (X : Fin 4096 → Fin 768 → ℝ) (t : Fin 4096 → BitVec 32) (a : Fin 2)
    (hx : ∀ r d, h2 (ValueIdx.ix2 r d) = ((X (RowSpec.row a r) d : ℝ) : EReal))
    (htg : ∀ r, tg (ValueIdx.ix2 r 0) = t (RowSpec.row a r)) (r : Fin 2048)
    (ht : t (RowSpec.row a r) = Cert.Spec.ignore ∨ (t (RowSpec.row a r)).toNat < 50257) :
    nll2Blk (sweep i h2 h3 wt tg S0 99) (ix2 r 0)
      = ((Cert.Spec.lse X W (RowSpec.row a r) - Cert.Spec.tlogit X W t (RowSpec.row a r) : ℝ) : EReal) :=
  nll2_final i hi h2 h3 wt tg S0 W hW (fun r d => X (RowSpec.row a r) d) hx (fun r => t (RowSpec.row a r)) htg r ht

/-- Pass 3 over whole tables. -/
theorem nll3_spec (X : Fin 4096 → Fin 768 → ℝ) (t : Fin 4096 → BitVec 32) (a : Fin 2)
    (hx : ∀ r d, h3 (ValueIdx.ix2 r d) = ((X (RowSpec.row a r) d : ℝ) : EReal))
    (htg : ∀ r, tg (ValueIdx.ix2 r 0) = t (RowSpec.row a r)) (r : Fin 2048)
    (ht : t (RowSpec.row a r) = Cert.Spec.ignore ∨ (t (RowSpec.row a r)).toNat < 50257) :
    nll3Blk (sweep i h2 h3 wt tg S0 99) (ix2 r 0)
      = ((Cert.Spec.lse X W (RowSpec.row a r) - Cert.Spec.tlogit X W t (RowSpec.row a r) : ℝ) : EReal) :=
  nll3_final i hi h2 h3 wt tg S0 W hW (fun r d => X (RowSpec.row a r) d) hx (fun r => t (RowSpec.row a r)) htg r ht

end Rows

end Cert.KernelIdeal.KRows

end
-- ==== Proof.Blocks.lean ====
/- The blocks the kernel's region reads at a grid point, and the arrays it reads them from, in terms of the arguments.

   The region runs on a 2 x 99 grid: point t works on row tile t / 99 and vocabulary tile t % 99. Four of its windows
   are inputs. Two stage the hidden arrays (4096 rows of 768, in blocks of 2048 rows) and one the targets column (4096
   rows of 1, in blocks of 2048 rows): their block at point t is rows 2048 * (t / 99) .. 2048 * (t / 99) + 2047, so it is
   the same at every point of a sweep. One stages the vocabulary matrix (50257 rows of 768, in blocks of 512 rows): its
   block at point t is rows 512 * (t % 99) .. of the matrix, and since 98 * 512 + 81 = 50257 the block of the last tile of
   a sweep has only 81 rows inside the matrix; the other 431 rows of the staging block hold whatever it is filled with.
   Before the region the two hidden arguments [2, 2048, 768] are flattened to [4096, 768] and the targets [2, 2048] to
   [4096] and then to [4096, 1]; flattening keeps the row-major position, so flat row R is batch R / 2048, position
   R % 2048. The vocabulary matrix is read as passed. Everything here holds for any float instance. -/
import proofs.«419146_j12747462935019_2_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem

variable {F : FTy → Type} [FloatOps F] [Named F]
variable (m : (ℓ : Loc nD τ sig) → Buf (Elt F) ℓ)

/-! ## Names of literal type

Each array the region finds, each argument array and each window's block, named at its literal shape, so that
entries can be read at explicit coordinates. -/

/-- The first hidden array flattened to 4096 rows, as the region finds it. -/
abbrev hid2 (c : Dev nD) : Vec F S4096x768 .f32 := V m c main_v0
/-- The second hidden array flattened to 4096 rows, as the region finds it. -/
abbrev hid3 (c : Dev nD) : Vec F S4096x768 .f32 := V m c main_v1
/-- The vocabulary matrix, as the region finds it. -/
abbrev wArr (c : Dev nD) : Vec F S50257x768 .f32 := V m c main_arg2
/-- The targets flattened to one axis of 4096, as the region finds them. -/
abbrev tgt1 (c : Dev nD) : Vec F S4096 .i32 := V m c main_v2
/-- The targets as a column of 4096 rows, as the region finds them. -/
abbrev tgtC (c : Dev nD) : Vec F S4096x1 .i32 := V m c main_v3

/-- The program's four arguments as launched. -/
abbrev arg0 (c : Dev nD) : Vec F S2x2048x768 .f32 := m ((c : Thread nD τ).loc main_arg0)
abbrev arg1 (c : Dev nD) : Vec F S2x2048x768 .f32 := m ((c : Thread nD τ).loc main_arg1)
abbrev arg2 (c : Dev nD) : Vec F S50257x768 .f32 := m ((c : Thread nD τ).loc main_arg2)
abbrev arg3 (c : Dev nD) : Vec F S2x2048 .i32 := m ((c : Thread nD τ).loc main_arg3)

/-- The blocks of the two hidden windows and of the targets window at point `t`: 2048 rows each. -/
abbrev blk0 (c : Dev nD) (t : Fin cfg0.N) : Vec F S2048x768 .f32 := iblk m c 0 t
abbrev blk1 (c : Dev nD) (t : Fin cfg0.N) : Vec F S2048x768 .f32 := iblk m c 1 t
abbrev blk3 (c : Dev nD) (t : Fin cfg0.N) : Vec F S2048x1 .i32 := iblk m c 3 t

/-! ## The grid and the index maps -/

/-- The grid has 198 points. -/
theorem lt198 (t : Fin cfg0.N) : t.val < 198 := by
  have h := t.isLt
  have hN : cfg0.N = 198 := N_0
  omega

/-- Point `t` is row tile `t / 99` and vocabulary tile `t % 99`. -/
theorem coords_val : ∀ t : Fin cfg0.N, (grid0.coords t 0).val = t.val / 99 ∧ (grid0.coords t 1).val = t.val % 99 :=
  (by decide +kernel : ∀ t : Fin grid0.N, (grid0.coords t 0).val = t.val / 99 ∧ (grid0.coords t 1).val = t.val % 99)

/-- The hidden windows and the targets window sit at block (row tile, 0). -/
theorem idx0 : ∀ t : Fin cfg0.N, win0_0.index t (0 : Fin 2) = t.val / 99 ∧ win0_0.index t (1 : Fin 2) = 0 :=
  (by decide +kernel : ∀ t : Fin grid0.N, win0_0.index t (0 : Fin 2) = t.val / 99 ∧ win0_0.index t (1 : Fin 2) = 0)
theorem idx1 : ∀ t : Fin cfg0.N, win0_1.index t (0 : Fin 2) = t.val / 99 ∧ win0_1.index t (1 : Fin 2) = 0 :=
  (by decide +kernel : ∀ t : Fin grid0.N, win0_1.index t (0 : Fin 2) = t.val / 99 ∧ win0_1.index t (1 : Fin 2) = 0)
theorem idx3 : ∀ t : Fin cfg0.N, win0_3.index t (0 : Fin 2) = t.val / 99 ∧ win0_3.index t (1 : Fin 2) = 0 :=
  (by decide +kernel : ∀ t : Fin grid0.N, win0_3.index t (0 : Fin 2) = t.val / 99 ∧ win0_3.index t (1 : Fin 2) = 0)
/-- The vocabulary window sits at block (vocabulary tile, 0); its block has all 512 rows but at the last tile of a
    sweep, where only the 81 rows inside the matrix are moved; every block has all 768 columns. -/
theorem idx2 : ∀ t : Fin cfg0.N, win0_2.index t (0 : Fin 2) = t.val % 99 ∧ win0_2.index t (1 : Fin 2) = 0
    ∧ win0_2.xsize (grid0.coords t) (0 : Fin 2) = (if t.val % 99 = 98 then 81 else 512)
    ∧ win0_2.xsize (grid0.coords t) (1 : Fin 2) = 768 :=
  (by decide +kernel : ∀ t : Fin grid0.N, win0_2.index t (0 : Fin 2) = t.val % 99 ∧ win0_2.index t (1 : Fin 2) = 0
    ∧ win0_2.xsize (grid0.coords t) (0 : Fin 2) = (if t.val % 99 = 98 then 81 else 512)
    ∧ win0_2.xsize (grid0.coords t) (1 : Fin 2) = 768)

/-! ## (a) A block's entry is the array's entry at block index times block size plus the coordinate inside -/

/-- Row `r` of the first hidden block at point `t` is row `2048 * (t / 99) + r` of the flattened array. -/
theorem blk0_apply (c : Dev nD) (t : Fin cfg0.N) (r : Fin 2048) (d : Fin 768) :
    blk0 m c t (ix2 r d) = hid2 m c (ix2 ⟨2048 * (t.val / 99) + r.val, by have := lt198 t; have := r.isLt; omega⟩ d) := by
  obtain ⟨e0, e1⟩ := idx0 t
  show V m c main_v0 (((cfg0.win 0).blk t).view.emb (ix2 r d)) = V m c main_v0 _
  refine congrArg (V m c main_v0) (funext fun a => Fin.ext ?_)
  match a with
  | ⟨0, _⟩ => show win0_0.index t (0 : Fin 2) * 2048 + 1 * r.val = 2048 * (t.val / 99) + r.val; omega
  | ⟨1, _⟩ => show win0_0.index t (1 : Fin 2) * 768 + 1 * d.val = d.val; omega

/-- The same for the second hidden block. -/
theorem blk1_apply (c : Dev nD) (t : Fin cfg0.N) (r : Fin 2048) (d : Fin 768) :
    blk1 m c t (ix2 r d) = hid3 m c (ix2 ⟨2048 * (t.val / 99) + r.val, by have := lt198 t; have := r.isLt; omega⟩ d) := by
  obtain ⟨e0, e1⟩ := idx1 t
  show V m c main_v1 (((cfg0.win 1).blk t).view.emb (ix2 r d)) = V m c main_v1 _
  refine congrArg (V m c main_v1) (funext fun a => Fin.ext ?_)
  match a with
  | ⟨0, _⟩ => show win0_1.index t (0 : Fin 2) * 2048 + 1 * r.val = 2048 * (t.val / 99) + r.val; omega
  | ⟨1, _⟩ => show win0_1.index t (1 : Fin 2) * 768 + 1 * d.val = d.val; omega

/-- Row `r` of the targets block at point `t` is row `2048 * (t / 99) + r` of the targets column. -/
theorem blk3_apply (c : Dev nD) (t : Fin cfg0.N) (r : Fin 2048) (u : Fin 1) :
    blk3 m c t (ix2 r u) = tgtC m c (ix2 ⟨2048 * (t.val / 99) + r.val, by have := lt198 t; have := r.isLt; omega⟩ u) := by
  obtain ⟨e0, e1⟩ := idx3 t
  show V m c main_v3 (((cfg0.win 3).blk t).view.emb (ix2 r u)) = V m c main_v3 _
  refine congrArg (V m c main_v3) (funext fun a => Fin.ext ?_)
  match a with
  | ⟨0, _⟩ => show win0_3.index t (0 : Fin 2) * 2048 + 1 * r.val = 2048 * (t.val / 99) + r.val; omega
  | ⟨1, _⟩ => show win0_3.index t (1 : Fin 2) * 1 + 1 * u.val = u.val; omega

/-- A row of the vocabulary block at point `t`, among those the transfer moves, lies inside the matrix. -/
theorem w_row_lt (t : Fin cfg0.N) (y : (win0_2.xblock (grid0.coords t)).Idx) : 512 * (t.val % 99) + (y 0).val < 50257 := by
  have h : (y 0).val < win0_2.xsize (grid0.coords t) (0 : Fin 2) := (y 0).isLt
  obtain ⟨-, -, e, -⟩ := idx2 t
  rw [e] at h
  have := lt198 t
  split at h <;> omega
theorem w_col_lt (t : Fin cfg0.N) (y : (win0_2.xblock (grid0.coords t)).Idx) : (y 1).val < 768 := by
  have h : (y 1).val < win0_2.xsize (grid0.coords t) (1 : Fin 2) := (y 1).isLt
  obtain ⟨-, -, -, e⟩ := idx2 t
  rw [e] at h
  exact h

/-- The vocabulary window's block at point `t` (512 rows; at the last tile of a sweep the 81 rows inside the matrix):
    its row `j` is row `512 * (t % 99) + j` of the matrix. -/
theorem blk2_apply (c : Dev nD) (t : Fin cfg0.N) (y : (win0_2.xblock (grid0.coords t)).Idx) :
    iblk m c 2 t y = wArr m c (ix2 ⟨512 * (t.val % 99) + (y 0).val, w_row_lt t y⟩ ⟨(y 1).val, w_col_lt t y⟩) := by
  obtain ⟨e0, e1, -, -⟩ := idx2 t
  show V m c main_arg2 (((cfg0.win 2).blk t).view.emb y) = V m c main_arg2 _
  refine congrArg (V m c main_arg2) (funext fun a => Fin.ext ?_)
  match a with
  | ⟨0, _⟩ => show win0_2.index t (0 : Fin 2) * 512 + 1 * (y 0).val = 512 * (t.val % 99) + (y 0).val; omega
  | ⟨1, _⟩ => show win0_2.index t (1 : Fin 2) * 768 + 1 * (y 1).val = (y 1).val; omega

/-- Which rows of the 512-row staging block the transfer at point `t` moves: those that fall inside the matrix. -/
theorem moved2_iff (t : Fin cfg0.N) (j : Fin 512) (d : Fin 768) :
    win0_2.moved (grid0.coords t) (ix2 j d) = true ↔ 512 * (t.val % 99) + j.val < 50257 := by
  rw [Pipeline.Window.moved_iff]
  obtain ⟨-, -, e0, e1⟩ := idx2 t
  have := lt198 t
  have hj := j.isLt
  constructor
  · intro h
    have h0 : j.val < win0_2.xsize (grid0.coords t) (0 : Fin 2) := h 0
    rw [e0] at h0
    split at h0 <;> omega
  · intro h a
    match a with
    | ⟨0, _⟩ => show j.val < win0_2.xsize (grid0.coords t) (0 : Fin 2); rw [e0]; split <;> omega
    | ⟨1, _⟩ => show d.val < win0_2.xsize (grid0.coords t) (1 : Fin 2); rw [e1]; exact d.isLt

/-- The vocabulary block filled out to 512 rows with any `z`: a row inside the matrix is the matrix's row, -/
theorem fill2_in (c : Dev nD) (t : Fin cfg0.N) (z : S512x768.Idx → Elt F .f32) (j : Fin 512) (d : Fin 768)
    (h : 512 * (t.val % 99) + j.val < 50257) :
    win0_2.fill (grid0.coords t) z (iblk m c 2 t) (ix2 j d) = wArr m c (ix2 ⟨512 * (t.val % 99) + j.val, h⟩ d) := by
  have hm : win0_2.moved (grid0.coords t) (ix2 j d) = true := (moved2_iff t j d).mpr h
  unfold Pipeline.Window.fill
  rw [dif_pos hm]
  exact blk2_apply m c t _
/-- and a row past the matrix's end (the last 431 rows of the last tile of a sweep) is `z`'s. -/
theorem fill2_out (c : Dev nD) (t : Fin cfg0.N) (z : S512x768.Idx → Elt F .f32) (j : Fin 512) (d : Fin 768)
    (h : 50257 ≤ 512 * (t.val % 99) + j.val) :
    win0_2.fill (grid0.coords t) z (iblk m c 2 t) (ix2 j d) = z (ix2 j d) :=
  win0_2.fill_of_not_moved _ _ _ (fun hm => by have := (moved2_iff t j d).mp hm; omega)

/-! ## (b) The hidden blocks and the targets block do not change along a sweep -/

/-- The first point of `t`'s sweep. -/
abbrev sweep0 (t : Fin cfg0.N) : Fin cfg0.N := ⟨99 * (t.val / 99), by have := lt198 t; have hN : cfg0.N = 198 := N_0; omega⟩

theorem blk0_const (c : Dev nD) (t : Fin cfg0.N) : blk0 m c t = blk0 m c (sweep0 t) := by
  funext j
  obtain ⟨r, d, rfl⟩ : ∃ (r : Fin 2048) (d : Fin 768), j = ix2 r d := ⟨j 0, j 1, eq_ix2 j⟩
  rw [blk0_apply, blk0_apply]
  refine congrArg (hid2 m c) (funext fun a => Fin.ext ?_)
  match a with
  | ⟨0, _⟩ => show 2048 * (t.val / 99) + r.val = 2048 * (99 * (t.val / 99) / 99) + r.val; omega
  | ⟨1, _⟩ => rfl
theorem blk1_const (c : Dev nD) (t : Fin cfg0.N) : blk1 m c t = blk1 m c (sweep0 t) := by
  funext j
  obtain ⟨r, d, rfl⟩ : ∃ (r : Fin 2048) (d : Fin 768), j = ix2 r d := ⟨j 0, j 1, eq_ix2 j⟩
  rw [blk1_apply, blk1_apply]
  refine congrArg (hid3 m c) (funext fun a => Fin.ext ?_)
  match a with
  | ⟨0, _⟩ => show 2048 * (t.val / 99) + r.val = 2048 * (99 * (t.val / 99) / 99) + r.val; omega
  | ⟨1, _⟩ => rfl
theorem blk3_const (c : Dev nD) (t : Fin cfg0.N) : blk3 m c t = blk3 m c (sweep0 t) := by
  funext j
  obtain ⟨r, u, rfl⟩ : ∃ (r : Fin 2048) (u : Fin 1), j = ix2 r u := ⟨j 0, j 1, eq_ix2 j⟩
  rw [blk3_apply, blk3_apply]
  refine congrArg (tgtC m c) (funext fun a => Fin.ext ?_)
  match a with
  | ⟨0, _⟩ => show 2048 * (t.val / 99) + r.val = 2048 * (99 * (t.val / 99) / 99) + r.val; omega
  | ⟨1, _⟩ => rfl

/-! ## (c) The arrays the region finds, in terms of the program's arguments

Four reshapes run before the region: each hidden argument [2, 2048, 768] is flattened to [4096, 768], the targets
[2, 2048] to [4096] and then to a column [4096, 1]. A reshape keeps the row-major position, so flat row `R` is batch
`R / 2048`, position `R % 2048`. The vocabulary matrix is the argument itself. -/

theorem hid2_eq (c : Dev nD) : hid2 m c = shapeCast S4096x768 (arg0 m c) shapeCasts_S2x2048x768_S4096x768 := by
  show StableHlo.after hostOps0 (fun b => m (c, b)) (Proc.devRef .tc main_v0) = _
  after_results
  rfl
theorem hid3_eq (c : Dev nD) : hid3 m c = shapeCast S4096x768 (arg1 m c) shapeCasts_S2x2048x768_S4096x768 := by
  show StableHlo.after hostOps0 (fun b => m (c, b)) (Proc.devRef .tc main_v1) = _
  after_results
  rfl
theorem tgt1_eq (c : Dev nD) : tgt1 m c = shapeCast S4096 (arg3 m c) shapeCasts_S2x2048_S4096 := by
  show StableHlo.after hostOps0 (fun b => m (c, b)) (Proc.devRef .tc main_v2) = _
  after_results
  rfl
theorem tgtC_eq (c : Dev nD) : tgtC m c = shapeCast S4096x1 (tgt1 m c) shapeCasts_S4096_S4096x1 := by
  show StableHlo.after hostOps0 (fun b => m (c, b)) (Proc.devRef .tc main_v3) = shapeCast S4096x1 (StableHlo.after hostOps0 (fun b => m (c, b)) (Proc.devRef .tc main_v2)) shapeCasts_S4096_S4096x1
  after_results
  rfl
theorem wArr_eq (c : Dev nD) : wArr m c = arg2 m c := V_main_arg2 m c

theorem hid2_apply (c : Dev nD) (R : Fin 4096) (d : Fin 768) :
    hid2 m c (ix2 R d) = arg0 m c (ix3 ⟨R.val / 2048, by have := R.isLt; omega⟩ ⟨R.val % 2048, by omega⟩ d) := by
  rw [hid2_eq]
  exact shapeCast_apply _ _ _ _ (by
    rw [Shape.rowMajor_val_three, Shape.rowMajor_val_two]
    show (R.val / 2048 * 2048 + R.val % 2048) * 768 + d.val = R.val * 768 + d.val
    omega)
theorem hid3_apply (c : Dev nD) (R : Fin 4096) (d : Fin 768) :
    hid3 m c (ix2 R d) = arg1 m c (ix3 ⟨R.val / 2048, by have := R.isLt; omega⟩ ⟨R.val % 2048, by omega⟩ d) := by
  rw [hid3_eq]
  exact shapeCast_apply _ _ _ _ (by
    rw [Shape.rowMajor_val_three, Shape.rowMajor_val_two]
    show (R.val / 2048 * 2048 + R.val % 2048) * 768 + d.val = R.val * 768 + d.val
    omega)
theorem tgt1_apply (c : Dev nD) (R : Fin 4096) :
    tgt1 m c (ix1 R) = arg3 m c (ix2 ⟨R.val / 2048, by have := R.isLt; omega⟩ ⟨R.val % 2048, by omega⟩) := by
  rw [tgt1_eq]
  exact shapeCast_apply _ _ _ _ (by
    rw [Shape.rowMajor_val_two, Shape.rowMajor_val_one]
    show R.val / 2048 * 2048 + R.val % 2048 = R.val
    omega)
theorem tgtC_apply (c : Dev nD) (R : Fin 4096) (u : Fin 1) :
    tgtC m c (ix2 R u) = arg3 m c (ix2 ⟨R.val / 2048, by have := R.isLt; omega⟩ ⟨R.val % 2048, by omega⟩) := by
  rw [tgtC_eq]
  refine (shapeCast_apply _ _ _ (ix1 R) (by
    rw [Shape.rowMajor_val_one, Shape.rowMajor_val_two]
    show R.val = R.val * 1 + u.val
    have := u.isLt
    omega)).trans ?_
  exact tgt1_apply m c R

/-! ## The blocks in terms of the program's arguments -/

/-- Row `r` of the first hidden block at point `t` is position `r` of batch `t / 99` of the first argument. -/
theorem blk0_arg (c : Dev nD) (t : Fin cfg0.N) (r : Fin 2048) (d : Fin 768) :
    blk0 m c t (ix2 r d) = arg0 m c (ix3 ⟨t.val / 99, by have := lt198 t; omega⟩ r d) := by
  rw [blk0_apply, hid2_apply]
  refine congrArg (arg0 m c) (funext fun a => Fin.ext ?_)
  have hr := r.isLt
  match a with
  | ⟨0, _⟩ => show (2048 * (t.val / 99) + r.val) / 2048 = t.val / 99; omega
  | ⟨1, _⟩ => show (2048 * (t.val / 99) + r.val) % 2048 = r.val; omega
  | ⟨2, _⟩ => rfl
/-- The same for the second hidden block and the second argument. -/
theorem blk1_arg (c : Dev nD) (t : Fin cfg0.N) (r : Fin 2048) (d : Fin 768) :
    blk1 m c t (ix2 r d) = arg1 m c (ix3 ⟨t.val / 99, by have := lt198 t; omega⟩ r d) := by
  rw [blk1_apply, hid3_apply]
  refine congrArg (arg1 m c) (funext fun a => Fin.ext ?_)
  have hr := r.isLt
  match a with
  | ⟨0, _⟩ => show (2048 * (t.val / 99) + r.val) / 2048 = t.val / 99; omega
  | ⟨1, _⟩ => show (2048 * (t.val / 99) + r.val) % 2048 = r.val; omega
  | ⟨2, _⟩ => rfl
/-- Row `r` of the targets block at point `t` is position `r` of batch `t / 99` of the targets argument. -/
theorem blk3_arg (c : Dev nD) (t : Fin cfg0.N) (r : Fin 2048) (u : Fin 1) :
    blk3 m c t (ix2 r u) = arg3 m c (ix2 ⟨t.val / 99, by have := lt198 t; omega⟩ r) := by
  rw [blk3_apply, tgtC_apply]
  refine congrArg (arg3 m c) (funext fun a => Fin.ext ?_)
  have hr := r.isLt
  match a with
  | ⟨0, _⟩ => show (2048 * (t.val / 99) + r.val) / 2048 = t.val / 99; omega
  | ⟨1, _⟩ => show (2048 * (t.val / 99) + r.val) % 2048 = r.val; omega
/-- A row of the filled vocabulary block that falls inside the matrix is the matrix argument's row. -/
theorem fill2_in_arg (c : Dev nD) (t : Fin cfg0.N) (z : S512x768.Idx → Elt F .f32) (j : Fin 512) (d : Fin 768)
    (h : 512 * (t.val % 99) + j.val < 50257) :
    win0_2.fill (grid0.coords t) z (iblk m c 2 t) (ix2 j d) = arg2 m c (ix2 ⟨512 * (t.val % 99) + j.val, h⟩ d) := by
  rw [fill2_in m c t z j d h, wArr_eq]

end Cert.KernelIdeal.Blocks

end
-- ==== Proof.CosI.lean ====
/- The cosine block read row by row at the exact instance.

   At the first vocabulary tile the kernel stores, for its 2048 rows, the column
       h2.h3 / (max (sqrt (h2.h2)) eps * max (sqrt (h3.h3)) eps),
   each inner product a sum over the 768 lanes of the row. When both hidden tiles hold reals, every step stays inside the
   reals: a sum of squares is non-negative, so its square root is the real one; each floored norm is at least eps > 0, so
   the divisor is a nonzero real; and division by a nonzero real is the real quotient. Entry (r, 0) of the stored column
   is therefore the real number the specification calls the cosine of row r. -/
import proofs.«419146_j12747462935019_2_alg».proof.Proof.KStep
import proofs.«419146_j12747462935019_2_alg».proof.Proof.Consts
import Idealize.ShloMosaic.Lib.ValueIdx
import Idealize.ShloMosaic.Lib.Pipeline.Value
import Idealize.ShloMosaic.PureOps.Ideal.Laws

set_option maxRecDepth 16384

noncomputable section

namespace Cert.KernelIdeal.CosI

open Idealize.ShloMosaic Idealize.ShloMosaic.ValueIdx Cert.KernelIdeal Cert.KernelIdeal.Gen
open scoped BigOperators

/-! ## Reals inside the extended reals -/

/-- A finite sum of reals, read in the extended reals, is the sum of the terms read there. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The inclusion of the reals is monotone, so it carries a maximum to the maximum. -/
theorem coe_max (a b : ℝ) : ((max a b : ℝ) : EReal) = max (a : EReal) (b : EReal) :=
  EReal.coe_strictMono.monotone.map_max

/-! ## The layout steps at a row -/

/-- The column view of a length-2048 vector: entry (r, 0) of the [2048, 1] view is entry r. -/
theorem col_apply {α : Type} (v : S2048.Idx → α) (h : S2048.ShapeCasts S2048x1) (r : Fin 2048) :
    shapeCast S2048x1 v h (ix2 r (0 : Fin 1)) = v (ix1 r) := by
  refine shapeCast_apply v h _ _ ?_
  rw [Shape.rowMajor_val_one, Shape.rowMajor_val_two]
  simp

/-- The sum over the 768 lanes of row r. -/
theorem lane_sum (v : FVec Ideal S2048x768 .f32) (hφ : FKind.Formats .f32)
    (hacc : (0x00000000#32 : BitVec 32) = FKind.add.neutral .f32 hφ) (r : Fin 2048) :
    multiReduction (F := Ideal) .add [1] S2048 v 0x00000000#32 reduces_S2048x768_S2048 hφ hacc (ix1 r)
      = ∑ d : Fin 768, v (ix2 r d) := by
  refine (Ideal.multiReduction_add_single v _ reduces_S2048x768_S2048 hφ hacc (ix1 r)).trans ?_
  refine Finset.sum_congr rfl fun d _ => congrArg v ?_
  funext a
  match a with
  | ⟨0, _⟩ => rfl
  | ⟨1, _⟩ => rfl

/-- A square root at an index is the square root of the entry. -/
theorem sqrt_apply {s : Shape} {φ : FTy} (v : FVec Ideal s φ) (i : s.Idx) : sqrt v i = Ideal.sqrt (v i) := rfl

/-- The lane sum of a product of two tiles whose entries are reals is the real sum of products, as a column entry. -/
theorem dot_col (a b : Vec Ideal S2048x768 .f32) (xa xb : Fin 2048 → Fin 768 → ℝ)
    (ha : ∀ r d, a (ix2 r d) = ((xa r d : ℝ) : EReal)) (hb : ∀ r d, b (ix2 r d) = ((xb r d : ℝ) : EReal))
    (hφ : FKind.Formats .f32) (hacc : (0x00000000#32 : BitVec 32) = FKind.add.neutral .f32 hφ) (r : Fin 2048) :
    shapeCast S2048x1 (multiReduction (F := Ideal) .add [1] S2048 (mulf a b) 0x00000000#32 reduces_S2048x768_S2048 hφ hacc)
        shapeCasts_S2048_S2048x1 (ix2 r (0 : Fin 1))
      = ((∑ d, xa r d * xb r d : ℝ) : EReal) := by
  rw [col_apply, lane_sum, coe_sum]
  refine Finset.sum_congr rfl fun d _ => ?_
  rw [mulf_apply, ha, hb, EReal.coe_mul]

/-! ## The arithmetic of one row -/

/-- With both sums of squares non-negative the square roots are real, each floored norm is at least eps > 0, so the
    divisor is a nonzero real and the quotient is the real quotient. -/
theorem cos_scalar (D S2 S3 : ℝ) (h2 : 0 ≤ S2) (h3 : 0 ≤ S3) :
    Ideal.div (D : EReal)
        (max (Ideal.sqrt (S2 : EReal)) ((Cert.Spec.eps : ℝ) : EReal) * max (Ideal.sqrt (S3 : EReal)) ((Cert.Spec.eps : ℝ) : EReal))
      = ((D / (max (Real.sqrt S2) Cert.Spec.eps * max (Real.sqrt S3) Cert.Spec.eps) : ℝ) : EReal) := by
  have e2 : Ideal.sqrt (S2 : EReal) = ((Real.sqrt S2 : ℝ) : EReal) := by rw [Ideal.sqrt_coe, if_neg (not_lt.mpr h2)]
  have e3 : Ideal.sqrt (S3 : EReal) = ((Real.sqrt S3 : ℝ) : EReal) := by rw [Ideal.sqrt_coe, if_neg (not_lt.mpr h3)]
  have hpos : 0 < max (Real.sqrt S2) Cert.Spec.eps * max (Real.sqrt S3) Cert.Spec.eps :=
    mul_pos (lt_max_of_lt_right Cert.Consts.eps_pos) (lt_max_of_lt_right Cert.Consts.eps_pos)
  rw [e2, e3, ← coe_max, ← coe_max, ← EReal.coe_mul, Ideal.div_coe hpos.ne', ← EReal.coe_mul, mul_one_div]

/-! ## The cosine column at a row -/

/-- The column of lane sums of a tile: entry (r, 0) is the sum of row r over its 768 lanes. -/
def rowSum (v : FVec Ideal S2048x768 .f32) : FVec Ideal S2048x1 .f32 :=
  shapeCast S2048x1 (multiReduction (F := Ideal) .add [1] S2048 v 0x00000000#32 reduces_S2048x768_S2048 (.inl rfl) rfl)
    shapeCasts_S2048_S2048x1

/-- For two tiles of reals, the lane-sum column of their product holds the real sums of products. -/
theorem rowSum_mul (a b : Vec Ideal S2048x768 .f32) (xa xb : Fin 2048 → Fin 768 → ℝ)
    (ha : ∀ r d, a (ix2 r d) = ((xa r d : ℝ) : EReal)) (hb : ∀ r d, b (ix2 r d) = ((xb r d : ℝ) : EReal)) (r : Fin 2048) :
    rowSum (mulf a b) (ix2 r (0 : Fin 1)) = ((∑ d, xa r d * xb r d : ℝ) : EReal) :=
  dot_col a b xa xb ha hb (.inl rfl) rfl r

/-- The cosine block over the lane-sum columns: the identity casts of the two tiles drop out, and what is left is
    h2.h3 / (max (sqrt |h2|^2) eps * max (sqrt |h3|^2) eps), column by column. -/
theorem cosBlk_eq (h2 h3 : Vec Ideal S2048x768 .f32) :
    KStep.cosBlk h2 h3
      = divf (rowSum (mulf h2 h3))
          (mulf (maximumf (sqrt (rowSum (mulf h2 h2))) (broadcast S2048x1 (Ideal.ofBits .f32 0x322BCC77#32)))
                (maximumf (sqrt (rowSum (mulf h3 h3))) (broadcast S2048x1 (Ideal.ofBits .f32 0x322BCC77#32)))) := by
  unfold KStep.cosBlk k0_pay15 k0_pay14 k0_pay13 k0_pay12
  simp only [shapeCast_self]
  rfl

/-- Entry (r, 0) of the cosine block, for tiles of reals: the inner product of the two rows over the product of their
    norms, each norm floored at eps. -/
theorem cos_row (h2 h3 : Vec Ideal S2048x768 .f32) (x2 x3 : Fin 2048 → Fin 768 → ℝ)
    (hx2 : ∀ r d, h2 (ValueIdx.ix2 r d) = ((x2 r d : ℝ) : EReal)) (hx3 : ∀ r d, h3 (ValueIdx.ix2 r d) = ((x3 r d : ℝ) : EReal))
    (r : Fin 2048) :
    KStep.cosBlk h2 h3 (ValueIdx.ix2 r 0)
      = (((∑ d, x2 r d * x3 r d) / (max (Real.sqrt (∑ d, x2 r d * x2 r d)) Cert.Spec.eps * max (Real.sqrt (∑ d, x3 r d * x3 r d)) Cert.Spec.eps) : ℝ) : EReal) := by
  rw [cosBlk_eq, divf_apply, mulf_apply, maximumf_apply, maximumf_apply, sqrt_apply, sqrt_apply, broadcast_apply,
    Cert.Consts.eps_coe, rowSum_mul h2 h3 x2 x3 hx2 hx3, rowSum_mul h2 h2 x2 x2 hx2 hx2, rowSum_mul h3 h3 x3 x3 hx3 hx3]
  exact cos_scalar _ _ _ (Finset.sum_nonneg fun d _ => mul_self_nonneg _) (Finset.sum_nonneg fun d _ => mul_self_nonneg _)

end Cert.KernelIdeal.CosI

end
-- ==== Proof.KHyps.lean ====
/- From the decoded precondition to what the row-by-row lemmas ask of a grid point's blocks.

   The precondition says the four argument arrays are images of real tables: two tables of 4096 hidden rows of width 768
   (row 2048 b + s at batch b, position s), the 50257 vocabulary rows, and 4096 target words, each the ignore word or the
   index of a vocabulary row. A grid point t works on row tile a = t / 99 and vocabulary tile k = t % 99. Its two hidden
   blocks then hold rows 2048 a + r of the two tables, its targets block the target words of those rows, and its vocabulary
   tile rows 512 k + j of the vocabulary table wherever that row exists (the last tile of a sweep has only 81 such rows).
   With these the per-row sums over the width are the specification's logits and cosine of row 2048 a + r. -/
import proofs.«419146_j12747462935019_2_alg».proof.Proof.Blocks
import proofs.«419146_j12747462935019_2_alg».proof.Proof.RunI
import proofs.«419146_j12747462935019_2_alg».proof.Proof.RowSpec
import proofs.«419146_j12747462935019_2_alg».proof.Proof.CosI
import proofs.«419146_j12747462935019_2_alg».proof.Proof.PreDecode

set_option maxRecDepth 16384

noncomputable section

namespace Cert.KernelIdeal.KHyps

open Cert.KernelIdeal Cert.KernelIdeal.Gen Cert.KernelIdeal.KStep
open Idealize.ShloMosaic Idealize.ShloMosaic.TcCoe Idealize.ShloMosaic.ValueIdx
open Idealize.SL Idealize.SL.Sem

variable (m : (ℓ : Loc nD τ sig) → Buf (Elt Ideal) ℓ) (c : Dev nD)
variable (x2 x3 : Fin 4096 → Fin 768 → ℝ) (W : Fin 50257 → Fin 768 → ℝ) (t' : Fin 4096 → BitVec 32)

/-! ## The decoded precondition -/

/-- The four argument arrays on device `c` are the images of real tables `x2`, `x3` (4096 hidden rows each, row
    `2048 * b + s` at batch `b`, position `s`), `W` (the vocabulary rows) and of a table `t'` of target words, each of
    which is the ignore word or reads below 50257. -/
def Decoded : Prop :=
  (∀ (b : Fin 2) (s : Fin 2048) (d : Fin 768),
      m ((c.tc : Thread nD τ).loc main_arg0) (ix3 b s d) = ((x2 ⟨2048 * b.val + s.val, by omega⟩ d : ℝ) : EReal))
  ∧ (∀ (b : Fin 2) (s : Fin 2048) (d : Fin 768),
      m ((c.tc : Thread nD τ).loc main_arg1) (ix3 b s d) = ((x3 ⟨2048 * b.val + s.val, by omega⟩ d : ℝ) : EReal))
  ∧ (∀ (v : Fin 50257) (d : Fin 768), m ((c.tc : Thread nD τ).loc main_arg2) (ix2 v d) = ((W v d : ℝ) : EReal))
  ∧ (∀ (b : Fin 2) (s : Fin 2048), m ((c.tc : Thread nD τ).loc main_arg3) (ix2 b s) = t' ⟨2048 * b.val + s.val, by omega⟩)
  ∧ (∀ r, t' r = Cert.Spec.ignore ∨ (t' r).toNat < 50257)

/-- The precondition gives such tables. -/
theorem decoded_of_pre (h : Cert.Pre_KernelIdeal m) : ∃ x2 x3 W t', Decoded m c x2 x3 W t' :=
  Cert.PreDecode.of_pre m h c

/-! ## Rows -/

/-- Every one of the 4096 rows is a row of a row tile. -/
theorem row_surj (R : Fin 4096) :
    RowSpec.row ⟨R.val / 2048, by have := R.isLt; omega⟩ ⟨R.val % 2048, Nat.mod_lt _ (by decide)⟩ = R :=
  Fin.ext (by show 2048 * (R.val / 2048) + R.val % 2048 = R.val; omega)

/-- A point's vocabulary coordinate is its position in its sweep. -/
theorem hi_tile (t : Fin cfg0.N) (k : ℕ) (hk : t.val % 99 = k) : ((grid0.coords t) 1).val = k :=
  (Blocks.coords_val t).2.trans hk

variable {m c x2 x3 W t'} (H : Decoded m c x2 x3 W t')
include H

/-! ## The blocks of a point hold the tables' rows -/

/-- The first hidden block at a point of row tile `a` holds rows `2048 * a ..` of the first table. -/
theorem hx2_tile (t : Fin cfg0.N) (a : Fin 2) (ha : t.val / 99 = a.val) (r : Fin 2048) (d : Fin 768) :
    RunI.h2blk m c t (ix2 r d) = ((x2 (RowSpec.row a r) d : ℝ) : EReal) := by
  have e : (⟨t.val / 99, by have := Blocks.lt198 t; omega⟩ : Fin 2) = a := Fin.ext ha
  refine (Blocks.blk0_arg (F := Ideal) m c t r d).trans ?_
  rw [e]
  exact H.1 a r d
/-- The second hidden block likewise, of the second table. -/
theorem hx3_tile (t : Fin cfg0.N) (a : Fin 2) (ha : t.val / 99 = a.val) (r : Fin 2048) (d : Fin 768) :
    RunI.h3blk m c t (ix2 r d) = ((x3 (RowSpec.row a r) d : ℝ) : EReal) := by
  have e : (⟨t.val / 99, by have := Blocks.lt198 t; omega⟩ : Fin 2) = a := Fin.ext ha
  refine (Blocks.blk1_arg (F := Ideal) m c t r d).trans ?_
  rw [e]
  exact H.2.1 a r d
/-- The targets block at a point of row tile `a` holds the target words of rows `2048 * a ..`. -/
theorem htg_tile (t : Fin cfg0.N) (a : Fin 2) (ha : t.val / 99 = a.val) (r : Fin 2048) :
    RunI.tgblk m c t (ix2 r 0) = t' (RowSpec.row a r) := by
  have e : (⟨t.val / 99, by have := Blocks.lt198 t; omega⟩ : Fin 2) = a := Fin.ext ha
  refine (Blocks.blk3_arg (F := Ideal) m c t r 0).trans ?_
  rw [e]
  exact H.2.2.2.1 a r
/-- The vocabulary tile at the point at position `k` of a sweep holds, on its rows inside the matrix, rows `512 * k ..`
    of the vocabulary table. -/
theorem hW_tile (t : Fin cfg0.N) (k : ℕ) (hk : t.val % 99 = k) (j : Fin 512) (d : Fin 768) (h : 512 * k + j.val < 50257) :
    RunI.wblk m c t (ix2 j d) = ((W ⟨512 * k + j.val, h⟩ d : ℝ) : EReal) := by
  subst hk
  unfold RunI.wblk
  refine (Blocks.fill2_in_arg (F := Ideal) m c t (fun _ => (0 : EReal)) j d h).trans ?_
  exact H.2.2.1 _ d
/-- The flattened targets the host lines after the region read are the target table. -/
theorem hT (R : Fin 4096) : Gen.V m c main_v2 (ix1 R) = t' R := by
  refine (Blocks.tgt1_apply (F := Ideal) m c R).trans ?_
  refine (H.2.2.2.1 _ _).trans (congrArg t' (Fin.ext ?_))
  show 2048 * (R.val / 2048) + R.val % 2048 = R.val
  omega
/-- Each target word is the ignore word or names a vocabulary entry. -/
theorem htgt (R : Fin 4096) : t' R = Cert.Spec.ignore ∨ (t' R).toNat < 50257 := H.2.2.2.2 R

omit H

/-! ## The specification's terms over a row tile's rows -/

/-- A row's logits, spelt as sums over the width, are the specification's. -/
theorem logit_spec (x : Fin 4096 → Fin 768 → ℝ) (W : Fin 50257 → Fin 768 → ℝ) (a : Fin 2) (r : Fin 2048) :
    (fun v => ∑ d, x (RowSpec.row a r) d * W v d) = fun v => Cert.Spec.logit x W (RowSpec.row a r) v := rfl

/-- The inner product of the two rows over the product of their floored norms is the specification's cosine. -/
theorem cos_spec (x2 x3 : Fin 4096 → Fin 768 → ℝ) (a : Fin 2) (r : Fin 2048) :
    (((∑ d, x2 (RowSpec.row a r) d * x3 (RowSpec.row a r) d)
        / (max (Real.sqrt (∑ d, x2 (RowSpec.row a r) d * x2 (RowSpec.row a r) d)) Cert.Spec.eps
            * max (Real.sqrt (∑ d, x3 (RowSpec.row a r) d * x3 (RowSpec.row a r) d)) Cert.Spec.eps) : ℝ) : EReal)
      = ((Cert.Spec.cos x2 x3 (RowSpec.row a r) : ℝ) : EReal) := rfl

include H in
/-- The cosine column a point of row tile `a` computes from its two hidden blocks holds the specification's cosines. -/
theorem cos_tile (t : Fin cfg0.N) (a : Fin 2) (ha : t.val / 99 = a.val) (r : Fin 2048) :
    KStep.cosBlk (RunI.h2blk m c t) (RunI.h3blk m c t) (ix2 r 0) = ((Cert.Spec.cos x2 x3 (RowSpec.row a r) : ℝ) : EReal) :=
  (CosI.cos_row (RunI.h2blk m c t) (RunI.h3blk m c t) (fun r d => x2 (RowSpec.row a r) d) (fun r d => x3 (RowSpec.row a r) d)
    (hx2_tile H t a ha) (hx3_tile H t a ha) r).trans (cos_spec x2 x3 a r)

end Cert.KernelIdeal.KHyps

end
-- ==== Proof.KValue.lean ====
/- The idealized kernel program's run, with its result named as the specification's loss.

   The run leaves each of the region's three result arrays pieced together from what the last point of each row tile's
   sweep stored. For row R = 2048 a + r that is, for either pass, maximum + log(sum) - target logit of the carried columns
   after the 99 tiles of row tile a's sweep, read at row r; those columns are the online recurrence over the row's real
   logits, whose end is the row's log-sum-exp minus its logit at the target. The cosine column is what the sweep's first
   point stored: the cosine of the two hidden rows. The operations after the region turn the three columns and the
   targets into the loss. The four arguments end as they began. -/
import proofs.«419146_j12747462935019_2_alg».proof.Proof.RunI
import proofs.«419146_j12747462935019_2_alg».proof.Proof.Finals
import proofs.«419146_j12747462935019_2_alg».proof.Proof.KTail
import proofs.«419146_j12747462935019_2_alg».proof.Proof.KTailRead
import proofs.«419146_j12747462935019_2_alg».proof.Proof.KRows
import proofs.«419146_j12747462935019_2_alg».proof.Proof.KHyps

set_option maxRecDepth 16384

noncomputable section

namespace Cert.KernelIdeal.KValue

open Cert.KernelIdeal Cert.KernelIdeal.Gen Cert.KernelIdeal.KStep Cert.KernelIdeal.RunI
open Idealize.ShloMosaic Idealize.ShloMosaic.TcCoe Idealize.SL.Sem
open Idealize.ShloMosaic.Pipeline (Dat)
open Idealize.ShloMosaic.ValueIdx
open Cert.KernelIdeal.RowSpec (row)

variable (m : (ℓ : Loc nD τ sig) → Buf (Elt Ideal) ℓ) (ρ : Dev nD → PrngReg)

/-! ## Rows -/

/-- A fact about every row `2048 a + r` is a fact about every row. -/
theorem of_rows {P : Fin 4096 → Prop} (h : ∀ (a : Fin 2) (r : Fin 2048), P (row a r)) (R : Fin 4096) : P R :=
  KHyps.row_surj R ▸ h _ _

/-! ## One device: the three columns and the targets -/

section Device

variable {c : Dev nD} {x2 x3 : Fin 4096 → Fin 768 → ℝ} {W : Fin 50257 → Fin 768 → ℝ} {t' : Fin 4096 → BitVec 32}
  (H : KHyps.Decoded m c x2 x3 W t')

/-- Point `k` of row tile `a`'s sweep is at vocabulary tile `k`. -/
theorem hi_sweep (a : Fin 2) (k : ℕ) (hk : k < 99) : ((Finals.tileCoords a k) 1).val = k :=
  KHyps.hi_tile (Finals.pt a k) k (by rw [Finals.pt_mod]; exact Nat.mod_eq_of_lt hk)

include H in
/-- The vocabulary tiles of row tile `a`'s sweep hold the rows of `W`, tile by tile. -/
theorem hW_sweep (a : Fin 2) (k : ℕ) (j : Fin 512) (d : Fin 768) (h : 512 * k + j.val < 50257) :
    Finals.tileW m c a k (ix2 j d) = ((W ⟨512 * k + j.val, h⟩ d : ℝ) : EReal) :=
  KHyps.hW_tile H (Finals.pt a k) k (by rw [Finals.pt_mod]; exact Nat.mod_eq_of_lt (by omega)) j d h

include H in
/-- Pass 2 at row `2048 a + r`: what the run leaves in the first loss array. -/
theorem n2_at (a : Fin 2) (r : Fin 2048) :
    (dats m 0 c).arrAt 4 cfg0.N (ix2 (row a r) 0)
      = ((Cert.Spec.lse x2 W (row a r) - Cert.Spec.tlogit x2 W t' (row a r) : ℝ) : EReal) :=
  (Finals.final4_row m c a r reset).trans
    (KRows.nll2_spec (Finals.tileCoords a) (fun k hk => hi_sweep a k hk) (h2blk m c (Finals.pt a 0)) (h3blk m c (Finals.pt a 0))
      (Finals.tileW m c a) (tgblk m c (Finals.pt a 0)) reset W (fun k j d h => hW_sweep m H a k j d h) x2 t' a
      (KHyps.hx2_tile H (Finals.pt a 0) a (Finals.pt_div a 0)) (KHyps.htg_tile H (Finals.pt a 0) a (Finals.pt_div a 0)) r
      (KHyps.htgt H (row a r)))

include H in
/-- Pass 3 at row `2048 a + r`. -/
theorem n3_at (a : Fin 2) (r : Fin 2048) :
    (dats m 0 c).arrAt 5 cfg0.N (ix2 (row a r) 0)
      = ((Cert.Spec.lse x3 W (row a r) - Cert.Spec.tlogit x3 W t' (row a r) : ℝ) : EReal) :=
  (Finals.final5_row m c a r reset).trans
    (KRows.nll3_spec (Finals.tileCoords a) (fun k hk => hi_sweep a k hk) (h2blk m c (Finals.pt a 0)) (h3blk m c (Finals.pt a 0))
      (Finals.tileW m c a) (tgblk m c (Finals.pt a 0)) reset W (fun k j d h => hW_sweep m H a k j d h) x3 t' a
      (KHyps.hx3_tile H (Finals.pt a 0) a (Finals.pt_div a 0)) (KHyps.htg_tile H (Finals.pt a 0) a (Finals.pt_div a 0)) r
      (KHyps.htgt H (row a r)))

include H in
/-- The cosine at row `2048 a + r`. -/
theorem cos_at (a : Fin 2) (r : Fin 2048) :
    (dats m 0 c).arrAt 6 cfg0.N (ix2 (row a r) 0) = ((Cert.Spec.cos x2 x3 (row a r) : ℝ) : EReal) :=
  (Finals.final6_row m c a r).trans (KHyps.cos_tile H (Finals.pt a 0) a (Finals.pt_div a 0) r)

include H in
/-- The program's result on device `c` is the specification's loss of the device's tables. -/
theorem v23_eq :
    Pipeline.afterTail₀ cfgs (dats m) 0 (Gen.V0 m) [Gen.hostOps1, Gen.hostOps1_1, Gen.hostOps1_2, Gen.hostOps1_3, Gen.hostOps1_4] c main_v23
      = fun _ => ((Cert.Spec.loss x2 x3 W t' : ℝ) : EReal) := by
  rw [KTail.afterTail_v23 m (dats m) c]
  exact KTail.tail_eq_loss x2 x3 W t' _ _ _ _
    (of_rows (P := fun R => (dats m 0 c).arrAt 4 cfg0.N (ix2 R 0)
      = ((Cert.Spec.lse x2 W R - Cert.Spec.tlogit x2 W t' R : ℝ) : EReal)) (n2_at m H))
    (of_rows (P := fun R => (dats m 0 c).arrAt 5 cfg0.N (ix2 R 0)
      = ((Cert.Spec.lse x3 W R - Cert.Spec.tlogit x3 W t' R : ℝ) : EReal)) (n3_at m H))
    (of_rows (P := fun R => (dats m 0 c).arrAt 6 cfg0.N (ix2 R 0) = ((Cert.Spec.cos x2 x3 R : ℝ) : EReal)) (cos_at m H))
    (KHyps.hT H)

end Device

/-! ## The run -/

/-- At the compiled mesh, from any memory with zero counters whose arguments are, on every device, the images of the
    real tables `x2`, `x3`, `W` and the word table `t` (rows flattened as R = 2048 b + s), every target the ignore
    word or a vocabulary entry: every weakly fair execution of the idealized kernel program terminates, its result on each
    device is the specification's loss of the tables, and its four arguments end as they began. -/
theorem run_loss (x2 x3 : Fin 4096 → Fin 768 → ℝ) (W : Fin 50257 → Fin 768 → ℝ) (t : Fin 4096 → BitVec 32)
    (hx2 : ∀ (c : Dev nD) (b : Fin 2) (s : Fin 2048) (d : Fin 768),
      m ((c.tc : Thread nD τ).loc main_arg0) (ix3 b s d) = ((x2 ⟨2048 * b.val + s.val, by omega⟩ d : ℝ) : EReal))
    (hx3 : ∀ (c : Dev nD) (b : Fin 2) (s : Fin 2048) (d : Fin 768),
      m ((c.tc : Thread nD τ).loc main_arg1) (ix3 b s d) = ((x3 ⟨2048 * b.val + s.val, by omega⟩ d : ℝ) : EReal))
    (hW : ∀ (c : Dev nD) (v : Fin 50257) (d : Fin 768),
      m ((c.tc : Thread nD τ).loc main_arg2) (ix2 v d) = ((W v d : ℝ) : EReal))
    (ht : ∀ (c : Dev nD) (b : Fin 2) (s : Fin 2048),
      m ((c.tc : Thread nD τ).loc main_arg3) (ix2 b s) = t ⟨2048 * b.val + s.val, by omega⟩)
    (hrange : ∀ r, t r = Cert.Spec.ignore ∨ (t r).toNat < 50257) :
    θ_run defs (onTc (τ := τ) (main (F := Ideal))) ⟨m, fun _ => 0, ρ⟩ (fun r => ∀ c : Dev nD,
      r.2.mem ((c.tc : Thread nD τ).loc main_v23) = (fun _ => ((Cert.Spec.loss x2 x3 W t : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr c =>
    ⟨((hr c).2 main_v23 (Pipeline.mem_restRefs_of main_v23 (by decide) (by decide))).trans
        (v23_eq m (c := c) ⟨hx2 c, hx3 c, hW c, ht c, hrange⟩),
      ((hr c).2 main_arg0 (Pipeline.mem_restRefs_of main_arg0 (by decide) (by decide))).trans (Gen.W_main_arg0 m (dats m) c),
      ((hr c).2 main_arg1 (Pipeline.mem_restRefs_of main_arg1 (by decide) (by decide))).trans (Gen.W_main_arg1 m (dats m) c),
      ((hr c).1 2).trans (((dats m 0 c).arrAt_in 2 rfl _).trans ((A_eq m c 2).trans (Gen.V_main_arg2 m c))),
      ((hr c).2 main_arg3 (Pipeline.mem_restRefs_of main_arg3 (by decide) (by decide))).trans (Gen.W_main_arg3 m (dats m) c)⟩)
    (run_main m ρ)

end Cert.KernelIdeal.KValue

end
-- ==== Proof.AuxMath.lean ====
/- Lemmas on reals, extended reals and 32-bit words for reading the two programs' host operations.

   They are about plain mathematics only: the maximum of finitely many reals seen in the extended reals, the shift law of
   log-softmax, sums and quotients of embedded reals, and counting with words: a sum of 0/1 words below the word size does
   not wrap, so it is the number of ones, as is the real sum of the same bits. -/
import Idealize.ShloMosaic.PureOps.Ideal.Laws

noncomputable section

namespace Cert.AuxMath

open Idealize.ShloMosaic

/-! ### Embedded reals: sums, maxima, quotients -/

/-- The embedding of the reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- A sum of selected embedded reals (0 where not selected) is the embedded sum of the selected reals. -/
theorem coe_sum_ite {ι : Type*} (s : Finset ι) (p : ι → Prop) [DecidablePred p] (f : ι → ℝ) :
    ∑ i ∈ s, (if p i then ((f i : ℝ) : EReal) else 0) = ((∑ i ∈ s, (if p i then f i else 0) : ℝ) : EReal) := by
  rw [coe_sum]
  refine Finset.sum_congr rfl fun i _ => ?_
  by_cases h : p i
  · rw [if_pos h, if_pos h]
  · rw [if_neg h, if_neg h, EReal.coe_zero]

/-- The embedding of the reals commutes with the maximum of two. -/
theorem coe_max (x y : ℝ) : ((max x y : ℝ) : EReal) = max (x : EReal) (y : EReal) :=
  EReal.coe_strictMono.monotone.map_max

/-- -inf is neutral for the maximum. -/
theorem bot_max (x : EReal) : max ⊥ x = x := max_eq_right bot_le

/-- The quotient of two embedded reals, the divisor not 0. -/
theorem div_coe_coe (x y : ℝ) (hy : y ≠ 0) : Ideal.div (x : EReal) (y : EReal) = ((x / y : ℝ) : EReal) := by
  rw [Ideal.div_coe hy, ← EReal.coe_mul]
  congr 1
  ring

/-! ### The maximum of finitely many reals, folded from -inf -/

/-- Folding `max` from -inf over embedded reals gives the embedded greatest of them. -/
theorem fold_max_coe {ι : Type*} (s : Finset ι) (H : s.Nonempty) (a : ι → ℝ) :
    s.fold max ⊥ (fun v => ((a v : ℝ) : EReal)) = ((s.sup' H a : ℝ) : EReal) := by
  apply le_antisymm
  · rw [Finset.fold_max_le]
    exact ⟨bot_le, fun v hv => EReal.coe_le_coe_iff.mpr (Finset.le_sup' a hv)⟩
  · obtain ⟨i, hi, e⟩ := Finset.exists_mem_eq_sup' H a
    rw [Finset.le_fold_max]
    exact Or.inr ⟨i, hi, by rw [e]⟩

/-- The same over all of `Fin n`, `0 < n`. -/
theorem fold_max_coe_fin {n : ℕ} (hn : 0 < n) (a : Fin n → ℝ) :
    (Finset.univ : Finset (Fin n)).fold max ⊥ (fun v => ((a v : ℝ) : EReal))
      = ((Finset.univ.sup' ⟨⟨0, hn⟩, Finset.mem_univ _⟩ a : ℝ) : EReal) :=
  fold_max_coe _ _ a

/-- The same with the ideal instance's float maximum as the folded operation. -/
theorem fold_maximumf_coe {φ : FTy} {ι : Type*} (s : Finset ι) (H : s.Nonempty) (a : ι → ℝ) :
    s.fold (FloatOps.maximumf (F := Ideal) (φ := φ)) (⊥ : EReal) (fun v => ((a v : ℝ) : EReal))
      = ((s.sup' H a : ℝ) : EReal) :=
  fold_max_coe s H a

/-- The fold is some real, whatever it is. -/
theorem fold_max_coe_exists {ι : Type*} (s : Finset ι) (H : s.Nonempty) (a : ι → ℝ) :
    ∃ M : ℝ, s.fold max ⊥ (fun v => ((a v : ℝ) : EReal)) = (M : EReal) :=
  ⟨_, fold_max_coe s H a⟩

/-! ### Log-softmax does not depend on the shift -/

/-- A nonempty sum of exponentials is positive. -/
theorem sum_exp_pos {ι : Type*} [Fintype ι] [Nonempty ι] (a : ι → ℝ) : 0 < ∑ u, Real.exp (a u) :=
  Finset.sum_pos (fun _ _ => Real.exp_pos _) Finset.univ_nonempty

/-- Taking the common factor `exp M` out: `M + log ∑ exp (a u - M) = log ∑ exp (a u)`. -/
theorem lse_shift {ι : Type*} [Fintype ι] [Nonempty ι] (a : ι → ℝ) (M : ℝ) :
    M + Real.log (∑ u, Real.exp (a u - M)) = Real.log (∑ u, Real.exp (a u)) := by
  have hL : 0 < ∑ u, Real.exp (a u - M) := sum_exp_pos fun u => a u - M
  have hS : ∑ u, Real.exp (a u) = Real.exp M * ∑ u, Real.exp (a u - M) := by
    rw [Finset.mul_sum]
    exact Finset.sum_congr rfl fun u _ => by rw [← Real.exp_add]; congr 1; ring
  rw [hS, Real.log_mul (Real.exp_ne_zero _) hL.ne', Real.log_exp]

/-- The shift law: subtracting any real `M` first changes nothing. -/
theorem logsoftmax_shift {ι : Type*} [Fintype ι] [Nonempty ι] (a : ι → ℝ) (M : ℝ) (v : ι) :
    a v - M - Real.log (∑ u, Real.exp (a u - M)) = a v - Real.log (∑ u, Real.exp (a u)) := by
  rw [← lse_shift a M]
  ring

/-- The same computed in the extended reals, as the operations compute it: subtract the embedded `M`, exponentiate, sum,
    take the logarithm, subtract. -/
theorem logsoftmax_ereal {ι : Type*} [Fintype ι] [Nonempty ι] (a : ι → ℝ) (M : ℝ) (v : ι) :
    (((a v : ℝ) : EReal) - (M : EReal)) - Ideal.log (∑ u, Ideal.exp (((a u : ℝ) : EReal) - (M : EReal)))
      = ((a v - Real.log (∑ u, Real.exp (a u)) : ℝ) : EReal) := by
  have hL : 0 < ∑ u, Real.exp (a u - M) := sum_exp_pos fun u => a u - M
  have hsum : ∑ u, Ideal.exp (((a u : ℝ) : EReal) - (M : EReal)) = ((∑ u, Real.exp (a u - M) : ℝ) : EReal) := by
    rw [coe_sum]
    exact Finset.sum_congr rfl fun u _ => by rw [← EReal.coe_sub, Ideal.exp_coe]
  rw [hsum, Ideal.log_coe, if_neg (not_le.mpr hL), ← EReal.coe_sub, ← EReal.coe_sub, logsoftmax_shift]

/-! ### Counting with words -/

/-- A one-bit word is 0 or 1. -/
theorem i1_cases (c : BitVec 1) : c = 0#1 ∨ c = 1#1 := by
  have h := c.isLt
  have h' : c.toNat = 0 ∨ c.toNat = 1 := by omega
  rcases h' with h0 | h1
  · exact Or.inl (BitVec.eq_of_toNat_eq h0)
  · exact Or.inr (BitVec.eq_of_toNat_eq h1)

/-- Zero-extending a bit to a word gives the word 1 exactly when the bit is 1. -/
theorem setWidth_i1_eq_one (c : BitVec 1) : c.setWidth 32 = 1#32 ↔ c = 1#1 := by
  rcases i1_cases c with h | h <;> rw [h] <;> decide

/-- The zero-extension of a bit is the word 0 or the word 1. -/
theorem setWidth_i1_cases (c : BitVec 1) : c.setWidth 32 = 0#32 ∨ c.setWidth 32 = 1#32 := by
  rcases i1_cases c with h | h <;> rw [h] <;> decide

/-- The number a word sum denotes is the sum of the numbers, modulo the word size. -/
theorem fold_addi_toNat_mod {ι : Type*} (s : Finset ι) (b : ι → BitVec 32) :
    (s.fold IntOp.addi 0#32 b).toNat = (∑ r ∈ s, (b r).toNat) % 2 ^ 32 := by
  classical
  induction s using Finset.induction_on with
  | empty => rfl
  | insert i s hi ih =>
    rw [Finset.fold_insert hi, Finset.sum_insert hi]
    show (b i + s.fold IntOp.addi 0#32 b).toNat = _
    rw [BitVec.toNat_add, ih, Nat.add_mod_mod]

/-- The numbers of 0/1 words add up to the number of ones. -/
theorem sum_toNat_eq_card {ι : Type*} (s : Finset ι) (b : ι → BitVec 32) (hb : ∀ r ∈ s, b r = 0#32 ∨ b r = 1#32) :
    ∑ r ∈ s, (b r).toNat = (s.filter fun r => b r = 1#32).card := by
  rw [Finset.card_filter]
  refine Finset.sum_congr rfl fun r hr => ?_
  rcases hb r hr with h | h <;> rw [h] <;> rfl

/-- A sum of fewer than `2 ^ 32` words, each 0 or 1, does not wrap: it denotes the number of ones. -/
theorem fold_addi_toNat {ι : Type*} (s : Finset ι) (b : ι → BitVec 32) (hb : ∀ r ∈ s, b r = 0#32 ∨ b r = 1#32)
    (hs : s.card < 2 ^ 32) :
    (s.fold IntOp.addi 0#32 b).toNat = (s.filter fun r => b r = 1#32).card := by
  rw [fold_addi_toNat_mod, sum_toNat_eq_card s b hb,
    Nat.mod_eq_of_lt (lt_of_le_of_lt (Finset.card_filter_le _ _) hs)]

/-- A word below `2 ^ 31` read as a signed number is its unsigned number. -/
theorem toInt_of_lt (x : BitVec 32) (h : x.toNat < 2 ^ 31) : x.toInt = (x.toNat : ℤ) :=
  BitVec.toInt_eq_toNat_of_lt (by omega)

/-- With fewer than `2 ^ 31` summands the signed reading is the number of ones too. -/
theorem fold_addi_toInt {ι : Type*} (s : Finset ι) (b : ι → BitVec 32) (hb : ∀ r ∈ s, b r = 0#32 ∨ b r = 1#32)
    (hs : s.card < 2 ^ 31) :
    (s.fold IntOp.addi 0#32 b).toInt = ((s.filter fun r => b r = 1#32).card : ℤ) := by
  have h1 := fold_addi_toNat s b hb (by omega)
  have h2 : (s.filter fun r => b r = 1#32).card ≤ s.card := Finset.card_filter_le _ _
  rw [toInt_of_lt _ (by omega), h1]

/-- The signed maximum of two words denotes the maximum of the two signed numbers. -/
theorem maxsi_toInt (x y : BitVec 32) : (IntOp.maxsi x y).toInt = max x.toInt y.toInt := by
  unfold IntOp.maxsi
  by_cases h : y.slt x = true
  · rw [if_pos h]
    exact (max_eq_left (le_of_lt (BitVec.slt_iff_toInt_lt.mp h))).symm
  · rw [if_neg h]
    exact (max_eq_right (not_lt.mp fun h' => h (BitVec.slt_iff_toInt_lt.mpr h'))).symm

/-- A count below `2 ^ 31`, raised to at least 1 as words and then converted to a real, is the real maximum of the count
    and 1. -/
theorem coe_maxsi_one (c : BitVec 32) (k : ℕ) (hk : c.toNat = k) (hlt : k < 2 ^ 31) :
    (((IntOp.maxsi c 1#32).toInt : ℝ) : EReal) = ((max (k : ℝ) 1 : ℝ) : EReal) := by
  have h1 : (1#32 : BitVec 32).toInt = 1 := by decide
  rw [maxsi_toInt, toInt_of_lt c (by omega), hk, h1]
  congr 1
  push_cast
  rfl

/-! ### Counting bits -/

/-- The numbers of bits add up to the number of ones. -/
theorem sum_i1_toNat_eq_card {ι : Type*} (s : Finset ι) (c : ι → BitVec 1) :
    ∑ r ∈ s, (c r).toNat = (s.filter fun r => c r = 1#1).card := by
  rw [Finset.card_filter]
  refine Finset.sum_congr rfl fun r _ => ?_
  rcases i1_cases (c r) with h | h <;> rw [h] <;> rfl

/-- The word sum of zero-extended bits, fewer than `2 ^ 32` of them, denotes the number of ones. -/
theorem fold_addi_extui_toNat {ι : Type*} (s : Finset ι) (c : ι → BitVec 1) (hs : s.card < 2 ^ 32) :
    (s.fold IntOp.addi 0#32 (fun r => (c r).setWidth 32)).toNat = (s.filter fun r => c r = 1#1).card := by
  rw [fold_addi_toNat s _ (fun r _ => setWidth_i1_cases (c r)) hs]
  congr 1
  exact Finset.filter_congr fun r _ => setWidth_i1_eq_one (c r)

/-- Its signed reading, with fewer than `2 ^ 31` of them. -/
theorem fold_addi_extui_toInt {ι : Type*} (s : Finset ι) (c : ι → BitVec 1) (hs : s.card < 2 ^ 31) :
    (s.fold IntOp.addi 0#32 (fun r => (c r).setWidth 32)).toInt = ((s.filter fun r => c r = 1#1).card : ℤ) := by
  have h1 := fold_addi_extui_toNat s c (by omega)
  have h2 : (s.filter fun r => c r = 1#1).card ≤ s.card := Finset.card_filter_le _ _
  rw [toInt_of_lt _ (by omega), h1]

/-- The real sum of bits converted to reals is the number of ones. -/
theorem sum_i1_real {ι : Type*} (s : Finset ι) (c : ι → BitVec 1) :
    ∑ r ∈ s, (((c r).toNat : ℝ) : EReal) = (((s.filter fun r => c r = 1#1).card : ℝ) : EReal) := by
  rw [← coe_sum, ← sum_i1_toNat_eq_card, Nat.cast_sum]

end Cert.AuxMath

end
-- ==== Proof.RefLSM.lean ====
/- The reference's logits and their log-softmax, read entry by entry at the exact instance.

   The logits are the hidden rows against the vocabulary rows: entry (r, v) of the flattened [4096, 50257] array is the
   inner product over the width 768 of hidden row r (row r mod 2048 of batch r / 2048) with vocabulary row v. Log-softmax
   subtracts the row's maximum M, exponentiates, sums the row, takes the logarithm and subtracts again. On real logits M
   is a real, every step stays real, and  (z - M) - log (sum exp (z - M)) = z - log (sum exp z)  whatever M is: the
   entry is the logit minus the row's log-sum-exp. -/
import proofs.«419146_j12747462935019_2_alg».proof.Proof.RefReadP
import proofs.«419146_j12747462935019_2_alg».proof.Proof.Spec
import proofs.«419146_j12747462935019_2_alg».proof.Proof.AuxMath
import Idealize.ShloMosaic.Lib.ValueIdx
import Idealize.ShloMosaic.PureOps.Reduce
import Idealize.ShloMosaic.PureOps.Ideal.Laws

set_option maxRecDepth 16384

noncomputable section

namespace Cert.ReferenceIdeal.RefLSM

open Cert.ReferenceIdeal Cert.ReferenceIdeal.Gen Idealize.ShloMosaic Idealize.ShloMosaic.ValueIdx
open scoped BigOperators

/-! ## The logits -/

/-- Entry (r, v) of the flattened logits: the hidden row r against vocabulary row v, a sum over the width 768. Row r of
    the flattened array is row r mod 2048 of batch r / 2048. -/
theorem logits_apply (A0 : (⟨S2x2048x768, .f32⟩ : BufTy).Contents (Elt Ideal)) (A2 : (⟨S50257x768, .f32⟩ : BufTy).Contents (Elt Ideal))
    (x : Fin 4096 → Fin 768 → ℝ) (W : Fin 50257 → Fin 768 → ℝ)
    (hx : ∀ (b : Fin 2) (s : Fin 2048) (d : Fin 768), A0 (ValueIdx.ix3 b s d) = ((x ⟨2048 * b.val + s.val, by omega⟩ d : ℝ) : EReal))
    (hW : ∀ (v : Fin 50257) (d : Fin 768), A2 (ValueIdx.ix2 v d) = ((W v d : ℝ) : EReal)) (r : Fin 4096) (v : Fin 50257) :
    Read.val_main_v1 (F := Ideal) A0 A2 (ix2 r v) = ((Cert.Spec.logit x W r v : ℝ) : EReal) := by
  have hr : r.val < 4096 := r.isLt
  have hv : v.val < 50257 := v.isLt
  rw [Read.val_main_v1_apply, Read.val_main_v0_apply]
  unfold Cert.Spec.logit
  rw [Cert.AuxMath.coe_sum]
  refine Finset.sum_congr rfl fun k _ => ?_
  have el : Read.lidx_main_v0 (Read.idx_main_v1 (ix2 r v)) k
      = ix3 (⟨r.val / 2048, by omega⟩ : Fin 2) (⟨r.val % 2048, by omega⟩ : Fin 2048) k := by
    funext a; refine Fin.ext ?_
    match a with
    | ⟨0, _⟩ => show (r.val * 50257 + v.val) / 102926336 = r.val / 2048; omega
    | ⟨1, _⟩ => show (r.val * 50257 + v.val) / 50257 % 2048 = r.val % 2048; omega
    | ⟨2, _⟩ => rfl
  have er : Read.ridx_main_v0 (Read.idx_main_v1 (ix2 r v)) k = ix2 v k := by
    funext a; refine Fin.ext ?_
    match a with
    | ⟨0, _⟩ => show (r.val * 50257 + v.val) % 50257 = v.val; omega
    | ⟨1, _⟩ => rfl
  have erow : (⟨2048 * (r.val / 2048) + r.val % 2048, by omega⟩ : Fin 4096) = r := Fin.ext (Nat.div_add_mod r.val 2048)
  rw [el, er, hx, hW, ← EReal.coe_mul]
  show ((x ⟨2048 * (r.val / 2048) + r.val % 2048, _⟩ k * W v k : ℝ) : EReal) = _
  rw [erow]

/-! ## The row maximum -/

/-- The all-ones-exponent, sign-set word with zero fraction is -inf. -/
theorem neg_inf_word : Ideal.ofBits .f32 0xFF800000#32 = (⊥ : EReal) := by
  simp [Ideal.ofBits, Ideal.ieee]

/-- The maximum over a row of reals, folded from -inf over the 50257 columns, is a real. -/
theorem rowmax_real (Z : S4096x50257.Idx → EReal) (z : Fin 4096 → Fin 50257 → ℝ)
    (hZ : ∀ r v, Z (ix2 r v) = ((z r v : ℝ) : EReal)) (r : Fin 4096) :
    ∃ M : ℝ, Host.reduce (FloatOps.maximumf (F := Ideal) (φ := .f32)) Z (constant (F := Ideal) S_ .f32 0xFF800000#32)
      reducesTo_S4096x50257_S4096_d1 h_S_ (ix1 r) = ((M : ℝ) : EReal) := by
  have hR : S4096x50257.Reduces [1] S4096 := by decide
  rw [Host.reduce_eq_fold_single _ Z _ reducesTo_S4096x50257_S4096_d1 hR h_S_ (ix1 r)]
  have hinit : (constant (F := Ideal) S_ .f32 0xFF800000#32) (Shape.Idx.first h_S_) = (⊥ : EReal) := neg_inf_word
  have hfun : (Z ∘ hR.lift (ix1 r)) = fun k : Fin 50257 => ((z r k : ℝ) : EReal) := by
    funext k
    show Z (hR.lift (ix1 r) k) = _
    rw [← hZ r k]
    congr 1
    funext a; refine Fin.ext ?_
    match a with
    | ⟨0, _⟩ => rfl
    | ⟨1, _⟩ => rfl
  rw [hinit, hfun]
  exact ⟨_, Cert.AuxMath.fold_maximumf_coe _ ⟨⟨0, by norm_num⟩, Finset.mem_univ _⟩ _⟩

/-! ## Log-softmax -/

/-- Entry (r, v) of the log-softmax of the logits: the logit minus the row's log-sum-exp. The operations subtract the row
    maximum first; that maximum is some real M, and the result does not depend on which. -/
theorem logp_apply (A0 : (⟨S2x2048x768, .f32⟩ : BufTy).Contents (Elt Ideal)) (A2 : (⟨S50257x768, .f32⟩ : BufTy).Contents (Elt Ideal))
    (x : Fin 4096 → Fin 768 → ℝ) (W : Fin 50257 → Fin 768 → ℝ)
    (hx : ∀ (b : Fin 2) (s : Fin 2048) (d : Fin 768), A0 (ValueIdx.ix3 b s d) = ((x ⟨2048 * b.val + s.val, by omega⟩ d : ℝ) : EReal))
    (hW : ∀ (v : Fin 50257) (d : Fin 768), A2 (ValueIdx.ix2 v d) = ((W v d : ℝ) : EReal)) (r : Fin 4096) (v : Fin 50257) :
    Read.val_main_v6 (F := Ideal) A0 A2 (ix2 r v) = ((Cert.Spec.logit x W r v - Cert.Spec.lse x W r : ℝ) : EReal) := by
  have hlog := logits_apply A0 A2 x W hx hW
  -- the row maximum is a real
  obtain ⟨M, hM⟩ : ∃ M : ℝ, Read.val_main_call1_v0 (F := Ideal) A0 A2 (ix1 r) = ((M : ℝ) : EReal) := by
    unfold Read.val_main_call1_v0
    exact rowmax_real (Read.val_main_v1 (F := Ideal) A0 A2) (fun r v => Cert.Spec.logit x W r v) hlog r
  -- the maximum with -inf leaves it
  have hv2 : Read.val_main_call1_v2 (F := Ideal) A0 A2 (ix1 r) = ((M : ℝ) : EReal) := by
    rw [Read.val_main_call1_v2_apply, Read.val_main_call1_v1_apply, Read.val_main_call1_cst_0_apply, Ideal.ofBits_def,
      neg_inf_word, hM, Ideal.maximumf_def]
    exact max_eq_right bot_le
  -- spread along the row
  have hv4 : ∀ u : Fin 50257, Read.val_main_call1_v4 (F := Ideal) A0 A2 (ix2 r u) = ((M : ℝ) : EReal) := by
    intro u
    rw [Read.val_main_call1_v4_apply, Read.val_main_call1_v3_apply]
    have e : Read.idx_main_call1_v3 (Read.idx_main_call1_v4 (ix2 r u)) = ix1 r := by
      funext a; refine Fin.ext ?_
      match a with
      | ⟨0, _⟩ => rfl
    rw [e, hv2]
  have hv5 : ∀ u : Fin 50257, Read.val_main_call1_v5 (F := Ideal) A0 A2 (ix2 r u)
      = ((Cert.Spec.logit x W r u : ℝ) : EReal) - ((M : ℝ) : EReal) := by
    intro u
    rw [Read.val_main_call1_v5_apply, hlog, hv4, Ideal.subf_def]
  have hv7 : Read.val_main_call1_v7 (F := Ideal) A0 A2 (ix1 r)
      = ∑ u : Fin 50257, Ideal.exp (((Cert.Spec.logit x W r u : ℝ) : EReal) - ((M : ℝ) : EReal)) := by
    rw [Read.val_main_call1_v7_apply, Read.val_main_call1_cst_1_apply, Ideal.ofBits_def, Ideal.ofBits_zero_f32, zero_add]
    refine Finset.sum_congr rfl fun u _ => ?_
    have e : Read.idx_main_call1_v7 (ix1 r) u = ix2 r u := by
      funext a; refine Fin.ext ?_
      match a with
      | ⟨0, _⟩ => rfl
      | ⟨1, _⟩ => rfl
    rw [e, Read.val_main_call1_v6_apply, hv5, Ideal.hostUnary_exp_def]
  have hv10 : Read.val_main_call1_v10 (F := Ideal) A0 A2 (ix2 r v)
      = Ideal.log (∑ u : Fin 50257, Ideal.exp (((Cert.Spec.logit x W r u : ℝ) : EReal) - ((M : ℝ) : EReal))) := by
    rw [Read.val_main_call1_v10_apply, Read.val_main_call1_v9_apply, Read.val_main_call1_v8_apply]
    have e : Read.idx_main_call1_v8 (Read.idx_main_call1_v10 (ix2 r v)) = ix1 r := by
      funext a; refine Fin.ext ?_
      match a with
      | ⟨0, _⟩ => rfl
    rw [e, hv7, Ideal.hostUnary_log_def]
  haveI : Nonempty (Fin 50257) := ⟨⟨0, by norm_num⟩⟩
  rw [Read.val_main_v6_apply, hv5, hv10, Ideal.subf_def]
  unfold Cert.Spec.lse
  exact Cert.AuxMath.logsoftmax_ereal (fun u => Cert.Spec.logit x W r u) M v

end Cert.ReferenceIdeal.RefLSM

end
-- ==== Proof.RefCnt.lean ====
/- The reference's count of the rows that are not ignored.

   The reference flattens the targets to 4096 words, compares each with the ignore word -1, widens the one-bit answers to
   32-bit words, adds them up as words, takes the signed maximum with 1 and converts the result to a float. The sum has 4096
   summands, each 0 or 1, so it does not wrap: it is the number of rows whose target is not the ignore word. That number is
   at most 4096, so read as a signed word it is itself, its signed maximum with 1 is the maximum of the numbers, and the exact
   instance converts a word to the real it denotes. -/
import proofs.«419146_j12747462935019_2_alg».proof.Proof.RefReadP
import proofs.«419146_j12747462935019_2_alg».proof.Proof.Spec
import Idealize.ShloMosaic.Lib.IndicatorCount
import Idealize.ShloMosaic.Lib.ValueIdx
import Idealize.ShloMosaic.PureOps.Reduce
import Idealize.ShloMosaic.PureOps.Ideal

noncomputable section

namespace Cert.ReferenceIdeal.RefCnt

open Cert.ReferenceIdeal Cert.ReferenceIdeal.Read Idealize.ShloMosaic Idealize.ShloMosaic.ValueIdx

/-! ### Words -/

/-- The comparison "not equal" answers 1 exactly when the words differ. -/
theorem cmpi_ne_eq_one {w : ℕ} (x y : BitVec w) : IntOp.cmpi .ne x y = 1#1 ↔ x ≠ y := by
  unfold IntOp.cmpi
  by_cases h : x = y
  · subst h; simp
  · have hb : (x != y) = true := by simpa [bne_iff_ne] using h
    simp [hb, h]

/-- A number up to 4096, as a 32-bit word read signed, is itself. -/
theorem toInt_ofNat_small (N : ℕ) (hN : N ≤ 4096) : (BitVec.ofNat 32 N).toInt = (N : ℤ) := by
  rw [BitVec.toInt_eq_toNat_cond, BitVec.toNat_ofNat, Nat.mod_eq_of_lt (by omega)]
  rw [if_pos (by omega)]

/-- The signed maximum with the word 1 of such a word denotes the maximum of the number and 1. -/
theorem maxsi_ofNat_one (N : ℕ) (hN : N ≤ 4096) : (IntOp.maxsi (BitVec.ofNat 32 N) 1#32).toInt = max (N : ℤ) 1 := by
  have h1 : (1#32 : BitVec 32).toInt = 1 := by decide
  unfold IntOp.maxsi
  by_cases h : (1 : ℤ) < N
  · rw [if_pos (by rw [BitVec.slt_iff_toInt_lt, h1, toInt_ofNat_small N hN]; exact h), toInt_ofNat_small N hN]
    omega
  · rw [if_neg (by rw [BitVec.slt_iff_toInt_lt, h1, toInt_ofNat_small N hN]; exact h), h1]
    omega

/-! ### The stages -/

section

variable (A3 : (⟨S2x2048, .i32⟩ : BufTy).Contents (Elt Ideal)) (t : Fin 4096 → BitVec 32)
  (ht : ∀ (b : Fin 2) (s : Fin 2048), A3 (ValueIdx.ix2 b s) = t ⟨2048 * b.val + s.val, by omega⟩)

include ht in
/-- The flattened targets at row `k`: row `k` sits at (k / 2048, k % 2048) of the 2 x 2048 table. -/
theorem v2_at (k : Fin 4096) : val_main_v2 (F := Ideal) A3 (ix1 k) = t k := by
  rw [val_main_v2_apply]
  have e : idx_main_v2 (ix1 k) = ix2 (⟨k.val / 2048, by omega⟩ : Fin 2) (⟨k.val % 2048, Nat.mod_lt _ (by decide)⟩ : Fin 2048) := by
    funext a; match a with | ⟨0, _⟩ => rfl | ⟨1, _⟩ => rfl
  rw [e, ht]
  congr 1; apply Fin.ext; show 2048 * (k.val / 2048) + k.val % 2048 = k.val; omega

include ht in
/-- The widened answer at row `k`: the word 1 when the target is not the ignore word, else the word 0. -/
theorem v13_at (k : Fin 4096) :
    val_main_v13 (F := Ideal) A3 (ix1 k) = (IntOp.cmpi .ne (t k) Cert.Spec.ignore).setWidth 32 := by
  rw [val_main_v13_apply, val_main_v4_apply, v2_at A3 t ht k, val_main_v3_apply, val_main_c_apply]

include ht in
/-- The word sum is the number of rows that are not ignored, as a word. -/
theorem v14_eq (i : S_.Idx) :
    val_main_v14 (F := Ideal) A3 i = BitVec.ofNat 32 (Finset.univ.filter fun k : Fin 4096 => t k ≠ Cert.Spec.ignore).card := by
  classical
  unfold val_main_v14
  rw [Host.reduce_eq_fold]
  -- the result has no axis: every index of the operand drops to its one index
  rw [Finset.filter_true_of_mem (fun j _ => funext fun b => b.elim0)]
  -- the operand's indices are the rows
  have himg : (Finset.univ : Finset S4096.Idx) = (Finset.univ : Finset (Fin 4096)).image ix1 := by
    ext j
    simp only [Finset.mem_univ, Finset.mem_image, true_and, true_iff]
    exact ⟨j 0, (eq_ix1 j).symm⟩
  rw [himg, Finset.fold_image (fun a _ b _ e => by exact congrFun e 0)]
  rw [show (val_main_v13 (F := Ideal) A3 ∘ ix1) = fun k : Fin 4096 => (IntOp.cmpi .ne (t k) Cert.Spec.ignore).setWidth 32 from
    funext fun k => v13_at A3 t ht k]
  show Finset.fold IntOp.addi (0#32) _ _ = _
  rw [IndicatorCount.fold_addi_setWidth_eq_card]
  congr 2
  ext k
  simp only [Finset.mem_filter, Finset.mem_univ, true_and, cmpi_ne_eq_one]

include ht in
/-- The reference's divisor: the number of rows that are not ignored, floored at 1, as a real. -/
theorem cnt_eq : Cert.ReferenceIdeal.Read.val_main_v16 (F := Ideal) A3 = fun _ => ((Cert.Spec.cnt t : ℝ) : EReal) := by
  funext i
  rw [val_main_v16_apply, val_main_v15_apply, v14_eq A3 t ht, val_main_c_3_apply]
  have hN : (Finset.univ.filter fun k : Fin 4096 => t k ≠ Cert.Spec.ignore).card ≤ 4096 :=
    (Finset.card_filter_le _ _).trans (by simp)
  show (((IntOp.maxsi (BitVec.ofNat 32 _) 1#32).toInt : ℝ) : EReal) = _
  rw [maxsi_ofNat_one _ hN]
  unfold Cert.Spec.cnt
  push_cast
  rfl

end

end Cert.ReferenceIdeal.RefCnt

end
-- ==== Proof.RefCE.lean ====
/- The reference's two cross-entropy legs at the exact instance.

   Each leg is the same chain applied to one hidden array: the logits (a product with the vocabulary table), their log-softmax,
   the entry at the row's target looked up along the vocabulary axis, its negation masked by "the target is not the ignore
   value", the sum over the 4096 rows, and the quotient by the number of rows that are not ignored (floored at 1).
   With real tables behind the argument arrays and every target either the ignore value or a vocabulary entry, the chain's
   result is the specification's masked mean cross-entropy.

   The lookup: for an ignored row the looked-up index is 0, otherwise the target; either way it is a vocabulary entry that is
   not negative as a signed word, so the wrap-around branch adds nothing, the range test passes and the looked-up entry (not the
   not-a-number filler) is selected. For an ignored row the mask then discards the value.

   The second leg is the first leg's term at the other hidden array, so its value follows from the first's. -/
import proofs.«419146_j12747462935019_2_alg».proof.Proof.RefReadP
import proofs.«419146_j12747462935019_2_alg».proof.Proof.Spec
import proofs.«419146_j12747462935019_2_alg».proof.Proof.AuxMath
import proofs.«419146_j12747462935019_2_alg».proof.Proof.RefLSM
import proofs.«419146_j12747462935019_2_alg».proof.Proof.RefCnt
import Idealize.ShloMosaic.Lib.ValueIdx
import Idealize.ShloMosaic.Lib.ValueIdxRank1
import Idealize.ShloMosaic.Lib.StableHlo.Predicate
import Idealize.ShloMosaic.PureOps.Ideal.Laws
import Idealize.ShloMosaic.PureOps.Reduce

noncomputable section

namespace Cert.ReferenceIdeal.RefCE

open Cert.ReferenceIdeal Cert.ReferenceIdeal.Gen Idealize.ShloMosaic Idealize.ShloMosaic.ValueIdx

/-! ### The lookup of one entry per row, and the conjunction over a unit axis -/

/-- The reference's gather reads, in row r, the column its start index names, read signed and clamped to the vocabulary. -/
theorem gather_row {α : Type} {w : Nat} (x : S4096x50257.Idx → α) (idx : IVec S4096x1x1 w) (r : Fin 4096) :
    Host.gather gather_S4096x50257_S4096x1x1_S4096x1_n_1_0_0_1_2_11 x idx (ix2 r (0 : Fin 1))
      = x (ix2 r ⟨min (idx (ix3 r (0 : Fin 1) (0 : Fin 1))).toInt.toNat 50256, by omega⟩) := by
  unfold Host.gather
  congr 1
  funext a
  refine Fin.ext ?_
  match a with
  | ⟨0, _⟩ =>
    show gather_S4096x50257_S4096x1x1_S4096x1_n_1_0_0_1_2_11.start (ix2 r (0 : Fin 1)) idx 0
        + gather_S4096x50257_S4096x1x1_S4096x1_n_1_0_0_1_2_11.batchCoord (ix2 r (0 : Fin 1)) 0
        + gather_S4096x50257_S4096x1x1_S4096x1_n_1_0_0_1_2_11.offCoord (ix2 r (0 : Fin 1)) 0 = r.val
    rw [GatherDims.start_batching _ _ _ _ (show (0 : Fin S4096x50257.rank) ∈ gather_S4096x50257_S4096x1x1_S4096x1_n_1_0_0_1_2_11.operandBatchingDims from List.mem_singleton.mpr rfl),
      GatherDims.offCoord_eq_zero _ _ _ (by decide)]
    simp only [Nat.zero_add, Nat.add_zero]
    unfold GatherDims.batchCoord
    rw [dif_pos (show (0 : Fin S4096x50257.rank) ∈ gather_S4096x50257_S4096x1x1_S4096x1_n_1_0_0_1_2_11.operandBatchingDims from List.mem_singleton.mpr rfl)]
    rfl
  | ⟨1, _⟩ =>
    show gather_S4096x50257_S4096x1x1_S4096x1_n_1_0_0_1_2_11.start (ix2 r (0 : Fin 1)) idx 1
        + gather_S4096x50257_S4096x1x1_S4096x1_n_1_0_0_1_2_11.batchCoord (ix2 r (0 : Fin 1)) 1
        + gather_S4096x50257_S4096x1x1_S4096x1_n_1_0_0_1_2_11.offCoord (ix2 r (0 : Fin 1)) 1 = _
    rw [GatherDims.batchCoord_eq_zero _ _ _ (by decide), GatherDims.offCoord_eq_zero _ _ _ (by decide)]
    simp only [Nat.add_zero]
    unfold GatherDims.start
    rw [dif_pos (show (1 : Fin S4096x50257.rank) ∈ gather_S4096x50257_S4096x1x1_S4096x1_n_1_0_0_1_2_11.startIndexMap from List.mem_singleton.mpr rfl)]
    have hsi : gather_S4096x50257_S4096x1x1_S4096x1_n_1_0_0_1_2_11.siIdx (ix2 r (0 : Fin 1))
        ⟨List.idxOf (1 : Fin S4096x50257.rank) gather_S4096x50257_S4096x1x1_S4096x1_n_1_0_0_1_2_11.startIndexMap,
          List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-- The same with the column named: any column whose number is the clamped start index. -/
theorem gather_row_of {α : Type} {w : Nat} (x : S4096x50257.Idx → α) (idx : IVec S4096x1x1 w) (r : Fin 4096) (c : Fin 50257)
    (hc : min (idx (ix3 r (0 : Fin 1) (0 : Fin 1))).toInt.toNat 50256 = c.val) :
    Host.gather gather_S4096x50257_S4096x1x1_S4096x1_n_1_0_0_1_2_11 x idx (ix2 r (0 : Fin 1)) = x (ix2 r c) := by
  rw [gather_row]
  exact congrArg (fun q : Fin 50257 => x (ix2 r q)) (Fin.ext hc)
/-- A fold of the conjunction, from true, over bits that are all set is set. -/
theorem fold_andi_ones {ι : Type} (s : Finset ι) (g : ι → BitVec 1) (hg : ∀ k ∈ s, g k = 1#1) :
    s.fold IntOp.andi 1#1 g = 1#1 := by
  classical
  induction s using Finset.induction_on with
  | empty => rfl
  | insert a s ha ih =>
    rw [Finset.fold_insert ha, ih (fun k hk => hg k (Finset.mem_insert_of_mem hk)), hg a (Finset.mem_insert_self a s)]
    rfl

/-- The reference's conjunction over the unit axis of an all-set mask is set. -/
theorem andreduce_ones (P : IVec S4096x1x1 1) (hP : ∀ r : Fin 4096, P (ix3 r (0 : Fin 1) (0 : Fin 1)) = 1#1) (r : Fin 4096) :
    Host.reduce IntOp.andi P (constantI S_ 1 1#1) reducesTo_S4096x1x1_S4096x1_d2 h_S_ (ix2 r (0 : Fin 1)) = 1#1 := by
  have hR : S4096x1x1.Reduces [2] S4096x1 := by decide
  rw [Host.reduce_eq_fold_single _ P _ reducesTo_S4096x1x1_S4096x1_d2 hR h_S_]
  refine fold_andi_ones _ _ (fun k _ => ?_)
  show P (hR.lift (ix2 r (0 : Fin 1)) k) = 1#1
  rw [← hP r]
  congr 1
  funext a; refine Fin.ext ?_
  have hk : k.val < 1 := k.isLt
  match a with
  | ⟨0, _⟩ => rfl
  | ⟨1, _⟩ => rfl
  | ⟨2, _⟩ => show k.val = 0; omega

/-! ### Words -/

/-- A select on "the two words differ" is the if on "they are equal", branches swapped. -/
theorem select_ne {α : Type} (a b : BitVec 32) (p q : α) :
    Scalar.select (IntOp.cmpi .ne a b) p q = if a = b then q else p := by
  unfold Scalar.select IntOp.cmpi
  by_cases h : a = b
  · subst h
    have hb : (a != a) = false := by simp
    rw [hb, if_pos rfl]; rfl
  · have hb : (a != b) = true := by simp [h]
    rw [hb, if_neg h]; rfl

/-- The target used for the lookup: entry 0 for an ignored row, else the target itself. -/
def safe (t : Fin 4096 → BitVec 32) (r : Fin 4096) : BitVec 32 := if t r = Spec.ignore then 0#32 else t r

/-- It always names a vocabulary entry. -/
theorem safe_lt (t : Fin 4096 → BitVec 32) (hrange : ∀ r, t r = Spec.ignore ∨ (t r).toNat < 50257) (r : Fin 4096) :
    (safe t r).toNat < 50257 := by
  unfold safe
  by_cases h : t r = Spec.ignore
  · rw [if_pos h]; decide
  · rw [if_neg h]; exact (hrange r).resolve_left h

section
variable (A0 : (⟨S2x2048x768, .f32⟩ : BufTy).Contents (Elt Ideal)) (A2 : (⟨S50257x768, .f32⟩ : BufTy).Contents (Elt Ideal))
  (A3 : (⟨S2x2048, .i32⟩ : BufTy).Contents (Elt Ideal))
  (x : Fin 4096 → Fin 768 → ℝ) (W : Fin 50257 → Fin 768 → ℝ) (t : Fin 4096 → BitVec 32)

/-! ### The targets -/

/-- The flattened targets: row r of the 4096 is entry (r / 2048, r % 2048) of the table. -/
theorem tgt_apply (ht : ∀ (b : Fin 2) (s : Fin 2048), A3 (ValueIdx.ix2 b s) = t ⟨2048 * b.val + s.val, by omega⟩) (r : Fin 4096) :
    Read.val_main_v2 (F := Ideal) A3 (ix1 r) = t r := by
  rw [Read.val_main_v2_apply]
  have hr := r.isLt
  have hb : r.val / 2048 < 2 := by omega
  have hs : r.val % 2048 < 2048 := by omega
  have e : Read.idx_main_v2 (ix1 r) = ix2 (⟨r.val / 2048, hb⟩ : Fin 2) (⟨r.val % 2048, hs⟩ : Fin 2048) := by
    funext a; refine Fin.ext ?_
    match a with
    | ⟨0, _⟩ => rfl
    | ⟨1, _⟩ => rfl
  rw [e, ht]
  exact congrArg t (Fin.ext (by show 2048 * (r.val / 2048) + r.val % 2048 = r.val; omega))

/-- The validity bit of row r: the target is not the ignore value. -/
theorem valid_apply (ht : ∀ (b : Fin 2) (s : Fin 2048), A3 (ValueIdx.ix2 b s) = t ⟨2048 * b.val + s.val, by omega⟩) (r : Fin 4096) :
    Read.val_main_v4 (F := Ideal) A3 (ix1 r) = IntOp.cmpi .ne (t r) Spec.ignore := by
  rw [Read.val_main_v4_apply, tgt_apply A3 t ht, Read.val_main_v3_apply, Read.val_main_c_apply]

/-- The target with the ignore value replaced by 0. -/
theorem safe_apply (ht : ∀ (b : Fin 2) (s : Fin 2048), A3 (ValueIdx.ix2 b s) = t ⟨2048 * b.val + s.val, by omega⟩) (r : Fin 4096) :
    Read.val_main_v5 (F := Ideal) A3 (ix1 r) = safe t r := by
  rw [Read.val_main_v5_apply, valid_apply A3 t ht, tgt_apply A3 t ht, Read.val_main_call0_v1_apply, Read.val_main_call0_v0_apply,
    Read.val_main_c_0_apply, select_ne]
  rfl

/-! ### The lookup along the vocabulary axis -/

/-- The start index of row r: the safe target is not negative as a signed word, so no vocabulary size is added. -/
theorem look_apply (ht : ∀ (b : Fin 2) (s : Fin 2048), A3 (ValueIdx.ix2 b s) = t ⟨2048 * b.val + s.val, by omega⟩)
    (hrange : ∀ r, t r = Spec.ignore ∨ (t r).toNat < 50257) (r : Fin 4096) :
    Read.val_main_call2_v5 (F := Ideal) A3 (ix3 r (0 : Fin 1) (0 : Fin 1)) = safe t r := by
  have hs := safe_lt t hrange r
  have hr := r.isLt
  rw [Read.val_main_call2_v5_apply]
  have e5 : Read.idx_main_call2_v5 (ix3 r (0 : Fin 1) (0 : Fin 1)) = ix2 r (0 : Fin 1) := by
    funext a; refine Fin.ext ?_
    match a with
    | ⟨0, _⟩ => show ((r.val * 1 + 0) * 1 + 0) / 1 = r.val; omega
    | ⟨1, _⟩ => rfl
  have e7 : Read.idx_main_v7 (ix2 r (0 : Fin 1)) = ix1 r := by
    funext a; refine Fin.ext ?_
    match a with
    | ⟨0, _⟩ => rfl
  rw [e5, Read.val_main_call2_v4_apply, Read.val_main_call2_v1_apply, Read.val_main_v7_apply, e7, safe_apply A3 t ht,
    Read.val_main_call2_v0_apply, Read.val_main_call2_c_apply]
  have h0 : IntOp.cmpi .slt (safe t r) 0#32 = 0#1 :=
    eq_zero_of_ne_one fun h =>
      Nat.not_lt_zero _ ((StableHlo.Predicate.slt_iff_toNat (lt_trans hs (by norm_num)) (by decide)).mp h)
  rw [h0, select_zero]

/-- The in-range test of row r passes: 0 ≤ safe target ≤ 50256 as signed words. -/
theorem inrange_apply (ht : ∀ (b : Fin 2) (s : Fin 2048), A3 (ValueIdx.ix2 b s) = t ⟨2048 * b.val + s.val, by omega⟩)
    (hrange : ∀ r, t r = Spec.ignore ∨ (t r).toNat < 50257) (r : Fin 4096) :
    Read.val_main_call2_v11 (F := Ideal) A3 (ix3 r (0 : Fin 1) (0 : Fin 1)) = 1#1 := by
  have hs := safe_lt t hrange r
  rw [Read.val_main_call2_v11_apply, Read.val_main_call2_v7_apply, Read.val_main_call2_v10_apply, look_apply A3 t ht hrange,
    Read.val_main_call2_v6_apply, Read.val_main_call2_c_2_apply, Read.val_main_call2_v9_apply, Read.val_main_call2_v8_apply,
    Read.val_main_call2_c_1_apply]
  have h1 : IntOp.cmpi .sge (safe t r) 0#32 = 1#1 :=
    (StableHlo.Predicate.sge_iff_toNat (lt_trans hs (by norm_num)) (by decide)).mpr (Nat.zero_le _)
  have h2 : IntOp.cmpi .sle (safe t r) 50256#32 = 1#1 :=
    (StableHlo.Predicate.sle_iff_toNat (lt_trans hs (by norm_num)) (by decide)).mpr (by show (safe t r).toNat ≤ 50256; omega)
  rw [h1, h2]
  rfl

/-- So the reduced test of row r is set. -/
theorem ok_apply (ht : ∀ (b : Fin 2) (s : Fin 2048), A3 (ValueIdx.ix2 b s) = t ⟨2048 * b.val + s.val, by omega⟩)
    (hrange : ∀ r, t r = Spec.ignore ∨ (t r).toNat < 50257) (r : Fin 4096) :
    Read.val_main_call2_v12 (F := Ideal) A3 (ix2 r (0 : Fin 1)) = 1#1 := by
  unfold Read.val_main_call2_v12
  exact andreduce_ones _ (inrange_apply A3 t ht hrange) r

/-- The entry picked in row r: the log-probability at the safe target. -/
theorem picked_apply
    (hx : ∀ (b : Fin 2) (s : Fin 2048) (d : Fin 768), A0 (ValueIdx.ix3 b s d) = ((x ⟨2048 * b.val + s.val, by omega⟩ d : ℝ) : EReal))
    (hW : ∀ (v : Fin 50257) (d : Fin 768), A2 (ValueIdx.ix2 v d) = ((W v d : ℝ) : EReal))
    (ht : ∀ (b : Fin 2) (s : Fin 2048), A3 (ValueIdx.ix2 b s) = t ⟨2048 * b.val + s.val, by omega⟩)
    (hrange : ∀ r, t r = Spec.ignore ∨ (t r).toNat < 50257) (r : Fin 4096) :
    Read.val_main_v9 (F := Ideal) A0 A2 A3 (ix1 r)
      = ((Spec.logit x W r ⟨(safe t r).toNat, safe_lt t hrange r⟩ - Spec.lse x W r : ℝ) : EReal) := by
  have hs := safe_lt t hrange r
  have hr := r.isLt
  rw [Read.val_main_v9_apply]
  have e9 : Read.idx_main_v9 (ix1 r) = ix2 r (0 : Fin 1) := by
    funext a; refine Fin.ext ?_
    match a with
    | ⟨0, _⟩ => show r.val / 1 = r.val; omega
    | ⟨1, _⟩ => rfl
  rw [e9, Read.val_main_v8_apply, ok_apply A3 t ht hrange, select_one]
  unfold Read.val_main_call2_v13
  rw [gather_row_of _ _ r ⟨(safe t r).toNat, hs⟩ (by
    rw [look_apply A3 t ht hrange, StableHlo.Predicate.toInt_eq_toNat_of_lt (lt_trans hs (by norm_num)), Int.toNat_natCast]
    exact min_eq_left (by omega))]
  exact RefLSM.logp_apply A0 A2 x W hx hW r _

/-! ### The row's cross-entropy, the sum and the mean -/

/-- Row r's masked negative log-probability is the specification's. -/
theorem nll_apply
    (hx : ∀ (b : Fin 2) (s : Fin 2048) (d : Fin 768), A0 (ValueIdx.ix3 b s d) = ((x ⟨2048 * b.val + s.val, by omega⟩ d : ℝ) : EReal))
    (hW : ∀ (v : Fin 50257) (d : Fin 768), A2 (ValueIdx.ix2 v d) = ((W v d : ℝ) : EReal))
    (ht : ∀ (b : Fin 2) (s : Fin 2048), A3 (ValueIdx.ix2 b s) = t ⟨2048 * b.val + s.val, by omega⟩)
    (hrange : ∀ r, t r = Spec.ignore ∨ (t r).toNat < 50257) (r : Fin 4096) :
    Read.val_main_v11 (F := Ideal) A0 A2 A3 (ix1 r) = ((Spec.nll x W t r : ℝ) : EReal) := by
  rw [Read.val_main_v11_apply, valid_apply A3 t ht, select_ne, Read.val_main_v10_apply,
    picked_apply A0 A2 A3 x W t hx hW ht hrange, Read.val_main_call3_v1_apply, Read.val_main_call3_v0_apply,
    Read.val_main_cst_apply]
  unfold Spec.nll
  by_cases h : t r = Spec.ignore
  · rw [if_pos h, if_pos h]; exact Ideal.ofBits_zero_f32
  · rw [if_neg h, if_neg h, Ideal.hostNegf_def, Ideal.negf_def, ← EReal.coe_neg, neg_sub]
    have hlt : (t r).toNat < 50257 := (hrange r).resolve_left h
    have hsafe : safe t r = t r := if_neg h
    have hcol : (⟨(safe t r).toNat, safe_lt t hrange r⟩ : Fin 50257) = ⟨(t r).toNat, hlt⟩ :=
      Fin.ext (by show (safe t r).toNat = (t r).toNat; rw [hsafe])
    unfold Spec.tlogit
    rw [dif_pos hlt, hcol]

/-- The sum of the rows' cross-entropies. -/
theorem nllsum_apply
    (hx : ∀ (b : Fin 2) (s : Fin 2048) (d : Fin 768), A0 (ValueIdx.ix3 b s d) = ((x ⟨2048 * b.val + s.val, by omega⟩ d : ℝ) : EReal))
    (hW : ∀ (v : Fin 50257) (d : Fin 768), A2 (ValueIdx.ix2 v d) = ((W v d : ℝ) : EReal))
    (ht : ∀ (b : Fin 2) (s : Fin 2048), A3 (ValueIdx.ix2 b s) = t ⟨2048 * b.val + s.val, by omega⟩)
    (hrange : ∀ r, t r = Spec.ignore ∨ (t r).toNat < 50257) (i : S_.Idx) :
    Read.val_main_v12 (F := Ideal) A0 A2 A3 i = ((∑ r, Spec.nll x W t r : ℝ) : EReal) := by
  rw [Read.val_main_v12_apply, Read.val_main_cst_1_apply]
  show Ideal.ofBits .f32 0x00000000#32 + _ = _
  rw [Ideal.ofBits_zero_f32, zero_add, AuxMath.coe_sum]
  refine ((Equiv.sum_comp (idxEquiv1 (n := 4096)).symm _).symm.trans ?_)
  exact Finset.sum_congr rfl fun r _ => nll_apply A0 A2 A3 x W t hx hW ht hrange r

/-- Pass 2's masked mean cross-entropy is the specification's. -/
theorem ce2_eq
    (hx : ∀ (b : Fin 2) (s : Fin 2048) (d : Fin 768), A0 (ValueIdx.ix3 b s d) = ((x ⟨2048 * b.val + s.val, by omega⟩ d : ℝ) : EReal))
    (hW : ∀ (v : Fin 50257) (d : Fin 768), A2 (ValueIdx.ix2 v d) = ((W v d : ℝ) : EReal))
    (ht : ∀ (b : Fin 2) (s : Fin 2048), A3 (ValueIdx.ix2 b s) = t ⟨2048 * b.val + s.val, by omega⟩)
    (hrange : ∀ r, t r = Spec.ignore ∨ (t r).toNat < 50257) :
    Read.val_main_v17 (F := Ideal) A0 A2 A3 = fun _ => ((Spec.ce x W t : ℝ) : EReal) := by
  funext i
  rw [Read.val_main_v17_apply, nllsum_apply A0 A2 A3 x W t hx hW ht hrange, RefCnt.cnt_eq A3 t ht]
  have hc : Spec.cnt t ≠ 0 := by
    unfold Spec.cnt; exact (lt_of_lt_of_le zero_lt_one (le_max_right _ _)).ne'
  show Ideal.div _ _ = _
  rw [AuxMath.div_coe_coe _ _ hc]
  rfl

end

/-- Pass 3 applies the same operations to the other hidden array: its term is pass 2's at that array. -/
theorem pass3_same (A1 : (⟨S2x2048x768, .f32⟩ : BufTy).Contents (Elt Ideal)) (A2 : (⟨S50257x768, .f32⟩ : BufTy).Contents (Elt Ideal))
    (A3 : (⟨S2x2048, .i32⟩ : BufTy).Contents (Elt Ideal)) :
    Read.val_main_v35 (F := Ideal) A1 A2 A3 = Read.val_main_v17 (F := Ideal) A1 A2 A3 := rfl

/-- Pass 3's masked mean cross-entropy is the specification's. -/
theorem ce3_eq (A1 : (⟨S2x2048x768, .f32⟩ : BufTy).Contents (Elt Ideal)) (A2 : (⟨S50257x768, .f32⟩ : BufTy).Contents (Elt Ideal))
    (A3 : (⟨S2x2048, .i32⟩ : BufTy).Contents (Elt Ideal))
    (x : Fin 4096 → Fin 768 → ℝ) (W : Fin 50257 → Fin 768 → ℝ) (t : Fin 4096 → BitVec 32)
    (hx : ∀ (b : Fin 2) (s : Fin 2048) (d : Fin 768), A1 (ValueIdx.ix3 b s d) = ((x ⟨2048 * b.val + s.val, by omega⟩ d : ℝ) : EReal))
    (hW : ∀ (v : Fin 50257) (d : Fin 768), A2 (ValueIdx.ix2 v d) = ((W v d : ℝ) : EReal))
    (ht : ∀ (b : Fin 2) (s : Fin 2048), A3 (ValueIdx.ix2 b s) = t ⟨2048 * b.val + s.val, by omega⟩)
    (hrange : ∀ r, t r = Spec.ignore ∨ (t r).toNat < 50257) :
    Read.val_main_v35 (F := Ideal) A1 A2 A3 = fun _ => ((Spec.ce x W t : ℝ) : EReal) :=
  (pass3_same A1 A2 A3).trans (ce2_eq A1 A2 A3 x W t hx hW ht hrange)

end Cert.ReferenceIdeal.RefCE

end
-- ==== Proof.RefRunH2.lean ====
/- The reference program's run, two side facts: none of its 157 operations allocates a buffer whose contents it does not
   determine, and none writes one of the four argument buffers, so that after the whole line, from any contents, each argument
   holds what it held. -/
import proofs.«419146_j12747462935019_2_alg».proof.Proof.RefRunP
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Every operation of the line determines all it writes: no operation has a fresh buffer (each is one of the plain builders,
    whose fresh set is empty by definition). -/
theorem ops_fresh_all : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_fresh : ∀ op ∈ (ops : List (HloOp τ sig (Elt F))), op.fresh = ∅ :=
  List.forall_iff_forall_mem.mp ops_fresh_all

set_option maxRecDepth 8192 in
/-- No operation of the line writes `main_arg0` (each writes its own result buffer, a different reference): from any contents
    the line leaves it as it was. -/
theorem after_arg0 (v : Valuation τ sig (Elt F)) : after ops v (Proc.devRef .tc main_arg0) = v (Proc.devRef .tc main_arg0) :=
  after_of_forall_not_mem (b := Proc.devRef .tc main_arg0) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 8192 in
/-- No operation of the line writes `main_arg1` (each writes its own result buffer, a different reference): from any contents
    the line leaves it as it was. -/
theorem after_arg1 (v : Valuation τ sig (Elt F)) : after ops v (Proc.devRef .tc main_arg1) = v (Proc.devRef .tc main_arg1) :=
  after_of_forall_not_mem (b := Proc.devRef .tc main_arg1) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 8192 in
/-- No operation of the line writes `main_arg2` (each writes its own result buffer, a different reference): from any contents
    the line leaves it as it was. -/
theorem after_arg2 (v : Valuation τ sig (Elt F)) : after ops v (Proc.devRef .tc main_arg2) = v (Proc.devRef .tc main_arg2) :=
  after_of_forall_not_mem (b := Proc.devRef .tc main_arg2) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 8192 in
/-- No operation of the line writes `main_arg3` (each writes its own result buffer, a different reference): from any contents
    the line leaves it as it was. -/
theorem after_arg3 (v : Valuation τ sig (Elt F)) : after ops v (Proc.devRef .tc main_arg3) = v (Proc.devRef .tc main_arg3) :=
  after_of_forall_not_mem (b := Proc.devRef .tc main_arg3) _ _ (List.forall_iff_forall_mem.mp (by
    simp only [ops, List.Forall, nullary_writes, unary_writes, binary_writes, ternary_writes, reshape_writes, Finset.mem_singleton]
    repeat' apply And.intro
    all_goals exact devRef_ne_of_ne (by decide)))

end Cert.ReferenceIdeal.Value

end
-- ==== Proof.RefRunH.lean ====
/- The run of the reference program, proved stretch by stretch.

   The program is a straight line of 157 host operations. Its list is cut into nine consecutive stretches: four for
   the first masked cross-entropy (the logits and the mask; the log-softmax; the gather of the label's entry; the
   masked mean), the same four for the second, and a tail (the half difference of the two means, the cosine term,
   their sum). For each stretch: which references it writes (so every other reference keeps its contents through
   it), and what it leaves in the few buffers later stretches read, as an explicit function of the few buffers it
   reads itself, for an arbitrary valuation, independently of the stretches before it. The functions
   composed along the data flow are the generated composed term of the result; the fold of the whole list is the
   fold of the stretches one after the other; so the result buffer ends at that term. The four argument buffers
   are written by no operation, and no operation allocates. -/
import proofs.«419146_j12747462935019_2_alg».proof.Proof.RefRunP
import proofs.«419146_j12747462935019_2_alg».proof.Proof.RefRunH2
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Contents moved to a typed reference's own buffer type and back are the contents themselves. -/
theorem ofBuf_toBuf {Val : EltTy → Type} {T : BufTy} (x : TRef sig T) (u : T.Contents Val) : x.ofBuf (x.toBuf u) = u := by
  obtain ⟨r, h, _, _⟩ := x
  subst h
  rfl

/-! ### Stretch A1: operations 1 to 10 -/

def opsA1 : List (HloOp τ sig (Elt F)) :=
  [ binary main_arg0 main_arg2 main_v0 ((fun l r => Host.dotGeneral dot_S2x2048x768_S50257x768_S2x2048x50257_2_1_01_0_n_n none l r) : (⟨S2x2048x768, .f32⟩ : BufTy).Contents (Elt F) → (⟨S50257x768, .f32⟩ : BufTy).Contents (Elt F) → (⟨S2x2048x50257, .f32⟩ : BufTy).Contents (Elt F)),
    reshape main_v0 main_v1 rfl shapeCasts_S2x2048x50257_S4096x50257,
    reshape main_arg3 main_v2 rfl shapeCasts_S2x2048_S4096,
    nullary main_c (constantI S_ 32 4294967295#32),
    unary main_c main_v3 (broadcastInDim S4096 ![] bcast_S_S4096 : (⟨S_, .i32⟩ : BufTy).Contents (Elt F) → (⟨S4096, .i32⟩ : BufTy).Contents (Elt F)),
    binary main_v2 main_v3 main_v4 (cmpi .ne : (⟨S4096, .i32⟩ : BufTy).Contents (Elt F) → (⟨S4096, .i32⟩ : BufTy).Contents (Elt F) → (⟨S4096, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S4096, .i32⟩) main_call0_v1) (broadcastInDim S4096 ![] bcast_S_S4096),
    TRef.ternary (TRef.of (T := ⟨S4096, .i1⟩) main_v4) (TRef.of (T := ⟨S4096, .i32⟩) main_v2) (TRef.of (T := ⟨S4096, .i32⟩) main_call0_v1) (TRef.of (T := ⟨S4096, .i32⟩) main_v5) select ]

/-- The references the stretch writes. -/
abbrev wA1 : List (Ref sig .tc) := [main_v0, main_v1, main_v2, main_c, main_v3, main_v4, main_c_0, main_call0_v0, main_call0_v1, main_v5]

theorem opsA1_writes : (opsA1 : List (HloOp τ sig (Elt F))).Forall fun op => op.writes ⊆ (wA1.map (Proc.devRef (τ := τ) .tc)).toFinset := by
  unfold opsA1
  simp only [List.Forall, nullary_writes, unary_writes, binary_writes, ternary_writes, reshape_writes, Finset.singleton_subset_iff, List.mem_toFinset]
  repeat' apply And.intro
  all_goals exact List.mem_map_of_mem (by decide)

/-- A reference the stretch does not write keeps its contents through it. -/
theorem a1_keep (v : Valuation τ sig (Elt F)) (r : Ref sig .tc) (h : r ∉ wA1) :
    after opsA1 v (Proc.devRef .tc r) = v (Proc.devRef .tc r) :=
  after_of_writes_sub opsA1 v opsA1_writes h

/-- What the stretch leaves in `main_v1`, as a function of the buffers it reads. -/
def fA1_v1 (x_main_arg0 : (⟨S2x2048x768, .f32⟩ : BufTy).Contents (Elt F)) (x_main_arg2 : (⟨S50257x768, .f32⟩ : BufTy).Contents (Elt F)) : (⟨S4096x50257, .f32⟩ : BufTy).Contents (Elt F) :=
  shapeCast _ (Host.dotGeneral dot_S2x2048x768_S50257x768_S2x2048x50257_2_1_01_0_n_n none x_main_arg0 x_main_arg2) shapeCasts_S2x2048x50257_S4096x50257

theorem a1_v1 (v : Valuation τ sig (Elt F)) :
    after opsA1 v (Proc.devRef .tc main_v1) = fA1_v1 (v (Proc.devRef .tc main_arg0)) (v (Proc.devRef .tc main_arg2)) := by
  unfold opsA1 fA1_v1; after_results_simp <;> (try simp only [ofBuf_toBuf]) <;> rfl

/-- What the stretch leaves in `main_v4`, as a function of the buffers it reads. -/
def fA1_v4 (x_main_arg3 : (⟨S2x2048, .i32⟩ : BufTy).Contents (Elt F)) : (⟨S4096, .i1⟩ : BufTy).Contents (Elt F) :=
  cmpi .ne (shapeCast _ x_main_arg3 shapeCasts_S2x2048_S4096) (broadcastInDim S4096 ![] bcast_S_S4096 (constantI S_ 32 4294967295#32))

theorem a1_v4 (v : Valuation τ sig (Elt F)) :
    after opsA1 v (Proc.devRef .tc main_v4) = fA1_v4 (v (Proc.devRef .tc main_arg3)) := by
  unfold opsA1 fA1_v4; after_results_simp <;> (try simp only [ofBuf_toBuf]) <;> rfl

/-- What the stretch leaves in `main_v5`, as a function of the buffers it reads. -/
def fA1_v5 (x_main_arg3 : (⟨S2x2048, .i32⟩ : BufTy).Contents (Elt F)) : (⟨S4096, .i32⟩ : BufTy).Contents (Elt F) :=
  select (cmpi .ne (shapeCast _ x_main_arg3 shapeCasts_S2x2048_S4096) (broadcastInDim S4096 ![] bcast_S_S4096 (constantI S_ 32 4294967295#32))) (shapeCast _ x_main_arg3 shapeCasts_S2x2048_S4096) (broadcastInDim S4096 ![] bcast_S_S4096 (id (constantI S_ 32 0#32)))

theorem a1_v5 (v : Valuation τ sig (Elt F)) :
    after opsA1 v (Proc.devRef .tc main_v5) = fA1_v5 (v (Proc.devRef .tc main_arg3)) := by
  unfold opsA1 fA1_v5; after_results_simp <;> (try simp only [ofBuf_toBuf]) <;> rfl

/-! ### Stretch A2: operations 11 to 25 -/

def opsA2 : List (HloOp τ sig (Elt F)) :=
  [ TRef.nullary (TRef.of (T := ⟨S_, .f32⟩) main_call1_cst) (constant S_ .f32 0xFF800000#32),
    TRef.binary (TRef.of (T := ⟨S4096x50257, .f32⟩) main_v1) (TRef.of (T := ⟨S_, .f32⟩) main_call1_cst) (TRef.of (T := ⟨S4096, .f32⟩) main_call1_v0) (fun x v => Host.reduce FloatOps.maximumf x v reducesTo_S4096x50257_S4096_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S4096, .f32⟩) main_call1_v1) (broadcastInDim S4096 ![] bcast_S_S4096),
    TRef.binary (TRef.of (T := ⟨S4096, .f32⟩) main_call1_v1) (TRef.of (T := ⟨S4096, .f32⟩) main_call1_v0) (TRef.of (T := ⟨S4096, .f32⟩) main_call1_v2) maximumf,
    TRef.unary (TRef.of (T := ⟨S4096, .f32⟩) main_call1_v2) (TRef.of (T := ⟨S4096x1, .f32⟩) main_call1_v3) (broadcastInDim S4096x1 ![0] bcast_S4096_S4096x1_0),
    TRef.unary (TRef.of (T := ⟨S4096x1, .f32⟩) main_call1_v3) (TRef.of (T := ⟨S4096x50257, .f32⟩) main_call1_v4) (broadcastInDim S4096x50257 ![0, 1] bcast_S4096x1_S4096x50257_0_1),
    TRef.binary (TRef.of (T := ⟨S4096x50257, .f32⟩) main_v1) (TRef.of (T := ⟨S4096x50257, .f32⟩) main_call1_v4) (TRef.of (T := ⟨S4096x50257, .f32⟩) main_call1_v5) subf,
    TRef.unary (TRef.of (T := ⟨S4096x50257, .f32⟩) main_call1_v5) (TRef.of (T := ⟨S4096x50257, .f32⟩) main_call1_v6) Host.exp,
    TRef.nullary (TRef.of (T := ⟨S_, .f32⟩) main_call1_cst_1) (constant S_ .f32 0x00000000#32),
    TRef.binary (TRef.of (T := ⟨S4096x50257, .f32⟩) main_call1_v6) (TRef.of (T := ⟨S_, .f32⟩) main_call1_cst_1) (TRef.of (T := ⟨S4096, .f32⟩) main_call1_v7) (fun x v => Host.reduceAdd x v reducesTo_S4096x50257_S4096_d1 h_S_),
    TRef.unary (TRef.of (T := ⟨S4096, .f32⟩) main_call1_v7) (TRef.of (T := ⟨S4096x1, .f32⟩) main_call1_v8) (broadcastInDim S4096x1 ![0] bcast_S4096_S4096x1_0),
    TRef.unary (TRef.of (T := ⟨S4096x1, .f32⟩) main_call1_v8) (TRef.of (T := ⟨S4096x1, .f32⟩) main_call1_v9) Host.log,
    TRef.unary (TRef.of (T := ⟨S4096x1, .f32⟩) main_call1_v9) (TRef.of (T := ⟨S4096x50257, .f32⟩) main_call1_v10) (broadcastInDim S4096x50257 ![0, 1] bcast_S4096x1_S4096x50257_0_1),
    TRef.binary (TRef.of (T := ⟨S4096x50257, .f32⟩) main_call1_v5) (TRef.of (T := ⟨S4096x50257, .f32⟩) main_call1_v10) (TRef.of (T := ⟨S4096x50257, .f32⟩) main_v6) subf ]

/-- The references the stretch writes. -/
abbrev wA2 : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v6]

theorem opsA2_writes : (opsA2 : List (HloOp τ sig (Elt F))).Forall fun op => op.writes ⊆ (wA2.map (Proc.devRef (τ := τ) .tc)).toFinset := by
  unfold opsA2
  simp only [List.Forall, nullary_writes, unary_writes, binary_writes, ternary_writes, reshape_writes, Finset.singleton_subset_iff, List.mem_toFinset]
  repeat' apply And.intro
  all_goals exact List.mem_map_of_mem (by decide)

/-- A reference the stretch does not write keeps its contents through it. -/
theorem a2_keep (v : Valuation τ sig (Elt F)) (r : Ref sig .tc) (h : r ∉ wA2) :
    after opsA2 v (Proc.devRef .tc r) = v (Proc.devRef .tc r) :=
  after_of_writes_sub opsA2 v opsA2_writes h

/-- What the stretch leaves in `main_v6`, as a function of the buffers it reads. -/
def fA2_v6 (x_main_v1 : (⟨S4096x50257, .f32⟩ : BufTy).Contents (Elt F)) : (⟨S4096x50257, .f32⟩ : BufTy).Contents (Elt F) :=
  subf (subf x_main_v1 (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf x_main_v1 (constant S_ .f32 0xFF800000#32) reducesTo_S4096x50257_S4096_d1 h_S_))))) (broadcastInDim S4096x50257 ![0, 1] bcast_S4096x1_S4096x50257_0_1 (Host.log (broadcastInDim S4096x1 ![0] bcast_S4096_S4096x1_0 (Host.reduceAdd (Host.exp (subf x_main_v1 (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf x_main_v1 (constant S_ .f32 0xFF800000#32) reducesTo_S4096x50257_S4096_d1 h_S_)))))) (constant S_ .f32 0x00000000#32) reducesTo_S4096x50257_S4096_d1 h_S_))))

theorem a2_v6 (v : Valuation τ sig (Elt F)) :
    after opsA2 v (Proc.devRef .tc main_v6) = fA2_v6 (v (Proc.devRef .tc main_v1)) := by
  unfold opsA2 fA2_v6; after_results_simp <;> (try simp only [ofBuf_toBuf]) <;> rfl

/-! ### Stretch A3: operations 26 to 48 -/

def opsA3 : List (HloOp τ sig (Elt F)) :=
  [ unary main_v5 main_v7 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S4096x1, .i32⟩) main_call2_v0) (broadcastInDim S4096x1 ![] bcast_S_S4096x1),
    TRef.binary (TRef.of (T := ⟨S4096x1, .i32⟩) main_v7) (TRef.of (T := ⟨S4096x1, .i32⟩) main_call2_v0) (TRef.of (T := ⟨S4096x1, .i1⟩) main_call2_v1) (cmpi .slt),
    TRef.nullary (TRef.of (T := ⟨S_, .i32⟩) main_call2_c_0) (constantI S_ 32 50257#32),
    TRef.unary (TRef.of (T := ⟨S_, .i32⟩) main_call2_c_0) (TRef.of (T := ⟨S4096x1, .i32⟩) main_call2_v2) (broadcastInDim S4096x1 ![] bcast_S_S4096x1),
    TRef.binary (TRef.of (T := ⟨S4096x1, .i32⟩) main_v7) (TRef.of (T := ⟨S4096x1, .i32⟩) main_call2_v2) (TRef.of (T := ⟨S4096x1, .i32⟩) main_call2_v3) addi,
    TRef.ternary (TRef.of (T := ⟨S4096x1, .i1⟩) main_call2_v1) (TRef.of (T := ⟨S4096x1, .i32⟩) main_call2_v3) (TRef.of (T := ⟨S4096x1, .i32⟩) main_v7) (TRef.of (T := ⟨S4096x1, .i32⟩) main_call2_v4) select,
    TRef.reshape (TRef.of (T := ⟨S4096x1, .i32⟩) main_call2_v4) (TRef.of (T := ⟨S4096x1x1, .i32⟩) main_call2_v5) rfl shapeCasts_S4096x1_S4096x1x1,
    TRef.nullary (TRef.of (T := ⟨S1, .i32⟩) main_call2_c_1) (constantI S1 32 50256#32),
    TRef.nullary (TRef.of (T := ⟨S_, .i32⟩) main_call2_c_2) (constantI S_ 32 0#32),
    TRef.unary (TRef.of (T := ⟨S_, .i32⟩) main_call2_c_2) (TRef.of (T := ⟨S4096x1x1, .i32⟩) main_call2_v6) (broadcastInDim S4096x1x1 ![] bcast_S_S4096x1x1),
    TRef.binary (TRef.of (T := ⟨S4096x1x1, .i32⟩) main_call2_v5) (TRef.of (T := ⟨S4096x1x1, .i32⟩) main_call2_v6) (TRef.of (T := ⟨S4096x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S4096x1x1, .i32⟩) main_call2_v9) (broadcastInDim S4096x1x1 ![0, 1, 2] bcast_S1x1x1_S4096x1x1_0_1_2),
    TRef.binary (TRef.of (T := ⟨S4096x1x1, .i32⟩) main_call2_v5) (TRef.of (T := ⟨S4096x1x1, .i32⟩) main_call2_v9) (TRef.of (T := ⟨S4096x1x1, .i1⟩) main_call2_v10) (cmpi .sle),
    TRef.binary (TRef.of (T := ⟨S4096x1x1, .i1⟩) main_call2_v7) (TRef.of (T := ⟨S4096x1x1, .i1⟩) main_call2_v10) (TRef.of (T := ⟨S4096x1x1, .i1⟩) main_call2_v11) andi,
    TRef.nullary (TRef.of (T := ⟨S_, .i1⟩) main_call2_c_3) (constantI S_ 1 1#1),
    TRef.binary (TRef.of (T := ⟨S4096x1x1, .i1⟩) main_call2_v11) (TRef.of (T := ⟨S_, .i1⟩) main_call2_c_3) (TRef.of (T := ⟨S4096x1, .i1⟩) main_call2_v12) (fun x v => Host.reduce IntOp.andi x v reducesTo_S4096x1x1_S4096x1_d2 h_S_),
    TRef.binary (TRef.of (T := ⟨S4096x50257, .f32⟩) main_v6) (TRef.of (T := ⟨S4096x1x1, .i32⟩) main_call2_v5) (TRef.of (T := ⟨S4096x1, .f32⟩) main_call2_v13) (fun x i => Host.gather gather_S4096x50257_S4096x1x1_S4096x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S4096x1, .f32⟩) main_call2_v14) (broadcastInDim S4096x1 ![] bcast_S_S4096x1),
    TRef.ternary (TRef.of (T := ⟨S4096x1, .i1⟩) main_call2_v12) (TRef.of (T := ⟨S4096x1, .f32⟩) main_call2_v13) (TRef.of (T := ⟨S4096x1, .f32⟩) main_call2_v14) (TRef.of (T := ⟨S4096x1, .f32⟩) main_v8) select ]

/-- The references the stretch writes. -/
abbrev wA3 : List (Ref sig .tc) := [main_v7, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v8]

theorem opsA3_writes : (opsA3 : List (HloOp τ sig (Elt F))).Forall fun op => op.writes ⊆ (wA3.map (Proc.devRef (τ := τ) .tc)).toFinset := by
  unfold opsA3
  simp only [List.Forall, nullary_writes, unary_writes, binary_writes, ternary_writes, reshape_writes, Finset.singleton_subset_iff, List.mem_toFinset]
  repeat' apply And.intro
  all_goals exact List.mem_map_of_mem (by decide)

/-- A reference the stretch does not write keeps its contents through it. -/
theorem a3_keep (v : Valuation τ sig (Elt F)) (r : Ref sig .tc) (h : r ∉ wA3) :
    after opsA3 v (Proc.devRef .tc r) = v (Proc.devRef .tc r) :=
  after_of_writes_sub opsA3 v opsA3_writes h

/-- What the stretch leaves in `main_v8`, as a function of the buffers it reads. -/
def fA3_v8 (x_main_v5 : (⟨S4096, .i32⟩ : BufTy).Contents (Elt F)) (x_main_v6 : (⟨S4096x50257, .f32⟩ : BufTy).Contents (Elt F)) : (⟨S4096x1, .f32⟩ : BufTy).Contents (Elt F) :=
  select (Host.reduce IntOp.andi (andi (cmpi .sge (shapeCast _ (select (cmpi .slt (broadcastInDim S4096x1 ![0] bcast_S4096_S4096x1_0 x_main_v5) (broadcastInDim S4096x1 ![] bcast_S_S4096x1 (constantI S_ 32 0#32))) (addi (broadcastInDim S4096x1 ![0] bcast_S4096_S4096x1_0 x_main_v5) (broadcastInDim S4096x1 ![] bcast_S_S4096x1 (constantI S_ 32 50257#32))) (broadcastInDim S4096x1 ![0] bcast_S4096_S4096x1_0 x_main_v5)) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 x_main_v5) (broadcastInDim S4096x1 ![] bcast_S_S4096x1 (constantI S_ 32 0#32))) (addi (broadcastInDim S4096x1 ![0] bcast_S4096_S4096x1_0 x_main_v5) (broadcastInDim S4096x1 ![] bcast_S_S4096x1 (constantI S_ 32 50257#32))) (broadcastInDim S4096x1 ![0] bcast_S4096_S4096x1_0 x_main_v5)) shapeCasts_S4096x1_S4096x1x1) (broadcastInDim S4096x1x1 ![0, 1, 2] bcast_S1x1x1_S4096x1x1_0_1_2 (broadcastInDim S1x1x1 ![2] bcast_S1_S1x1x1_2 (constantI S1 32 50256#32))))) (constantI S_ 1 1#1) reducesTo_S4096x1x1_S4096x1_d2 h_S_) (Host.gather gather_S4096x50257_S4096x1x1_S4096x1_n_1_0_0_1_2_11 x_main_v6 (shapeCast _ (select (cmpi .slt (broadcastInDim S4096x1 ![0] bcast_S4096_S4096x1_0 x_main_v5) (broadcastInDim S4096x1 ![] bcast_S_S4096x1 (constantI S_ 32 0#32))) (addi (broadcastInDim S4096x1 ![0] bcast_S4096_S4096x1_0 x_main_v5) (broadcastInDim S4096x1 ![] bcast_S_S4096x1 (constantI S_ 32 50257#32))) (broadcastInDim S4096x1 ![0] bcast_S4096_S4096x1_0 x_main_v5)) shapeCasts_S4096x1_S4096x1x1)) (broadcastInDim S4096x1 ![] bcast_S_S4096x1 (constant S_ .f32 0x7FC00000#32))

theorem a3_v8 (v : Valuation τ sig (Elt F)) :
    after opsA3 v (Proc.devRef .tc main_v8) = fA3_v8 (v (Proc.devRef .tc main_v5)) (v (Proc.devRef .tc main_v6)) := by
  unfold opsA3 fA3_v8; after_results_simp <;> (try simp only [ofBuf_toBuf]) <;> rfl

/-! ### Stretch A4: operations 49 to 63 -/

def opsA4 : List (HloOp τ sig (Elt F)) :=
  [ reshape main_v8 main_v9 rfl shapeCasts_S4096x1_S4096,
    unary main_v9 main_v10 (Host.negf : (⟨S4096, .f32⟩ : BufTy).Contents (Elt F) → (⟨S4096, .f32⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S4096, .f32⟩) main_call3_v1) (broadcastInDim S4096 ![] bcast_S_S4096),
    TRef.ternary (TRef.of (T := ⟨S4096, .i1⟩) main_v4) (TRef.of (T := ⟨S4096, .f32⟩) main_v10) (TRef.of (T := ⟨S4096, .f32⟩) main_call3_v1) (TRef.of (T := ⟨S4096, .f32⟩) main_v11) select,
    nullary main_cst_1 (constant S_ .f32 0x00000000#32),
    binary main_v11 main_cst_1 main_v12 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    unary main_v4 main_v13 ((extui 32 · natLt_1_32) : (⟨S4096, .i1⟩ : BufTy).Contents (Elt F) → (⟨S4096, .i32⟩ : BufTy).Contents (Elt F)),
    nullary main_c_2 (constantI S_ 32 0#32),
    binary main_v13 main_c_2 main_v14 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    nullary main_c_3 (constantI S_ 32 1#32),
    binary main_v14 main_c_3 main_v15 (maxsi : (⟨S_, .i32⟩ : BufTy).Contents (Elt F) → (⟨S_, .i32⟩ : BufTy).Contents (Elt F) → (⟨S_, .i32⟩ : BufTy).Contents (Elt F)),
    unary main_v15 main_v16 (sitofp .f32 : (⟨S_, .i32⟩ : BufTy).Contents (Elt F) → (⟨S_, .f32⟩ : BufTy).Contents (Elt F)),
    binary main_v12 main_v16 main_v17 (Host.divf : (⟨S_, .f32⟩ : BufTy).Contents (Elt F) → (⟨S_, .f32⟩ : BufTy).Contents (Elt F) → (⟨S_, .f32⟩ : BufTy).Contents (Elt F)) ]

/-- The references the stretch writes. -/
abbrev wA4 : List (Ref sig .tc) := [main_v9, main_v10, main_cst, main_call3_v0, main_call3_v1, main_v11, main_cst_1, main_v12, main_v13, main_c_2, main_v14, main_c_3, main_v15, main_v16, main_v17]

theorem opsA4_writes : (opsA4 : List (HloOp τ sig (Elt F))).Forall fun op => op.writes ⊆ (wA4.map (Proc.devRef (τ := τ) .tc)).toFinset := by
  unfold opsA4
  simp only [List.Forall, nullary_writes, unary_writes, binary_writes, ternary_writes, reshape_writes, Finset.singleton_subset_iff, List.mem_toFinset]
  repeat' apply And.intro
  all_goals exact List.mem_map_of_mem (by decide)

/-- A reference the stretch does not write keeps its contents through it. -/
theorem a4_keep (v : Valuation τ sig (Elt F)) (r : Ref sig .tc) (h : r ∉ wA4) :
    after opsA4 v (Proc.devRef .tc r) = v (Proc.devRef .tc r) :=
  after_of_writes_sub opsA4 v opsA4_writes h

/-- What the stretch leaves in `main_v17`, as a function of the buffers it reads. -/
def fA4_v17 (x_main_v4 : (⟨S4096, .i1⟩ : BufTy).Contents (Elt F)) (x_main_v8 : (⟨S4096x1, .f32⟩ : BufTy).Contents (Elt F)) : (⟨S_, .f32⟩ : BufTy).Contents (Elt F) :=
  Host.divf (Host.reduceAdd (select x_main_v4 (Host.negf (shapeCast _ x_main_v8 shapeCasts_S4096x1_S4096)) (broadcastInDim S4096 ![] bcast_S_S4096 (id (constant S_ .f32 0x00000000#32)))) (constant S_ .f32 0x00000000#32) reducesTo_S4096_S_d0 h_S_) (sitofp .f32 (maxsi (Host.reduce IntOp.addi (extui 32 x_main_v4 natLt_1_32) (constantI S_ 32 0#32) reducesTo_S4096_S_d0 h_S_) (constantI S_ 32 1#32)))

theorem a4_v17 (v : Valuation τ sig (Elt F)) :
    after opsA4 v (Proc.devRef .tc main_v17) = fA4_v17 (v (Proc.devRef .tc main_v4)) (v (Proc.devRef .tc main_v8)) := by
  unfold opsA4 fA4_v17; after_results_simp <;> (try simp only [ofBuf_toBuf]) <;> rfl

/-! ### Stretch B1: operations 64 to 73 -/

def opsB1 : List (HloOp τ sig (Elt F)) :=
  [ binary main_arg1 main_arg2 main_v18 ((fun l r => Host.dotGeneral dot_S2x2048x768_S50257x768_S2x2048x50257_2_1_01_0_n_n none l r) : (⟨S2x2048x768, .f32⟩ : BufTy).Contents (Elt F) → (⟨S50257x768, .f32⟩ : BufTy).Contents (Elt F) → (⟨S2x2048x50257, .f32⟩ : BufTy).Contents (Elt F)),
    reshape main_v18 main_v19 rfl shapeCasts_S2x2048x50257_S4096x50257,
    reshape main_arg3 main_v20 rfl shapeCasts_S2x2048_S4096,
    nullary main_c_4 (constantI S_ 32 4294967295#32),
    unary main_c_4 main_v21 (broadcastInDim S4096 ![] bcast_S_S4096 : (⟨S_, .i32⟩ : BufTy).Contents (Elt F) → (⟨S4096, .i32⟩ : BufTy).Contents (Elt F)),
    binary main_v20 main_v21 main_v22 (cmpi .ne : (⟨S4096, .i32⟩ : BufTy).Contents (Elt F) → (⟨S4096, .i32⟩ : BufTy).Contents (Elt F) → (⟨S4096, .i1⟩ : BufTy).Contents (Elt F)),
    nullary main_c_5 (constantI S_ 32 0#32),
    TRef.unary (TRef.of (T := ⟨S_, .i32⟩) main_c_5) (TRef.of (T := ⟨S_, .i32⟩) main_call4_v0) id,
    TRef.unary (TRef.of (T := ⟨S_, .i32⟩) main_call4_v0) (TRef.of (T := ⟨S4096, .i32⟩) main_call4_v1) (broadcastInDim S4096 ![] bcast_S_S4096),
    TRef.ternary (TRef.of (T := ⟨S4096, .i1⟩) main_v22) (TRef.of (T := ⟨S4096, .i32⟩) main_v20) (TRef.of (T := ⟨S4096, .i32⟩) main_call4_v1) (TRef.of (T := ⟨S4096, .i32⟩) main_v23) select ]

/-- The references the stretch writes. -/
abbrev wB1 : List (Ref sig .tc) := [main_v18, main_v19, main_v20, main_c_4, main_v21, main_v22, main_c_5, main_call4_v0, main_call4_v1, main_v23]

theorem opsB1_writes : (opsB1 : List (HloOp τ sig (Elt F))).Forall fun op => op.writes ⊆ (wB1.map (Proc.devRef (τ := τ) .tc)).toFinset := by
  unfold opsB1
  simp only [List.Forall, nullary_writes, unary_writes, binary_writes, ternary_writes, reshape_writes, Finset.singleton_subset_iff, List.mem_toFinset]
  repeat' apply And.intro
  all_goals exact List.mem_map_of_mem (by decide)

/-- A reference the stretch does not write keeps its contents through it. -/
theorem b1_keep (v : Valuation τ sig (Elt F)) (r : Ref sig .tc) (h : r ∉ wB1) :
    after opsB1 v (Proc.devRef .tc r) = v (Proc.devRef .tc r) :=
  after_of_writes_sub opsB1 v opsB1_writes h

/-- What the stretch leaves in `main_v19`, as a function of the buffers it reads. -/
def fB1_v19 (x_main_arg1 : (⟨S2x2048x768, .f32⟩ : BufTy).Contents (Elt F)) (x_main_arg2 : (⟨S50257x768, .f32⟩ : BufTy).Contents (Elt F)) : (⟨S4096x50257, .f32⟩ : BufTy).Contents (Elt F) :=
  shapeCast _ (Host.dotGeneral dot_S2x2048x768_S50257x768_S2x2048x50257_2_1_01_0_n_n none x_main_arg1 x_main_arg2) shapeCasts_S2x2048x50257_S4096x50257

theorem b1_v19 (v : Valuation τ sig (Elt F)) :
    after opsB1 v (Proc.devRef .tc main_v19) = fB1_v19 (v (Proc.devRef .tc main_arg1)) (v (Proc.devRef .tc main_arg2)) := by
  unfold opsB1 fB1_v19; after_results_simp <;> (try simp only [ofBuf_toBuf]) <;> rfl

/-- What the stretch leaves in `main_v22`, as a function of the buffers it reads. -/
def fB1_v22 (x_main_arg3 : (⟨S2x2048, .i32⟩ : BufTy).Contents (Elt F)) : (⟨S4096, .i1⟩ : BufTy).Contents (Elt F) :=
  cmpi .ne (shapeCast _ x_main_arg3 shapeCasts_S2x2048_S4096) (broadcastInDim S4096 ![] bcast_S_S4096 (constantI S_ 32 4294967295#32))

theorem b1_v22 (v : Valuation τ sig (Elt F)) :
    after opsB1 v (Proc.devRef .tc main_v22) = fB1_v22 (v (Proc.devRef .tc main_arg3)) := by
  unfold opsB1 fB1_v22; after_results_simp <;> (try simp only [ofBuf_toBuf]) <;> rfl

/-- What the stretch leaves in `main_v23`, as a function of the buffers it reads. -/
def fB1_v23 (x_main_arg3 : (⟨S2x2048, .i32⟩ : BufTy).Contents (Elt F)) : (⟨S4096, .i32⟩ : BufTy).Contents (Elt F) :=
  select (cmpi .ne (shapeCast _ x_main_arg3 shapeCasts_S2x2048_S4096) (broadcastInDim S4096 ![] bcast_S_S4096 (constantI S_ 32 4294967295#32))) (shapeCast _ x_main_arg3 shapeCasts_S2x2048_S4096) (broadcastInDim S4096 ![] bcast_S_S4096 (id (constantI S_ 32 0#32)))

theorem b1_v23 (v : Valuation τ sig (Elt F)) :
    after opsB1 v (Proc.devRef .tc main_v23) = fB1_v23 (v (Proc.devRef .tc main_arg3)) := by
  unfold opsB1 fB1_v23; after_results_simp <;> (try simp only [ofBuf_toBuf]) <;> rfl

/-! ### Stretch B2: operations 74 to 88 -/

def opsB2 : List (HloOp τ sig (Elt F)) :=
  [ TRef.nullary (TRef.of (T := ⟨S_, .f32⟩) main_call5_cst) (constant S_ .f32 0xFF800000#32),
    TRef.binary (TRef.of (T := ⟨S4096x50257, .f32⟩) main_v19) (TRef.of (T := ⟨S_, .f32⟩) main_call5_cst) (TRef.of (T := ⟨S4096, .f32⟩) main_call5_v0) (fun x v => Host.reduce FloatOps.maximumf x v reducesTo_S4096x50257_S4096_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S4096, .f32⟩) main_call5_v1) (broadcastInDim S4096 ![] bcast_S_S4096),
    TRef.binary (TRef.of (T := ⟨S4096, .f32⟩) main_call5_v1) (TRef.of (T := ⟨S4096, .f32⟩) main_call5_v0) (TRef.of (T := ⟨S4096, .f32⟩) main_call5_v2) maximumf,
    TRef.unary (TRef.of (T := ⟨S4096, .f32⟩) main_call5_v2) (TRef.of (T := ⟨S4096x1, .f32⟩) main_call5_v3) (broadcastInDim S4096x1 ![0] bcast_S4096_S4096x1_0),
    TRef.unary (TRef.of (T := ⟨S4096x1, .f32⟩) main_call5_v3) (TRef.of (T := ⟨S4096x50257, .f32⟩) main_call5_v4) (broadcastInDim S4096x50257 ![0, 1] bcast_S4096x1_S4096x50257_0_1),
    TRef.binary (TRef.of (T := ⟨S4096x50257, .f32⟩) main_v19) (TRef.of (T := ⟨S4096x50257, .f32⟩) main_call5_v4) (TRef.of (T := ⟨S4096x50257, .f32⟩) main_call5_v5) subf,
    TRef.unary (TRef.of (T := ⟨S4096x50257, .f32⟩) main_call5_v5) (TRef.of (T := ⟨S4096x50257, .f32⟩) main_call5_v6) Host.exp,
    TRef.nullary (TRef.of (T := ⟨S_, .f32⟩) main_call5_cst_1) (constant S_ .f32 0x00000000#32),
    TRef.binary (TRef.of (T := ⟨S4096x50257, .f32⟩) main_call5_v6) (TRef.of (T := ⟨S_, .f32⟩) main_call5_cst_1) (TRef.of (T := ⟨S4096, .f32⟩) main_call5_v7) (fun x v => Host.reduceAdd x v reducesTo_S4096x50257_S4096_d1 h_S_),
    TRef.unary (TRef.of (T := ⟨S4096, .f32⟩) main_call5_v7) (TRef.of (T := ⟨S4096x1, .f32⟩) main_call5_v8) (broadcastInDim S4096x1 ![0] bcast_S4096_S4096x1_0),
    TRef.unary (TRef.of (T := ⟨S4096x1, .f32⟩) main_call5_v8) (TRef.of (T := ⟨S4096x1, .f32⟩) main_call5_v9) Host.log,
    TRef.unary (TRef.of (T := ⟨S4096x1, .f32⟩) main_call5_v9) (TRef.of (T := ⟨S4096x50257, .f32⟩) main_call5_v10) (broadcastInDim S4096x50257 ![0, 1] bcast_S4096x1_S4096x50257_0_1),
    TRef.binary (TRef.of (T := ⟨S4096x50257, .f32⟩) main_call5_v5) (TRef.of (T := ⟨S4096x50257, .f32⟩) main_call5_v10) (TRef.of (T := ⟨S4096x50257, .f32⟩) main_v24) subf ]

/-- The references the stretch writes. -/
abbrev wB2 : List (Ref sig .tc) := [main_call5_cst, main_call5_v0, main_call5_cst_0, main_call5_v1, main_call5_v2, main_call5_v3, main_call5_v4, main_call5_v5, main_call5_v6, main_call5_cst_1, main_call5_v7, main_call5_v8, main_call5_v9, main_call5_v10, main_v24]

theorem opsB2_writes : (opsB2 : List (HloOp τ sig (Elt F))).Forall fun op => op.writes ⊆ (wB2.map (Proc.devRef (τ := τ) .tc)).toFinset := by
  unfold opsB2
  simp only [List.Forall, nullary_writes, unary_writes, binary_writes, ternary_writes, reshape_writes, Finset.singleton_subset_iff, List.mem_toFinset]
  repeat' apply And.intro
  all_goals exact List.mem_map_of_mem (by decide)

/-- A reference the stretch does not write keeps its contents through it. -/
theorem b2_keep (v : Valuation τ sig (Elt F)) (r : Ref sig .tc) (h : r ∉ wB2) :
    after opsB2 v (Proc.devRef .tc r) = v (Proc.devRef .tc r) :=
  after_of_writes_sub opsB2 v opsB2_writes h

/-- What the stretch leaves in `main_v24`, as a function of the buffers it reads. -/
def fB2_v24 (x_main_v19 : (⟨S4096x50257, .f32⟩ : BufTy).Contents (Elt F)) : (⟨S4096x50257, .f32⟩ : BufTy).Contents (Elt F) :=
  subf (subf x_main_v19 (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf x_main_v19 (constant S_ .f32 0xFF800000#32) reducesTo_S4096x50257_S4096_d1 h_S_))))) (broadcastInDim S4096x50257 ![0, 1] bcast_S4096x1_S4096x50257_0_1 (Host.log (broadcastInDim S4096x1 ![0] bcast_S4096_S4096x1_0 (Host.reduceAdd (Host.exp (subf x_main_v19 (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf x_main_v19 (constant S_ .f32 0xFF800000#32) reducesTo_S4096x50257_S4096_d1 h_S_)))))) (constant S_ .f32 0x00000000#32) reducesTo_S4096x50257_S4096_d1 h_S_))))

theorem b2_v24 (v : Valuation τ sig (Elt F)) :
    after opsB2 v (Proc.devRef .tc main_v24) = fB2_v24 (v (Proc.devRef .tc main_v19)) := by
  unfold opsB2 fB2_v24; after_results_simp <;> (try simp only [ofBuf_toBuf]) <;> rfl

/-! ### Stretch B3: operations 89 to 111 -/

def opsB3 : List (HloOp τ sig (Elt F)) :=
  [ unary main_v23 main_v25 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S4096x1, .i32⟩) main_call6_v0) (broadcastInDim S4096x1 ![] bcast_S_S4096x1),
    TRef.binary (TRef.of (T := ⟨S4096x1, .i32⟩) main_v25) (TRef.of (T := ⟨S4096x1, .i32⟩) main_call6_v0) (TRef.of (T := ⟨S4096x1, .i1⟩) main_call6_v1) (cmpi .slt),
    TRef.nullary (TRef.of (T := ⟨S_, .i32⟩) main_call6_c_0) (constantI S_ 32 50257#32),
    TRef.unary (TRef.of (T := ⟨S_, .i32⟩) main_call6_c_0) (TRef.of (T := ⟨S4096x1, .i32⟩) main_call6_v2) (broadcastInDim S4096x1 ![] bcast_S_S4096x1),
    TRef.binary (TRef.of (T := ⟨S4096x1, .i32⟩) main_v25) (TRef.of (T := ⟨S4096x1, .i32⟩) main_call6_v2) (TRef.of (T := ⟨S4096x1, .i32⟩) main_call6_v3) addi,
    TRef.ternary (TRef.of (T := ⟨S4096x1, .i1⟩) main_call6_v1) (TRef.of (T := ⟨S4096x1, .i32⟩) main_call6_v3) (TRef.of (T := ⟨S4096x1, .i32⟩) main_v25) (TRef.of (T := ⟨S4096x1, .i32⟩) main_call6_v4) select,
    TRef.reshape (TRef.of (T := ⟨S4096x1, .i32⟩) main_call6_v4) (TRef.of (T := ⟨S4096x1x1, .i32⟩) main_call6_v5) rfl shapeCasts_S4096x1_S4096x1x1,
    TRef.nullary (TRef.of (T := ⟨S1, .i32⟩) main_call6_c_1) (constantI S1 32 50256#32),
    TRef.nullary (TRef.of (T := ⟨S_, .i32⟩) main_call6_c_2) (constantI S_ 32 0#32),
    TRef.unary (TRef.of (T := ⟨S_, .i32⟩) main_call6_c_2) (TRef.of (T := ⟨S4096x1x1, .i32⟩) main_call6_v6) (broadcastInDim S4096x1x1 ![] bcast_S_S4096x1x1),
    TRef.binary (TRef.of (T := ⟨S4096x1x1, .i32⟩) main_call6_v5) (TRef.of (T := ⟨S4096x1x1, .i32⟩) main_call6_v6) (TRef.of (T := ⟨S4096x1x1, .i1⟩) main_call6_v7) (cmpi .sge),
    TRef.unary (TRef.of (T := ⟨S1, .i32⟩) main_call6_c_1) (TRef.of (T := ⟨S1x1x1, .i32⟩) main_call6_v8) (broadcastInDim S1x1x1 ![2] bcast_S1_S1x1x1_2),
    TRef.unary (TRef.of (T := ⟨S1x1x1, .i32⟩) main_call6_v8) (TRef.of (T := ⟨S4096x1x1, .i32⟩) main_call6_v9) (broadcastInDim S4096x1x1 ![0, 1, 2] bcast_S1x1x1_S4096x1x1_0_1_2),
    TRef.binary (TRef.of (T := ⟨S4096x1x1, .i32⟩) main_call6_v5) (TRef.of (T := ⟨S4096x1x1, .i32⟩) main_call6_v9) (TRef.of (T := ⟨S4096x1x1, .i1⟩) main_call6_v10) (cmpi .sle),
    TRef.binary (TRef.of (T := ⟨S4096x1x1, .i1⟩) main_call6_v7) (TRef.of (T := ⟨S4096x1x1, .i1⟩) main_call6_v10) (TRef.of (T := ⟨S4096x1x1, .i1⟩) main_call6_v11) andi,
    TRef.nullary (TRef.of (T := ⟨S_, .i1⟩) main_call6_c_3) (constantI S_ 1 1#1),
    TRef.binary (TRef.of (T := ⟨S4096x1x1, .i1⟩) main_call6_v11) (TRef.of (T := ⟨S_, .i1⟩) main_call6_c_3) (TRef.of (T := ⟨S4096x1, .i1⟩) main_call6_v12) (fun x v => Host.reduce IntOp.andi x v reducesTo_S4096x1x1_S4096x1_d2 h_S_),
    TRef.binary (TRef.of (T := ⟨S4096x50257, .f32⟩) main_v24) (TRef.of (T := ⟨S4096x1x1, .i32⟩) main_call6_v5) (TRef.of (T := ⟨S4096x1, .f32⟩) main_call6_v13) (fun x i => Host.gather gather_S4096x50257_S4096x1x1_S4096x1_n_1_0_0_1_2_11 x i),
    TRef.nullary (TRef.of (T := ⟨S_, .f32⟩) main_call6_cst) (constant S_ .f32 0x7FC00000#32),
    TRef.unary (TRef.of (T := ⟨S_, .f32⟩) main_call6_cst) (TRef.of (T := ⟨S4096x1, .f32⟩) main_call6_v14) (broadcastInDim S4096x1 ![] bcast_S_S4096x1),
    TRef.ternary (TRef.of (T := ⟨S4096x1, .i1⟩) main_call6_v12) (TRef.of (T := ⟨S4096x1, .f32⟩) main_call6_v13) (TRef.of (T := ⟨S4096x1, .f32⟩) main_call6_v14) (TRef.of (T := ⟨S4096x1, .f32⟩) main_v26) select ]

/-- The references the stretch writes. -/
abbrev wB3 : List (Ref sig .tc) := [main_v25, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v26]

theorem opsB3_writes : (opsB3 : List (HloOp τ sig (Elt F))).Forall fun op => op.writes ⊆ (wB3.map (Proc.devRef (τ := τ) .tc)).toFinset := by
  unfold opsB3
  simp only [List.Forall, nullary_writes, unary_writes, binary_writes, ternary_writes, reshape_writes, Finset.singleton_subset_iff, List.mem_toFinset]
  repeat' apply And.intro
  all_goals exact List.mem_map_of_mem (by decide)

/-- A reference the stretch does not write keeps its contents through it. -/
theorem b3_keep (v : Valuation τ sig (Elt F)) (r : Ref sig .tc) (h : r ∉ wB3) :
    after opsB3 v (Proc.devRef .tc r) = v (Proc.devRef .tc r) :=
  after_of_writes_sub opsB3 v opsB3_writes h

/-- What the stretch leaves in `main_v26`, as a function of the buffers it reads. -/
def fB3_v26 (x_main_v23 : (⟨S4096, .i32⟩ : BufTy).Contents (Elt F)) (x_main_v24 : (⟨S4096x50257, .f32⟩ : BufTy).Contents (Elt F)) : (⟨S4096x1, .f32⟩ : BufTy).Contents (Elt F) :=
  select (Host.reduce IntOp.andi (andi (cmpi .sge (shapeCast _ (select (cmpi .slt (broadcastInDim S4096x1 ![0] bcast_S4096_S4096x1_0 x_main_v23) (broadcastInDim S4096x1 ![] bcast_S_S4096x1 (constantI S_ 32 0#32))) (addi (broadcastInDim S4096x1 ![0] bcast_S4096_S4096x1_0 x_main_v23) (broadcastInDim S4096x1 ![] bcast_S_S4096x1 (constantI S_ 32 50257#32))) (broadcastInDim S4096x1 ![0] bcast_S4096_S4096x1_0 x_main_v23)) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 x_main_v23) (broadcastInDim S4096x1 ![] bcast_S_S4096x1 (constantI S_ 32 0#32))) (addi (broadcastInDim S4096x1 ![0] bcast_S4096_S4096x1_0 x_main_v23) (broadcastInDim S4096x1 ![] bcast_S_S4096x1 (constantI S_ 32 50257#32))) (broadcastInDim S4096x1 ![0] bcast_S4096_S4096x1_0 x_main_v23)) shapeCasts_S4096x1_S4096x1x1) (broadcastInDim S4096x1x1 ![0, 1, 2] bcast_S1x1x1_S4096x1x1_0_1_2 (broadcastInDim S1x1x1 ![2] bcast_S1_S1x1x1_2 (constantI S1 32 50256#32))))) (constantI S_ 1 1#1) reducesTo_S4096x1x1_S4096x1_d2 h_S_) (Host.gather gather_S4096x50257_S4096x1x1_S4096x1_n_1_0_0_1_2_11 x_main_v24 (shapeCast _ (select (cmpi .slt (broadcastInDim S4096x1 ![0] bcast_S4096_S4096x1_0 x_main_v23) (broadcastInDim S4096x1 ![] bcast_S_S4096x1 (constantI S_ 32 0#32))) (addi (broadcastInDim S4096x1 ![0] bcast_S4096_S4096x1_0 x_main_v23) (broadcastInDim S4096x1 ![] bcast_S_S4096x1 (constantI S_ 32 50257#32))) (broadcastInDim S4096x1 ![0] bcast_S4096_S4096x1_0 x_main_v23)) shapeCasts_S4096x1_S4096x1x1)) (broadcastInDim S4096x1 ![] bcast_S_S4096x1 (constant S_ .f32 0x7FC00000#32))

theorem b3_v26 (v : Valuation τ sig (Elt F)) :
    after opsB3 v (Proc.devRef .tc main_v26) = fB3_v26 (v (Proc.devRef .tc main_v23)) (v (Proc.devRef .tc main_v24)) := by
  unfold opsB3 fB3_v26; after_results_simp <;> (try simp only [ofBuf_toBuf]) <;> rfl

/-! ### Stretch B4: operations 112 to 126 -/

def opsB4 : List (HloOp τ sig (Elt F)) :=
  [ reshape main_v26 main_v27 rfl shapeCasts_S4096x1_S4096,
    unary main_v27 main_v28 (Host.negf : (⟨S4096, .f32⟩ : BufTy).Contents (Elt F) → (⟨S4096, .f32⟩ : BufTy).Contents (Elt F)),
    nullary main_cst_6 (constant S_ .f32 0x00000000#32),
    TRef.unary (TRef.of (T := ⟨S_, .f32⟩) main_cst_6) (TRef.of (T := ⟨S_, .f32⟩) main_call7_v0) id,
    TRef.unary (TRef.of (T := ⟨S_, .f32⟩) main_call7_v0) (TRef.of (T := ⟨S4096, .f32⟩) main_call7_v1) (broadcastInDim S4096 ![] bcast_S_S4096),
    TRef.ternary (TRef.of (T := ⟨S4096, .i1⟩) main_v22) (TRef.of (T := ⟨S4096, .f32⟩) main_v28) (TRef.of (T := ⟨S4096, .f32⟩) main_call7_v1) (TRef.of (T := ⟨S4096, .f32⟩) main_v29) select,
    nullary main_cst_7 (constant S_ .f32 0x00000000#32),
    binary main_v29 main_cst_7 main_v30 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    unary main_v22 main_v31 ((extui 32 · natLt_1_32) : (⟨S4096, .i1⟩ : BufTy).Contents (Elt F) → (⟨S4096, .i32⟩ : BufTy).Contents (Elt F)),
    nullary main_c_8 (constantI S_ 32 0#32),
    binary main_v31 main_c_8 main_v32 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    nullary main_c_9 (constantI S_ 32 1#32),
    binary main_v32 main_c_9 main_v33 (maxsi : (⟨S_, .i32⟩ : BufTy).Contents (Elt F) → (⟨S_, .i32⟩ : BufTy).Contents (Elt F) → (⟨S_, .i32⟩ : BufTy).Contents (Elt F)),
    unary main_v33 main_v34 (sitofp .f32 : (⟨S_, .i32⟩ : BufTy).Contents (Elt F) → (⟨S_, .f32⟩ : BufTy).Contents (Elt F)),
    binary main_v30 main_v34 main_v35 (Host.divf : (⟨S_, .f32⟩ : BufTy).Contents (Elt F) → (⟨S_, .f32⟩ : BufTy).Contents (Elt F) → (⟨S_, .f32⟩ : BufTy).Contents (Elt F)) ]

/-- The references the stretch writes. -/
abbrev wB4 : List (Ref sig .tc) := [main_v27, main_v28, main_cst_6, main_call7_v0, main_call7_v1, main_v29, main_cst_7, main_v30, main_v31, main_c_8, main_v32, main_c_9, main_v33, main_v34, main_v35]

theorem opsB4_writes : (opsB4 : List (HloOp τ sig (Elt F))).Forall fun op => op.writes ⊆ (wB4.map (Proc.devRef (τ := τ) .tc)).toFinset := by
  unfold opsB4
  simp only [List.Forall, nullary_writes, unary_writes, binary_writes, ternary_writes, reshape_writes, Finset.singleton_subset_iff, List.mem_toFinset]
  repeat' apply And.intro
  all_goals exact List.mem_map_of_mem (by decide)

/-- A reference the stretch does not write keeps its contents through it. -/
theorem b4_keep (v : Valuation τ sig (Elt F)) (r : Ref sig .tc) (h : r ∉ wB4) :
    after opsB4 v (Proc.devRef .tc r) = v (Proc.devRef .tc r) :=
  after_of_writes_sub opsB4 v opsB4_writes h

/-- What the stretch leaves in `main_v35`, as a function of the buffers it reads. -/
def fB4_v35 (x_main_v22 : (⟨S4096, .i1⟩ : BufTy).Contents (Elt F)) (x_main_v26 : (⟨S4096x1, .f32⟩ : BufTy).Contents (Elt F)) : (⟨S_, .f32⟩ : BufTy).Contents (Elt F) :=
  Host.divf (Host.reduceAdd (select x_main_v22 (Host.negf (shapeCast _ x_main_v26 shapeCasts_S4096x1_S4096)) (broadcastInDim S4096 ![] bcast_S_S4096 (id (constant S_ .f32 0x00000000#32)))) (constant S_ .f32 0x00000000#32) reducesTo_S4096_S_d0 h_S_) (sitofp .f32 (maxsi (Host.reduce IntOp.addi (extui 32 x_main_v22 natLt_1_32) (constantI S_ 32 0#32) reducesTo_S4096_S_d0 h_S_) (constantI S_ 32 1#32)))

theorem b4_v35 (v : Valuation τ sig (Elt F)) :
    after opsB4 v (Proc.devRef .tc main_v35) = fB4_v35 (v (Proc.devRef .tc main_v22)) (v (Proc.devRef .tc main_v26)) := by
  unfold opsB4 fB4_v35; after_results_simp <;> (try simp only [ofBuf_toBuf]) <;> rfl

/-! ### Stretch C: operations 127 to 157 -/

def opsC : List (HloOp τ sig (Elt F)) :=
  [ binary main_v17 main_v35 main_v36 (subf : (⟨S_, .f32⟩ : BufTy).Contents (Elt F) → (⟨S_, .f32⟩ : BufTy).Contents (Elt F) → (⟨S_, .f32⟩ : BufTy).Contents (Elt F)),
    nullary main_cst_10 (constant S_ .f32 0xBF000000#32),
    binary main_cst_10 main_v36 main_v37 (mulf : (⟨S_, .f32⟩ : BufTy).Contents (Elt F) → (⟨S_, .f32⟩ : BufTy).Contents (Elt F) → (⟨S_, .f32⟩ : BufTy).Contents (Elt F)),
    reshape main_arg0 main_v38 rfl shapeCasts_S2x2048x768_S4096x768,
    reshape main_arg1 main_v39 rfl shapeCasts_S2x2048x768_S4096x768,
    TRef.binary (TRef.of (T := ⟨S4096x768, .f32⟩) main_v38) (TRef.of (T := ⟨S4096x768, .f32⟩) main_v38) (TRef.of (T := ⟨S4096x768, .f32⟩) main_call8_v0) mulf,
    TRef.nullary (TRef.of (T := ⟨S_, .f32⟩) main_call8_cst) (constant S_ .f32 0x00000000#32),
    TRef.binary (TRef.of (T := ⟨S4096x768, .f32⟩) main_call8_v0) (TRef.of (T := ⟨S_, .f32⟩) main_call8_cst) (TRef.of (T := ⟨S4096, .f32⟩) main_call8_v1) (fun x v => Host.reduceAdd x v reducesTo_S4096x768_S4096_d1 h_S_),
    TRef.unary (TRef.of (T := ⟨S4096, .f32⟩) main_call8_v1) (TRef.of (T := ⟨S4096, .f32⟩) main_v40) Host.sqrt,
    nullary main_cst_11 (constant S_ .f32 0x322BCC77#32),
    unary main_cst_11 main_v41 (broadcastInDim S4096 ![] bcast_S_S4096 : (⟨S_, .f32⟩ : BufTy).Contents (Elt F) → (⟨S4096, .f32⟩ : BufTy).Contents (Elt F)),
    binary main_v40 main_v41 main_v42 (maximumf : (⟨S4096, .f32⟩ : BufTy).Contents (Elt F) → (⟨S4096, .f32⟩ : BufTy).Contents (Elt F) → (⟨S4096, .f32⟩ : BufTy).Contents (Elt F)),
    TRef.binary (TRef.of (T := ⟨S4096x768, .f32⟩) main_v39) (TRef.of (T := ⟨S4096x768, .f32⟩) main_v39) (TRef.of (T := ⟨S4096x768, .f32⟩) main_call9_v0) mulf,
    TRef.nullary (TRef.of (T := ⟨S_, .f32⟩) main_call9_cst) (constant S_ .f32 0x00000000#32),
    TRef.binary (TRef.of (T := ⟨S4096x768, .f32⟩) main_call9_v0) (TRef.of (T := ⟨S_, .f32⟩) main_call9_cst) (TRef.of (T := ⟨S4096, .f32⟩) main_call9_v1) (fun x v => Host.reduceAdd x v reducesTo_S4096x768_S4096_d1 h_S_),
    TRef.unary (TRef.of (T := ⟨S4096, .f32⟩) main_call9_v1) (TRef.of (T := ⟨S4096, .f32⟩) main_v43) Host.sqrt,
    nullary main_cst_12 (constant S_ .f32 0x322BCC77#32),
    unary main_cst_12 main_v44 (broadcastInDim S4096 ![] bcast_S_S4096 : (⟨S_, .f32⟩ : BufTy).Contents (Elt F) → (⟨S4096, .f32⟩ : BufTy).Contents (Elt F)),
    binary main_v43 main_v44 main_v45 (maximumf : (⟨S4096, .f32⟩ : BufTy).Contents (Elt F) → (⟨S4096, .f32⟩ : BufTy).Contents (Elt F) → (⟨S4096, .f32⟩ : BufTy).Contents (Elt F)),
    binary main_v38 main_v39 main_v46 (mulf : (⟨S4096x768, .f32⟩ : BufTy).Contents (Elt F) → (⟨S4096x768, .f32⟩ : BufTy).Contents (Elt F) → (⟨S4096x768, .f32⟩ : BufTy).Contents (Elt F)),
    nullary main_cst_13 (constant S_ .f32 0x00000000#32),
    binary main_v46 main_cst_13 main_v47 ((fun x v => Host.reduceAdd x v reducesTo_S4096x768_S4096_d1 h_S_) : (⟨S4096x768, .f32⟩ : BufTy).Contents (Elt F) → (⟨S_, .f32⟩ : BufTy).Contents (Elt F) → (⟨S4096, .f32⟩ : BufTy).Contents (Elt F)),
    binary main_v42 main_v45 main_v48 (mulf : (⟨S4096, .f32⟩ : BufTy).Contents (Elt F) → (⟨S4096, .f32⟩ : BufTy).Contents (Elt F) → (⟨S4096, .f32⟩ : BufTy).Contents (Elt F)),
    binary main_v47 main_v48 main_v49 (Host.divf : (⟨S4096, .f32⟩ : BufTy).Contents (Elt F) → (⟨S4096, .f32⟩ : BufTy).Contents (Elt F) → (⟨S4096, .f32⟩ : BufTy).Contents (Elt F)),
    nullary main_cst_14 (constant S_ .f32 0x00000000#32),
    binary main_v49 main_cst_14 main_v50 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_15 (constant S_ .f32 0x45800000#32),
    binary main_v50 main_cst_15 main_v51 (Host.divf : (⟨S_, .f32⟩ : BufTy).Contents (Elt F) → (⟨S_, .f32⟩ : BufTy).Contents (Elt F) → (⟨S_, .f32⟩ : BufTy).Contents (Elt F)),
    nullary main_cst_16 (constant S_ .f32 0x3DCCCCCD#32),
    binary main_cst_16 main_v51 main_v52 (mulf : (⟨S_, .f32⟩ : BufTy).Contents (Elt F) → (⟨S_, .f32⟩ : BufTy).Contents (Elt F) → (⟨S_, .f32⟩ : BufTy).Contents (Elt F)),
    binary main_v37 main_v52 main_v53 (addf : (⟨S_, .f32⟩ : BufTy).Contents (Elt F) → (⟨S_, .f32⟩ : BufTy).Contents (Elt F) → (⟨S_, .f32⟩ : BufTy).Contents (Elt F)) ]

/-- The references the stretch writes. -/
abbrev wC : List (Ref sig .tc) := [main_v36, main_cst_10, main_v37, main_v38, main_v39, main_call8_v0, main_call8_cst, main_call8_v1, main_v40, main_cst_11, main_v41, main_v42, main_call9_v0, main_call9_cst, main_call9_v1, main_v43, main_cst_12, main_v44, main_v45, main_v46, main_cst_13, main_v47, main_v48, main_v49, main_cst_14, main_v50, main_cst_15, main_v51, main_cst_16, main_v52, main_v53]

theorem opsC_writes : (opsC : List (HloOp τ sig (Elt F))).Forall fun op => op.writes ⊆ (wC.map (Proc.devRef (τ := τ) .tc)).toFinset := by
  unfold opsC
  simp only [List.Forall, nullary_writes, unary_writes, binary_writes, ternary_writes, reshape_writes, Finset.singleton_subset_iff, List.mem_toFinset]
  repeat' apply And.intro
  all_goals exact List.mem_map_of_mem (by decide)

/-- A reference the stretch does not write keeps its contents through it. -/
theorem c_keep (v : Valuation τ sig (Elt F)) (r : Ref sig .tc) (h : r ∉ wC) :
    after opsC v (Proc.devRef .tc r) = v (Proc.devRef .tc r) :=
  after_of_writes_sub opsC v opsC_writes h

/-- What the stretch leaves in `main_v53`, as a function of the buffers it reads. -/
def fC_v53 (x_main_arg0 : (⟨S2x2048x768, .f32⟩ : BufTy).Contents (Elt F)) (x_main_arg1 : (⟨S2x2048x768, .f32⟩ : BufTy).Contents (Elt F)) (x_main_v17 : (⟨S_, .f32⟩ : BufTy).Contents (Elt F)) (x_main_v35 : (⟨S_, .f32⟩ : BufTy).Contents (Elt F)) : (⟨S_, .f32⟩ : BufTy).Contents (Elt F) :=
  addf (mulf (constant S_ .f32 0xBF000000#32) (subf x_main_v17 x_main_v35)) (mulf (constant S_ .f32 0x3DCCCCCD#32) (Host.divf (Host.reduceAdd (Host.divf (Host.reduceAdd (mulf (shapeCast _ x_main_arg0 shapeCasts_S2x2048x768_S4096x768) (shapeCast _ x_main_arg1 shapeCasts_S2x2048x768_S4096x768)) (constant S_ .f32 0x00000000#32) reducesTo_S4096x768_S4096_d1 h_S_) (mulf (maximumf (Host.sqrt (Host.reduceAdd (mulf (shapeCast _ x_main_arg0 shapeCasts_S2x2048x768_S4096x768) (shapeCast _ x_main_arg0 shapeCasts_S2x2048x768_S4096x768)) (constant S_ .f32 0x00000000#32) reducesTo_S4096x768_S4096_d1 h_S_)) (broadcastInDim S4096 ![] bcast_S_S4096 (constant S_ .f32 0x322BCC77#32))) (maximumf (Host.sqrt (Host.reduceAdd (mulf (shapeCast _ x_main_arg1 shapeCasts_S2x2048x768_S4096x768) (shapeCast _ x_main_arg1 shapeCasts_S2x2048x768_S4096x768)) (constant S_ .f32 0x00000000#32) reducesTo_S4096x768_S4096_d1 h_S_)) (broadcastInDim S4096 ![] bcast_S_S4096 (constant S_ .f32 0x322BCC77#32))))) (constant S_ .f32 0x00000000#32) reducesTo_S4096_S_d0 h_S_) (constant S_ .f32 0x45800000#32)))

theorem c_v53 (v : Valuation τ sig (Elt F)) :
    after opsC v (Proc.devRef .tc main_v53) = fC_v53 (v (Proc.devRef .tc main_arg0)) (v (Proc.devRef .tc main_arg1)) (v (Proc.devRef .tc main_v17)) (v (Proc.devRef .tc main_v35)) := by
  unfold opsC fC_v53; after_results_simp <;> (try simp only [ofBuf_toBuf]) <;> rfl

/-! ### The cut, and the three legs composed -/

/-- Running two lists one after the other is running their concatenation. -/
theorem after_cat (l₁ l₂ : List (HloOp τ sig (Elt F))) (v : Valuation τ sig (Elt F)) :
    after (l₁ ++ l₂) v = after l₂ (after l₁ v) := by
  induction l₁ generalizing v with
  | nil => rfl
  | cons op l ih => simp only [List.cons_append, after_cons, ih]

set_option maxRecDepth 8192 in
/-- The operation list is its nine stretches, in order. -/
theorem ops_cut : (ops : List (HloOp τ sig (Elt F))) = opsA1 ++ (opsA2 ++ (opsA3 ++ (opsA4 ++ (opsB1 ++ (opsB2 ++ (opsB3 ++ (opsB4 ++ (opsC)))))))) := rfl

set_option maxRecDepth 8192 in
/-- The generated composed term of the result is the stretches' functions composed: the two cross-entropy legs
    (arguments 0, 2, 3 and arguments 1, 2, 3) feeding the tail, which also reads arguments 0 and 1 for the cosine term. -/
theorem res_cut (m : (ℓ : Loc nD τ sig) → Buf (Elt F) ℓ) (c : Dev nD) :
    res_main_v53 m c = fC_v53 (m ((c.tc : Thread nD τ).loc main_arg0)) (m ((c.tc : Thread nD τ).loc main_arg1)) (fA4_v17 (fA1_v4 (m ((c.tc : Thread nD τ).loc main_arg3))) (fA3_v8 (fA1_v5 (m ((c.tc : Thread nD τ).loc main_arg3))) (fA2_v6 (fA1_v1 (m ((c.tc : Thread nD τ).loc main_arg0)) (m ((c.tc : Thread nD τ).loc main_arg2)))))) (fB4_v35 (fB1_v22 (m ((c.tc : Thread nD τ).loc main_arg3))) (fB3_v26 (fB1_v23 (m ((c.tc : Thread nD τ).loc main_arg3))) (fB2_v24 (fB1_v19 (m ((c.tc : Thread nD τ).loc main_arg1)) (m ((c.tc : Thread nD τ).loc main_arg2)))))) := rfl

attribute [local irreducible] opsA1 opsA2 opsA3 opsA4 opsB1 opsB2 opsB3 opsB4 opsC

/-- The first cross-entropy leg (stretches A1 to A4) leaves in `main_v17` a function of the arguments 0, 2 and 3. -/
theorem legA_v17 (v : Valuation τ sig (Elt F)) :
    after opsA4 (after opsA3 (after opsA2 (after opsA1 v))) (Proc.devRef .tc main_v17) =
      fA4_v17 (fA1_v4 (v (Proc.devRef .tc main_arg3))) (fA3_v8 (fA1_v5 (v (Proc.devRef .tc main_arg3))) (fA2_v6 (fA1_v1 (v (Proc.devRef .tc main_arg0)) (v (Proc.devRef .tc main_arg2))))) := by
  rw [a4_v17, a3_v8, a3_keep _ main_v4 (by decide), a2_v6, a2_keep _ main_v5 (by decide), a2_keep _ main_v4 (by decide),
    a1_v1, a1_v4, a1_v5]

/-- A reference none of the stretches A1 to A4 writes keeps its contents through the leg. -/
theorem legA_keep (v : Valuation τ sig (Elt F)) (r : Ref sig .tc) (h1 : r ∉ wA1) (h2 : r ∉ wA2) (h3 : r ∉ wA3) (h4 : r ∉ wA4) :
    after opsA4 (after opsA3 (after opsA2 (after opsA1 v))) (Proc.devRef .tc r) = v (Proc.devRef .tc r) := by
  rw [a4_keep _ r h4, a3_keep _ r h3, a2_keep _ r h2, a1_keep _ r h1]

/-- The second cross-entropy leg (stretches B1 to B4) leaves in `main_v35` a function of the arguments 1, 2 and 3. -/
theorem legB_v35 (v : Valuation τ sig (Elt F)) :
    after opsB4 (after opsB3 (after opsB2 (after opsB1 v))) (Proc.devRef .tc main_v35) =
      fB4_v35 (fB1_v22 (v (Proc.devRef .tc main_arg3))) (fB3_v26 (fB1_v23 (v (Proc.devRef .tc main_arg3))) (fB2_v24 (fB1_v19 (v (Proc.devRef .tc main_arg1)) (v (Proc.devRef .tc main_arg2))))) := by
  rw [b4_v35, b3_v26, b3_keep _ main_v22 (by decide), b2_v24, b2_keep _ main_v23 (by decide), b2_keep _ main_v22 (by decide),
    b1_v19, b1_v22, b1_v23]

/-- A reference none of the stretches B1 to B4 writes keeps its contents through the leg. -/
theorem legB_keep (v : Valuation τ sig (Elt F)) (r : Ref sig .tc) (h1 : r ∉ wB1) (h2 : r ∉ wB2) (h3 : r ∉ wB3) (h4 : r ∉ wB4) :
    after opsB4 (after opsB3 (after opsB2 (after opsB1 v))) (Proc.devRef .tc r) = v (Proc.devRef .tc r) := by
  rw [b4_keep _ r h4, b3_keep _ r h3, b2_keep _ r h2, b1_keep _ r h1]

/-- The result buffer after all 157 operations, from the launch contents, is the generated composed term of the arguments. -/
theorem after_v53 (m : (ℓ : Loc nD τ sig) → Buf (Elt F) ℓ) (c : Dev nD) :
    after ops (launchContents m c) (Proc.devRef .tc main_v53) = res_main_v53 m c := by
  rw [ops_cut, res_cut]
  simp only [after_cat]
  rw [c_v53, legB_v35,
    legB_keep _ main_v17 (by decide) (by decide) (by decide) (by decide),
    legB_keep _ main_arg0 (by decide) (by decide) (by decide) (by decide),
    legB_keep _ main_arg1 (by decide) (by decide) (by decide) (by decide),
    legA_v17,
    legA_keep _ main_arg0 (by decide) (by decide) (by decide) (by decide),
    legA_keep _ main_arg1 (by decide) (by decide) (by decide) (by decide),
    legA_keep _ main_arg2 (by decide) (by decide) (by decide) (by decide),
    legA_keep _ main_arg3 (by decide) (by decide) (by decide) (by decide)]

/-- The reference program's run. From any memory whose counters are zero, on every device and for any float
    family, each weakly fair execution of @main ends; in every final state the result buffer `main_v53` holds
    `res_main_v53` of the launch contents, and each of the four argument buffers holds what it held at launch. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = res_main_v53 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v53).trans (after_v53 m c),
      (h c main_arg0).trans (after_arg0 _),
      (h c main_arg1).trans (after_arg1 _),
      (h c main_arg2).trans (after_arg2 _),
      (h c main_arg3).trans (after_arg3 _)⟩)
    (run_seq scopedRefs_eq scopedSems_eq defs main (fun _ => ops) main_eq (fun _ => ops_sub) m ρ (hfresh := fun _ => ops_fresh))

end Cert.ReferenceIdeal.Value

end
-- ==== Proof.RefLoss.lean ====
/- The reference's cosine leg and the assembly of its result, at the exact instance.

   The reference reshapes each hidden array [2, 2048, 768] to 4096 rows of width 768, takes each row's Euclidean norm
   floored at a small positive constant, divides the rows' inner product by the product of the two floored norms, and
   averages the 4096 quotients; its result is -1/2 times the difference of the two masked mean cross-entropies plus 0.1
   times that average. Over real tables of the rows every intermediate is a real: a sum of squares is non-negative, so
   its square root is real; a floored norm is positive, so the quotient is the real quotient; the constants 4096, -1/2
   and 0.1 are reals. Each step is a coercion pushed outwards, and the result is the specification's loss. The two
   cross-entropy legs enter as hypotheses. -/
import proofs.«419146_j12747462935019_2_alg».proof.Proof.RefRunP
import proofs.«419146_j12747462935019_2_alg».proof.Proof.RefReadP
import proofs.«419146_j12747462935019_2_alg».proof.Proof.Spec
import proofs.«419146_j12747462935019_2_alg».proof.Proof.Consts
import Idealize.ShloMosaic.Lib.ValueIdx
import Idealize.ShloMosaic.Lib.ValueIdxRank1

noncomputable section

namespace Cert.ReferenceIdeal.RefLoss

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Pure facts on extended reals -/

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion is monotone, so it commutes with the maximum. -/
theorem coe_max (a b : ℝ) : max ((a : ℝ) : EReal) ((b : ℝ) : EReal) = ((max a b : ℝ) : EReal) :=
  (EReal.coe_strictMono.monotone.map_max).symm

/-- The ideal square root of a non-negative real is the real square root. -/
theorem sqrt_coe_nonneg {r : ℝ} (h : 0 ≤ r) : Ideal.sqrt ((r : ℝ) : EReal) = ((Real.sqrt r : ℝ) : EReal) := by
  rw [Ideal.sqrt_coe, if_neg (not_lt.mpr h)]

/-- The ideal quotient of two reals with a nonzero divisor is the real quotient. -/
theorem div_coe_coe (a : ℝ) {b : ℝ} (h : b ≠ 0) :
    Ideal.div ((a : ℝ) : EReal) ((b : ℝ) : EReal) = ((a / b : ℝ) : EReal) := by
  rw [Ideal.div_coe h, ← EReal.coe_mul, mul_one_div]

/-- A floored norm is positive: it is at least the positive floor. -/
theorem norm_pos (x : Fin 4096 → Fin 768 → ℝ) (r : Fin 4096) : 0 < Spec.norm x r :=
  lt_of_lt_of_le Consts.eps_pos (le_max_right _ _)

/-- The loss from its two legs, as extended reals: the -1/2 weight on the cross-entropy difference plus the 0.1
    weight on the cosine mean, every factor a real. -/
theorem loss_coe (c2 c3 m : ℝ) :
    (((-(1 / 2) : ℝ) : EReal) * (((c2 : ℝ) : EReal) - ((c3 : ℝ) : EReal)))
      + ((Spec.tenth : ℝ) : EReal) * ((m : ℝ) : EReal)
    = ((-(1 / 2) * (c2 - c3) + Spec.tenth * m : ℝ) : EReal) := by
  rw [← EReal.coe_sub, ← EReal.coe_mul, ← EReal.coe_mul, ← EReal.coe_add]

/-! ## The cosine leg, stage by stage

A0, A1 are the two hidden arrays [2, 2048, 768]; x2, x3 the real tables of their 4096 rows, row 2048 b + s of a table
being block b, row s of its array. -/

section Cosine

variable (A0 A1 : (⟨S2x2048x768, .f32⟩ : BufTy).Contents (Elt Ideal)) (x2 x3 : Fin 4096 → Fin 768 → ℝ)

/-- The row-major position of entry (r, d) of the [4096, 768] reshape falls in block r / 2048, row r % 2048, column d of
    the [2, 2048, 768] array, where the array holds the table's entry (r, d). -/
theorem reshape_at (A : (⟨S2x2048x768, .f32⟩ : BufTy).Contents (Elt Ideal)) (x : Fin 4096 → Fin 768 → ℝ)
    (hx : ∀ (b : Fin 2) (s : Fin 2048) (d : Fin 768), A (ix3 b s d) = ((x ⟨2048 * b.val + s.val, by omega⟩ d : ℝ) : EReal))
    (r : Fin 4096) (d : Fin 768) : A (idx_main_v38 (ix2 r d)) = ((x r d : ℝ) : EReal) := by
  have hr := r.isLt
  have hd := d.isLt
  have hi : idx_main_v38 (ix2 r d)
      = ix3 (⟨r.val / 2048, by omega⟩ : Fin 2) (⟨r.val % 2048, by omega⟩ : Fin 2048) d := by
    funext a
    match a with
    | ⟨0, _⟩ => exact Fin.ext (by show (r.val * 768 + d.val) / 1572864 = r.val / 2048; omega)
    | ⟨1, _⟩ => exact Fin.ext (by show (r.val * 768 + d.val) / 768 % 2048 = r.val % 2048; omega)
    | ⟨2, _⟩ => exact Fin.ext (by show (r.val * 768 + d.val) % 768 = d.val; omega)
  rw [hi, hx]
  exact congrArg (fun q => ((x q d : ℝ) : EReal))
    (Fin.ext (by show 2048 * (r.val / 2048) + r.val % 2048 = r.val; omega))

/-- Pass 2's reshaped rows hold the table x2. -/
theorem v38_at (hx2 : ∀ (b : Fin 2) (s : Fin 2048) (d : Fin 768), A0 (ix3 b s d) = ((x2 ⟨2048 * b.val + s.val, by omega⟩ d : ℝ) : EReal))
    (r : Fin 4096) (d : Fin 768) : val_main_v38 (F := Ideal) A0 (ix2 r d) = ((x2 r d : ℝ) : EReal) := by
  rw [val_main_v38_apply]; exact reshape_at A0 x2 hx2 r d

/-- Pass 3's reshaped rows hold the table x3. -/
theorem v39_at (hx3 : ∀ (b : Fin 2) (s : Fin 2048) (d : Fin 768), A1 (ix3 b s d) = ((x3 ⟨2048 * b.val + s.val, by omega⟩ d : ℝ) : EReal))
    (r : Fin 4096) (d : Fin 768) : val_main_v39 (F := Ideal) A1 (ix2 r d) = ((x3 r d : ℝ) : EReal) := by
  rw [val_main_v39_apply]; exact reshape_at A1 x3 hx3 r d

/-- Row r's sum of squares of pass 2, a real. -/
theorem sumsq2_at (hx2 : ∀ (b : Fin 2) (s : Fin 2048) (d : Fin 768), A0 (ix3 b s d) = ((x2 ⟨2048 * b.val + s.val, by omega⟩ d : ℝ) : EReal))
    (r : Fin 4096) : val_main_call8_v1 (F := Ideal) A0 (ix1 r) = ((∑ d, x2 r d * x2 r d : ℝ) : EReal) := by
  rw [val_main_call8_v1_apply, val_main_call8_cst_apply, Ideal.ofBits_def, Consts.zero, zero_add, coe_sum]
  refine Finset.sum_congr rfl fun k _ => ?_
  have hk : idx_main_call8_v1 (ix1 r) k = ix2 r k := by
    funext a; match a with | ⟨0, _⟩ => rfl | ⟨1, _⟩ => rfl
  rw [hk, val_main_call8_v0_apply, v38_at A0 x2 hx2, Ideal.mulf_def, EReal.coe_mul]

/-- Row r's sum of squares of pass 3, a real. -/
theorem sumsq3_at (hx3 : ∀ (b : Fin 2) (s : Fin 2048) (d : Fin 768), A1 (ix3 b s d) = ((x3 ⟨2048 * b.val + s.val, by omega⟩ d : ℝ) : EReal))
    (r : Fin 4096) : val_main_call9_v1 (F := Ideal) A1 (ix1 r) = ((∑ d, x3 r d * x3 r d : ℝ) : EReal) := by
  rw [val_main_call9_v1_apply, val_main_call9_cst_apply, Ideal.ofBits_def, Consts.zero, zero_add, coe_sum]
  refine Finset.sum_congr rfl fun k _ => ?_
  have hk : idx_main_call9_v1 (ix1 r) k = ix2 r k := by
    funext a; match a with | ⟨0, _⟩ => rfl | ⟨1, _⟩ => rfl
  rw [hk, val_main_call9_v0_apply, v39_at A1 x3 hx3, Ideal.mulf_def, EReal.coe_mul]

/-- Row r's floored norm of pass 2: the square root of a non-negative real, then the maximum with the floor. -/
theorem norm2_at (hx2 : ∀ (b : Fin 2) (s : Fin 2048) (d : Fin 768), A0 (ix3 b s d) = ((x2 ⟨2048 * b.val + s.val, by omega⟩ d : ℝ) : EReal))
    (r : Fin 4096) : val_main_v42 (F := Ideal) A0 (ix1 r) = ((Spec.norm x2 r : ℝ) : EReal) := by
  rw [val_main_v42_apply, val_main_v40_apply, sumsq2_at A0 x2 hx2, val_main_v41_apply, val_main_cst_11_apply,
    Ideal.hostUnary_sqrt_def, Ideal.maximumf_def, Ideal.ofBits_def, Consts.eps_coe,
    sqrt_coe_nonneg (Finset.sum_nonneg fun d _ => mul_self_nonneg _), coe_max]
  rfl

/-- Row r's floored norm of pass 3. -/
theorem norm3_at (hx3 : ∀ (b : Fin 2) (s : Fin 2048) (d : Fin 768), A1 (ix3 b s d) = ((x3 ⟨2048 * b.val + s.val, by omega⟩ d : ℝ) : EReal))
    (r : Fin 4096) : val_main_v45 (F := Ideal) A1 (ix1 r) = ((Spec.norm x3 r : ℝ) : EReal) := by
  rw [val_main_v45_apply, val_main_v43_apply, sumsq3_at A1 x3 hx3, val_main_v44_apply, val_main_cst_12_apply,
    Ideal.hostUnary_sqrt_def, Ideal.maximumf_def, Ideal.ofBits_def, Consts.eps_coe,
    sqrt_coe_nonneg (Finset.sum_nonneg fun d _ => mul_self_nonneg _), coe_max]
  rfl

/-- Row r's inner product of the two passes, a real. -/
theorem dot_at (hx2 : ∀ (b : Fin 2) (s : Fin 2048) (d : Fin 768), A0 (ix3 b s d) = ((x2 ⟨2048 * b.val + s.val, by omega⟩ d : ℝ) : EReal))
    (hx3 : ∀ (b : Fin 2) (s : Fin 2048) (d : Fin 768), A1 (ix3 b s d) = ((x3 ⟨2048 * b.val + s.val, by omega⟩ d : ℝ) : EReal))
    (r : Fin 4096) : val_main_v47 (F := Ideal) A0 A1 (ix1 r) = ((∑ d, x2 r d * x3 r d : ℝ) : EReal) := by
  rw [val_main_v47_apply, val_main_cst_13_apply, Ideal.ofBits_def, Consts.zero, zero_add, coe_sum]
  refine Finset.sum_congr rfl fun k _ => ?_
  have hk : idx_main_v47 (ix1 r) k = ix2 r k := by
    funext a; match a with | ⟨0, _⟩ => rfl | ⟨1, _⟩ => rfl
  rw [hk, val_main_v46_apply, v38_at A0 x2 hx2, v39_at A1 x3 hx3, Ideal.mulf_def, EReal.coe_mul]

/-- Row r's cosine: a real over a positive real. -/
theorem cos_at (hx2 : ∀ (b : Fin 2) (s : Fin 2048) (d : Fin 768), A0 (ix3 b s d) = ((x2 ⟨2048 * b.val + s.val, by omega⟩ d : ℝ) : EReal))
    (hx3 : ∀ (b : Fin 2) (s : Fin 2048) (d : Fin 768), A1 (ix3 b s d) = ((x3 ⟨2048 * b.val + s.val, by omega⟩ d : ℝ) : EReal))
    (r : Fin 4096) : val_main_v49 (F := Ideal) A0 A1 (ix1 r) = ((Spec.cos x2 x3 r : ℝ) : EReal) := by
  rw [val_main_v49_apply, val_main_v48_apply, dot_at A0 A1 x2 x3 hx2 hx3, norm2_at A0 x2 hx2, norm3_at A1 x3 hx3,
    Ideal.hostDivf_def, Ideal.mulf_def, ← EReal.coe_mul,
    div_coe_coe _ (mul_pos (norm_pos x2 r) (norm_pos x3 r)).ne']
  rfl

/-- THE COSINE LEG: the mean over the 4096 rows of the rows' cosines. -/
theorem cosmean_eq (hx2 : ∀ (b : Fin 2) (s : Fin 2048) (d : Fin 768), A0 (ix3 b s d) = ((x2 ⟨2048 * b.val + s.val, by omega⟩ d : ℝ) : EReal))
    (hx3 : ∀ (b : Fin 2) (s : Fin 2048) (d : Fin 768), A1 (ix3 b s d) = ((x3 ⟨2048 * b.val + s.val, by omega⟩ d : ℝ) : EReal)) :
    val_main_v51 (F := Ideal) A0 A1 = fun _ => (((∑ r, Spec.cos x2 x3 r) / 4096 : ℝ) : EReal) := by
  funext i
  have hsum : ∑ j : S4096.Idx, val_main_v49 (F := Ideal) A0 A1 j = ((∑ r, Spec.cos x2 x3 r : ℝ) : EReal) := by
    rw [← Equiv.sum_comp (idxEquiv1 (n := 4096)).symm, coe_sum]
    exact Finset.sum_congr rfl fun r _ => cos_at A0 A1 x2 x3 hx2 hx3 r
  rw [val_main_v51_apply, val_main_v50_apply, hsum, val_main_cst_14_apply, val_main_cst_15_apply, Ideal.ofBits_def,
    Ideal.ofBits_def, Consts.zero, Consts.c4096, zero_add, Ideal.hostDivf_def,
    div_coe_coe _ (by norm_num : (4096 : ℝ) ≠ 0)]

end Cosine

/-! ## The result -/

/-- THE RESULT as a stage: with the two cross-entropy legs at their specification, the last five operations give the
    loss. -/
theorem result_val_eq (A0 A1 : (⟨S2x2048x768, .f32⟩ : BufTy).Contents (Elt Ideal))
    (A2 : (⟨S50257x768, .f32⟩ : BufTy).Contents (Elt Ideal)) (A3 : (⟨S2x2048, .i32⟩ : BufTy).Contents (Elt Ideal))
    (x2 x3 : Fin 4096 → Fin 768 → ℝ) (W : Fin 50257 → Fin 768 → ℝ) (t : Fin 4096 → BitVec 32)
    (hx2 : ∀ (b : Fin 2) (s : Fin 2048) (d : Fin 768), A0 (ix3 b s d) = ((x2 ⟨2048 * b.val + s.val, by omega⟩ d : ℝ) : EReal))
    (hx3 : ∀ (b : Fin 2) (s : Fin 2048) (d : Fin 768), A1 (ix3 b s d) = ((x3 ⟨2048 * b.val + s.val, by omega⟩ d : ℝ) : EReal))
    (hce2 : val_main_v17 (F := Ideal) A0 A2 A3 = fun _ => ((Spec.ce x2 W t : ℝ) : EReal))
    (hce3 : val_main_v35 (F := Ideal) A1 A2 A3 = fun _ => ((Spec.ce x3 W t : ℝ) : EReal)) :
    val_main_v53 (F := Ideal) A0 A1 A2 A3 = fun _ => ((Spec.loss x2 x3 W t : ℝ) : EReal) := by
  funext i
  rw [val_main_v53_apply, val_main_v37_apply, val_main_v36_apply, val_main_v52_apply, val_main_cst_10_apply,
    val_main_cst_16_apply, hce2, hce3, cosmean_eq A0 A1 x2 x3 hx2 hx3, Ideal.addf_def, Ideal.mulf_def, Ideal.mulf_def,
    Ideal.subf_def, Ideal.ofBits_def, Ideal.ofBits_def, Consts.neg_half, Consts.tenth_coe]
  exact loss_coe _ _ _

/-! ## The result in the run's terms -/

/-- THE RESULT as the run states it: the composed term of the arguments' launch contents is the loss, when the two
    hidden arrays hold the tables x2, x3 and the two cross-entropy legs are at their specification. -/
theorem result_eq (m : (ℓ : Loc nD τ sig) → Buf (Elt Ideal) ℓ) (c : Dev nD)
    (x2 x3 : Fin 4096 → Fin 768 → ℝ) (W : Fin 50257 → Fin 768 → ℝ) (t : Fin 4096 → BitVec 32)
    (hx2 : ∀ (b : Fin 2) (s : Fin 2048) (d : Fin 768),
      (m ((c.tc : Thread nD τ).loc main_arg0) : (⟨S2x2048x768, .f32⟩ : BufTy).Contents (Elt Ideal)) (ix3 b s d)
        = ((x2 ⟨2048 * b.val + s.val, by omega⟩ d : ℝ) : EReal))
    (hx3 : ∀ (b : Fin 2) (s : Fin 2048) (d : Fin 768),
      (m ((c.tc : Thread nD τ).loc main_arg1) : (⟨S2x2048x768, .f32⟩ : BufTy).Contents (Elt Ideal)) (ix3 b s d)
        = ((x3 ⟨2048 * b.val + s.val, by omega⟩ d : ℝ) : EReal))
    (hce2 : val_main_v17 (F := Ideal) (m ((c.tc : Thread nD τ).loc main_arg0)) (m ((c.tc : Thread nD τ).loc main_arg2))
        (m ((c.tc : Thread nD τ).loc main_arg3)) = fun _ => ((Spec.ce x2 W t : ℝ) : EReal))
    (hce3 : val_main_v35 (F := Ideal) (m ((c.tc : Thread nD τ).loc main_arg1)) (m ((c.tc : Thread nD τ).loc main_arg2))
        (m ((c.tc : Thread nD τ).loc main_arg3)) = fun _ => ((Spec.ce x3 W t : ℝ) : EReal)) :
    Value.res_out0 (F := Ideal) m c = fun _ => ((Spec.loss x2 x3 W t : ℝ) : EReal) :=
  (val_main_v53_eq (F := Ideal) m c).trans (result_val_eq _ _ _ _ x2 x3 W t hx2 hx3 hce2 hce3)

/-- THE RUN WITH THE RESULT NAMED, from the run with the result as the composed term: every weakly fair execution
    terminates with the result buffer at the loss and the four argument buffers unchanged. -/
theorem run_loss_of (m : (ℓ : Loc nD τ sig) → Buf (Elt Ideal) ℓ) (ρ : Dev nD → PrngReg)
    (x2 x3 : Fin 4096 → Fin 768 → ℝ) (W : Fin 50257 → Fin 768 → ℝ) (t : Fin 4096 → BitVec 32)
    (hx2 : ∀ (c : Dev nD) (b : Fin 2) (s : Fin 2048) (d : Fin 768),
      (m ((c.tc : Thread nD τ).loc main_arg0) : (⟨S2x2048x768, .f32⟩ : BufTy).Contents (Elt Ideal)) (ix3 b s d)
        = ((x2 ⟨2048 * b.val + s.val, by omega⟩ d : ℝ) : EReal))
    (hx3 : ∀ (c : Dev nD) (b : Fin 2) (s : Fin 2048) (d : Fin 768),
      (m ((c.tc : Thread nD τ).loc main_arg1) : (⟨S2x2048x768, .f32⟩ : BufTy).Contents (Elt Ideal)) (ix3 b s d)
        = ((x3 ⟨2048 * b.val + s.val, by omega⟩ d : ℝ) : EReal))
    (hce2 : ∀ c : Dev nD, val_main_v17 (F := Ideal) (m ((c.tc : Thread nD τ).loc main_arg0))
        (m ((c.tc : Thread nD τ).loc main_arg2)) (m ((c.tc : Thread nD τ).loc main_arg3))
        = fun _ => ((Spec.ce x2 W t : ℝ) : EReal))
    (hce3 : ∀ c : Dev nD, val_main_v35 (F := Ideal) (m ((c.tc : Thread nD τ).loc main_arg1))
        (m ((c.tc : Thread nD τ).loc main_arg2)) (m ((c.tc : Thread nD τ).loc main_arg3))
        = fun _ => ((Spec.ce x3 W t : ℝ) : EReal))
    (hrun : θ_run (defs (F := Ideal)) (onTc (τ := τ) (main (F := Ideal))) ⟨m, fun _ => 0, ρ⟩ fun r => ∀ c : Dev nD,
      r.2.mem ((c.tc : Thread nD τ).loc main_v53) = Value.res_main_v53 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :
    θ_run (defs (F := Ideal)) (onTc (τ := τ) (main (F := Ideal))) ⟨m, fun _ => 0, ρ⟩ fun r => ∀ c : Dev nD,
      r.2.mem ((c.tc : Thread nD τ).loc main_v53) = (fun _ => ((Spec.loss x2 x3 W t : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans (result_eq m c x2 x3 W t (hx2 c) (hx3 c) (hce2 c) (hce3 c)), (h c).2⟩) hrun

end Cert.ReferenceIdeal.RefLoss

end
-- ==== Proof.RefLossRun.lean ====
/- The reference's run with its result named as the specification's loss, and the reference's frame claim.

   The run states the result buffer as the composed term of the arguments' launch contents; that term is the loss
   when the two hidden arrays hold real tables and the two cross-entropy legs are at their specification. The frame
   claim is the same run with the result dropped. -/
import proofs.«419146_j12747462935019_2_alg».proof.Defs
import proofs.«419146_j12747462935019_2_alg».proof.Proof.Gen.Pre_finite_inputs
import proofs.«419146_j12747462935019_2_alg».proof.Proof.RefRunH
import proofs.«419146_j12747462935019_2_alg».proof.Proof.RefLoss

noncomputable section

namespace Cert.ReferenceIdeal.RefLoss

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- THE REFERENCE'S RUN WITH THE RESULT NAMED: every weakly fair execution terminates with the result buffer at the
    specification's loss and the four argument buffers unchanged, when the two hidden arrays hold the tables x2, x3
    and the two cross-entropy legs are at their specification. -/
theorem run_loss (m : (ℓ : Loc nD τ sig) → Buf (Elt Ideal) ℓ) (ρ : Dev nD → PrngReg)
    (x2 x3 : Fin 4096 → Fin 768 → ℝ) (W : Fin 50257 → Fin 768 → ℝ) (t : Fin 4096 → BitVec 32)
    (hx2 : ∀ (c : Dev nD) (b : Fin 2) (s : Fin 2048) (d : Fin 768),
      (m ((c.tc : Thread nD τ).loc main_arg0) : (⟨S2x2048x768, .f32⟩ : BufTy).Contents (Elt Ideal)) (ix3 b s d)
        = ((x2 ⟨2048 * b.val + s.val, by omega⟩ d : ℝ) : EReal))
    (hx3 : ∀ (c : Dev nD) (b : Fin 2) (s : Fin 2048) (d : Fin 768),
      (m ((c.tc : Thread nD τ).loc main_arg1) : (⟨S2x2048x768, .f32⟩ : BufTy).Contents (Elt Ideal)) (ix3 b s d)
        = ((x3 ⟨2048 * b.val + s.val, by omega⟩ d : ℝ) : EReal))
    (hce2 : ∀ c : Dev nD, val_main_v17 (F := Ideal) (m ((c.tc : Thread nD τ).loc main_arg0))
        (m ((c.tc : Thread nD τ).loc main_arg2)) (m ((c.tc : Thread nD τ).loc main_arg3))
        = fun _ => ((Spec.ce x2 W t : ℝ) : EReal))
    (hce3 : ∀ c : Dev nD, val_main_v35 (F := Ideal) (m ((c.tc : Thread nD τ).loc main_arg1))
        (m ((c.tc : Thread nD τ).loc main_arg2)) (m ((c.tc : Thread nD τ).loc main_arg3))
        = fun _ => ((Spec.ce x3 W t : ℝ) : EReal)) :
    θ_run (defs (F := Ideal)) (onTc (τ := τ) (main (F := Ideal))) ⟨m, fun _ => 0, ρ⟩ fun r => ∀ c : Dev nD,
      r.2.mem ((c.tc : Thread nD τ).loc main_v53) = (fun _ => ((Spec.loss x2 x3 W t : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run_loss_of m ρ x2 x3 W t hx2 hx3 hce2 hce3 (Value.run (F := Ideal) m ρ)

/-- The reference's frame claim is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefLoss

end
-- ==== Proof.lean ====
/- The certificate's claim: a fused kernel and its plain reference compute the same loss.

   WHAT IS COMPUTED. The inputs are two hidden tensors x2, x3 of 2 x 2048 rows of width 768 (read as 4096 rows), a
   vocabulary matrix W of 50257 rows of width 768, and 4096 integer targets, where -1 marks a row to ignore. For either
   hidden tensor x, row r has the logits x_r . W_v over the vocabulary; its cross-entropy is
   log(sum_v exp(logit_v)) - (logit at the row's target), and 0 for an ignored row; ce(x) is the sum of these over the rows
   divided by the number of rows that are not ignored, floored at 1. The cosine of row r is
   x2_r . x3_r / (max(|x2_r|, eps) * max(|x3_r|, eps)). The loss is
       -1/2 (ce(x2) - ce(x3)) + 0.1 * (the mean over the rows of the cosine),
   with eps and 0.1 the reals their f32 words denote. The reference computes exactly this with whole-array operations.
   The kernel cuts the rows into two tiles of 2048 and, for each, sweeps the vocabulary in 99 tiles of 512 columns,
   carrying per row and per pass a running maximum m, a running sum l of exp(logit - m), and the accumulated logit at the
   target: a new tile whose row maximum is m' replaces l by exp(m - max m m') l + (the sum over the tile of
   exp(logit - max m m')), and after the last tile the row's cross-entropy is m + log l - target logit. The last tile has
   only 81 real columns (98 * 512 + 81 = 50257); its other 431 columns are set to a fill value before the maximum, the
   exponentials and the target pick. The cosine column is computed at the first tile of each sweep. The operations after
   the kernel zero the ignored rows, sum, divide by the count, and combine.

   THE TWO EDITS TO THE STATEMENT. (1) The kernel's fill is the finite number -0.7 * (the largest f32). Over the extended
   reals a finite fill leaves exp(fill - m) > 0 in every row's sum, 431 times, and the two sides differ. The fill is given
   a name whose value at the exact instance is -inf, the neutral element of the maximum and, through exp, of the sum,
   which is what masking means; the word-level program is unchanged, and `preserves` records the naming. (2) The
   precondition says, besides that every float entry is finite, that every target t has -1 <= t < 50257. For t >= 50257
   the reference's pick is out of range; for t < -1 the reference wraps the index and picks a real column while the
   kernel's comparison with the column number never fires, and the results differ.

   THE FIVE CONJUNCTS. Three frame claims: each program terminates under every weakly fair schedule, faults nowhere and
   leaves its four arguments as launched. For the two kernel programs this comes from the launch of the pipelined region
   around a triple for its body: the word-level program with relational proof data that name no value, the exact one with
   proof data that name every buffer's contents after every grid point. For the reference it comes from its run,
   operation by operation. `preserves`: the fill's name has the value -inf, at both of its uses. `algebraic`: the
   precondition makes the arguments the images of real tables x2, x3, W and of a word table t whose every word is the
   ignore value or below 50257. The exact kernel's run leaves each result row at log-sum-exp minus target logit: the end
   of the online recurrence, by induction over the 99 tiles, where at the cut tile the masked columns contribute
   exp(-inf) = 0 and nothing depends on what lies past the array's end; it leaves the cosine column at the rows' cosines;
   and the operations after it turn these into the loss of the tables. The reference's run gives the same real. Both leave
   the arguments unchanged. The mesh has one device. -/
import proofs.«419146_j12747462935019_2_alg».proof.Defs
import proofs.«419146_j12747462935019_2_alg».proof.Proof.Gen.Kernel
import proofs.«419146_j12747462935019_2_alg».proof.Proof.Gen.Kernel.Skeleton
import proofs.«419146_j12747462935019_2_alg».proof.Proof.Gen.Kernel.Launch
import proofs.«419146_j12747462935019_2_alg».proof.Proof.Gen.Kernel.Points
import proofs.«419146_j12747462935019_2_alg».proof.Proof.Gen.Kernel.Frame
import proofs.«419146_j12747462935019_2_alg».proof.Proof.Gen.KernelIdeal
import proofs.«419146_j12747462935019_2_alg».proof.Proof.Gen.KernelIdeal.Skeleton
import proofs.«419146_j12747462935019_2_alg».proof.Proof.Gen.KernelIdeal.Launch
import proofs.«419146_j12747462935019_2_alg».proof.Proof.Gen.KernelIdeal.Points
import proofs.«419146_j12747462935019_2_alg».proof.Proof.Gen.KernelIdeal.Frame
import proofs.«419146_j12747462935019_2_alg».proof.Proof.Gen.ReferenceIdeal
import proofs.«419146_j12747462935019_2_alg».proof.Proof.Gen.Pre_finite_inputs
import proofs.«419146_j12747462935019_2_alg».proof.Proof.FrameB
import proofs.«419146_j12747462935019_2_alg».proof.Proof.RunI
import proofs.«419146_j12747462935019_2_alg».proof.Proof.PreDecode
import proofs.«419146_j12747462935019_2_alg».proof.Proof.KValue
import proofs.«419146_j12747462935019_2_alg».proof.Proof.RefCE
import proofs.«419146_j12747462935019_2_alg».proof.Proof.RefLossRun
import Idealize.ShloMosaic.PureOps.IdealRules
import Idealize.ShloMosaic.Adequacy
import Idealize.ShloMosaic.Init

noncomputable section

namespace Cert.Proof

open Idealize.ShloMosaic Idealize.SL.Sem Idealize.ShloMosaic.ValueIdx Idealize.ShloMosaic.TcCoe

/-- The fill's name has the value -inf in the table of named constants, and the printed constant is that value at the
    exact instance: one fact, at both places the body uses the fill. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

section
open Cert.ReferenceIdeal Cert.ReferenceIdeal.Read

/-- Both programs end at the loss of the real tables the precondition gives: the kernel by its run read through the
    online recurrence, the reference by its run read operation by operation, from arguments that agree. -/
theorem algebraic : Cert.algebraic_KernelIdeal_ReferenceIdeal := by
  intro m ρ m' ρ' hpre hagree
  obtain ⟨x2, x3, W, t, hx2, hx3, hW, ht, hrange⟩ := Cert.PreDecode.of_pre m hpre 0
  have hall : ∀ c : Dev Cert.KernelIdeal.nD, c = 0 := fun c => Subsingleton.elim _ _
  refine ⟨fun _ => (fun _ => ((Cert.Spec.loss x2 x3 W t : ℝ) : EReal)), ?_, ?_⟩
  · exact Cert.KernelIdeal.KValue.run_loss m ρ x2 x3 W t (fun c => by rw [hall c]; exact hx2) (fun c => by rw [hall c]; exact hx3)
      (fun c => by rw [hall c]; exact hW) (fun c => by rw [hall c]; exact ht) hrange
  · have hx2' : ∀ (c : Dev nD) (b : Fin 2) (s : Fin 2048) (d : Fin 768),
        (m' ((c.tc : Thread nD τ).loc main_arg0) : (⟨S2x2048x768, .f32⟩ : BufTy).Contents (Elt Ideal)) (ix3 b s d)
          = ((x2 ⟨2048 * b.val + s.val, by omega⟩ d : ℝ) : EReal) := fun c b s d => by
      rw [hall c, (hagree 0).1]; exact hx2 b s d
    have hx3' : ∀ (c : Dev nD) (b : Fin 2) (s : Fin 2048) (d : Fin 768),
        (m' ((c.tc : Thread nD τ).loc main_arg1) : (⟨S2x2048x768, .f32⟩ : BufTy).Contents (Elt Ideal)) (ix3 b s d)
          = ((x3 ⟨2048 * b.val + s.val, by omega⟩ d : ℝ) : EReal) := fun c b s d => by
      rw [hall c, (hagree 0).2.1]; exact hx3 b s d
    have hW' : ∀ (c : Dev nD) (v : Fin 50257) (d : Fin 768),
        (m' ((c.tc : Thread nD τ).loc main_arg2) : (⟨S50257x768, .f32⟩ : BufTy).Contents (Elt Ideal)) (ix2 v d)
          = ((W v d : ℝ) : EReal) := fun c v d => by
      rw [hall c, (hagree 0).2.2.1]; exact hW v d
    have ht' : ∀ (c : Dev nD) (b : Fin 2) (s : Fin 2048),
        (m' ((c.tc : Thread nD τ).loc main_arg3) : (⟨S2x2048, .i32⟩ : BufTy).Contents (Elt Ideal)) (ix2 b s)
          = t ⟨2048 * b.val + s.val, by omega⟩ := fun c b s => by
      rw [hall c, (hagree 0).2.2.2]; exact ht b s
    exact Cert.ReferenceIdeal.RefLoss.run_loss m' ρ' x2 x3 W t hx2' hx3'
      (fun c => Cert.ReferenceIdeal.RefCE.ce2_eq _ _ _ x2 W t (hx2' c) (hW' c) (ht' c) hrange)
      (fun c => Cert.ReferenceIdeal.RefCE.ce3_eq _ _ _ x3 W t (hx3' c) (hW' c) (ht' c) hrange)
end

theorem claim : Cert.Claim := ⟨Cert.Kernel.Gen.facts, Cert.KernelIdeal.Gen.facts, Cert.ReferenceIdeal.Gen.facts, Cert.Pre_finite_inputs.Gen.facts,
  Cert.Kernel.FrameB.frame_p, Cert.KernelIdeal.RunI.frame_pi, Cert.ReferenceIdeal.RefLoss.frame_ri, preserves, algebraic⟩

end Cert.Proof

end
